-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x256x256 : Shape := ⟨4, ![64, 1, 256, 256]⟩
abbrev S64x2x256x256 : Shape := ⟨4, ![64, 2, 256, 256]⟩
abbrev S64x2048x2 : Shape := ⟨3, ![64, 2048, 2]⟩
abbrev S64x4096x4 : Shape := ⟨3, ![64, 4096, 4]⟩
abbrev S64x2048x2x4 : Shape := ⟨4, ![64, 2048, 2, 4]⟩
abbrev S64x2048x1 : Shape := ⟨3, ![64, 2048, 1]⟩
abbrev S_ : Shape := ⟨0, ![]⟩

class Facts : Prop where
  bcast_S_S64x1x256x256 : S_.BroadcastsInDim S64x1x256x256 (![] : Fin 0 → Fin S64x1x256x256.rank)
  reducesTo_S64x1x256x256_S_d0_1_2_3 : S64x1x256x256.ReducesTo [0, 1, 2, 3] S_
  h_S_ : 0 < S_.numel
  bcast_S_S64x2x256x256 : S_.BroadcastsInDim S64x2x256x256 (![] : Fin 0 → Fin S64x2x256x256.rank)
  reducesTo_S64x2x256x256_S_d0_1_2_3 : S64x2x256x256.ReducesTo [0, 1, 2, 3] S_
  bcast_S_S64x2048x2 : S_.BroadcastsInDim S64x2048x2 (![] : Fin 0 → Fin S64x2048x2.rank)
  reducesTo_S64x2048x2_S_d0_1_2 : S64x2048x2.ReducesTo [0, 1, 2] S_

variable [Facts]

def fn_part1 {F : FTy → Type} [FloatOps F] (main_arg4 : FVec F S64x2048x2 .f32) (main_v13 : IVec S_ 1) (main_v16 : IVec S64x2x256x256 1) : IVec S_ 1 :=
  let main_c_5 : IVec S_ 1 := constantI S_ 1 1#1
  let main_v17 : IVec S_ 1 := (fun x v => Host.reduce IntOp.andi x v reducesTo_S64x2x256x256_S_d0_1_2_3 h_S_) main_v16 main_c_5
  let main_v18 : IVec S_ 1 := andi main_v13 main_v17
  let main_v19 : FVec F S64x2048x2 .f32 := Host.absf main_arg4
  let main_cst_6 : FVec F S_ .f32 := constant S_ .f32 0x7F800000#32
  let main_v20 : FVec F S64x2048x2 .f32 := broadcastInDim S64x2048x2 ![] bcast_S_S64x2048x2 main_cst_6
  let main_v21 : IVec S64x2048x2 1 := cmpf .olt main_v19 main_v20
  let main_c_7 : IVec S_ 1 := constantI S_ 1 1#1
  let main_v22 : IVec S_ 1 := (fun x v => Host.reduce IntOp.andi x v reducesTo_S64x2048x2_S_d0_1_2 h_S_) main_v21 main_c_7
  let main_v23 : IVec S_ 1 := andi main_v18 main_v22
  main_v23

def fn {F : FTy → Type} [FloatOps F] (main_arg0 : FVec F S64x1x256x256 .f32) (main_arg1 : FVec F S64x2x256x256 .f32) (main_arg2 : FVec F S64x1x256x256 .f32) (main_arg3 : FVec F S64x2x256x256 .f32) (main_arg4 : FVec F S64x2048x2 .f32) (main_arg5 : IVec S64x4096x4 32) (main_arg6 : IVec S64x2048x2x4 32) (main_arg7 : IVec S64x4096x4 1) (main_arg8 : IVec S64x2048x1 1) : IVec S_ 1 :=
  let main_v0 : FVec F S64x1x256x256 .f32 := Host.absf main_arg0
  let main_cst : FVec F S_ .f32 := constant S_ .f32 0x7F800000#32
  let main_v1 : FVec F S64x1x256x256 .f32 := broadcastInDim S64x1x256x256 ![] bcast_S_S64x1x256x256 main_cst
  let main_v2 : IVec S64x1x256x256 1 := cmpf .olt main_v0 main_v1
  let main_c : IVec S_ 1 := constantI S_ 1 1#1
  let main_v3 : IVec S_ 1 := (fun x v => Host.reduce IntOp.andi x v reducesTo_S64x1x256x256_S_d0_1_2_3 h_S_) main_v2 main_c
  let main_v4 : FVec F S64x2x256x256 .f32 := Host.absf main_arg1
  let main_cst_0 : FVec F S_ .f32 := constant S_ .f32 0x7F800000#32
  let main_v5 : FVec F S64x2x256x256 .f32 := broadcastInDim S64x2x256x256 ![] bcast_S_S64x2x256x256 main_cst_0
  let main_v6 : IVec S64x2x256x256 1 := cmpf .olt main_v4 main_v5
  let main_c_1 : IVec S_ 1 := constantI S_ 1 1#1
  let main_v7 : IVec S_ 1 := (fun x v => Host.reduce IntOp.andi x v reducesTo_S64x2x256x256_S_d0_1_2_3 h_S_) main_v6 main_c_1
  let main_v8 : IVec S_ 1 := andi main_v3 main_v7
  let main_v9 : FVec F S64x1x256x256 .f32 := Host.absf main_arg2
  let main_cst_2 : FVec F S_ .f32 := constant S_ .f32 0x7F800000#32
  let main_v10 : FVec F S64x1x256x256 .f32 := broadcastInDim S64x1x256x256 ![] bcast_S_S64x1x256x256 main_cst_2
  let main_v11 : IVec S64x1x256x256 1 := cmpf .olt main_v9 main_v10
  let main_c_3 : IVec S_ 1 := constantI S_ 1 1#1
  let main_v12 : IVec S_ 1 := (fun x v => Host.reduce IntOp.andi x v reducesTo_S64x1x256x256_S_d0_1_2_3 h_S_) main_v11 main_c_3
  let main_v13 : IVec S_ 1 := andi main_v8 main_v12
  let main_v14 : FVec F S64x2x256x256 .f32 := Host.absf main_arg3
  let main_cst_4 : FVec F S_ .f32 := constant S_ .f32 0x7F800000#32
  let main_v15 : FVec F S64x2x256x256 .f32 := broadcastInDim S64x2x256x256 ![] bcast_S_S64x2x256x256 main_cst_4
  let main_v16 : IVec S64x2x256x256 1 := cmpf .olt main_v14 main_v15
  fn_part1 (F := F) main_arg4 main_v13 main_v16
-- ==== Kernel.lean ====
abbrev S64x1x256x256 : Shape := ⟨4, ![64, 1, 256, 256]⟩
abbrev S64x2x256x256 : Shape := ⟨4, ![64, 2, 256, 256]⟩
abbrev S64x2048x2 : Shape := ⟨3, ![64, 2048, 2]⟩
abbrev S64x4096x4 : Shape := ⟨3, ![64, 4096, 4]⟩
abbrev S64x2048x2x4 : Shape := ⟨4, ![64, 2048, 2, 4]⟩
abbrev S64x2048x1 : Shape := ⟨3, ![64, 2048, 1]⟩
abbrev S1x4x2x1 : Shape := ⟨4, ![1, 4, 2, 1]⟩
abbrev S1x1x4x2x1 : Shape := ⟨5, ![1, 1, 4, 2, 1]⟩
abbrev S64x16384 : Shape := ⟨2, ![64, 16384]⟩
abbrev S64x1x65536 : Shape := ⟨3, ![64, 1, 65536]⟩
abbrev S64x1x16384 : Shape := ⟨3, ![64, 1, 16384]⟩
abbrev S_ : Shape := ⟨0, ![]⟩
abbrev S64x16384x1 : Shape := ⟨3, ![64, 16384, 1]⟩
abbrev S1 : Shape := ⟨1, ![1]⟩
abbrev S1x1x1 : Shape := ⟨3, ![1, 1, 1]⟩
abbrev S64x2x65536 : Shape := ⟨3, ![64, 2, 65536]⟩
abbrev S64x2x16384 : Shape := ⟨3, ![64, 2, 16384]⟩
abbrev S64x2x16384x1 : Shape := ⟨4, ![64, 2, 16384, 1]⟩
abbrev S1x1x1x1 : Shape := ⟨4, ![1, 1, 1, 1]⟩
abbrev S64x1x4096x4 : Shape := ⟨4, ![64, 1, 4096, 4]⟩
abbrev S64x4x4096 : Shape := ⟨3, ![64, 4, 4096]⟩
abbrev S64x2x4096x4 : Shape := ⟨4, ![64, 2, 4096, 4]⟩
abbrev S64x4x2x4096 : Shape := ⟨4, ![64, 4, 2, 4096]⟩
abbrev S64x1x2048x2x4 : Shape := ⟨5, ![64, 1, 2048, 2, 4]⟩
abbrev S64x2x4x2048 : Shape := ⟨4, ![64, 2, 4, 2048]⟩
abbrev S64x8x2048 : Shape := ⟨3, ![64, 8, 2048]⟩
abbrev S64x2x2048x2x4 : Shape := ⟨5, ![64, 2, 2048, 2, 4]⟩
abbrev S64x2x4x2x2048 : Shape := ⟨5, ![64, 2, 4, 2, 2048]⟩
abbrev S64x8x2x2048 : Shape := ⟨4, ![64, 8, 2, 2048]⟩
abbrev S64x2048 : Shape := ⟨2, ![64, 2048]⟩
abbrev S64x1x2048 : Shape := ⟨3, ![64, 1, 2048]⟩
abbrev S64x2x2048 : Shape := ⟨3, ![64, 2, 2048]⟩
abbrev S1x1 : Shape := ⟨2, ![1, 1]⟩
abbrev S1x4x4096 : Shape := ⟨3, ![1, 4, 4096]⟩
abbrev S1x4x2x4096 : Shape := ⟨4, ![1, 4, 2, 4096]⟩
abbrev S4x4096 : Shape := ⟨2, ![4, 4096]⟩
abbrev S4x2x4096 : Shape := ⟨3, ![4, 2, 4096]⟩
abbrev S4096 : Shape := ⟨1, ![4096]⟩
abbrev S1x4096 : Shape := ⟨2, ![1, 4096]⟩
abbrev S2x4096 : Shape := ⟨2, ![2, 4096]⟩
abbrev S1x2x4096 : Shape := ⟨3, ![1, 2, 4096]⟩
abbrev S4x1x4096 : Shape := ⟨3, ![4, 1, 4096]⟩
abbrev S1x1x4096 : Shape := ⟨3, ![1, 1, 4096]⟩
abbrev S4 : Shape := ⟨1, ![4]⟩
abbrev S4x1 : Shape := ⟨2, ![4, 1]⟩
abbrev S1x8x2048 : Shape := ⟨3, ![1, 8, 2048]⟩
abbrev S1x8x2x2048 : Shape := ⟨4, ![1, 8, 2, 2048]⟩
abbrev S1x1x2048 : Shape := ⟨3, ![1, 1, 2048]⟩
abbrev S1x2x2048 : Shape := ⟨3, ![1, 2, 2048]⟩
abbrev S8x2048 : Shape := ⟨2, ![8, 2048]⟩
abbrev S8x2x2048 : Shape := ⟨3, ![8, 2, 2048]⟩
abbrev S1x2048 : Shape := ⟨2, ![1, 2048]⟩
abbrev S2x2048 : Shape := ⟨2, ![2, 2048]⟩
abbrev S4x2048 : Shape := ⟨2, ![4, 2048]⟩
abbrev S4x2x2048 : Shape := ⟨3, ![4, 2, 2048]⟩
abbrev S2048 : Shape := ⟨1, ![2048]⟩
abbrev S4x1x2048 : Shape := ⟨3, ![4, 1, 2048]⟩

abbrev nBuf : Space → Nat
  | .hbm => 154
  | .vmem => 16
  | .smem => 0
  | _ => 0

abbrev hbmTy0_0 (i : Nat) : BufTy := match i % 128 with
  | 0 => ⟨S64x1x256x256, .f32⟩
  | 1 => ⟨S64x2x256x256, .f32⟩
  | 2 => ⟨S64x1x256x256, .f32⟩
  | 3 => ⟨S64x2x256x256, .f32⟩
  | 4 => ⟨S64x2048x2, .f32⟩
  | 5 => ⟨S64x4096x4, .i32⟩
  | 6 => ⟨S64x2048x2x4, .i32⟩
  | 7 => ⟨S64x4096x4, .i1⟩
  | 8 => ⟨S64x2048x1, .i1⟩
  | 9 => ⟨S1x4x2x1, .f32⟩
  | 10 => ⟨S1x1x4x2x1, .f32⟩
  | 11 => ⟨S64x16384, .i32⟩
  | 12 => ⟨S64x16384, .i32⟩
  | 13 => ⟨S64x1x65536, .f32⟩
  | 14 => ⟨S64x1x16384, .i32⟩
  | 15 => ⟨S_, .i32⟩
  | 16 => ⟨S64x1x16384, .i32⟩
  | 17 => ⟨S64x1x16384, .i1⟩
  | 18 => ⟨S_, .i32⟩
  | 19 => ⟨S64x1x16384, .i32⟩
  | 20 => ⟨S64x1x16384, .i32⟩
  | 21 => ⟨S64x1x16384, .i32⟩
  | 22 => ⟨S64x16384x1, .i32⟩
  | 23 => ⟨S1, .i32⟩
  | 24 => ⟨S_, .i32⟩
  | 25 => ⟨S64x16384x1, .i32⟩
  | 26 => ⟨S64x16384x1, .i1⟩
  | 27 => ⟨S1x1x1, .i32⟩
  | 28 => ⟨S64x16384x1, .i32⟩
  | 29 => ⟨S64x16384x1, .i1⟩
  | 30 => ⟨S64x16384x1, .i1⟩
  | 31 => ⟨S_, .i1⟩
  | 32 => ⟨S64x16384, .i1⟩
  | 33 => ⟨S64x1x16384, .f32⟩
  | 34 => ⟨S64x1x16384, .i1⟩
  | 35 => ⟨S_, .f32⟩
  | 36 => ⟨S64x1x16384, .f32⟩
  | 37 => ⟨S64x1x16384, .f32⟩
  | 38 => ⟨S64x2x65536, .f32⟩
  | 39 => ⟨S64x1x16384, .i32⟩
  | 40 => ⟨S64x2x16384, .i32⟩
  | 41 => ⟨S_, .i32⟩
  | 42 => ⟨S64x2x16384, .i32⟩
  | 43 => ⟨S64x2x16384, .i1⟩
  | 44 => ⟨S_, .i32⟩
  | 45 => ⟨S64x2x16384, .i32⟩
  | 46 => ⟨S64x2x16384, .i32⟩
  | 47 => ⟨S64x2x16384, .i32⟩
  | 48 => ⟨S64x2x16384x1, .i32⟩
  | 49 => ⟨S1, .i32⟩
  | 50 => ⟨S_, .i32⟩
  | 51 => ⟨S64x2x16384x1, .i32⟩
  | 52 => ⟨S64x2x16384x1, .i1⟩
  | 53 => ⟨S1x1x1x1, .i32⟩
  | 54 => ⟨S64x2x16384x1, .i32⟩
  | 55 => ⟨S64x2x16384x1, .i1⟩
  | 56 => ⟨S64x2x16384x1, .i1⟩
  | 57 => ⟨S_, .i1⟩
  | 58 => ⟨S64x2x16384, .i1⟩
  | 59 => ⟨S64x2x16384, .f32⟩
  | 60 => ⟨S_, .f32⟩
  | 61 => ⟨S64x2x16384, .f32⟩
  | 62 => ⟨S64x2x16384, .f32⟩
  | 63 => ⟨S64x1x4096x4, .f32⟩
  | 64 => ⟨S64x4096x4, .f32⟩
  | 65 => ⟨S64x4x4096, .f32⟩
  | 66 => ⟨S64x2x4096x4, .f32⟩
  | 67 => ⟨S64x4x2x4096, .f32⟩
  | 68 => ⟨S64x4x2x4096, .f32⟩
  | 69 => ⟨S64x4x2x4096, .f32⟩
  | 70 => ⟨S64x4096x4, .f32⟩
  | 71 => ⟨S64x4x4096, .f32⟩
  | 72 => ⟨S64x1x65536, .f32⟩
  | 73 => ⟨S64x1x16384, .i32⟩
  | 74 => ⟨S_, .i32⟩
  | 75 => ⟨S64x1x16384, .i32⟩
  | 76 => ⟨S64x1x16384, .i1⟩
  | 77 => ⟨S_, .i32⟩
  | 78 => ⟨S64x1x16384, .i32⟩
  | 79 => ⟨S64x1x16384, .i32⟩
  | 80 => ⟨S64x1x16384, .i32⟩
  | 81 => ⟨S64x16384x1, .i32⟩
  | 82 => ⟨S1, .i32⟩
  | 83 => ⟨S_, .i32⟩
  | 84 => ⟨S64x16384x1, .i32⟩
  | 85 => ⟨S64x16384x1, .i1⟩
  | 86 => ⟨S1x1x1, .i32⟩
  | 87 => ⟨S64x16384x1, .i32⟩
  | 88 => ⟨S64x16384x1, .i1⟩
  | 89 => ⟨S64x16384x1, .i1⟩
  | 90 => ⟨S_, .i1⟩
  | 91 => ⟨S64x16384, .i1⟩
  | 92 => ⟨S64x1x16384, .f32⟩
  | 93 => ⟨S64x1x16384, .i1⟩
  | 94 => ⟨S_, .f32⟩
  | 95 => ⟨S64x1x16384, .f32⟩
  | 96 => ⟨S64x1x16384, .f32⟩
  | 97 => ⟨S64x2x65536, .f32⟩
  | 98 => ⟨S64x1x16384, .i32⟩
  | 99 => ⟨S64x2x16384, .i32⟩
  | 100 => ⟨S_, .i32⟩
  | 101 => ⟨S64x2x16384, .i32⟩
  | 102 => ⟨S64x2x16384, .i1⟩
  | 103 => ⟨S_, .i32⟩
  | 104 => ⟨S64x2x16384, .i32⟩
  | 105 => ⟨S64x2x16384, .i32⟩
  | 106 => ⟨S64x2x16384, .i32⟩
  | 107 => ⟨S64x2x16384x1, .i32⟩
  | 108 => ⟨S1, .i32⟩
  | 109 => ⟨S_, .i32⟩
  | 110 => ⟨S64x2x16384x1, .i32⟩
  | 111 => ⟨S64x2x16384x1, .i1⟩
  | 112 => ⟨S1x1x1x1, .i32⟩
  | 113 => ⟨S64x2x16384x1, .i32⟩
  | 114 => ⟨S64x2x16384x1, .i1⟩
  | 115 => ⟨S64x2x16384x1, .i1⟩
  | 116 => ⟨S_, .i1⟩
  | 117 => ⟨S64x2x16384, .i1⟩
  | 118 => ⟨S64x2x16384, .f32⟩
  | 119 => ⟨S_, .f32⟩
  | 120 => ⟨S64x2x16384, .f32⟩
  | 121 => ⟨S64x2x16384, .f32⟩
  | 122 => ⟨S64x1x2048x2x4, .f32⟩
  | 123 => ⟨S64x2048x2x4, .f32⟩
  | 124 => ⟨S64x2x4x2048, .f32⟩
  | 125 => ⟨S64x8x2048, .f32⟩
  | 126 => ⟨S64x2x2048x2x4, .f32⟩
  | 127 => ⟨S64x2x4x2x2048, .f32⟩
  | _ => ⟨S64x1x256x256, .f32⟩

abbrev hbmTy0_1 (i : Nat) : BufTy := match i % 128 with
  | 0 => ⟨S64x2x4x2x2048, .f32⟩
  | 1 => ⟨S64x2x4x2x2048, .f32⟩
  | 2 => ⟨S64x8x2x2048, .f32⟩
  | 3 => ⟨S64x2048, .i1⟩
  | 4 => ⟨S64x2048, .f32⟩
  | 5 => ⟨S64x1x2048, .f32⟩
  | 6 => ⟨S64x2x2048, .f32⟩
  | 7 => ⟨S64x4096x4, .i32⟩
  | 8 => ⟨S_, .i32⟩
  | 9 => ⟨S_, .i32⟩
  | 10 => ⟨S_, .f32⟩
  | 11 => ⟨S64x2048x1, .i32⟩
  | 12 => ⟨S_, .i32⟩
  | 13 => ⟨S_, .i32⟩
  | 14 => ⟨S_, .f32⟩
  | 15 => ⟨S1x1, .f32⟩
  | 16 => ⟨S1x1, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | _ => ⟨S64x1x256x256, .f32⟩

abbrev hbmTy (i : Nat) : BufTy := match i / 128 with
  | 0 => hbmTy0_0 i
  | 1 => hbmTy0_1 i
  | _ => ⟨S64x1x256x256, .f32⟩

abbrev bufTy : (tb : Table) → Fin (tcTables nBuf tb) → BufTy
  | .hbm, ⟨i, _⟩ => hbmTy i
  | .local _ .vmem, ⟨0, _⟩ => ⟨S1x4x4096, .f32⟩
  | .local _ .vmem, ⟨1, _⟩ => ⟨S1x4x4096, .f32⟩
  | .local _ .vmem, ⟨2, _⟩ => ⟨S1x4x2x4096, .f32⟩
  | .local _ .vmem, ⟨3, _⟩ => ⟨S1x4x2x4096, .f32⟩
  | .local _ .vmem, ⟨4, _⟩ => ⟨S1x4x4096, .f32⟩
  | .local _ .vmem, ⟨5, _⟩ => ⟨S1x4x4096, .f32⟩
  | .local _ .vmem, ⟨6, _⟩ => ⟨S1x1, .f32⟩
  | .local _ .vmem, ⟨7, _⟩ => ⟨S1x8x2048, .f32⟩
  | .local _ .vmem, ⟨8, _⟩ => ⟨S1x8x2048, .f32⟩
  | .local _ .vmem, ⟨9, _⟩ => ⟨S1x8x2x2048, .f32⟩
  | .local _ .vmem, ⟨10, _⟩ => ⟨S1x8x2x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x2x2048, .f32⟩
  | .local _ .vmem, ⟨14, _⟩ => ⟨S1x2x2048, .f32⟩
  | .local _ .vmem, ⟨15, _⟩ => ⟨S1x1, .f32⟩
  | _, _ => ⟨S64x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_cst : Ref sig .tc := ⟨.hbm, 119, rfl⟩
abbrev main_call3_v14 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_c : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_c_1 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_cst_2 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_cst_3 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x2x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S64x4096x4_S64x16384 : S64x4096x4.ShapeCasts S64x16384
  shapeCasts_S64x2048x2x4_S64x16384 : S64x2048x2x4.ShapeCasts S64x16384
  shapeCasts_S64x1x256x256_S64x1x65536 : S64x1x256x256.ShapeCasts S64x1x65536
  bcast_S64x16384_S64x1x16384_0_2 : S64x16384.BroadcastsInDim S64x1x16384 (![0, 2] : Fin 2 → Fin S64x1x16384.rank)
  bcast_S_S64x1x16384 : S_.BroadcastsInDim S64x1x16384 (![] : Fin 0 → Fin S64x1x16384.rank)
  shapeCasts_S64x1x16384_S64x16384x1 : S64x1x16384.ShapeCasts S64x16384x1
  bcast_S_S64x16384x1 : S_.BroadcastsInDim S64x16384x1 (![] : Fin 0 → Fin S64x16384x1.rank)
  bcast_S1_S1x1x1_2 : S1.BroadcastsInDim S1x1x1 (![2] : Fin 1 → Fin S1x1x1.rank)
  bcast_S1x1x1_S64x16384x1_0_1_2 : S1x1x1.BroadcastsInDim S64x16384x1 (![0, 1, 2] : Fin 3 → Fin S64x16384x1.rank)
  reducesTo_S64x16384x1_S64x16384_d2 : S64x16384x1.ReducesTo [2] S64x16384
  h_S_ : 0 < S_.numel
  shapeCasts_S64x2x256x256_S64x2x65536 : S64x2x256x256.ShapeCasts S64x2x65536
  bcast_S64x1x16384_S64x2x16384_0_1_2 : S64x1x16384.BroadcastsInDim S64x2x16384 (![0, 1, 2] : Fin 3 → Fin S64x2x16384.rank)
  bcast_S_S64x2x16384 : S_.BroadcastsInDim S64x2x16384 (![] : Fin 0 → Fin S64x2x16384.rank)
  shapeCasts_S64x2x16384_S64x2x16384x1 : S64x2x16384.ShapeCasts S64x2x16384x1
  bcast_S_S64x2x16384x1 : S_.BroadcastsInDim S64x2x16384x1 (![] : Fin 0 → Fin S64x2x16384x1.rank)
  bcast_S1_S1x1x1x1_3 : S1.BroadcastsInDim S1x1x1x1 (![3] : Fin 1 → Fin S1x1x1x1.rank)
  bcast_S1x1x1x1_S64x2x16384x1_0_1_2_3 : S1x1x1x1.BroadcastsInDim S64x2x16384x1 (![0, 1, 2, 3] : Fin 4 → Fin S64x2x16384x1.rank)
  reducesTo_S64x2x16384x1_S64x2x16384_d3 : S64x2x16384x1.ReducesTo [3] S64x2x16384
  shapeCasts_S64x1x16384_S64x1x4096x4 : S64x1x16384.ShapeCasts S64x1x4096x4
  shapeCasts_S64x1x4096x4_S64x4096x4 : S64x1x4096x4.ShapeCasts S64x4096x4
  transposes_S64x4096x4_S64x4x4096_0_2_1 : S64x4096x4.Transposes [0, 2, 1] S64x4x4096
  shapeCasts_S64x2x16384_S64x2x4096x4 : S64x2x16384.ShapeCasts S64x2x4096x4
  transposes_S64x2x4096x4_S64x4x2x4096_0_3_1_2 : S64x2x4096x4.Transposes [0, 3, 1, 2] S64x4x2x4096
  bcast_S1x4x2x1_S64x4x2x4096_0_1_2_3 : S1x4x2x1.BroadcastsInDim S64x4x2x4096 (![0, 1, 2, 3] : Fin 4 → Fin S64x4x2x4096.rank)
  shapeCasts_S64x1x16384_S64x1x2048x2x4 : S64x1x16384.ShapeCasts S64x1x2048x2x4
  shapeCasts_S64x1x2048x2x4_S64x2048x2x4 : S64x1x2048x2x4.ShapeCasts S64x2048x2x4
  transposes_S64x2048x2x4_S64x2x4x2048_0_2_3_1 : S64x2048x2x4.Transposes [0, 2, 3, 1] S64x2x4x2048
  shapeCasts_S64x2x4x2048_S64x8x2048 : S64x2x4x2048.ShapeCasts S64x8x2048
  shapeCasts_S64x2x16384_S64x2x2048x2x4 : S64x2x16384.ShapeCasts S64x2x2048x2x4
  transposes_S64x2x2048x2x4_S64x2x4x2x2048_0_3_4_1_2 : S64x2x2048x2x4.Transposes [0, 3, 4, 1, 2] S64x2x4x2x2048
  bcast_S1x1x4x2x1_S64x2x4x2x2048_0_1_2_3_4 : S1x1x4x2x1.BroadcastsInDim S64x2x4x2x2048 (![0, 1, 2, 3, 4] : Fin 5 → Fin S64x2x4x2x2048.rank)
  shapeCasts_S64x2x4x2x2048_S64x8x2x2048 : S64x2x4x2x2048.ShapeCasts S64x8x2x2048
  shapeCasts_S64x2048x1_S64x2048 : S64x2048x1.ShapeCasts S64x2048
  bcast_S64x2048_S64x1x2048_0_2 : S64x2048.BroadcastsInDim S64x1x2048 (![0, 2] : Fin 2 → Fin S64x1x2048.rank)
  transposes_S64x2048x2_S64x2x2048_0_2_1 : S64x2048x2.Transposes [0, 2, 1] S64x2x2048
  natLt_1_32 : 1 < 32
  reducesTo_S64x4096x4_S_d0_1_2 : S64x4096x4.ReducesTo [0, 1, 2] S_
  reducesTo_S64x2048x1_S_d0_1_2 : S64x2048x1.ReducesTo [0, 1, 2] S_
  inb_S1x1_S1x1_0_0 : ∀ a, (![0, 0] : Fin 2 → Nat) a + S1x1.size a ≤ S1x1.size a
  h_S1x1 : 0 < S1x1.numel
  inb_S1x4x4096_S1x4x4096_0_0_0 : ∀ a, (![0, 0, 0] : Fin 3 → Nat) a + S1x4x4096.size a ≤ S1x4x4096.size a
  h_S1x4x4096 : 0 < S1x4x4096.numel
  shapeCasts_S1x4x4096_S4x4096 : S1x4x4096.ShapeCasts S4x4096
  inb_S1x4x2x4096_S1x4x2x4096_0_0_0_0 : ∀ a, (![0, 0, 0, 0] : Fin 4 → Nat) a + S1x4x2x4096.size a ≤ S1x4x2x4096.size a
  h_S1x4x2x4096 : 0 < S1x4x2x4096.numel
  shapeCasts_S1x4x2x4096_S4x2x4096 : S1x4x2x4096.ShapeCasts S4x2x4096
  reduces_S4x4096_S4096 : S4x4096.Reduces [0] S4096
  shapeCasts_S4096_S1x4096 : S4096.ShapeCasts S1x4096
  reduces_S4x2x4096_S2x4096 : S4x2x4096.Reduces [0] S2x4096
  shapeCasts_S2x4096_S1x2x4096 : S2x4096.ShapeCasts S1x2x4096
  slices_S4x2x4096_o0_0_0_S4x1x4096 : S4x2x4096.Slices ![0, 0, 0] S4x1x4096
  shapeCasts_S4x1x4096_S4x4096 : S4x1x4096.ShapeCasts S4x4096
  slices_S4x2x4096_o0_1_0_S4x1x4096 : S4x2x4096.Slices ![0, 1, 0] S4x1x4096
  slices_S1x2x4096_o0_0_0_S1x1x4096 : S1x2x4096.Slices ![0, 0, 0] S1x1x4096
  shapeCasts_S1x1x4096_S1x4096 : S1x1x4096.ShapeCasts S1x4096
  slices_S1x2x4096_o0_1_0_S1x1x4096 : S1x2x4096.Slices ![0, 1, 0] S1x1x4096
  broadcasts_S1x4096_S4x4096 : S1x4096.Broadcasts S4x4096
  reduces_S4x4096_S4 : S4x4096.Reduces [1] S4
  shapeCasts_S4_S4x1 : S4.ShapeCasts S4x1
  reduces_S4x1_S1 : S4x1.Reduces [0] S1
  shapeCasts_S1_S1x1 : S1.ShapeCasts S1x1
  shapeCasts_S1x1_S1x1 : S1x1.ShapeCasts S1x1
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  inb_S1x8x2x2048_S1x8x2x2048_0_0_0_0 : ∀ a, (![0, 0, 0, 0] : Fin 4 → Nat) a + S1x8x2x2048.size a ≤ S1x8x2x2048.size a
  h_S1x8x2x2048 : 0 < S1x8x2x2048.numel
  shapeCasts_S1x8x2x2048_S8x2x2048 : S1x8x2x2048.ShapeCasts S8x2x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x2x2048_S1x2x2048_0_0_0 : ∀ a, (![0, 0, 0] : Fin 3 → Nat) a + S1x2x2048.size a ≤ S1x2x2048.size a
  h_S1x2x2048 : 0 < S1x2x2048.numel
  shapeCasts_S1x2x2048_S2x2048 : S1x2x2048.ShapeCasts S2x2048
  slices_S8x2048_o0_0_S4x2048 : S8x2048.Slices ![0, 0] S4x2048
  slices_S8x2048_o4_0_S4x2048 : S8x2048.Slices ![4, 0] S4x2048
  slices_S8x2x2048_o0_0_0_S4x2x2048 : S8x2x2048.Slices ![0, 0, 0] S4x2x2048
  slices_S8x2x2048_o4_0_0_S4x2x2048 : S8x2x2048.Slices ![4, 0, 0] S4x2x2048
  reduces_S4x2048_S2048 : S4x2048.Reduces [0] S2048
  shapeCasts_S2048_S1x2048 : S2048.ShapeCasts S1x2048
  slices_S4x2x2048_o0_0_0_S4x1x2048 : S4x2x2048.Slices ![0, 0, 0] S4x1x2048
  shapeCasts_S4x1x2048_S4x2048 : S4x1x2048.ShapeCasts S4x2048
  slices_S4x2x2048_o0_1_0_S4x1x2048 : S4x2x2048.Slices ![0, 1, 0] S4x1x2048
  slices_S2x2048_o0_0_S1x2048 : S2x2048.Slices ![0, 0] S1x2048
  slices_S2x2048_o1_0_S1x2048 : S2x2048.Slices ![1, 0] S1x2048
  reduces_S1x2048_S1 : S1x2048.Reduces [1] S1
  shapeCasts_S1x1_S_ : S1x1.ShapeCasts S_
  gather_S64x1x65536_S64x16384x1_S64x1x16384_1_2_0_0_2_2_111_wf : GatherDims.WF S64x1x65536 S64x16384x1 S64x1x16384 [1] [2] [0] [2] [0] 2 ![1, 1, 1]
  gather_S64x2x65536_S64x2x16384x1_S64x2x16384_n_2_01_01_2_3_111_wf : GatherDims.WF S64x2x65536 S64x2x16384x1 S64x2x16384 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x4096.size a ≤ S64x4x4096.size a
  hwx0_0 : ∀ i : grid0.Coords, EltTy.bits .f32 = 32 ∨ (Rect.block (s := S64x4x4096) S1x4x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x2x4096.size a ≤ S64x4x2x4096.size a
  hwx0_1 : ∀ i : grid0.Coords, EltTy.bits .f32 = 32 ∨ (Rect.block (s := S64x4x2x4096) S1x4x2x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x4096.size a ≤ S64x4x4096.size a
  hwx0_2 : ∀ i : grid0.Coords, EltTy.bits .f32 = 32 ∨ (Rect.block (s := S64x4x4096) S1x4x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x2048.size a ≤ S64x8x2048.size a
  hwx1_0 : ∀ i : grid1.Coords, EltTy.bits .f32 = 32 ∨ (Rect.block (s := S64x8x2048) S1x8x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x2x2048.size a ≤ S64x8x2x2048.size a
  hwx1_1 : ∀ i : grid1.Coords, EltTy.bits .f32 = 32 ∨ (Rect.block (s := S64x8x2x2048) S1x8x2x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S64x1x2048.size a
  hwx1_2 : ∀ i : grid1.Coords, EltTy.bits .f32 = 32 ∨ (Rect.block (s := S64x1x2048) S1x1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x2048.size a ≤ S64x2x2048.size a
  hwx1_3 : ∀ i : grid1.Coords, EltTy.bits .f32 = 32 ∨ (Rect.block (s := S64x2x2048) S1x2x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def gather_S64x1x65536_S64x16384x1_S64x1x16384_1_2_0_0_2_2_111 : GatherDims S64x1x65536 S64x16384x1 S64x1x16384 where
  offsetDims := [1]
  collapsedSliceDims := [2]
  operandBatchingDims := [0]
  startIndicesBatchingDims := [0]
  startIndexMap := [2]
  indexVectorDim := 2
  sliceSizes := ![1, 1, 1]
  wf := gather_S64x1x65536_S64x16384x1_S64x1x16384_1_2_0_0_2_2_111_wf
def gather_S64x2x65536_S64x2x16384x1_S64x2x16384_n_2_01_01_2_3_111 : GatherDims S64x2x65536 S64x2x16384x1 S64x2x16384 where
  offsetDims := []
  collapsedSliceDims := [2]
  operandBatchingDims := [0, 1]
  startIndicesBatchingDims := [0, 1]
  startIndexMap := [2]
  indexVectorDim := 3
  sliceSizes := ![1, 1, 1]
  wf := gather_S64x2x65536_S64x2x16384x1_S64x2x16384_n_2_01_01_2_3_111_wf

abbrev win0_0 : Pipeline.Window sig grid0 :=
  Pipeline.Window.ofSpec (Memref.whole main_v11) S1x4x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x4x2x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x4x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S1x8x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x8x2x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x2x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x1x256x256 : Shape := ⟨4, ![64, 1, 256, 256]⟩
abbrev S64x2x256x256 : Shape := ⟨4, ![64, 2, 256, 256]⟩
abbrev S64x2048x2 : Shape := ⟨3, ![64, 2048, 2]⟩
abbrev S64x4096x4 : Shape := ⟨3, ![64, 4096, 4]⟩
abbrev S64x2048x2x4 : Shape := ⟨4, ![64, 2048, 2, 4]⟩
abbrev S64x2048x1 : Shape := ⟨3, ![64, 2048, 1]⟩
abbrev S4x2 : Shape := ⟨2, ![4, 2]⟩
abbrev S_ : Shape := ⟨0, ![]⟩
abbrev S64x16384 : Shape := ⟨2, ![64, 16384]⟩
abbrev S64x1x65536 : Shape := ⟨3, ![64, 1, 65536]⟩
abbrev S64x65536x1 : Shape := ⟨3, ![64, 65536, 1]⟩
abbrev S64x16384x1 : Shape := ⟨3, ![64, 16384, 1]⟩
abbrev S1 : Shape := ⟨1, ![1]⟩
abbrev S1x1x1 : Shape := ⟨3, ![1, 1, 1]⟩
abbrev S64x4096x4x1 : Shape := ⟨4, ![64, 4096, 4, 1]⟩
abbrev S64x4096x1 : Shape := ⟨3, ![64, 4096, 1]⟩
abbrev S64x4096x1x1 : Shape := ⟨4, ![64, 4096, 1, 1]⟩
abbrev S64x2x65536 : Shape := ⟨3, ![64, 2, 65536]⟩
abbrev S64x65536x2 : Shape := ⟨3, ![64, 65536, 2]⟩
abbrev S64x16384x2 : Shape := ⟨3, ![64, 16384, 2]⟩
abbrev S64x4096x4x2 : Shape := ⟨4, ![64, 4096, 4, 2]⟩
abbrev S1x1x4x2 : Shape := ⟨4, ![1, 1, 4, 2]⟩
abbrev S64x4096x2 : Shape := ⟨3, ![64, 4096, 2]⟩
abbrev S64x4096x1x2 : Shape := ⟨4, ![64, 4096, 1, 2]⟩
abbrev S64x4096x4x3 : Shape := ⟨4, ![64, 4096, 4, 3]⟩
abbrev S64x4096x1x3 : Shape := ⟨4, ![64, 4096, 1, 3]⟩
abbrev S64x2048x2x4x1 : Shape := ⟨5, ![64, 2048, 2, 4, 1]⟩
abbrev S64x2048x2x1 : Shape := ⟨4, ![64, 2048, 2, 1]⟩
abbrev S64x2048x2x1x1 : Shape := ⟨5, ![64, 2048, 2, 1, 1]⟩
abbrev S64x2048x2x4x2 : Shape := ⟨5, ![64, 2048, 2, 4, 2]⟩
abbrev S1x1x1x4x2 : Shape := ⟨5, ![1, 1, 1, 4, 2]⟩
abbrev S64x2048x2x2 : Shape := ⟨4, ![64, 2048, 2, 2]⟩
abbrev S64x2048x2x1x2 : Shape := ⟨5, ![64, 2048, 2, 1, 2]⟩
abbrev S64x2048x1x2 : Shape := ⟨4, ![64, 2048, 1, 2]⟩
abbrev S64x2048x2x1x3 : Shape := ⟨5, ![64, 2048, 2, 1, 3]⟩
abbrev S64x2048x1x1x3 : Shape := ⟨5, ![64, 2048, 1, 1, 3]⟩
abbrev S64x2048x1x3 : Shape := ⟨4, ![64, 2048, 1, 3]⟩
abbrev S64x2048x1x1 : Shape := ⟨4, ![64, 2048, 1, 1]⟩

abbrev nBuf : Space → Nat
  | .hbm => 369
  | .vmem => 0
  | .smem => 0
  | _ => 0

abbrev hbmTy0_0 (i : Nat) : BufTy := match i % 128 with
  | 0 => ⟨S64x1x256x256, .f32⟩
  | 1 => ⟨S64x2x256x256, .f32⟩
  | 2 => ⟨S64x1x256x256, .f32⟩
  | 3 => ⟨S64x2x256x256, .f32⟩
  | 4 => ⟨S64x2048x2, .f32⟩
  | 5 => ⟨S64x4096x4, .i32⟩
  | 6 => ⟨S64x2048x2x4, .i32⟩
  | 7 => ⟨S64x4096x4, .i1⟩
  | 8 => ⟨S64x2048x1, .i1⟩
  | 9 => ⟨S4x2, .f32⟩
  | 10 => ⟨S64x4096x4, .i32⟩
  | 11 => ⟨S_, .i32⟩
  | 12 => ⟨S_, .i32⟩
  | 13 => ⟨S_, .f32⟩
  | 14 => ⟨S64x16384, .i32⟩
  | 15 => ⟨S64x1x65536, .f32⟩
  | 16 => ⟨S64x65536x1, .f32⟩
  | 17 => ⟨S64x16384x1, .i32⟩
  | 18 => ⟨S_, .i32⟩
  | 19 => ⟨S64x16384x1, .i32⟩
  | 20 => ⟨S64x16384x1, .i1⟩
  | 21 => ⟨S_, .i32⟩
  | 22 => ⟨S64x16384x1, .i32⟩
  | 23 => ⟨S64x16384x1, .i32⟩
  | 24 => ⟨S64x16384x1, .i32⟩
  | 25 => ⟨S1, .i32⟩
  | 26 => ⟨S_, .i32⟩
  | 27 => ⟨S64x16384x1, .i32⟩
  | 28 => ⟨S64x16384x1, .i1⟩
  | 29 => ⟨S1x1x1, .i32⟩
  | 30 => ⟨S64x16384x1, .i32⟩
  | 31 => ⟨S64x16384x1, .i1⟩
  | 32 => ⟨S64x16384x1, .i1⟩
  | 33 => ⟨S_, .i1⟩
  | 34 => ⟨S64x16384, .i1⟩
  | 35 => ⟨S64x16384x1, .f32⟩
  | 36 => ⟨S64x16384x1, .i1⟩
  | 37 => ⟨S_, .f32⟩
  | 38 => ⟨S64x16384x1, .f32⟩
  | 39 => ⟨S64x16384x1, .f32⟩
  | 40 => ⟨S64x4096x4x1, .f32⟩
  | 41 => ⟨S_, .f32⟩
  | 42 => ⟨S64x4096x1, .f32⟩
  | 43 => ⟨S64x4096x1x1, .f32⟩
  | 44 => ⟨S_, .f32⟩
  | 45 => ⟨S64x4096x1x1, .f32⟩
  | 46 => ⟨S64x4096x1x1, .f32⟩
  | 47 => ⟨S64x16384, .i32⟩
  | 48 => ⟨S64x2x65536, .f32⟩
  | 49 => ⟨S64x65536x2, .f32⟩
  | 50 => ⟨S64x16384x1, .i32⟩
  | 51 => ⟨S_, .i32⟩
  | 52 => ⟨S64x16384x1, .i32⟩
  | 53 => ⟨S64x16384x1, .i1⟩
  | 54 => ⟨S_, .i32⟩
  | 55 => ⟨S64x16384x1, .i32⟩
  | 56 => ⟨S64x16384x1, .i32⟩
  | 57 => ⟨S64x16384x1, .i32⟩
  | 58 => ⟨S1, .i32⟩
  | 59 => ⟨S_, .i32⟩
  | 60 => ⟨S64x16384x1, .i32⟩
  | 61 => ⟨S64x16384x1, .i1⟩
  | 62 => ⟨S1x1x1, .i32⟩
  | 63 => ⟨S64x16384x1, .i32⟩
  | 64 => ⟨S64x16384x1, .i1⟩
  | 65 => ⟨S64x16384x1, .i1⟩
  | 66 => ⟨S_, .i1⟩
  | 67 => ⟨S64x16384, .i1⟩
  | 68 => ⟨S64x16384x2, .f32⟩
  | 69 => ⟨S64x16384x2, .i1⟩
  | 70 => ⟨S_, .f32⟩
  | 71 => ⟨S64x16384x2, .f32⟩
  | 72 => ⟨S64x16384x2, .f32⟩
  | 73 => ⟨S64x4096x4x2, .f32⟩
  | 74 => ⟨S1x1x4x2, .f32⟩
  | 75 => ⟨S64x4096x4x2, .f32⟩
  | 76 => ⟨S64x4096x4x2, .f32⟩
  | 77 => ⟨S_, .f32⟩
  | 78 => ⟨S64x4096x2, .f32⟩
  | 79 => ⟨S64x4096x1x2, .f32⟩
  | 80 => ⟨S_, .f32⟩
  | 81 => ⟨S64x4096x1x2, .f32⟩
  | 82 => ⟨S64x4096x1x2, .f32⟩
  | 83 => ⟨S64x4096x4x1, .f32⟩
  | 84 => ⟨S64x4096x4x3, .f32⟩
  | 85 => ⟨S64x4096x1x1, .f32⟩
  | 86 => ⟨S64x4096x1x3, .f32⟩
  | 87 => ⟨S64x4096x4x1, .f32⟩
  | 88 => ⟨S64x4096x4, .f32⟩
  | 89 => ⟨S64x4096x4x1, .f32⟩
  | 90 => ⟨S64x4096x4, .f32⟩
  | 91 => ⟨S64x4096x4x1, .f32⟩
  | 92 => ⟨S64x4096x4, .f32⟩
  | 93 => ⟨S64x4096x1x1, .f32⟩
  | 94 => ⟨S64x4096x1, .f32⟩
  | 95 => ⟨S64x4096x1x1, .f32⟩
  | 96 => ⟨S64x4096x1, .f32⟩
  | 97 => ⟨S64x4096x1x1, .f32⟩
  | 98 => ⟨S64x4096x1, .f32⟩
  | 99 => ⟨S64x4096x4, .f32⟩
  | 100 => ⟨S_, .f32⟩
  | 101 => ⟨S64x4096x4, .f32⟩
  | 102 => ⟨S64x4096x4, .f32⟩
  | 103 => ⟨S64x4096x1, .f32⟩
  | 104 => ⟨S_, .f32⟩
  | 105 => ⟨S64x4096x1, .f32⟩
  | 106 => ⟨S64x4096x1, .f32⟩
  | 107 => ⟨S_, .f32⟩
  | 108 => ⟨S64x4096x4, .f32⟩
  | 109 => ⟨S64x4096x4, .f32⟩
  | 110 => ⟨S64x4096x4, .f32⟩
  | 111 => ⟨S_, .f32⟩
  | 112 => ⟨S64x4096x1, .f32⟩
  | 113 => ⟨S64x4096x1, .f32⟩
  | 114 => ⟨S64x4096x1, .f32⟩
  | 115 => ⟨S64x4096x4, .f32⟩
  | 116 => ⟨S64x4096x4, .f32⟩
  | 117 => ⟨S_, .f32⟩
  | 118 => ⟨S64x4096x4, .f32⟩
  | 119 => ⟨S64x4096x4, .f32⟩
  | 120 => ⟨S_, .f32⟩
  | 121 => ⟨S64x4096x4, .f32⟩
  | 122 => ⟨S64x4096x4, .f32⟩
  | 123 => ⟨S64x4096x4, .f32⟩
  | 124 => ⟨S_, .f32⟩
  | 125 => ⟨S64x4096x1, .f32⟩
  | 126 => ⟨S64x4096x1, .f32⟩
  | 127 => ⟨S_, .f32⟩
  | _ => ⟨S64x1x256x256, .f32⟩

abbrev hbmTy0_1 (i : Nat) : BufTy := match i % 128 with
  | 0 => ⟨S64x4096x1, .f32⟩
  | 1 => ⟨S64x4096x1, .f32⟩
  | 2 => ⟨S64x4096x1, .f32⟩
  | 3 => ⟨S64x4096x4, .f32⟩
  | 4 => ⟨S64x4096x4, .f32⟩
  | 5 => ⟨S_, .f32⟩
  | 6 => ⟨S64x4096x4, .f32⟩
  | 7 => ⟨S64x4096x4, .f32⟩
  | 8 => ⟨S64x4096x4, .f32⟩
  | 9 => ⟨S_, .f32⟩
  | 10 => ⟨S64x4096x1, .f32⟩
  | 11 => ⟨S64x4096x1, .f32⟩
  | 12 => ⟨S64x4096x1, .f32⟩
  | 13 => ⟨S64x4096x4, .f32⟩
  | 14 => ⟨S64x4096x4, .f32⟩
  | 15 => ⟨S_, .f32⟩
  | 16 => ⟨S64x4096x4, .f32⟩
  | 17 => ⟨S64x4096x4, .f32⟩
  | 18 => ⟨S_, .f32⟩
  | 19 => ⟨S64x4096x4, .f32⟩
  | 20 => ⟨S64x4096x4, .f32⟩
  | 21 => ⟨S64x4096x4, .f32⟩
  | 22 => ⟨S_, .f32⟩
  | 23 => ⟨S64x4096x1, .f32⟩
  | 24 => ⟨S64x4096x1, .f32⟩
  | 25 => ⟨S_, .f32⟩
  | 26 => ⟨S64x4096x1, .f32⟩
  | 27 => ⟨S64x4096x1, .f32⟩
  | 28 => ⟨S64x4096x1, .f32⟩
  | 29 => ⟨S64x4096x4, .f32⟩
  | 30 => ⟨S64x4096x4, .f32⟩
  | 31 => ⟨S64x4096x4, .f32⟩
  | 32 => ⟨S_, .i32⟩
  | 33 => ⟨S_, .f32⟩
  | 34 => ⟨S64x4096x4, .f32⟩
  | 35 => ⟨S64x4096x4, .f32⟩
  | 36 => ⟨S64x4096x4, .f32⟩
  | 37 => ⟨S_, .i32⟩
  | 38 => ⟨S_, .f32⟩
  | 39 => ⟨S64x4096x4, .f32⟩
  | 40 => ⟨S64x4096x4, .f32⟩
  | 41 => ⟨S64x4096x4, .f32⟩
  | 42 => ⟨S64x4096x4, .f32⟩
  | 43 => ⟨S64x4096x4, .f32⟩
  | 44 => ⟨S64x4096x4, .f32⟩
  | 45 => ⟨S_, .f32⟩
  | 46 => ⟨S64x4096x4, .f32⟩
  | 47 => ⟨S64x4096x4, .f32⟩
  | 48 => ⟨S64x4096x4, .f32⟩
  | 49 => ⟨S_, .f32⟩
  | 50 => ⟨S64x4096x4, .f32⟩
  | 51 => ⟨S64x4096x4, .f32⟩
  | 52 => ⟨S_, .f32⟩
  | 53 => ⟨S_, .f32⟩
  | 54 => ⟨S64x4096x4, .f32⟩
  | 55 => ⟨S64x4096x4, .f32⟩
  | 56 => ⟨S_, .f32⟩
  | 57 => ⟨S_, .f32⟩
  | 58 => ⟨S64x4096x4, .f32⟩
  | 59 => ⟨S64x4096x4, .f32⟩
  | 60 => ⟨S_, .f32⟩
  | 61 => ⟨S_, .f32⟩
  | 62 => ⟨S64x2048x1, .i32⟩
  | 63 => ⟨S_, .i32⟩
  | 64 => ⟨S_, .i32⟩
  | 65 => ⟨S_, .f32⟩
  | 66 => ⟨S64x16384, .i32⟩
  | 67 => ⟨S64x1x65536, .f32⟩
  | 68 => ⟨S64x65536x1, .f32⟩
  | 69 => ⟨S64x16384x1, .i32⟩
  | 70 => ⟨S_, .i32⟩
  | 71 => ⟨S64x16384x1, .i32⟩
  | 72 => ⟨S64x16384x1, .i1⟩
  | 73 => ⟨S_, .i32⟩
  | 74 => ⟨S64x16384x1, .i32⟩
  | 75 => ⟨S64x16384x1, .i32⟩
  | 76 => ⟨S64x16384x1, .i32⟩
  | 77 => ⟨S1, .i32⟩
  | 78 => ⟨S_, .i32⟩
  | 79 => ⟨S64x16384x1, .i32⟩
  | 80 => ⟨S64x16384x1, .i1⟩
  | 81 => ⟨S1x1x1, .i32⟩
  | 82 => ⟨S64x16384x1, .i32⟩
  | 83 => ⟨S64x16384x1, .i1⟩
  | 84 => ⟨S64x16384x1, .i1⟩
  | 85 => ⟨S_, .i1⟩
  | 86 => ⟨S64x16384, .i1⟩
  | 87 => ⟨S64x16384x1, .f32⟩
  | 88 => ⟨S64x16384x1, .i1⟩
  | 89 => ⟨S_, .f32⟩
  | 90 => ⟨S64x16384x1, .f32⟩
  | 91 => ⟨S64x16384x1, .f32⟩
  | 92 => ⟨S64x2048x2x4x1, .f32⟩
  | 93 => ⟨S_, .f32⟩
  | 94 => ⟨S64x2048x2x1, .f32⟩
  | 95 => ⟨S64x2048x2x1x1, .f32⟩
  | 96 => ⟨S_, .f32⟩
  | 97 => ⟨S64x2048x2x1x1, .f32⟩
  | 98 => ⟨S64x2048x2x1x1, .f32⟩
  | 99 => ⟨S64x16384, .i32⟩
  | 100 => ⟨S64x2x65536, .f32⟩
  | 101 => ⟨S64x65536x2, .f32⟩
  | 102 => ⟨S64x16384x1, .i32⟩
  | 103 => ⟨S_, .i32⟩
  | 104 => ⟨S64x16384x1, .i32⟩
  | 105 => ⟨S64x16384x1, .i1⟩
  | 106 => ⟨S_, .i32⟩
  | 107 => ⟨S64x16384x1, .i32⟩
  | 108 => ⟨S64x16384x1, .i32⟩
  | 109 => ⟨S64x16384x1, .i32⟩
  | 110 => ⟨S1, .i32⟩
  | 111 => ⟨S_, .i32⟩
  | 112 => ⟨S64x16384x1, .i32⟩
  | 113 => ⟨S64x16384x1, .i1⟩
  | 114 => ⟨S1x1x1, .i32⟩
  | 115 => ⟨S64x16384x1, .i32⟩
  | 116 => ⟨S64x16384x1, .i1⟩
  | 117 => ⟨S64x16384x1, .i1⟩
  | 118 => ⟨S_, .i1⟩
  | 119 => ⟨S64x16384, .i1⟩
  | 120 => ⟨S64x16384x2, .f32⟩
  | 121 => ⟨S64x16384x2, .i1⟩
  | 122 => ⟨S_, .f32⟩
  | 123 => ⟨S64x16384x2, .f32⟩
  | 124 => ⟨S64x16384x2, .f32⟩
  | 125 => ⟨S64x2048x2x4x2, .f32⟩
  | 126 => ⟨S1x1x1x4x2, .f32⟩
  | 127 => ⟨S64x2048x2x4x2, .f32⟩
  | _ => ⟨S64x1x256x256, .f32⟩

abbrev hbmTy0_2 (i : Nat) : BufTy := match i % 128 with
  | 0 => ⟨S64x2048x2x4x2, .f32⟩
  | 1 => ⟨S_, .f32⟩
  | 2 => ⟨S64x2048x2x2, .f32⟩
  | 3 => ⟨S64x2048x2x1x2, .f32⟩
  | 4 => ⟨S_, .f32⟩
  | 5 => ⟨S64x2048x2x1x2, .f32⟩
  | 6 => ⟨S64x2048x2x1x2, .f32⟩
  | 7 => ⟨S64x2048x1x2, .f32⟩
  | 8 => ⟨S_, .i32⟩
  | 9 => ⟨S1, .i32⟩
  | 10 => ⟨S64x2048x2x1x2, .f32⟩
  | 11 => ⟨S64x2048x2x1x1, .f32⟩
  | 12 => ⟨S64x2048x2x1x3, .f32⟩
  | 13 => ⟨S64x2048x1x1x3, .f32⟩
  | 14 => ⟨S64x2048x1x3, .f32⟩
  | 15 => ⟨S64x2048x1x1x3, .f32⟩
  | 16 => ⟨S64x2048x1x3, .f32⟩
  | 17 => ⟨S64x2048x1x1, .f32⟩
  | 18 => ⟨S64x2048x1, .f32⟩
  | 19 => ⟨S64x2048x1x1, .f32⟩
  | 20 => ⟨S64x2048x1, .f32⟩
  | 21 => ⟨S64x2048x1x1, .f32⟩
  | 22 => ⟨S64x2048x1, .f32⟩
  | 23 => ⟨S64x2048x1x1, .f32⟩
  | 24 => ⟨S64x2048x1, .f32⟩
  | 25 => ⟨S64x2048x1x1, .f32⟩
  | 26 => ⟨S64x2048x1, .f32⟩
  | 27 => ⟨S64x2048x1x1, .f32⟩
  | 28 => ⟨S64x2048x1, .f32⟩
  | 29 => ⟨S64x2048x1, .f32⟩
  | 30 => ⟨S_, .f32⟩
  | 31 => ⟨S64x2048x1, .f32⟩
  | 32 => ⟨S64x2048x1, .f32⟩
  | 33 => ⟨S64x2048x1, .f32⟩
  | 34 => ⟨S_, .f32⟩
  | 35 => ⟨S64x2048x1, .f32⟩
  | 36 => ⟨S64x2048x1, .f32⟩
  | 37 => ⟨S_, .f32⟩
  | 38 => ⟨S64x2048x1, .f32⟩
  | 39 => ⟨S64x2048x1, .f32⟩
  | 40 => ⟨S64x2048x1, .f32⟩
  | 41 => ⟨S_, .f32⟩
  | 42 => ⟨S64x2048x1, .f32⟩
  | 43 => ⟨S64x2048x1, .f32⟩
  | 44 => ⟨S64x2048x1, .f32⟩
  | 45 => ⟨S64x2048x1, .f32⟩
  | 46 => ⟨S_, .f32⟩
  | 47 => ⟨S64x2048x1, .f32⟩
  | 48 => ⟨S64x2048x1, .f32⟩
  | 49 => ⟨S_, .f32⟩
  | 50 => ⟨S64x2048x1, .f32⟩
  | 51 => ⟨S64x2048x1, .f32⟩
  | 52 => ⟨S64x2048x1, .f32⟩
  | 53 => ⟨S_, .f32⟩
  | 54 => ⟨S64x2048x1, .f32⟩
  | 55 => ⟨S64x2048x1, .f32⟩
  | 56 => ⟨S_, .f32⟩
  | 57 => ⟨S64x2048x1, .f32⟩
  | 58 => ⟨S64x2048x1, .f32⟩
  | 59 => ⟨S64x2048x1, .f32⟩
  | 60 => ⟨S64x2048x1, .f32⟩
  | 61 => ⟨S_, .f32⟩
  | 62 => ⟨S64x2048x1, .f32⟩
  | 63 => ⟨S64x2048x1, .f32⟩
  | 64 => ⟨S64x2048x1, .f32⟩
  | 65 => ⟨S_, .f32⟩
  | 66 => ⟨S64x2048x1, .f32⟩
  | 67 => ⟨S64x2048x1, .f32⟩
  | 68 => ⟨S64x2048x1, .f32⟩
  | 69 => ⟨S64x2048x1, .f32⟩
  | 70 => ⟨S_, .f32⟩
  | 71 => ⟨S64x2048x1, .f32⟩
  | 72 => ⟨S64x2048x1, .f32⟩
  | 73 => ⟨S_, .f32⟩
  | 74 => ⟨S64x2048x1, .f32⟩
  | 75 => ⟨S64x2048x1, .f32⟩
  | 76 => ⟨S64x2048x1, .f32⟩
  | 77 => ⟨S_, .f32⟩
  | 78 => ⟨S64x2048x1, .f32⟩
  | 79 => ⟨S64x2048x1, .f32⟩
  | 80 => ⟨S_, .f32⟩
  | 81 => ⟨S64x2048x1, .f32⟩
  | 82 => ⟨S64x2048x1, .f32⟩
  | 83 => ⟨S64x2048x1, .f32⟩
  | 84 => ⟨S64x2048x1, .f32⟩
  | 85 => ⟨S64x2048x1, .f32⟩
  | 86 => ⟨S_, .i32⟩
  | 87 => ⟨S_, .f32⟩
  | 88 => ⟨S64x2048x1, .f32⟩
  | 89 => ⟨S64x2048x1, .f32⟩
  | 90 => ⟨S64x2048x1, .f32⟩
  | 91 => ⟨S_, .i32⟩
  | 92 => ⟨S_, .f32⟩
  | 93 => ⟨S64x2048x1, .f32⟩
  | 94 => ⟨S64x2048x1, .f32⟩
  | 95 => ⟨S64x2048x1, .f32⟩
  | 96 => ⟨S64x2048x1, .f32⟩
  | 97 => ⟨S64x2048x1, .f32⟩
  | 98 => ⟨S_, .f32⟩
  | 99 => ⟨S64x2048x1, .f32⟩
  | 100 => ⟨S64x2048x1, .f32⟩
  | 101 => ⟨S64x2048x1, .f32⟩
  | 102 => ⟨S_, .f32⟩
  | 103 => ⟨S_, .f32⟩
  | 104 => ⟨S64x2048x1, .f32⟩
  | 105 => ⟨S64x2048x1, .f32⟩
  | 106 => ⟨S_, .f32⟩
  | 107 => ⟨S_, .f32⟩
  | 108 => ⟨S64x2048x1, .f32⟩
  | 109 => ⟨S64x2048x1, .f32⟩
  | 110 => ⟨S_, .f32⟩
  | 111 => ⟨S_, .f32⟩
  | 112 => ⟨S_, .f32⟩
  | _ => ⟨S64x1x256x256, .f32⟩

abbrev hbmTy (i : Nat) : BufTy := match i / 128 with
  | 0 => hbmTy0_0 i
  | 1 => hbmTy0_1 i
  | 2 => hbmTy0_2 i
  | _ => ⟨S64x1x256x256, .f32⟩

abbrev bufTy : (tb : Table) → Fin (tcTables nBuf tb) → BufTy
  | .hbm, ⟨i, _⟩ => hbmTy i
  | _, _ => ⟨S64x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_c_2 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_c_3 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v7 : Ref sig .tc := ⟨.hbm, 39, rfl⟩
abbrev main_v8 : Ref sig .tc := ⟨.hbm, 40, rfl⟩
abbrev main_cst_0 : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_1 : Ref sig .tc := ⟨.hbm, 58, rfl⟩
abbrev main_call1_c_2 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_c_3 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_cst : Ref sig .tc := ⟨.hbm, 70, rfl⟩
abbrev main_call1_v14 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_cst_2 : Ref sig .tc := ⟨.hbm, 77, rfl⟩
abbrev main_v22 : Ref sig .tc := ⟨.hbm, 78, rfl⟩
abbrev main_v23 : Ref sig .tc := ⟨.hbm, 79, rfl⟩
abbrev main_cst_3 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_cst_4 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_cst_5 : Ref sig .tc := ⟨.hbm, 104, rfl⟩
abbrev main_v46 : Ref sig .tc := ⟨.hbm, 105, rfl⟩
abbrev main_v47 : Ref sig .tc := ⟨.hbm, 106, rfl⟩
abbrev main_cst_6 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_cst_7 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_8 : Ref sig .tc := ⟨.hbm, 117, rfl⟩
abbrev main_v56 : Ref sig .tc := ⟨.hbm, 118, rfl⟩
abbrev main_v57 : Ref sig .tc := ⟨.hbm, 119, rfl⟩
abbrev main_cst_9 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_10 : Ref sig .tc := ⟨.hbm, 124, rfl⟩
abbrev main_v61 : Ref sig .tc := ⟨.hbm, 125, rfl⟩
abbrev main_v62 : Ref sig .tc := ⟨.hbm, 126, rfl⟩
abbrev main_cst_11 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_cst_12 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_cst_13 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_cst_14 : Ref sig .tc := ⟨.hbm, 143, rfl⟩
abbrev main_v76 : Ref sig .tc := ⟨.hbm, 144, rfl⟩
abbrev main_v77 : Ref sig .tc := ⟨.hbm, 145, rfl⟩
abbrev main_cst_15 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_16 : Ref sig .tc := ⟨.hbm, 150, rfl⟩
abbrev main_v81 : Ref sig .tc := ⟨.hbm, 151, rfl⟩
abbrev main_v82 : Ref sig .tc := ⟨.hbm, 152, rfl⟩
abbrev main_cst_17 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_c_18 : Ref sig .tc := ⟨.hbm, 160, rfl⟩
abbrev main_call2_v0 : Ref sig .tc := ⟨.hbm, 161, rfl⟩
abbrev main_call2_v1 : Ref sig .tc := ⟨.hbm, 162, rfl⟩
abbrev main_v89 : Ref sig .tc := ⟨.hbm, 163, rfl⟩
abbrev main_v90 : Ref sig .tc := ⟨.hbm, 164, rfl⟩
abbrev main_c_19 : Ref sig .tc := ⟨.hbm, 165, rfl⟩
abbrev main_call3_v0 : Ref sig .tc := ⟨.hbm, 166, rfl⟩
abbrev main_call3_v1 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_cst_20 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_cst_21 : Ref sig .tc := ⟨.hbm, 177, rfl⟩
abbrev main_v99 : Ref sig .tc := ⟨.hbm, 178, rfl⟩
abbrev main_v100 : Ref sig .tc := ⟨.hbm, 179, rfl⟩
abbrev main_cst_22 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_cst_23 : Ref sig .tc := ⟨.hbm, 184, rfl⟩
abbrev main_call4_v0 : Ref sig .tc := ⟨.hbm, 185, rfl⟩
abbrev main_call4_v1 : Ref sig .tc := ⟨.hbm, 186, rfl⟩
abbrev main_v104 : Ref sig .tc := ⟨.hbm, 187, rfl⟩
abbrev main_cst_24 : Ref sig .tc := ⟨.hbm, 188, rfl⟩
abbrev main_v105 : Ref sig .tc := ⟨.hbm, 189, rfl⟩
abbrev main_v106 : Ref sig .tc := ⟨.hbm, 190, rfl⟩
abbrev main_c_25 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_call5_c : Ref sig .tc := ⟨.hbm, 198, rfl⟩
abbrev main_call5_v0 : Ref sig .tc := ⟨.hbm, 199, rfl⟩
abbrev main_call5_v1 : Ref sig .tc := ⟨.hbm, 200, rfl⟩
abbrev main_call5_c_0 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_call5_c_1 : Ref sig .tc := ⟨.hbm, 205, rfl⟩
abbrev main_call5_c_2 : Ref sig .tc := ⟨.hbm, 206, rfl⟩
abbrev main_call5_v5 : Ref sig .tc := ⟨.hbm, 207, rfl⟩
abbrev main_call5_v6 : Ref sig .tc := ⟨.hbm, 208, rfl⟩
abbrev main_call5_v7 : Ref sig .tc := ⟨.hbm, 209, rfl⟩
abbrev main_call5_v8 : Ref sig .tc := ⟨.hbm, 210, rfl⟩
abbrev main_call5_v9 : Ref sig .tc := ⟨.hbm, 211, rfl⟩
abbrev main_call5_v10 : Ref sig .tc := ⟨.hbm, 212, rfl⟩
abbrev main_call5_c_3 : Ref sig .tc := ⟨.hbm, 213, rfl⟩
abbrev main_call5_v11 : Ref sig .tc := ⟨.hbm, 214, rfl⟩
abbrev main_call5_v12 : Ref sig .tc := ⟨.hbm, 215, rfl⟩
abbrev main_call5_v13 : Ref sig .tc := ⟨.hbm, 216, rfl⟩
abbrev main_call5_cst : Ref sig .tc := ⟨.hbm, 217, rfl⟩
abbrev main_call5_v14 : Ref sig .tc := ⟨.hbm, 218, rfl⟩
abbrev main_v113 : Ref sig .tc := ⟨.hbm, 219, rfl⟩
abbrev main_v114 : Ref sig .tc := ⟨.hbm, 220, rfl⟩
abbrev main_cst_26 : Ref sig .tc := ⟨.hbm, 221, rfl⟩
abbrev main_v115 : Ref sig .tc := ⟨.hbm, 222, rfl⟩
abbrev main_v116 : Ref sig .tc := ⟨.hbm, 223, rfl⟩
abbrev main_cst_27 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_call6_c : Ref sig .tc := ⟨.hbm, 231, rfl⟩
abbrev main_call6_v0 : Ref sig .tc := ⟨.hbm, 232, rfl⟩
abbrev main_call6_v1 : Ref sig .tc := ⟨.hbm, 233, rfl⟩
abbrev main_call6_c_0 : Ref sig .tc := ⟨.hbm, 234, rfl⟩
abbrev main_call6_v2 : Ref sig .tc := ⟨.hbm, 235, rfl⟩
abbrev main_call6_v3 : Ref sig .tc := ⟨.hbm, 236, rfl⟩
abbrev main_call6_v4 : Ref sig .tc := ⟨.hbm, 237, rfl⟩
abbrev main_call6_c_1 : Ref sig .tc := ⟨.hbm, 238, rfl⟩
abbrev main_call6_c_2 : Ref sig .tc := ⟨.hbm, 239, rfl⟩
abbrev main_call6_v5 : Ref sig .tc := ⟨.hbm, 240, rfl⟩
abbrev main_call6_v6 : Ref sig .tc := ⟨.hbm, 241, rfl⟩
abbrev main_call6_v7 : Ref sig .tc := ⟨.hbm, 242, rfl⟩
abbrev main_call6_v8 : Ref sig .tc := ⟨.hbm, 243, rfl⟩
abbrev main_call6_v9 : Ref sig .tc := ⟨.hbm, 244, rfl⟩
abbrev main_call6_v10 : Ref sig .tc := ⟨.hbm, 245, rfl⟩
abbrev main_call6_c_3 : Ref sig .tc := ⟨.hbm, 246, rfl⟩
abbrev main_call6_v11 : Ref sig .tc := ⟨.hbm, 247, rfl⟩
abbrev main_call6_v12 : Ref sig .tc := ⟨.hbm, 248, rfl⟩
abbrev main_call6_v13 : Ref sig .tc := ⟨.hbm, 249, rfl⟩
abbrev main_call6_cst : Ref sig .tc := ⟨.hbm, 250, rfl⟩
abbrev main_call6_v14 : Ref sig .tc := ⟨.hbm, 251, rfl⟩
abbrev main_v123 : Ref sig .tc := ⟨.hbm, 252, rfl⟩
abbrev main_v124 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_cst_28 : Ref sig .tc := ⟨.hbm, 257, rfl⟩
abbrev main_v128 : Ref sig .tc := ⟨.hbm, 258, rfl⟩
abbrev main_v129 : Ref sig .tc := ⟨.hbm, 259, rfl⟩
abbrev main_cst_29 : Ref sig .tc := ⟨.hbm, 260, rfl⟩
abbrev main_v130 : Ref sig .tc := ⟨.hbm, 261, rfl⟩
abbrev main_v131 : Ref sig .tc := ⟨.hbm, 262, rfl⟩
abbrev main_v132 : Ref sig .tc := ⟨.hbm, 263, rfl⟩
abbrev main_c_30 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_v142 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_v146 : Ref sig .tc := ⟨.hbm, 278, rfl⟩
abbrev main_v147 : Ref sig .tc := ⟨.hbm, 279, rfl⟩
abbrev main_v148 : Ref sig .tc := ⟨.hbm, 280, rfl⟩
abbrev main_v149 : Ref sig .tc := ⟨.hbm, 281, rfl⟩
abbrev main_v150 : Ref sig .tc := ⟨.hbm, 282, rfl⟩
abbrev main_v151 : Ref sig .tc := ⟨.hbm, 283, rfl⟩
abbrev main_v152 : Ref sig .tc := ⟨.hbm, 284, rfl⟩
abbrev main_v153 : Ref sig .tc := ⟨.hbm, 285, rfl⟩
abbrev main_cst_31 : Ref sig .tc := ⟨.hbm, 286, rfl⟩
abbrev main_v154 : Ref sig .tc := ⟨.hbm, 287, rfl⟩
abbrev main_v155 : Ref sig .tc := ⟨.hbm, 288, rfl⟩
abbrev main_v156 : Ref sig .tc := ⟨.hbm, 289, rfl⟩
abbrev main_cst_32 : Ref sig .tc := ⟨.hbm, 290, rfl⟩
abbrev main_v157 : Ref sig .tc := ⟨.hbm, 291, rfl⟩
abbrev main_v158 : Ref sig .tc := ⟨.hbm, 292, rfl⟩
abbrev main_cst_33 : Ref sig .tc := ⟨.hbm, 293, rfl⟩
abbrev main_v159 : Ref sig .tc := ⟨.hbm, 294, rfl⟩
abbrev main_v160 : Ref sig .tc := ⟨.hbm, 295, rfl⟩
abbrev main_v161 : Ref sig .tc := ⟨.hbm, 296, rfl⟩
abbrev main_cst_34 : Ref sig .tc := ⟨.hbm, 297, rfl⟩
abbrev main_v162 : Ref sig .tc := ⟨.hbm, 298, rfl⟩
abbrev main_v163 : Ref sig .tc := ⟨.hbm, 299, rfl⟩
abbrev main_v164 : Ref sig .tc := ⟨.hbm, 300, rfl⟩
abbrev main_v165 : Ref sig .tc := ⟨.hbm, 301, rfl⟩
abbrev main_cst_35 : Ref sig .tc := ⟨.hbm, 302, rfl⟩
abbrev main_v166 : Ref sig .tc := ⟨.hbm, 303, rfl⟩
abbrev main_v167 : Ref sig .tc := ⟨.hbm, 304, rfl⟩
abbrev main_cst_36 : Ref sig .tc := ⟨.hbm, 305, rfl⟩
abbrev main_v168 : Ref sig .tc := ⟨.hbm, 306, rfl⟩
abbrev main_v169 : Ref sig .tc := ⟨.hbm, 307, rfl⟩
abbrev main_v170 : Ref sig .tc := ⟨.hbm, 308, rfl⟩
abbrev main_cst_37 : Ref sig .tc := ⟨.hbm, 309, rfl⟩
abbrev main_v171 : Ref sig .tc := ⟨.hbm, 310, rfl⟩
abbrev main_v172 : Ref sig .tc := ⟨.hbm, 311, rfl⟩
abbrev main_cst_38 : Ref sig .tc := ⟨.hbm, 312, rfl⟩
abbrev main_v173 : Ref sig .tc := ⟨.hbm, 313, rfl⟩
abbrev main_v174 : Ref sig .tc := ⟨.hbm, 314, rfl⟩
abbrev main_v175 : Ref sig .tc := ⟨.hbm, 315, rfl⟩
abbrev main_v176 : Ref sig .tc := ⟨.hbm, 316, rfl⟩
abbrev main_cst_39 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩
abbrev main_cst_40 : Ref sig .tc := ⟨.hbm, 321, rfl⟩
abbrev main_v180 : Ref sig .tc := ⟨.hbm, 322, rfl⟩
abbrev main_v181 : Ref sig .tc := ⟨.hbm, 323, rfl⟩
abbrev main_v182 : Ref sig .tc := ⟨.hbm, 324, rfl⟩
abbrev main_v183 : Ref sig .tc := ⟨.hbm, 325, rfl⟩
abbrev main_cst_41 : Ref sig .tc := ⟨.hbm, 326, rfl⟩
abbrev main_v184 : Ref sig .tc := ⟨.hbm, 327, rfl⟩
abbrev main_v185 : Ref sig .tc := ⟨.hbm, 328, rfl⟩
abbrev main_cst_42 : Ref sig .tc := ⟨.hbm, 329, rfl⟩
abbrev main_v186 : Ref sig .tc := ⟨.hbm, 330, rfl⟩
abbrev main_v187 : Ref sig .tc := ⟨.hbm, 331, rfl⟩
abbrev main_v188 : Ref sig .tc := ⟨.hbm, 332, rfl⟩
abbrev main_cst_43 : Ref sig .tc := ⟨.hbm, 333, rfl⟩
abbrev main_v189 : Ref sig .tc := ⟨.hbm, 334, rfl⟩
abbrev main_v190 : Ref sig .tc := ⟨.hbm, 335, rfl⟩
abbrev main_cst_44 : Ref sig .tc := ⟨.hbm, 336, rfl⟩
abbrev main_v191 : Ref sig .tc := ⟨.hbm, 337, rfl⟩
abbrev main_v192 : Ref sig .tc := ⟨.hbm, 338, rfl⟩
abbrev main_v193 : Ref sig .tc := ⟨.hbm, 339, rfl⟩
abbrev main_v194 : Ref sig .tc := ⟨.hbm, 340, rfl⟩
abbrev main_v195 : Ref sig .tc := ⟨.hbm, 341, rfl⟩
abbrev main_c_45 : Ref sig .tc := ⟨.hbm, 342, rfl⟩
abbrev main_call7_v0 : Ref sig .tc := ⟨.hbm, 343, rfl⟩
abbrev main_call7_v1 : Ref sig .tc := ⟨.hbm, 344, rfl⟩
abbrev main_v196 : Ref sig .tc := ⟨.hbm, 345, rfl⟩
abbrev main_v197 : Ref sig .tc := ⟨.hbm, 346, rfl⟩
abbrev main_c_46 : Ref sig .tc := ⟨.hbm, 347, rfl⟩
abbrev main_call8_v0 : Ref sig .tc := ⟨.hbm, 348, rfl⟩
abbrev main_call8_v1 : Ref sig .tc := ⟨.hbm, 349, rfl⟩
abbrev main_v198 : Ref sig .tc := ⟨.hbm, 350, rfl⟩
abbrev main_v199 : Ref sig .tc := ⟨.hbm, 351, rfl⟩
abbrev main_v200 : Ref sig .tc := ⟨.hbm, 352, rfl⟩
abbrev main_v201 : Ref sig .tc := ⟨.hbm, 353, rfl⟩
abbrev main_cst_47 : Ref sig .tc := ⟨.hbm, 354, rfl⟩
abbrev main_v202 : Ref sig .tc := ⟨.hbm, 355, rfl⟩
abbrev main_v203 : Ref sig .tc := ⟨.hbm, 356, rfl⟩
abbrev main_v204 : Ref sig .tc := ⟨.hbm, 357, rfl⟩
abbrev main_cst_48 : Ref sig .tc := ⟨.hbm, 358, rfl⟩
abbrev main_v205 : Ref sig .tc := ⟨.hbm, 359, rfl⟩
abbrev main_v206 : Ref sig .tc := ⟨.hbm, 360, rfl⟩
abbrev main_v207 : Ref sig .tc := ⟨.hbm, 361, rfl⟩
abbrev main_cst_49 : Ref sig .tc := ⟨.hbm, 362, rfl⟩
abbrev main_call9_v0 : Ref sig .tc := ⟨.hbm, 363, rfl⟩
abbrev main_call9_v1 : Ref sig .tc := ⟨.hbm, 364, rfl⟩
abbrev main_v208 : Ref sig .tc := ⟨.hbm, 365, rfl⟩
abbrev main_cst_50 : Ref sig .tc := ⟨.hbm, 366, rfl⟩
abbrev main_v209 : Ref sig .tc := ⟨.hbm, 367, rfl⟩
abbrev main_v210 : Ref sig .tc := ⟨.hbm, 368, rfl⟩

abbrev nD : Nat := 1
abbrev τ : Topo := Topo.v7x

variable {F : FTy → Type} [FloatOps F]

class Facts₀ : Prop where
  natLt_1_32 : 1 < 32
  reducesTo_S64x4096x4_S_d0_1_2 : S64x4096x4.ReducesTo [0, 1, 2] S_
  h_S_ : 0 < S_.numel
  shapeCasts_S64x4096x4_S64x16384 : S64x4096x4.ShapeCasts S64x16384
  shapeCasts_S64x1x256x256_S64x1x65536 : S64x1x256x256.ShapeCasts S64x1x65536
  transposes_S64x1x65536_S64x65536x1_0_2_1 : S64x1x65536.Transposes [0, 2, 1] S64x65536x1
  bcast_S64x16384_S64x16384x1_0_1 : S64x16384.BroadcastsInDim S64x16384x1 (![0, 1] : Fin 2 → Fin S64x16384x1.rank)
  bcast_S_S64x16384x1 : S_.BroadcastsInDim S64x16384x1 (![] : Fin 0 → Fin S64x16384x1.rank)
  bcast_S1_S1x1x1_2 : S1.BroadcastsInDim S1x1x1 (![2] : Fin 1 → Fin S1x1x1.rank)
  bcast_S1x1x1_S64x16384x1_0_1_2 : S1x1x1.BroadcastsInDim S64x16384x1 (![0, 1, 2] : Fin 3 → Fin S64x16384x1.rank)
  reducesTo_S64x16384x1_S64x16384_d2 : S64x16384x1.ReducesTo [2] S64x16384
  shapeCasts_S64x16384x1_S64x4096x4x1 : S64x16384x1.ShapeCasts S64x4096x4x1
  reducesTo_S64x4096x4x1_S64x4096x1_d2 : S64x4096x4x1.ReducesTo [2] S64x4096x1
  bcast_S64x4096x1_S64x4096x1x1_0_1_3 : S64x4096x1.BroadcastsInDim S64x4096x1x1 (![0, 1, 3] : Fin 3 → Fin S64x4096x1x1.rank)
  bcast_S_S64x4096x1x1 : S_.BroadcastsInDim S64x4096x1x1 (![] : Fin 0 → Fin S64x4096x1x1.rank)
  shapeCasts_S64x2x256x256_S64x2x65536 : S64x2x256x256.ShapeCasts S64x2x65536
  transposes_S64x2x65536_S64x65536x2_0_2_1 : S64x2x65536.Transposes [0, 2, 1] S64x65536x2
  bcast_S64x16384_S64x16384x2_0_1 : S64x16384.BroadcastsInDim S64x16384x2 (![0, 1] : Fin 2 → Fin S64x16384x2.rank)
  bcast_S_S64x16384x2 : S_.BroadcastsInDim S64x16384x2 (![] : Fin 0 → Fin S64x16384x2.rank)
  shapeCasts_S64x16384x2_S64x4096x4x2 : S64x16384x2.ShapeCasts S64x4096x4x2
  shapeCasts_S4x2_S1x1x4x2 : S4x2.ShapeCasts S1x1x4x2
  bcast_S1x1x4x2_S64x4096x4x2_0_1_2_3 : S1x1x4x2.BroadcastsInDim S64x4096x4x2 (![0, 1, 2, 3] : Fin 4 → Fin S64x4096x4x2.rank)
  reducesTo_S64x4096x4x2_S64x4096x2_d2 : S64x4096x4x2.ReducesTo [2] S64x4096x2
  bcast_S64x4096x2_S64x4096x1x2_0_1_3 : S64x4096x2.BroadcastsInDim S64x4096x1x2 (![0, 1, 3] : Fin 3 → Fin S64x4096x1x2.rank)
  bcast_S_S64x4096x1x2 : S_.BroadcastsInDim S64x4096x1x2 (![] : Fin 0 → Fin S64x4096x1x2.rank)
  concatenates_S64x4096x4x1_S64x4096x4x2_S64x4096x4x3_d3 : Shape.Concatenates [S64x4096x4x1, S64x4096x4x2] S64x4096x4x3 3
  concatenates_S64x4096x1x1_S64x4096x1x2_S64x4096x1x3_d3 : Shape.Concatenates [S64x4096x1x1, S64x4096x1x2] S64x4096x1x3 3
  slices_S64x4096x4x3_S64x4096x4x1_0_0_0_0 : S64x4096x4x3.Slices ![0, 0, 0, 0] S64x4096x4x1
  shapeCasts_S64x4096x4x1_S64x4096x4 : S64x4096x4x1.ShapeCasts S64x4096x4
  slices_S64x4096x4x3_S64x4096x4x1_0_0_0_1 : S64x4096x4x3.Slices ![0, 0, 0, 1] S64x4096x4x1
  slices_S64x4096x4x3_S64x4096x4x1_0_0_0_2 : S64x4096x4x3.Slices ![0, 0, 0, 2] S64x4096x4x1
  slices_S64x4096x1x3_S64x4096x1x1_0_0_0_0 : S64x4096x1x3.Slices ![0, 0, 0, 0] S64x4096x1x1
  shapeCasts_S64x4096x1x1_S64x4096x1 : S64x4096x1x1.ShapeCasts S64x4096x1
  slices_S64x4096x1x3_S64x4096x1x1_0_0_0_1 : S64x4096x1x3.Slices ![0, 0, 0, 1] S64x4096x1x1
  slices_S64x4096x1x3_S64x4096x1x1_0_0_0_2 : S64x4096x1x3.Slices ![0, 0, 0, 2] S64x4096x1x1
  bcast_S_S64x4096x4 : S_.BroadcastsInDim S64x4096x4 (![] : Fin 0 → Fin S64x4096x4.rank)
  bcast_S_S64x4096x1 : S_.BroadcastsInDim S64x4096x1 (![] : Fin 0 → Fin S64x4096x1.rank)
  bcast_S64x4096x1_S64x4096x4_0_1_2 : S64x4096x1.BroadcastsInDim S64x4096x4 (![0, 1, 2] : Fin 3 → Fin S64x4096x4.rank)
  reducesTo_S64x2048x1_S_d0_1_2 : S64x2048x1.ReducesTo [0, 1, 2] S_
  shapeCasts_S64x2048x2x4_S64x16384 : S64x2048x2x4.ShapeCasts S64x16384
  shapeCasts_S64x16384x1_S64x2048x2x4x1 : S64x16384x1.ShapeCasts S64x2048x2x4x1
  reducesTo_S64x2048x2x4x1_S64x2048x2x1_d3 : S64x2048x2x4x1.ReducesTo [3] S64x2048x2x1
  bcast_S64x2048x2x1_S64x2048x2x1x1_0_1_2_4 : S64x2048x2x1.BroadcastsInDim S64x2048x2x1x1 (![0, 1, 2, 4] : Fin 4 → Fin S64x2048x2x1x1.rank)
  bcast_S_S64x2048x2x1x1 : S_.BroadcastsInDim S64x2048x2x1x1 (![] : Fin 0 → Fin S64x2048x2x1x1.rank)
  shapeCasts_S64x16384x2_S64x2048x2x4x2 : S64x16384x2.ShapeCasts S64x2048x2x4x2
  shapeCasts_S4x2_S1x1x1x4x2 : S4x2.ShapeCasts S1x1x1x4x2
  bcast_S1x1x1x4x2_S64x2048x2x4x2_0_1_2_3_4 : S1x1x1x4x2.BroadcastsInDim S64x2048x2x4x2 (![0, 1, 2, 3, 4] : Fin 5 → Fin S64x2048x2x4x2.rank)
  reducesTo_S64x2048x2x4x2_S64x2048x2x2_d3 : S64x2048x2x4x2.ReducesTo [3] S64x2048x2x2
  bcast_S64x2048x2x2_S64x2048x2x1x2_0_1_2_4 : S64x2048x2x2.BroadcastsInDim S64x2048x2x1x2 (![0, 1, 2, 4] : Fin 4 → Fin S64x2048x2x1x2.rank)
  bcast_S_S64x2048x2x1x2 : S_.BroadcastsInDim S64x2048x2x1x2 (![] : Fin 0 → Fin S64x2048x2x1x2.rank)
  bcast_S64x2048x2_S64x2048x1x2_0_1_3 : S64x2048x2.BroadcastsInDim S64x2048x1x2 (![0, 1, 3] : Fin 3 → Fin S64x2048x1x2.rank)
  bcast_S_S1 : S_.BroadcastsInDim S1 (![] : Fin 0 → Fin S1.rank)
  concatenates_S64x2048x2x1x1_S64x2048x2x1x2_S64x2048x2x1x3_d4 : Shape.Concatenates [S64x2048x2x1x1, S64x2048x2x1x2] S64x2048x2x1x3 4
  slices_S64x2048x2x1x3_S64x2048x1x1x3_0_0_0_0_0 : S64x2048x2x1x3.Slices ![0, 0, 0, 0, 0] S64x2048x1x1x3
  shapeCasts_S64x2048x1x1x3_S64x2048x1x3 : S64x2048x1x1x3.ShapeCasts S64x2048x1x3
  slices_S64x2048x2x1x3_S64x2048x1x1x3_0_0_1_0_0 : S64x2048x2x1x3.Slices ![0, 0, 1, 0, 0] S64x2048x1x1x3
  slices_S64x2048x1x3_S64x2048x1x1_0_0_0_0 : S64x2048x1x3.Slices ![0, 0, 0, 0] S64x2048x1x1
  shapeCasts_S64x2048x1x1_S64x2048x1 : S64x2048x1x1.ShapeCasts S64x2048x1
  slices_S64x2048x1x3_S64x2048x1x1_0_0_0_1 : S64x2048x1x3.Slices ![0, 0, 0, 1] S64x2048x1x1
  slices_S64x2048x1x3_S64x2048x1x1_0_0_0_2 : S64x2048x1x3.Slices ![0, 0, 0, 2] S64x2048x1x1
  bcast_S_S64x2048x1 : S_.BroadcastsInDim S64x2048x1 (![] : Fin 0 → Fin S64x2048x1.rank)
  gather_S64x65536x1_S64x16384x1_S64x16384x1_2_1_0_0_1_2_111_wf : GatherDims.WF S64x65536x1 S64x16384x1 S64x16384x1 [2] [1] [0] [1] [0] 2 ![1, 1, 1]
  gather_S64x65536x2_S64x16384x1_S64x16384x2_2_1_0_0_1_2_112_wf : GatherDims.WF S64x65536x2 S64x16384x1 S64x16384x2 [2] [1] [0] [1] [0] 2 ![1, 1, 2]
  scatter_S64x2048x2x1x2_S1_S64x2048x1x2_0123_2_2_0_wf : ScatterDims.WF S64x2048x2x1x2 S1 S64x2048x1x2 [0, 1, 2, 3] [2] [2] 0

variable [Facts₀]

def gather_S64x65536x1_S64x16384x1_S64x16384x1_2_1_0_0_1_2_111 : GatherDims S64x65536x1 S64x16384x1 S64x16384x1 where
  offsetDims := [2]
  collapsedSliceDims := [1]
  operandBatchingDims := [0]
  startIndicesBatchingDims := [0]
  startIndexMap := [1]
  indexVectorDim := 2
  sliceSizes := ![1, 1, 1]
  wf := gather_S64x65536x1_S64x16384x1_S64x16384x1_2_1_0_0_1_2_111_wf
def gather_S64x65536x2_S64x16384x1_S64x16384x2_2_1_0_0_1_2_112 : GatherDims S64x65536x2 S64x16384x1 S64x16384x2 where
  offsetDims := [2]
  collapsedSliceDims := [1]
  operandBatchingDims := [0]
  startIndicesBatchingDims := [0]
  startIndexMap := [1]
  indexVectorDim := 2
  sliceSizes := ![1, 1, 2]
  wf := gather_S64x65536x2_S64x16384x1_S64x16384x2_2_1_0_0_1_2_112_wf
def scatter_S64x2048x2x1x2_S1_S64x2048x1x2_0123_2_2_0 : ScatterDims S64x2048x2x1x2 S1 S64x2048x1x2 where
  updateWindowDims := [0, 1, 2, 3]
  insertedWindowDims := [2]
  scatterDimsToOperandDims := [2]
  indexVectorDim := 0
  wf := scatter_S64x2048x2x1x2_S1_S64x2048x1x2_0123_2_2_0_wf

class Facts : Prop extends Facts₀ where

variable [Facts]
-- ==== Proof.Spec.lean ====
/-
  The mathematics both programs compute, stated once over the argument arrays as functions.

  Inputs: a height table `Hf : [64, 1, 65536]` and an offset table `Of : [64, 2, 65536]` (the two feature maps with
  their 256 × 256 positions laid end to end), extra offsets `P : [64, 2048, 2]`, index words `A : [64, 4096, 4]`
  (four corners per attract box) and `R : [64, 2048, 2, 4]` (two boxes of four corners per repel pair), and the two
  masks. A table is read at an index word the way `take_along_axis` reads it: a negative word is wrapped by the
  table's length, the position is clamped into the table, and a word outside `[0, 65535]` after wrapping reads the
  fill value instead.

  ATTRACT. Corner `c` of box `(b, n)` has height `h_c`, offsets `y_c = o_y + δ_y(c)`, `x_c = o_x + δ_x(c)` with
  `δ` the unit square's corners; its box is compared with the box of the corner means. The term is
  `1 − IoU(exp h_c, y_c, x_c; exp h̄, ȳ, x̄)`.
  REPEL. Pair `(b, m)` compares the mean box of its first four corners with the mean box of its last four, the
  second shifted by `P(b, m, ·)`; the term is that IoU.

  The KERNEL's form of the result sums the masked terms batch by batch and divides each total by (the number of set
  mask bits + 1e-4); the REFERENCE's form divides every term first, selects by the mask and sums everything. The
  two are one number because division by a positive real distributes over any sum of extended reals.
-/
import Idealize.ShloMosaic.PureOps.Ideal
import Idealize.ShloMosaic.PureOps.Ideal.Laws
import Idealize.ShloMosaic.Lib.ValueIdx

noncomputable section

namespace Cert.IouSpec

open Idealize.ShloMosaic Idealize.ShloMosaic.ValueIdx

abbrev SHf : Shape := ⟨3, ![64, 1, 65536]⟩
abbrev SOf : Shape := ⟨3, ![64, 2, 65536]⟩
abbrev SP : Shape := ⟨3, ![64, 2048, 2]⟩
abbrev SA : Shape := ⟨3, ![64, 4096, 4]⟩
abbrev SR : Shape := ⟨4, ![64, 2048, 2, 4]⟩
abbrev SMR : Shape := ⟨3, ![64, 2048, 1]⟩

/-! ## The literals -/

/-- 0.41, the boxes' aspect ratio. -/
def c041 : EReal := Ideal.ofBits .f32 0x3ED1EB85#32
/-- 0.5 -/
def half : EReal := Ideal.ofBits .f32 0x3F000000#32
def zeroF : EReal := Ideal.ofBits .f32 0x00000000#32
def oneF : EReal := Ideal.ofBits .f32 0x3F800000#32
def fourF : EReal := Ideal.ofBits .f32 0x40800000#32
/-- the 1e-6 that keeps the union off zero -/
def eps6 : EReal := Ideal.ofBits .f32 0x358637BD#32
/-- the 1e-4 added to a mask's count -/
def eps4 : EReal := Ideal.ofBits .f32 0x38D1B717#32
/-- what an out-of-range read is filled with -/
def fillV : EReal := Ideal.ofBits .f32 0x7FC00000#32

/-! ## Reading a table at an index word -/

/-- A negative index word counts from the table's end. -/
def wrapW (w : BitVec 32) : BitVec 32 := Scalar.select (IntOp.cmpi .slt w 0#32) (IntOp.addi w 65536#32) w
/-- The (wrapped) word names a position of the table. -/
def okW (w : BitVec 32) : BitVec 1 := IntOp.andi (IntOp.cmpi .sge w 0#32) (IntOp.cmpi .sle w 65535#32)
/-- The position a word is clamped to. -/
def pos (w : BitVec 32) : Fin 65536 := ⟨min w.toInt.toNat 65535, by omega⟩
/-- A table of 65536 entries read at an index word. -/
def take (T : Fin 65536 → EReal) (w : BitVec 32) : EReal :=
  Scalar.select (okW (wrapW w)) (T (pos (wrapW w))) fillV

/-! ## The corner offsets -/

/-- The unit square's corners (0,0), (1,0), (0,1), (1,1), row-major over (corner, channel), as bit patterns. -/
def offTab : Fin 8 → BitVec 32 := fun
  | 0 => 0x00000000#32 | 1 => 0x00000000#32 | 2 => 0x3F800000#32 | 3 => 0x00000000#32 | 4 => 0x00000000#32 | 5 => 0x3F800000#32 | 6 => 0x3F800000#32 | 7 => 0x3F800000#32
/-- Channel `ch` of corner `c`'s offset. -/
def offs (c : Fin 4) (ch : Fin 2) : EReal := Ideal.ofBits .f32 (offTab ⟨2 * c.val + ch.val, by omega⟩)

/-! ## Intersection over union of two boxes of aspect 0.41 given by height and centre -/

def boxIou (hA yA xA hB yB xB : EReal) : EReal :=
  Ideal.div
    (max (min (yA + hA * half) (yB + hB * half) - max (yA - hA * half) (yB - hB * half)) zeroF
      * max (min (xA + c041 * hA * half) (xB + c041 * hB * half) - max (xA - c041 * hA * half) (xB - c041 * hB * half)) zeroF)
    (hA * hA * c041 + hB * hB * c041
      - max (min (yA + hA * half) (yB + hB * half) - max (yA - hA * half) (yB - hB * half)) zeroF
        * max (min (xA + c041 * hA * half) (xB + c041 * hB * half) - max (xA - c041 * hA * half) (xB - c041 * hB * half)) zeroF
      + eps6)

/-- The mean of four values. -/
def mean4 (f : Fin 4 → EReal) : EReal := Ideal.div (∑ c, f c) fourF

/-- A mask bit as a factor. -/
def mf (m : BitVec 1) : EReal := ((m.toNat : ℝ) : EReal)

section
variable (Hf : SHf.Idx → EReal) (Of : SOf.Idx → EReal) (P : SP.Idx → EReal) (A : SA.Idx → BitVec 32) (R : SR.Idx → BitVec 32)
  (MA : SA.Idx → BitVec 1) (MR : SMR.Idx → BitVec 1)

/-- The height table of batch `b` read at a word. -/
def gh (b : Fin 64) (w : BitVec 32) : EReal := take (fun p => Hf (ix3 b 0 p)) w
/-- Channel `ch` of the offset table of batch `b` read at a word. -/
def go (b : Fin 64) (ch : Fin 2) (w : BitVec 32) : EReal := take (fun p => Of (ix3 b ch p)) w

/-! ### Attract -/
def aH (b : Fin 64) (n : Fin 4096) (c : Fin 4) : EReal := gh Hf b (A (ix3 b n c))
def aO (b : Fin 64) (n : Fin 4096) (c : Fin 4) (ch : Fin 2) : EReal := go Of b ch (A (ix3 b n c)) + offs c ch
/-- `1 − IoU` of corner `c`'s box against the box of the four corners' means. -/
def attractTerm (b : Fin 64) (n : Fin 4096) (c : Fin 4) : EReal :=
  oneF - boxIou (Ideal.exp (aH Hf A b n c)) (aO Of A b n c 0) (aO Of A b n c 1)
    (Ideal.exp (mean4 fun c' => aH Hf A b n c')) (mean4 fun c' => aO Of A b n c' 0) (mean4 fun c' => aO Of A b n c' 1)
/-- The kernel's total: batch by batch, corner by corner, the masked terms over the boxes. -/
def attractSumK : EReal := ∑ b : Fin 64, ∑ c : Fin 4, ∑ n : Fin 4096, mf (MA (ix3 b n c)) * attractTerm Hf Of A b n c
/-- The reference's total: every term divided by `D` first, kept where the mask is set. -/
def attractSumR (D : EReal) : EReal :=
  ∑ i : SA.Idx, Scalar.select (MA i) (Ideal.div (attractTerm Hf Of A (i 0) (i 1) (i 2)) D) zeroF

/-! ### Repel -/
def rH (b : Fin 64) (m : Fin 2048) (bx : Fin 2) (c : Fin 4) : EReal := gh Hf b (R (ix4 b m bx c))
def rO (b : Fin 64) (m : Fin 2048) (bx : Fin 2) (c : Fin 4) (ch : Fin 2) : EReal := go Of b ch (R (ix4 b m bx c)) + offs c ch
/-- IoU of the pair's two mean boxes, the second shifted by `P`. -/
def repelTerm (b : Fin 64) (m : Fin 2048) : EReal :=
  boxIou (Ideal.exp (mean4 fun c => rH Hf R b m 0 c)) (mean4 fun c => rO Of R b m 0 c 0) (mean4 fun c => rO Of R b m 0 c 1)
    (Ideal.exp (mean4 fun c => rH Hf R b m 1 c)) (mean4 (fun c => rO Of R b m 1 c 0) + P (ix3 b m 0)) (mean4 (fun c => rO Of R b m 1 c 1) + P (ix3 b m 1))
def repelSumK : EReal := ∑ b : Fin 64, ∑ m : Fin 2048, mf (MR (ix3 b m 0)) * repelTerm Hf Of P R b m
def repelSumR (D : EReal) : EReal :=
  ∑ i : SMR.Idx, Scalar.select (MR i) (Ideal.div (repelTerm Hf Of P R (i 0) (i 1)) D) zeroF

/-! ### The result, in the two forms -/
/-- A mask's count (an integer word, read signed) plus 1e-4. -/
def denom (n : BitVec 32) : EReal := ((n.toInt : ℝ) : EReal) + eps4

def GK (nA nR : BitVec 32) : EReal :=
  Ideal.div (attractSumK Hf Of A MA) (denom nA) + Ideal.div (repelSumK Hf Of P R MR) (denom nR)
def GR (nA nR : BitVec 32) : EReal :=
  attractSumR Hf Of A MA (denom nA) + repelSumR Hf Of P R MR (denom nR)

end

/-! ## The kernel's two launches, over the arrays they are handed

The launches see the gathered values already laid out corner-major: heights `[64, 4, 4096]`, offsets
`[64, 4, 2, 4096]` and the mask as factors `[64, 4, 4096]` for attract; for repel the eight corners of a pair
(box 0's four, then box 1's) along one axis, `[64, 8, 2048]` and `[64, 8, 2, 2048]`, the mask `[64, 1, 2048]` and the
extra offsets `[64, 2, 2048]`. Each launch adds up its masked terms over the whole batch. -/

abbrev SKh : Shape := ⟨3, ![64, 4, 4096]⟩
abbrev SKo : Shape := ⟨4, ![64, 4, 2, 4096]⟩
abbrev SQh : Shape := ⟨3, ![64, 8, 2048]⟩
abbrev SQo : Shape := ⟨4, ![64, 8, 2, 2048]⟩
abbrev SQm : Shape := ⟨3, ![64, 1, 2048]⟩
abbrev SQp : Shape := ⟨3, ![64, 2, 2048]⟩

/-- The attract launch's total over its three input arrays. -/
def attractBlock (Hh : SKh.Idx → EReal) (Oo : SKo.Idx → EReal) (Mm : SKh.Idx → EReal) : EReal :=
  ∑ b : Fin 64, ∑ c : Fin 4, ∑ n : Fin 4096, Mm (ix3 b c n) *
    (oneF - boxIou (Ideal.exp (Hh (ix3 b c n))) (Oo (ix4 b c 0 n)) (Oo (ix4 b c 1 n))
      (Ideal.exp (mean4 fun c' => Hh (ix3 b c' n))) (mean4 fun c' => Oo (ix4 b c' 0 n)) (mean4 fun c' => Oo (ix4 b c' 1 n)))

/-- Corner `c` of box `bx` among a pair's eight. -/
def corner8 (bx : Fin 2) (c : Fin 4) : Fin 8 := ⟨4 * bx.val + c.val, by omega⟩

/-- The repel launch's total over its four input arrays. -/
def repelBlock (Hh : SQh.Idx → EReal) (Oo : SQo.Idx → EReal) (Mm : SQm.Idx → EReal) (Pp : SQp.Idx → EReal) : EReal :=
  ∑ b : Fin 64, ∑ m : Fin 2048, Mm (ix3 b 0 m) *
    boxIou (Ideal.exp (mean4 fun c => Hh (ix3 b (corner8 0 c) m))) (mean4 fun c => Oo (ix4 b (corner8 0 c) 0 m)) (mean4 fun c => Oo (ix4 b (corner8 0 c) 1 m))
      (Ideal.exp (mean4 fun c => Hh (ix3 b (corner8 1 c) m))) (mean4 (fun c => Oo (ix4 b (corner8 1 c) 0 m)) + Pp (ix3 b 0 m)) (mean4 (fun c => Oo (ix4 b (corner8 1 c) 1 m)) + Pp (ix3 b 1 m))

/-! ## Counting a mask -/

/-- The number of set bits of the attract mask as both programs compute it: the bits widened to words and added up
    from zero. -/
def countA (M : SA.Idx → BitVec 1) (h : SA.ReducesTo [0, 1, 2] ⟨0, ![]⟩) : BitVec 32 :=
  Host.reduce IntOp.addi (extui 32 M (by decide)) (constantI ⟨0, ![]⟩ 32 0#32) h (by decide) ix0
/-- The same for the repel mask. -/
def countR (M : SMR.Idx → BitVec 1) (h : SMR.ReducesTo [0, 1, 2] ⟨0, ![]⟩) : BitVec 32 :=
  Host.reduce IntOp.addi (extui 32 M (by decide)) (constantI ⟨0, ![]⟩ 32 0#32) h (by decide) ix0

end Cert.IouSpec

end
-- ==== Proof.KTail.lean ====
import proofs.«169223_j2216203125376_1_alg».proof.Proof.Gen.KernelIdeal.Frame
import proofs.«169223_j2216203125376_1_alg».proof.Proof.Spec
import Idealize.ShloMosaic.Lib.StableHlo.Run
import Idealize.ShloMosaic.Lib.Pipeline.Value

set_option maxRecDepth 16384

noncomputable section

namespace Cert.KernelIdeal.KTail

open Idealize.ShloMosaic Idealize.ShloMosaic.TcCoe Idealize.SL.Sem Idealize.ShloMosaic.ValueIdx Cert.KernelIdeal Cert.KernelIdeal.Gen Cert.IouSpec Idealize.ShloMosaic.StableHlo

variable (m : (ℓ : Loc nD τ sig) → Buf (Elt Ideal) ℓ) (ρ : Dev nD → PrngReg) (c : Dev nD)

/-- The two launches' one-entry results and the two converted counts, as the tail finds them. -/
abbrev sumA : S1x1.Idx → EReal := W11 m ρ c (Proc.devRef .tc main_v44)
abbrev sumR : S1x1.Idx → EReal := W11 m ρ c (Proc.devRef .tc main_v45)
abbrev cntA : S_.Idx → EReal := W11 m ρ c (Proc.devRef .tc main_v40)
abbrev cntR : S_.Idx → EReal := W11 m ρ c (Proc.devRef .tc main_v43)

/-- A one-entry array has one index. -/
theorem idx11_eq (i j : S1x1.Idx) : i = j := by
  funext a
  match a with
  | ⟨0, _⟩ => exact Subsingleton.elim (α := Fin 1) _ _
  | ⟨1, _⟩ => exact Subsingleton.elim (α := Fin 1) _ _

/-- After the tail's nine operations the result is the attract total over (its count + 1e-4) plus the repel total
    over (its count + 1e-4). -/
theorem tail_val :
    (W12 m ρ c (Proc.devRef .tc main_v52) : S_.Idx → EReal)
      = fun _ => Ideal.div (sumA m ρ c (ix2 0 0)) (cntA m ρ c ix0 + eps4) + Ideal.div (sumR m ρ c (ix2 0 0)) (cntR m ρ c ix0 + eps4) := by
  show StableHlo.after hostOps2 (W11 m ρ c) (Proc.devRef .tc main_v52) = _
  unfold sumA sumR cntA cntR
  generalize W11 m ρ c = W
  after_results
  funext i
  obtain rfl : i = ix0 := eq_ix0 i
  refine congrArg₂ (fun a b : EReal => a + b) (congrArg₂ Ideal.div ?_ rfl) (congrArg₂ Ideal.div ?_ rfl)
  · exact congrArg (W (Proc.devRef .tc main_v44)) (idx11_eq _ _)
  · exact congrArg (W (Proc.devRef .tc main_v45)) (idx11_eq _ _)

/-- The attract total is what the first launch leaves in its result array (the second launch does not touch it). -/
theorem sumA_eq : sumA m ρ c = (dat0 (V9 m ρ) c).arrAt 3 cfg0.N :=
  (W11_of_ne m ρ c main_v44 (by decide)).trans (W10_arr m ρ c 3)
/-- The repel total is what the second launch leaves in its result array. -/
theorem sumR_eq : sumR m ρ c = (dat1 (V10 m ρ) c).arrAt 4 cfg1.N := W11_arr m ρ c 4
/-- Neither launch writes a count. -/
theorem cntA_eq : cntA m ρ c = V9 m ρ c main_v40 :=
  (W11_of_ne m ρ c main_v40 (by decide)).trans (W10_of_ne m ρ c main_v40 (by decide))
theorem cntR_eq : cntR m ρ c = V9 m ρ c main_v43 :=
  (W11_of_ne m ρ c main_v43 (by decide)).trans (W10_of_ne m ρ c main_v43 (by decide))
/-- The first launch writes none of the second's inputs. -/
theorem V10_v28 : V10 m ρ c main_v28 = V9 m ρ c main_v28 := W10_of_ne m ρ c main_v28 (by decide)
theorem V10_v33 : V10 m ρ c main_v33 = V9 m ρ c main_v33 := W10_of_ne m ρ c main_v33 (by decide)
theorem V10_v36 : V10 m ρ c main_v36 = V9 m ρ c main_v36 := W10_of_ne m ρ c main_v36 (by decide)
theorem V10_v37 : V10 m ρ c main_v37 = V9 m ρ c main_v37 := W10_of_ne m ρ c main_v37 (by decide)

end Cert.KernelIdeal.KTail

end
-- ==== Proof.LibBatchedTake.lean ====
/-
  `stablehlo.gather` WITH OPERAND BATCHING AXES, READ AT AN INDEX: the three forms `take_along_axis` along one axis
  lowers to when the other axes of the operand are batch axes shared with the start indices. In each the result element
  is the operand's at the same batch coordinates, with the coordinate on the gathered axis the start index read as a
  signed integer and clamped into `[0, N − 1]` (`clampPos`), as StableHLO's gather clamps every start index.
  The dimension numbers are abbreviations over the sizes that take the well-formedness proof, so a program's literal
  record is one of them by `rfl`.
-/
import Idealize.ShloMosaic.PureOps.ShapeOps
import Idealize.ShloMosaic.PureOps.Dims
import Idealize.ShloMosaic.Lib.ValueIdx

namespace Idealize.ShloMosaic.BatchedTake

open Idealize.ShloMosaic Idealize.ShloMosaic.ValueIdx

variable {α : Type}

/-- A 32-bit start index read as a signed integer and clamped into `[0, N − 1]`: the position on an axis of size `N`
    a gather of slice size 1 reads. -/
def clampPos (N : Nat) (hN : 0 < N) (w : BitVec 32) : Fin N := ⟨min w.toInt.toNat (N - 1), by omega⟩

/-- Its value: the minimum of the index's signed value (negative values read `0`) and `N − 1`. -/
theorem clampPos_val (N : Nat) (hN : 0 < N) (w : BitVec 32) : (clampPos N hN w).val = min w.toInt.toNat (N - 1) := rfl

/-! ## Gathered axis last, one batch axis: operand `[B, C, N]`, start indices `[B, K, 1]`, result `[B, C, K]` -/

/-- The dimension numbers: offset axis `1` (the whole middle axis, slice size `C`), collapsed axis `2`, batching axes
    `0` / `0`, start index map `[2]`, index vector axis `2`. -/
abbrev takeLastDims (B C N K : Nat)
    (wf : GatherDims.WF ⟨3, ![B, C, N]⟩ ⟨3, ![B, K, 1]⟩ ⟨3, ![B, C, K]⟩ [1] [2] [0] [2] [0] 2 ![1, C, 1]) :
    GatherDims ⟨3, ![B, C, N]⟩ ⟨3, ![B, K, 1]⟩ ⟨3, ![B, C, K]⟩ where
  offsetDims := [1]
  collapsedSliceDims := [2]
  operandBatchingDims := [0]
  startIndicesBatchingDims := [0]
  startIndexMap := [2]
  indexVectorDim := 2
  sliceSizes := ![1, C, 1]
  wf := wf

/-- THE READ AT `(b, c, k)`: the operand at `(b, c, p)`, `p` the start index `idx[b, k, 0]` read signed and clamped into
    `[0, N − 1]`. -/
theorem gather_takeLast_apply {B C N K : Nat} (hN : 0 < N)
    (wf : GatherDims.WF ⟨3, ![B, C, N]⟩ ⟨3, ![B, K, 1]⟩ ⟨3, ![B, C, K]⟩ [1] [2] [0] [2] [0] 2 ![1, C, 1])
    (x : (⟨3, ![B, C, N]⟩ : Shape).Idx → α) (idx : IVec ⟨3, ![B, K, 1]⟩ 32) (b : Fin B) (c : Fin C) (k : Fin K) :
    Host.gather (takeLastDims B C N K wf) x idx (ix3 b c k) = x (ix3 b c (clampPos N hN (idx (ix3 b k 0)))) := by
  unfold Host.gather
  congr 1
  funext a
  refine Fin.ext ?_
  match a with
  | ⟨0, h0⟩ =>
    show (takeLastDims B C N K wf).start (ix3 b c k) idx ⟨0, h0⟩ + (takeLastDims B C N K wf).batchCoord (ix3 b c k) ⟨0, h0⟩
      + (takeLastDims B C N K wf).offCoord (ix3 b c k) ⟨0, h0⟩ = b.val
    have hb : (⟨0, h0⟩ : Fin 3) ∈ (takeLastDims B C N K wf).operandBatchingDims := (by decide : (0 : Fin 3) ∈ ([0] : List (Fin 3)))
    have hk : (⟨0, h0⟩ : Fin 3) ∉ (takeLastDims B C N K wf).sKept := fun h => ((GatherDims.mem_sKept _ _).mp h).2 hb
    rw [GatherDims.start_batching _ _ _ _ hb, GatherDims.offCoord_eq_zero _ _ _ hk]
    unfold GatherDims.batchCoord
    rw [dif_pos hb]
    simp only [Nat.zero_add, Nat.add_zero]
    rfl
  | ⟨1, h1⟩ =>
    show (takeLastDims B C N K wf).start (ix3 b c k) idx ⟨1, h1⟩ + (takeLastDims B C N K wf).batchCoord (ix3 b c k) ⟨1, h1⟩
      + (takeLastDims B C N K wf).offCoord (ix3 b c k) ⟨1, h1⟩ = c.val
    have hb : (⟨1, h1⟩ : Fin 3) ∉ (takeLastDims B C N K wf).operandBatchingDims := (by decide : (1 : Fin 3) ∉ ([0] : List (Fin 3)))
    have hk : (⟨1, h1⟩ : Fin 3) ∈ (takeLastDims B C N K wf).sKept :=
      (GatherDims.mem_sKept _ _).mpr ⟨(by decide : (1 : Fin 3) ∉ ([2] : List (Fin 3))), hb⟩
    have hm : (⟨1, h1⟩ : Fin 3) ∉ (takeLastDims B C N K wf).startIndexMap := (by decide : (1 : Fin 3) ∉ ([2] : List (Fin 3)))
    rw [GatherDims.batchCoord_eq_zero _ _ _ hb]
    unfold GatherDims.start GatherDims.offCoord
    rw [dif_neg hm, dif_pos hk]
    simp only [Nat.add_zero, Nat.zero_add]
    rfl
  | ⟨2, h2⟩ =>
    show (takeLastDims B C N K wf).start (ix3 b c k) idx ⟨2, h2⟩ + (takeLastDims B C N K wf).batchCoord (ix3 b c k) ⟨2, h2⟩
      + (takeLastDims B C N K wf).offCoord (ix3 b c k) ⟨2, h2⟩ = (clampPos N hN (idx (ix3 b k 0))).val
    have hb : (⟨2, h2⟩ : Fin 3) ∉ (takeLastDims B C N K wf).operandBatchingDims := (by decide : (2 : Fin 3) ∉ ([0] : List (Fin 3)))
    have hk : (⟨2, h2⟩ : Fin 3) ∉ (takeLastDims B C N K wf).sKept :=
      fun h => ((GatherDims.mem_sKept _ _).mp h).1 (by decide : (2 : Fin 3) ∈ ([2] : List (Fin 3)))
    have hm : (⟨2, h2⟩ : Fin 3) ∈ (takeLastDims B C N K wf).startIndexMap := (by decide : (2 : Fin 3) ∈ ([2] : List (Fin 3)))
    rw [GatherDims.batchCoord_eq_zero _ _ _ hb, GatherDims.offCoord_eq_zero _ _ _ hk]
    simp only [Nat.add_zero]
    unfold GatherDims.start
    rw [dif_pos hm]
    have hsi : (takeLastDims B C N K wf).siIdx (ix3 b c k) ⟨List.idxOf (⟨2, h2⟩ : Fin 3) (takeLastDims B C N K wf).startIndexMap,
        List.idxOf_lt_length_iff.2 hm⟩ = ix3 b k 0 := by
      funext e; refine Fin.ext ?_
      match e with
      | ⟨0, _⟩ => rfl
      | ⟨1, _⟩ => rfl
      | ⟨2, _⟩ => rfl
    rw [hsi]
    rfl

/-! ## Gathered axis last, two batch axes: operand `[B, C, N]`, start indices `[B, C, K, 1]`, result `[B, C, K]` -/

/-- The dimension numbers: no offset axes, collapsed axis `2`, batching axes `[0, 1]` / `[0, 1]`, start index map `[2]`,
    index vector axis `3`. -/
abbrev takeLast2Dims (B C N K : Nat)
    (wf : GatherDims.WF ⟨3, ![B, C, N]⟩ ⟨4, ![B, C, K, 1]⟩ ⟨3, ![B, C, K]⟩ [] [2] [0, 1] [2] [0, 1] 3 ![1, 1, 1]) :
    GatherDims ⟨3, ![B, C, N]⟩ ⟨4, ![B, C, K, 1]⟩ ⟨3, ![B, C, K]⟩ where
  offsetDims := []
  collapsedSliceDims := [2]
  operandBatchingDims := [0, 1]
  startIndicesBatchingDims := [0, 1]
  startIndexMap := [2]
  indexVectorDim := 3
  sliceSizes := ![1, 1, 1]
  wf := wf

/-- THE READ AT `(b, c, k)`: the operand at `(b, c, p)`, `p` the start index `idx[b, c, k, 0]` read signed and clamped
    into `[0, N − 1]`. -/
theorem gather_takeLast2_apply {B C N K : Nat} (hN : 0 < N)
    (wf : GatherDims.WF ⟨3, ![B, C, N]⟩ ⟨4, ![B, C, K, 1]⟩ ⟨3, ![B, C, K]⟩ [] [2] [0, 1] [2] [0, 1] 3 ![1, 1, 1])
    (x : (⟨3, ![B, C, N]⟩ : Shape).Idx → α) (idx : IVec ⟨4, ![B, C, K, 1]⟩ 32) (b : Fin B) (c : Fin C) (k : Fin K) :
    Host.gather (takeLast2Dims B C N K wf) x idx (ix3 b c k) = x (ix3 b c (clampPos N hN (idx (ix4 b c k 0)))) := by
  unfold Host.gather
  congr 1
  funext a
  refine Fin.ext ?_
  match a with
  | ⟨0, h0⟩ =>
    show (takeLast2Dims B C N K wf).start (ix3 b c k) idx ⟨0, h0⟩ + (takeLast2Dims B C N K wf).batchCoord (ix3 b c k) ⟨0, h0⟩
      + (takeLast2Dims B C N K wf).offCoord (ix3 b c k) ⟨0, h0⟩ = b.val
    have hb : (⟨0, h0⟩ : Fin 3) ∈ (takeLast2Dims B C N K wf).operandBatchingDims := (by decide : (0 : Fin 3) ∈ ([0, 1] : List (Fin 3)))
    have hk : (⟨0, h0⟩ : Fin 3) ∉ (takeLast2Dims B C N K wf).sKept := fun h => ((GatherDims.mem_sKept _ _).mp h).2 hb
    rw [GatherDims.start_batching _ _ _ _ hb, GatherDims.offCoord_eq_zero _ _ _ hk]
    unfold GatherDims.batchCoord
    rw [dif_pos hb]
    simp only [Nat.zero_add, Nat.add_zero]
    rfl
  | ⟨1, h1⟩ =>
    show (takeLast2Dims B C N K wf).start (ix3 b c k) idx ⟨1, h1⟩ + (takeLast2Dims B C N K wf).batchCoord (ix3 b c k) ⟨1, h1⟩
      + (takeLast2Dims B C N K wf).offCoord (ix3 b c k) ⟨1, h1⟩ = c.val
    have hb : (⟨1, h1⟩ : Fin 3) ∈ (takeLast2Dims B C N K wf).operandBatchingDims := (by decide : (1 : Fin 3) ∈ ([0, 1] : List (Fin 3)))
    have hk : (⟨1, h1⟩ : Fin 3) ∉ (takeLast2Dims B C N K wf).sKept := fun h => ((GatherDims.mem_sKept _ _).mp h).2 hb
    rw [GatherDims.start_batching _ _ _ _ hb, GatherDims.offCoord_eq_zero _ _ _ hk]
    unfold GatherDims.batchCoord
    rw [dif_pos hb]
    simp only [Nat.zero_add, Nat.add_zero]
    rfl
  | ⟨2, h2⟩ =>
    show (takeLast2Dims B C N K wf).start (ix3 b c k) idx ⟨2, h2⟩ + (takeLast2Dims B C N K wf).batchCoord (ix3 b c k) ⟨2, h2⟩
      + (takeLast2Dims B C N K wf).offCoord (ix3 b c k) ⟨2, h2⟩ = (clampPos N hN (idx (ix4 b c k 0))).val
    have hb : (⟨2, h2⟩ : Fin 3) ∉ (takeLast2Dims B C N K wf).operandBatchingDims := (by decide : (2 : Fin 3) ∉ ([0, 1] : List (Fin 3)))
    have hk : (⟨2, h2⟩ : Fin 3) ∉ (takeLast2Dims B C N K wf).sKept :=
      fun h => ((GatherDims.mem_sKept _ _).mp h).1 (by decide : (2 : Fin 3) ∈ ([2] : List (Fin 3)))
    have hm : (⟨2, h2⟩ : Fin 3) ∈ (takeLast2Dims B C N K wf).startIndexMap := (by decide : (2 : Fin 3) ∈ ([2] : List (Fin 3)))
    rw [GatherDims.batchCoord_eq_zero _ _ _ hb, GatherDims.offCoord_eq_zero _ _ _ hk]
    simp only [Nat.add_zero]
    unfold GatherDims.start
    rw [dif_pos hm]
    have hsi : (takeLast2Dims B C N K wf).siIdx (ix3 b c k) ⟨List.idxOf (⟨2, h2⟩ : Fin 3) (takeLast2Dims B C N K wf).startIndexMap,
        List.idxOf_lt_length_iff.2 hm⟩ = ix4 b c k 0 := by
      funext e; refine Fin.ext ?_
      match e with
      | ⟨0, _⟩ => rfl
      | ⟨1, _⟩ => rfl
      | ⟨2, _⟩ => rfl
      | ⟨3, _⟩ => rfl
    rw [hsi]
    rfl

/-! ## Gathered axis in the middle: operand `[B, N, C]`, start indices `[B, K, 1]`, result `[B, K, C]` -/

/-- The dimension numbers: offset axis `2` (the whole trailing axis, slice size `C`), collapsed axis `1`, batching axes
    `0` / `0`, start index map `[1]`, index vector axis `2`. -/
abbrev takeMidDims (B N C K : Nat)
    (wf : GatherDims.WF ⟨3, ![B, N, C]⟩ ⟨3, ![B, K, 1]⟩ ⟨3, ![B, K, C]⟩ [2] [1] [0] [1] [0] 2 ![1, 1, C]) :
    GatherDims ⟨3, ![B, N, C]⟩ ⟨3, ![B, K, 1]⟩ ⟨3, ![B, K, C]⟩ where
  offsetDims := [2]
  collapsedSliceDims := [1]
  operandBatchingDims := [0]
  startIndicesBatchingDims := [0]
  startIndexMap := [1]
  indexVectorDim := 2
  sliceSizes := ![1, 1, C]
  wf := wf

/-- THE READ AT `(b, k, c)`: the operand at `(b, p, c)`, `p` the start index `idx[b, k, 0]` read signed and clamped into
    `[0, N − 1]`. -/
theorem gather_takeMid_apply {B N C K : Nat} (hN : 0 < N)
    (wf : GatherDims.WF ⟨3, ![B, N, C]⟩ ⟨3, ![B, K, 1]⟩ ⟨3, ![B, K, C]⟩ [2] [1] [0] [1] [0] 2 ![1, 1, C])
    (x : (⟨3, ![B, N, C]⟩ : Shape).Idx → α) (idx : IVec ⟨3, ![B, K, 1]⟩ 32) (b : Fin B) (k : Fin K) (c : Fin C) :
    Host.gather (takeMidDims B N C K wf) x idx (ix3 b k c) = x (ix3 b (clampPos N hN (idx (ix3 b k 0))) c) := by
  unfold Host.gather
  congr 1
  funext a
  refine Fin.ext ?_
  match a with
  | ⟨0, h0⟩ =>
    show (takeMidDims B N C K wf).start (ix3 b k c) idx ⟨0, h0⟩ + (takeMidDims B N C K wf).batchCoord (ix3 b k c) ⟨0, h0⟩
      + (takeMidDims B N C K wf).offCoord (ix3 b k c) ⟨0, h0⟩ = b.val
    have hb : (⟨0, h0⟩ : Fin 3) ∈ (takeMidDims B N C K wf).operandBatchingDims := (by decide : (0 : Fin 3) ∈ ([0] : List (Fin 3)))
    have hk : (⟨0, h0⟩ : Fin 3) ∉ (takeMidDims B N C K wf).sKept := fun h => ((GatherDims.mem_sKept _ _).mp h).2 hb
    rw [GatherDims.start_batching _ _ _ _ hb, GatherDims.offCoord_eq_zero _ _ _ hk]
    unfold GatherDims.batchCoord
    rw [dif_pos hb]
    simp only [Nat.zero_add, Nat.add_zero]
    rfl
  | ⟨1, h1⟩ =>
    show (takeMidDims B N C K wf).start (ix3 b k c) idx ⟨1, h1⟩ + (takeMidDims B N C K wf).batchCoord (ix3 b k c) ⟨1, h1⟩
      + (takeMidDims B N C K wf).offCoord (ix3 b k c) ⟨1, h1⟩ = (clampPos N hN (idx (ix3 b k 0))).val
    have hb : (⟨1, h1⟩ : Fin 3) ∉ (takeMidDims B N C K wf).operandBatchingDims := (by decide : (1 : Fin 3) ∉ ([0] : List (Fin 3)))
    have hk : (⟨1, h1⟩ : Fin 3) ∉ (takeMidDims B N C K wf).sKept := fun h => ((GatherDims.mem_sKept _ _).mp h).1 (by decide : (1 : Fin 3) ∈ ([1] : List (Fin 3)))
    have hm : (⟨1, h1⟩ : Fin 3) ∈ (takeMidDims B N C K wf).startIndexMap := (by decide : (1 : Fin 3) ∈ ([1] : List (Fin 3)))
    rw [GatherDims.batchCoord_eq_zero _ _ _ hb, GatherDims.offCoord_eq_zero _ _ _ hk]
    simp only [Nat.add_zero]
    unfold GatherDims.start
    rw [dif_pos hm]
    have hsi : (takeMidDims B N C K wf).siIdx (ix3 b k c) ⟨List.idxOf (⟨1, h1⟩ : Fin 3) (takeMidDims B N C K wf).startIndexMap,
        List.idxOf_lt_length_iff.2 hm⟩ = ix3 b k 0 := by
      funext e; refine Fin.ext ?_
      match e with
      | ⟨0, _⟩ => rfl
      | ⟨1, _⟩ => rfl
      | ⟨2, _⟩ => rfl
    rw [hsi]
    rfl
  | ⟨2, h2⟩ =>
    show (takeMidDims B N C K wf).start (ix3 b k c) idx ⟨2, h2⟩ + (takeMidDims B N C K wf).batchCoord (ix3 b k c) ⟨2, h2⟩
      + (takeMidDims B N C K wf).offCoord (ix3 b k c) ⟨2, h2⟩ = c.val
    have hb : (⟨2, h2⟩ : Fin 3) ∉ (takeMidDims B N C K wf).operandBatchingDims := (by decide : (2 : Fin 3) ∉ ([0] : List (Fin 3)))
    have hk : (⟨2, h2⟩ : Fin 3) ∈ (takeMidDims B N C K wf).sKept := (GatherDims.mem_sKept _ _).mpr ⟨(by decide : (2 : Fin 3) ∉ ([1] : List (Fin 3))), hb⟩
    have hm : (⟨2, h2⟩ : Fin 3) ∉ (takeMidDims B N C K wf).startIndexMap := (by decide : (2 : Fin 3) ∉ ([1] : List (Fin 3)))
    rw [GatherDims.batchCoord_eq_zero _ _ _ hb]
    unfold GatherDims.start GatherDims.offCoord
    rw [dif_neg hm, dif_pos hk]
    simp only [Nat.add_zero, Nat.zero_add]
    rfl

end Idealize.ShloMosaic.BatchedTake
-- ==== Proof.KGather.lean ====
/-
  The kernel program's two batched gathers read at an index: each is the operand at the same batch coordinates and the
  position the start index names, read signed and clamped into the gathered axis.
-/
import proofs.«169223_j2216203125376_1_alg».proof.KernelIdeal
import proofs.«169223_j2216203125376_1_alg».proof.Proof.LibBatchedTake

set_option maxRecDepth 16384

namespace Cert.KernelIdeal.KGather

open Idealize.ShloMosaic Idealize.ShloMosaic.ValueIdx Idealize.ShloMosaic.BatchedTake

variable [Facts₀] {α : Type}

/-- The gather of a `[64, 1, 65536]` operand along its last axis, at `(b, 0, k)`: the operand at `(b, 0, p)`, `p` the
    start index `idx[b, k, 0]` read signed and clamped into `[0, 65535]`. -/
theorem gather_h (x : S64x1x65536.Idx → α) (idx : IVec S64x16384x1 32) (b : Fin 64) (k : Fin 16384) :
    Host.gather gather_S64x1x65536_S64x16384x1_S64x1x16384_1_2_0_0_2_2_111 x idx (ix3 b 0 k)
      = x (ix3 b 0 (clampPos 65536 (by decide) (idx (ix3 b k 0)))) :=
  gather_takeLast_apply (B := 64) (C := 1) (N := 65536) (K := 16384) (by decide)
    Facts₀.gather_S64x1x65536_S64x16384x1_S64x1x16384_1_2_0_0_2_2_111_wf x idx b 0 k

/-- The gather of a `[64, 2, 65536]` operand along its last axis, at `(b, ch, k)`: the operand at `(b, ch, p)`, `p` the
    start index `idx[b, ch, k, 0]` read signed and clamped into `[0, 65535]`. -/
theorem gather_off (x : S64x2x65536.Idx → α) (idx : IVec S64x2x16384x1 32) (b : Fin 64) (ch : Fin 2) (k : Fin 16384) :
    Host.gather gather_S64x2x65536_S64x2x16384x1_S64x2x16384_n_2_01_01_2_3_111 x idx (ix3 b ch k)
      = x (ix3 b ch (clampPos 65536 (by decide) (idx (ix4 b ch k 0)))) :=
  gather_takeLast2_apply (B := 64) (C := 2) (N := 65536) (K := 16384) (by decide)
    Facts₀.gather_S64x2x65536_S64x2x16384x1_S64x2x16384_n_2_01_01_2_3_111_wf x idx b ch k

end Cert.KernelIdeal.KGather
-- ==== Proof.KHostA.lean ====
import proofs.«169223_j2216203125376_1_alg».proof.Proof.Gen.KernelIdeal.Frame
import proofs.«169223_j2216203125376_1_alg».proof.Proof.Spec
import proofs.«169223_j2216203125376_1_alg».proof.Proof.KGather
import Idealize.ShloMosaic.Lib.Pipeline.Value
import Idealize.ShloMosaic.Lib.ValueLayout
import Idealize.ShloMosaic.Lib.ValueIdx

set_option maxRecDepth 16384

noncomputable section

namespace Cert.KernelIdeal.KHostA

open Idealize.ShloMosaic Idealize.ShloMosaic.TcCoe Idealize.SL.Sem Idealize.ShloMosaic.ValueIdx Cert.KernelIdeal Cert.KernelIdeal.Gen Cert.IouSpec

variable (m : (ℓ : Loc nD τ sig) → Buf (Elt Ideal) ℓ) (ρ : Dev nD → PrngReg) (c : Dev nD)

/-- The argument arrays as functions of their coordinates. -/
abbrev argH : S64x1x256x256.Idx → EReal := m ((c : Thread nD τ).loc main_arg0)
abbrev argO : S64x2x256x256.Idx → EReal := m ((c : Thread nD τ).loc main_arg1)
abbrev argP : SP.Idx → EReal := m ((c : Thread nD τ).loc main_arg4)
abbrev argA : SA.Idx → BitVec 32 := m ((c : Thread nD τ).loc main_arg5)
abbrev argR : SR.Idx → BitVec 32 := m ((c : Thread nD τ).loc main_arg6)
abbrev argMA : SA.Idx → BitVec 1 := m ((c : Thread nD τ).loc main_arg7)
abbrev argMR : SMR.Idx → BitVec 1 := m ((c : Thread nD τ).loc main_arg8)
/-- The two feature maps with their positions laid end to end. -/
abbrev hf : SHf.Idx → EReal := shapeCast SHf (argH m c) shapeCasts_S64x1x256x256_S64x1x65536
abbrev of_ : SOf.Idx → EReal := shapeCast SOf (argO m c) shapeCasts_S64x2x256x256_S64x2x65536

/-- Contents moved to a typed reference's buffer and back are the contents. -/
theorem ofBuf_toBuf' {Val : EltTy → Type} {T : BufTy} (x : StableHlo.TRef sig T) (v : T.Contents Val) : x.ofBuf (x.toBuf v) = v := by
  obtain ⟨r, rfl, _, _⟩ := x; rfl

/-! ## General facts about the inlined table read -/

/-- An `and`-reduce from 1 over an axis of size one reads the operand. -/
theorem reduce_and_unit3 (X : IVec S64x16384x1 1) (b : Fin 64) (k : Fin 16384) :
    Host.reduce IntOp.andi X (constantI S_ 1 1#1) reducesTo_S64x16384x1_S64x16384_d2 h_S_ (ix2 b k) = X (ix3 b k 0) := by
  rw [Host.reduce_eq_fold_single IntOp.andi X _ reducesTo_S64x16384x1_S64x16384_d2 (by decide) h_S_ (ix2 b k)]
  rw [show (Finset.univ : Finset (Fin (S64x16384x1.size 2))) = {⟨0, by decide⟩} from rfl, Finset.fold_singleton]
  have hl : Shape.Reduces.lift (by decide : S64x16384x1.Reduces [2] S64x16384) (ix2 b k) ⟨0, by decide⟩ = ix3 b k 0 := by
    funext a; fin_cases a <;> rfl
  show IntOp.andi (X (Shape.Reduces.lift _ (ix2 b k) ⟨0, _⟩)) (1#1) = _
  rw [hl]
  generalize X (ix3 b k 0) = x
  revert x; decide

section Stretches
variable (V : Valuation τ sig (Elt Ideal))

/-- The flattened height map after the first stretch. -/
theorem head_v2 : (StableHlo.after (hostOps0 (F := Ideal)) V (Proc.devRef .tc main_v2) : S64x1x65536.Idx → EReal)
    = shapeCast S64x1x65536 (V (Proc.devRef .tc main_arg0) : S64x1x256x256.Idx → EReal) shapeCasts_S64x1x256x256_S64x1x65536 := by
  after_results
  rfl

/-- The attract index words, flattened and given a unit axis, after the first stretch. -/
theorem head_v3 : (StableHlo.after (hostOps0 (F := Ideal)) V (Proc.devRef .tc main_v3) : IVec S64x1x16384 32)
    = broadcastInDim S64x1x16384 ![0, 2] bcast_S64x16384_S64x1x16384_0_2
        (shapeCast S64x16384 (V (Proc.devRef .tc main_arg5) : SA.Idx → BitVec 32) shapeCasts_S64x4096x4_S64x16384) := by
  after_results
  rfl

/-- Word `4 n + cn` of batch `b` is corner `cn` of box `n`. -/
theorem head_v3_apply (b : Fin 64) (cn : Fin 4) (n : Fin 4096) :
    (StableHlo.after (hostOps0 (F := Ideal)) V (Proc.devRef .tc main_v3) : IVec S64x1x16384 32) (ix3 b 0 ⟨4 * n.val + cn.val, by omega⟩)
      = (V (Proc.devRef .tc main_arg5) : SA.Idx → BitVec 32) (ix3 b n cn) := by
  rw [head_v3]
  generalize (V (Proc.devRef .tc main_arg5) : SA.Idx → BitVec 32) = A
  rw [broadcastInDim_apply ![0, 2] bcast_S64x16384_S64x1x16384_0_2 _ (ix3 b 0 ⟨4 * n.val + cn.val, by omega⟩)
    (ix2 b ⟨4 * n.val + cn.val, by omega⟩) (fun a => by fin_cases a <;> rfl)]
  rw [shapeCast_apply _ shapeCasts_S64x4096x4_S64x16384 (ix2 b ⟨4 * n.val + cn.val, by omega⟩) (ix3 b n cn) (by
    rw [Shape.rowMajor_val_three, Shape.rowMajor_val_two]
    show ((b : ℕ) * 4096 + (n : ℕ)) * 4 + (cn : ℕ) = (b : ℕ) * 16384 + (4 * (n : ℕ) + (cn : ℕ))
    omega)]

set_option maxHeartbeats 1000000 in
theorem take1_v4_apply (b : Fin 64) (k : Fin 16384) :
    (StableHlo.after (hostOps0_1 (F := Ideal)) V (Proc.devRef .tc main_v4) : S64x1x16384.Idx → EReal) (ix3 b 0 k)
      = take (fun p => (V (Proc.devRef .tc main_v2) : S64x1x65536.Idx → EReal) (ix3 b 0 p))
          ((V (Proc.devRef .tc main_v3) : IVec S64x1x16384 32) (ix3 b 0 k)) := by
  after_results_simp
  simp only [ofBuf_toBuf']
  have c3 : ∀ v, (StableHlo.TRef.of main_v3 : StableHlo.TRef sig ⟨S64x1x16384, .i32⟩).ofBuf (Val := Elt Ideal) v = v := fun _ => rfl
  have c2 : ∀ v, (StableHlo.TRef.of main_v2 : StableHlo.TRef sig ⟨S64x1x65536, .f32⟩).ofBuf (Val := Elt Ideal) v = v := fun _ => rfl
  have c5 : ∀ v, (StableHlo.TRef.of main_call0_v5 : StableHlo.TRef sig ⟨S64x16384x1, .i32⟩).ofBuf (Val := Elt Ideal) v = v := fun _ => rfl
  have c4 : ∀ v : (⟨S64x1x16384, .i32⟩ : BufTy).Contents (Elt Ideal), (StableHlo.TRef.of main_call0_v4 : StableHlo.TRef sig ⟨S64x1x16384, .i32⟩).toBuf v = v := fun _ => rfl
  have c4' : ∀ v : (⟨S64x1x16384, .f32⟩ : BufTy).Contents (Elt Ideal), (StableHlo.TRef.of main_v4 : StableHlo.TRef sig ⟨S64x1x16384, .f32⟩).toBuf v = v := fun _ => rfl
  simp only [c3, c2, c5, c4, c4']
  clear c3 c2 c5 c4 c4'
  generalize (V (Proc.devRef .tc main_v3)) = w
  generalize (V (Proc.devRef .tc main_v2)) = T
  rw [select_apply]
  rw [broadcastInDim_apply ![0, 2] bcast_S64x16384_S64x1x16384_0_2 _ (ix3 b 0 k) (ix2 b k) (fun a => by fin_cases a <;> rfl)]
  rw [reduce_and_unit3]
  rw [KGather.gather_h]
  have hI : ∀ (X : IVec S64x1x16384 32) (h : S64x1x16384.ShapeCasts main_call0_v5.ty.shape),
      shapeCast main_call0_v5.ty.shape X h (ix3 b k 0) = X (ix3 b 0 k) := fun X h =>
    shapeCast_apply X h (ix3 b k 0) (ix3 b 0 k) (by
      show (S64x1x16384.rowMajor (ix3 b 0 k)).val = (S64x16384x1.rowMajor (ix3 b k 0)).val
      rw [Shape.rowMajor_val_three, Shape.rowMajor_val_three]
      show ((b : ℕ) * 1 + 0) * 16384 + (k : ℕ) = ((b : ℕ) * 16384 + (k : ℕ)) * 1 + 0
      omega)
  have ha : ∀ (x y : IVec S64x16384x1 1) i, andi x y i = IntOp.andi (x i) (y i) := fun _ _ _ => rfl
  have hc : ∀ p (x y : IVec S64x16384x1 32) i, cmpi p x y i = IntOp.cmpi p (x i) (y i) := fun _ _ _ _ => rfl
  simp only [ha, hc, hI]
  rfl

/-- The next two stretches leave the gathered heights alone. -/
theorem skip_v4 : (StableHlo.after (hostOps0_3 (F := Ideal)) (StableHlo.after (hostOps0_2 (F := Ideal)) V) (Proc.devRef .tc main_v4) : S64x1x16384.Idx → EReal)
    = V (Proc.devRef .tc main_v4) := by
  after_results

/-- The gathered heights regrouped by box and corner, then laid out corner-major. -/
theorem tail_v11 : (StableHlo.after (hostOps0_8 (F := Ideal)) (StableHlo.after (hostOps0_7 (F := Ideal)) (StableHlo.after (hostOps0_6 (F := Ideal))
      (StableHlo.after (hostOps0_5 (F := Ideal)) (StableHlo.after (hostOps0_4 (F := Ideal)) V)))) (Proc.devRef .tc main_v11) : SKh.Idx → EReal)
    = transpose S64x4x4096 [0, 2, 1] (shapeCast S64x4096x4 (shapeCast S64x1x4096x4 (V (Proc.devRef .tc main_v4) : S64x1x16384.Idx → EReal)
        shapeCasts_S64x1x16384_S64x1x4096x4) shapeCasts_S64x1x4096x4_S64x4096x4) transposes_S64x4096x4_S64x4x4096_0_2_1 := by
  after_results
  rfl

theorem tail_v11_apply (b : Fin 64) (cn : Fin 4) (n : Fin 4096) :
    (StableHlo.after (hostOps0_8 (F := Ideal)) (StableHlo.after (hostOps0_7 (F := Ideal)) (StableHlo.after (hostOps0_6 (F := Ideal))
      (StableHlo.after (hostOps0_5 (F := Ideal)) (StableHlo.after (hostOps0_4 (F := Ideal)) V)))) (Proc.devRef .tc main_v11) : SKh.Idx → EReal) (ix3 b cn n)
      = (V (Proc.devRef .tc main_v4) : S64x1x16384.Idx → EReal) (ix3 b 0 ⟨4 * n.val + cn.val, by omega⟩) := by
  rw [tail_v11]
  generalize (V (Proc.devRef .tc main_v4) : S64x1x16384.Idx → EReal) = X
  rw [transpose_apply [0, 2, 1] _ transposes_S64x4096x4_S64x4x4096_0_2_1 (ix3 b cn n) (ix3 b n cn) (fun a => by fin_cases a <;> rfl)]
  rw [shapeCast_apply _ shapeCasts_S64x1x4096x4_S64x4096x4 (ix3 b n cn) (ix4 b 0 n cn) (by
    rw [Shape.rowMajor_val_four, Shape.rowMajor_val_three]
    show ((((b : ℕ) * 1 + 0) * 4096 + (n : ℕ)) * 4 + (cn : ℕ)) = ((b : ℕ) * 4096 + (n : ℕ)) * 4 + (cn : ℕ)
    omega)]
  rw [shapeCast_apply _ shapeCasts_S64x1x16384_S64x1x4096x4 (ix4 b 0 n cn) (ix3 b 0 ⟨4 * n.val + cn.val, by omega⟩) (by
    rw [Shape.rowMajor_val_three, Shape.rowMajor_val_four]
    show ((b : ℕ) * 1 + 0) * 16384 + (4 * (n : ℕ) + (cn : ℕ)) = ((((b : ℕ) * 1 + 0) * 4096 + (n : ℕ)) * 4 + (cn : ℕ))
    omega)]

end Stretches

/-- The gathered heights, corner-major: corner `cn` of box `n` of batch `b` reads the height table at its index word. -/
theorem v11_apply (b : Fin 64) (cn : Fin 4) (n : Fin 4096) :
    (V9 m ρ c main_v11 : SKh.Idx → EReal) (ix3 b cn n) = aH (hf m c) (argA m c) b n cn := by
  dsimp only [V9, W9, W8, W7, W6, W5, W4, W3, W2, W1]
  rw [tail_v11_apply, skip_v4, take1_v4_apply, head_v3_apply, head_v2]
  rfl

/-- The attract mask converted to factors and laid out corner-major, as an array. -/
theorem v17_e : (V9 m ρ c main_v17 : SKh.Idx → EReal) = transpose S64x4x4096 [0, 2, 1] (uitofp (F := Ideal) .f32 (argMA m c)) transposes_S64x4096x4_S64x4x4096_0_2_1 := by
  dsimp only [V9, W9, W8, W7, W6, W5, W4, W3, W2, W1, W0]
  simp only [hostOps0_8, hostOps0_7, hostOps0_6, hostOps0_5, hostOps0_4]
  after_results

theorem v17_apply (b : Fin 64) (cn : Fin 4) (n : Fin 4096) :
    (V9 m ρ c main_v17 : SKh.Idx → EReal) (ix3 b cn n) = mf (argMA m c (ix3 b n cn)) := by
  rw [v17_e]
  generalize argMA m c = M
  rw [transpose_apply [0, 2, 1] _ transposes_S64x4096x4_S64x4x4096_0_2_1 (ix3 b cn n) (ix3 b n cn) (fun a => by fin_cases a <;> rfl)]
  rfl

/-- The attract count converted to a float, as an array of one element. -/
theorem v40_eq : (V9 m ρ c main_v40 : S_.Idx → EReal) = fun _ => (((countA (argMA m c) reducesTo_S64x4096x4_S_d0_1_2).toInt : ℝ) : EReal) := by
  have e : (V9 m ρ c main_v40 : S_.Idx → EReal) = sitofp (F := Ideal) .f32 (Host.reduce IntOp.addi (extui 32 (argMA m c) natLt_1_32) (constantI S_ 32 0#32) reducesTo_S64x4096x4_S_d0_1_2 h_S_) := by
    dsimp only [V9, W9, W8, W7, W6, W5, W4, W3, W2, W1, W0]
    simp only [hostOps0_8]
    after_results
  rw [e]
  generalize argMA m c = M
  funext i
  have hi : i = ix0 := Subsingleton.elim _ _
  subst hi
  rfl

end Cert.KernelIdeal.KHostA

end
-- ==== Proof.KHostA15.lean ====
import proofs.«169223_j2216203125376_1_alg».proof.Proof.Gen.KernelIdeal.Frame
import proofs.«169223_j2216203125376_1_alg».proof.Proof.Spec
import proofs.«169223_j2216203125376_1_alg».proof.Proof.KGather
import Idealize.ShloMosaic.Lib.Pipeline.Value
import Idealize.ShloMosaic.Lib.ValueLayout
import Idealize.ShloMosaic.Lib.ValueIdx

set_option maxRecDepth 16384

noncomputable section

namespace Cert.KernelIdeal.KHostA15

open Idealize.ShloMosaic Idealize.ShloMosaic.TcCoe Idealize.SL.Sem Idealize.ShloMosaic.ValueIdx Cert.KernelIdeal Cert.KernelIdeal.Gen Cert.IouSpec

variable (m : (ℓ : Loc nD τ sig) → Buf (Elt Ideal) ℓ) (ρ : Dev nD → PrngReg) (c : Dev nD)

/-- The argument arrays as functions of their coordinates. -/
abbrev argH : S64x1x256x256.Idx → EReal := m ((c : Thread nD τ).loc main_arg0)
abbrev argO : S64x2x256x256.Idx → EReal := m ((c : Thread nD τ).loc main_arg1)
abbrev argP : SP.Idx → EReal := m ((c : Thread nD τ).loc main_arg4)
abbrev argA : SA.Idx → BitVec 32 := m ((c : Thread nD τ).loc main_arg5)
abbrev argR : SR.Idx → BitVec 32 := m ((c : Thread nD τ).loc main_arg6)
abbrev argMA : SA.Idx → BitVec 1 := m ((c : Thread nD τ).loc main_arg7)
abbrev argMR : SMR.Idx → BitVec 1 := m ((c : Thread nD τ).loc main_arg8)
/-- The two feature maps with their positions laid end to end. -/
abbrev hf : SHf.Idx → EReal := shapeCast SHf (argH m c) shapeCasts_S64x1x256x256_S64x1x65536
abbrev of_ : SOf.Idx → EReal := shapeCast SOf (argO m c) shapeCasts_S64x2x256x256_S64x2x65536

/-- Contents moved to a typed reference's buffer and back are the contents. -/
theorem ofBuf_toBuf' {Val : EltTy → Type} {T : BufTy} (x : StableHlo.TRef sig T) (v : T.Contents Val) : x.ofBuf (x.toBuf v) = v := by
  obtain ⟨r, rfl, _, _⟩ := x; rfl

/-- An `and`-reduce from 1 over an axis of size one reads the operand. -/
theorem reduce_and_unit4 (X : IVec S64x2x16384x1 1) (b : Fin 64) (ch : Fin 2) (k : Fin 16384) :
    Host.reduce IntOp.andi X (constantI S_ 1 1#1) reducesTo_S64x2x16384x1_S64x2x16384_d3 h_S_ (ix3 b ch k) = X (ix4 b ch k 0) := by
  rw [Host.reduce_eq_fold_single IntOp.andi X _ reducesTo_S64x2x16384x1_S64x2x16384_d3 (by decide) h_S_ (ix3 b ch k)]
  rw [show (Finset.univ : Finset (Fin (S64x2x16384x1.size 3))) = {⟨0, by decide⟩} from rfl, Finset.fold_singleton]
  have hl : Shape.Reduces.lift (by decide : S64x2x16384x1.Reduces [3] S64x2x16384) (ix3 b ch k) ⟨0, by decide⟩ = ix4 b ch k 0 := by
    funext a; fin_cases a <;> rfl
  show IntOp.andi (X (Shape.Reduces.lift _ (ix3 b ch k) ⟨0, _⟩)) (1#1) = _
  rw [hl]
  generalize X (ix4 b ch k 0) = x
  revert x; decide

section Stretches
variable (V : Valuation τ sig (Elt Ideal))

set_option maxHeartbeats 1000000 in
/-- The inlined table read of the offsets: entry (b, ch, k) is the table of batch b, channel ch, read at the word there. -/
theorem take2_v8_apply (b : Fin 64) (ch : Fin 2) (k : Fin 16384) :
    (StableHlo.after (hostOps0_3 (F := Ideal)) V (Proc.devRef .tc main_v8) : S64x2x16384.Idx → EReal) (ix3 b ch k)
      = take (fun p => (V (Proc.devRef .tc main_v5) : S64x2x65536.Idx → EReal) (ix3 b ch p))
          ((V (Proc.devRef .tc main_v7) : IVec S64x2x16384 32) (ix3 b ch k)) := by
  after_results_simp
  simp only [ofBuf_toBuf']
  have c7 : ∀ v, (StableHlo.TRef.of main_v7 : StableHlo.TRef sig ⟨S64x2x16384, .i32⟩).ofBuf (Val := Elt Ideal) v = v := fun _ => rfl
  have c5 : ∀ v, (StableHlo.TRef.of main_v5 : StableHlo.TRef sig ⟨S64x2x65536, .f32⟩).ofBuf (Val := Elt Ideal) v = v := fun _ => rfl
  have d5 : ∀ v, (StableHlo.TRef.of main_call1_v5 : StableHlo.TRef sig ⟨S64x2x16384x1, .i32⟩).ofBuf (Val := Elt Ideal) v = v := fun _ => rfl
  have d4 : ∀ v : (⟨S64x2x16384, .i32⟩ : BufTy).Contents (Elt Ideal), (StableHlo.TRef.of main_call1_v4 : StableHlo.TRef sig ⟨S64x2x16384, .i32⟩).toBuf v = v := fun _ => rfl
  have d8 : ∀ v : (⟨S64x2x16384, .f32⟩ : BufTy).Contents (Elt Ideal), (StableHlo.TRef.of main_v8 : StableHlo.TRef sig ⟨S64x2x16384, .f32⟩).toBuf v = v := fun _ => rfl
  simp only [c7, c5, d5, d4, d8]
  clear c7 c5 d5 d4 d8
  generalize (V (Proc.devRef .tc main_v7)) = w
  generalize (V (Proc.devRef .tc main_v5)) = T
  rw [select_apply]
  rw [reduce_and_unit4]
  rw [KGather.gather_off]
  have hI : ∀ (X : IVec S64x2x16384 32) (h : S64x2x16384.ShapeCasts main_call1_v5.ty.shape),
      shapeCast main_call1_v5.ty.shape X h (ix4 b ch k 0) = X (ix3 b ch k) := fun X h =>
    shapeCast_apply X h (ix4 b ch k 0) (ix3 b ch k) (by
      show (S64x2x16384.rowMajor (ix3 b ch k)).val = (S64x2x16384x1.rowMajor (ix4 b ch k 0)).val
      rw [Shape.rowMajor_val_three, Shape.rowMajor_val_four]
      show ((b : ℕ) * 2 + (ch : ℕ)) * 16384 + (k : ℕ) = (((b : ℕ) * 2 + (ch : ℕ)) * 16384 + (k : ℕ)) * 1 + 0
      omega)
  have ha : ∀ (x y : IVec S64x2x16384x1 1) i, andi x y i = IntOp.andi (x i) (y i) := fun _ _ _ => rfl
  have hc : ∀ p (x y : IVec S64x2x16384x1 32) i, cmpi p x y i = IntOp.cmpi p (x i) (y i) := fun _ _ _ _ => rfl
  simp only [ha, hc, hI]
  rfl
end Stretches

section Stretches2
variable (V : Valuation τ sig (Elt Ideal))

set_option maxHeartbeats 1000000 in
/-- The offsets array is the gathered offsets laid out corner-major plus the corner table broadcast over batches and boxes. -/
theorem tail_v15 :
    (StableHlo.after (hostOps0_8 (F := Ideal)) (StableHlo.after hostOps0_7 (StableHlo.after hostOps0_6 (StableHlo.after hostOps0_5 (StableHlo.after hostOps0_4 V)))) (Proc.devRef .tc main_v15) : S64x4x2x4096.Idx → EReal)
      = addf (F := Ideal) (φ := .f32) (transpose S64x4x2x4096 [0, 3, 1, 2] (shapeCast S64x2x4096x4 (V (Proc.devRef .tc main_v8) : S64x2x16384.Idx → EReal) shapeCasts_S64x2x16384_S64x2x4096x4) transposes_S64x2x4096x4_S64x4x2x4096_0_3_1_2)
          (broadcastInDim S64x4x2x4096 ![0, 1, 2, 3] bcast_S1x4x2x1_S64x4x2x4096_0_1_2_3 (V (Proc.devRef .tc main_cst) : S1x4x2x1.Idx → EReal)) := by
  after_results_simp
  rfl

set_option maxHeartbeats 1000000 in
/-- The offsets table: the second feature map with its positions laid end to end. -/
theorem head_v5 :
    (StableHlo.after (hostOps0_2 (F := Ideal)) (StableHlo.after hostOps0_1 (StableHlo.after hostOps0 V)) (Proc.devRef .tc main_v5) : S64x2x65536.Idx → EReal)
      = shapeCast S64x2x65536 (V (Proc.devRef .tc main_arg1) : S64x2x256x256.Idx → EReal) shapeCasts_S64x2x256x256_S64x2x65536 := by
  after_results_simp
  rfl

set_option maxHeartbeats 1000000 in
/-- The index words: the attract indices flattened per batch and repeated for the two channels. -/
theorem head_v7 :
    (StableHlo.after (hostOps0_2 (F := Ideal)) (StableHlo.after hostOps0_1 (StableHlo.after hostOps0 V)) (Proc.devRef .tc main_v7) : IVec S64x2x16384 32)
      = broadcastInDim S64x2x16384 ![0, 1, 2] bcast_S64x1x16384_S64x2x16384_0_1_2
          (broadcastInDim S64x1x16384 ![0, 2] bcast_S64x16384_S64x1x16384_0_2
            (shapeCast S64x16384 (V (Proc.devRef .tc main_arg5) : IVec S64x4096x4 32) shapeCasts_S64x4096x4_S64x16384)) := by
  after_results_simp
  rfl

set_option maxHeartbeats 1000000 in
/-- The corner table as the program's literal. -/
theorem head_cst :
    (StableHlo.after (hostOps0_3 (F := Ideal)) (StableHlo.after hostOps0_2 (StableHlo.after hostOps0_1 (StableHlo.after hostOps0 V))) (Proc.devRef .tc main_cst) : S1x4x2x1.Idx → EReal)
      = fun i => Ideal.ofBits .f32 (lit0 (S1x4x2x1.rowMajor i)) := by
  after_results_simp
  rfl

end Stretches2

/-- The corner table's entry for corner `cn`, channel `ch` is the unit square's corner offset. -/
theorem lit0_offs (cn : Fin 4) (ch : Fin 2) :
    Ideal.ofBits .f32 (lit0 (S1x4x2x1.rowMajor (ix4 (0 : Fin 1) cn ch (0 : Fin 1)))) = offs cn ch := by
  fin_cases cn <;> fin_cases ch <;> rfl

/-- The attract launch's offsets array at (b, corner, channel, box): the offset table of batch b read at the box's corner
    index word, plus the corner's unit offset. -/
theorem v15_apply (b : Fin 64) (cn : Fin 4) (ch : Fin 2) (n : Fin 4096) :
    (V9 m ρ c main_v15 : SKo.Idx → EReal) (ix4 b cn ch n) = aO (of_ m c) (argA m c) b n cn ch := by
  have hk : 4 * n.val + cn.val < 16384 := by omega
  refine (congrFun (tail_v15 (W4 m ρ c)) (ix4 b cn ch n)).trans ?_
  refine (addf_apply _ _ _).trans ?_
  refine congrArg₂ (· + ·) ?_ ?_
  · refine (transpose_apply [0, 3, 1, 2] _ transposes_S64x2x4096x4_S64x4x2x4096_0_3_1_2 (ix4 b cn ch n) (ix4 b ch n cn) (fun a => by fin_cases a <;> rfl)).trans ?_
    refine (shapeCast_apply _ shapeCasts_S64x2x16384_S64x2x4096x4 (ix4 b ch n cn) (ix3 b ch ⟨4 * n.val + cn.val, hk⟩) ?_).trans ?_
    · rw [Shape.rowMajor_val_three, Shape.rowMajor_val_four]
      show ((b : ℕ) * 2 + (ch : ℕ)) * 16384 + (4 * (n : ℕ) + (cn : ℕ)) = ((((b : ℕ) * 2 + (ch : ℕ)) * 4096 + (n : ℕ)) * 4 + (cn : ℕ))
      omega
    refine (take2_v8_apply (W3 m ρ c) b ch ⟨4 * n.val + cn.val, hk⟩).trans ?_
    have hw : (W3 m ρ c (Proc.devRef .tc main_v7) : IVec S64x2x16384 32) (ix3 b ch ⟨4 * n.val + cn.val, hk⟩) = argA m c (ix3 b n cn) := by
      refine (congrFun (head_v7 (W0 m ρ c)) _).trans ?_
      refine (broadcastInDim_apply ![0, 1, 2] bcast_S64x1x16384_S64x2x16384_0_1_2 _ (ix3 b ch ⟨4 * n.val + cn.val, hk⟩) (ix3 b 0 ⟨4 * n.val + cn.val, hk⟩) (fun a => by fin_cases a <;> rfl)).trans ?_
      refine (broadcastInDim_apply ![0, 2] bcast_S64x16384_S64x1x16384_0_2 _ (ix3 b 0 ⟨4 * n.val + cn.val, hk⟩) (ix2 b ⟨4 * n.val + cn.val, hk⟩) (fun a => by fin_cases a <;> rfl)).trans ?_
      refine (shapeCast_apply _ shapeCasts_S64x4096x4_S64x16384 (ix2 b ⟨4 * n.val + cn.val, hk⟩) (ix3 b n cn) ?_).trans rfl
      rw [Shape.rowMajor_val_three, Shape.rowMajor_val_two]
      show ((b : ℕ) * 4096 + (n : ℕ)) * 4 + (cn : ℕ) = (b : ℕ) * 16384 + (4 * (n : ℕ) + (cn : ℕ))
      omega
    have ht : (W3 m ρ c (Proc.devRef .tc main_v5) : S64x2x65536.Idx → EReal) = of_ m c := head_v5 (W0 m ρ c)
    exact congrArg₂ take (funext fun p => congrFun ht (ix3 b ch p)) hw
  · refine (broadcastInDim_apply ![0, 1, 2, 3] bcast_S1x4x2x1_S64x4x2x4096_0_1_2_3 _ (ix4 b cn ch n) (ix4 (0 : Fin 1) cn ch (0 : Fin 1)) (fun a => by fin_cases a <;> rfl)).trans ?_
    exact (congrFun (head_cst (W0 m ρ c)) _).trans (lit0_offs cn ch)

end Cert.KernelIdeal.KHostA15

end
-- ==== Proof.KHostR.lean ====
/-
  The repel launch's four input arrays and the repel count, read at an index as the specification's functions of the
  argument arrays.

  The heights' array `[64, 8, 2048]` holds at `(b, 4·bx + cn, m)` batch `b`'s height table read at the index word
  `R (b, m, bx, cn)`; the offsets' array `[64, 8, 2, 2048]` holds at `(b, 4·bx + cn, ch, m)` channel `ch` of the offset
  table read at the same word plus corner `cn`'s unit-square offset; the mask array `[64, 1, 2048]` holds the mask bit
  of pair `(b, m)` as a factor; the extra offsets' array `[64, 2, 2048]` is `P` with its last two axes exchanged; the
  count is the number of set mask bits, converted.

  A table read "along its last axis" is composed of a wrap of the negative words, a batched gather at the clamped
  position, an in-range bit reduced by `and` over an axis of extent one, and a select against the fill value; at an
  index this is `IouSpec.take` (`takeH_apply`, `takeO_apply`). The layout operations between (shape casts, transposes,
  broadcasts) move one index to one index, by row-major arithmetic.
-/
import proofs.«169223_j2216203125376_1_alg».proof.Proof.Gen.KernelIdeal.Frame
import proofs.«169223_j2216203125376_1_alg».proof.Proof.Spec
import proofs.«169223_j2216203125376_1_alg».proof.Proof.KGather
import Idealize.ShloMosaic.Lib.Pipeline.Value

set_option maxRecDepth 16384

noncomputable section

namespace Cert.KernelIdeal.KHostR

open Idealize.ShloMosaic Idealize.ShloMosaic.TcCoe Idealize.SL.Sem Idealize.ShloMosaic.ValueIdx Cert.KernelIdeal Cert.KernelIdeal.Gen Cert.IouSpec

variable (m : (ℓ : Loc nD τ sig) → Buf (Elt Ideal) ℓ) (ρ : Dev nD → PrngReg) (c : Dev nD)

/-- The argument arrays as functions of their coordinates. -/
abbrev argH : S64x1x256x256.Idx → EReal := m ((c : Thread nD τ).loc main_arg0)
abbrev argO : S64x2x256x256.Idx → EReal := m ((c : Thread nD τ).loc main_arg1)
abbrev argP : SP.Idx → EReal := m ((c : Thread nD τ).loc main_arg4)
abbrev argA : SA.Idx → BitVec 32 := m ((c : Thread nD τ).loc main_arg5)
abbrev argR : SR.Idx → BitVec 32 := m ((c : Thread nD τ).loc main_arg6)
abbrev argMA : SA.Idx → BitVec 1 := m ((c : Thread nD τ).loc main_arg7)
abbrev argMR : SMR.Idx → BitVec 1 := m ((c : Thread nD τ).loc main_arg8)
/-- The two feature maps with their positions laid end to end. -/
abbrev hf : SHf.Idx → EReal := shapeCast SHf (argH m c) shapeCasts_S64x1x256x256_S64x1x65536
abbrev of_ : SOf.Idx → EReal := shapeCast SOf (argO m c) shapeCasts_S64x2x256x256_S64x2x65536

/-- Contents moved to a typed reference's buffer type and back are the contents. -/
theorem ofBuf_toBuf' {Val : EltTy → Type} {T : BufTy} (x : StableHlo.TRef sig T) (v : T.Contents Val) : x.ofBuf (x.toBuf v) = v := by
  obtain ⟨r, rfl, _, _⟩ := x
  rfl

/-! ## A table read along its last axis at index words: the height table's form -/

/-- `IntOp.andi` with the set bit is the identity on a bit. -/
theorem andi_one (y : BitVec 1) : IntOp.andi y 1#1 = y := by
  show y &&& 1#1 = y
  exact BitVec.and_allOnes

/-- The index words with the negative ones wrapped by the table's length, laid out `[64, 16384, 1]`. -/
def idxH (w : IVec S64x1x16384 32) : IVec S64x16384x1 32 :=
  shapeCast S64x16384x1 (select (cmpi .slt w (broadcastInDim S64x1x16384 ![] bcast_S_S64x1x16384 (constantI S_ 32 0#32)))
    (addi w (broadcastInDim S64x1x16384 ![] bcast_S_S64x1x16384 (constantI S_ 32 65536#32))) w) shapeCasts_S64x1x16384_S64x16384x1

theorem idxH_apply (w : IVec S64x1x16384 32) (b : Fin 64) (k : Fin 16384) : idxH w (ix3 b k 0) = wrapW (w (ix3 b 0 k)) := by
  unfold idxH
  rw [shapeCast_apply _ shapeCasts_S64x1x16384_S64x16384x1 (ix3 b k 0) (ix3 b 0 k) (by
    rw [Shape.rowMajor_val_three, Shape.rowMajor_val_three]
    show (b.val * 1 + 0) * 16384 + k.val = (b.val * 16384 + k.val) * 1 + 0
    omega)]
  rfl

/-- Which of the wrapped words name a position of the table, laid out `[64, 1, 16384]`. -/
def okH (v : IVec S64x16384x1 32) : IVec S64x1x16384 1 :=
  broadcastInDim S64x1x16384 ![0, 2] bcast_S64x16384_S64x1x16384_0_2
    (Host.reduce IntOp.andi
      (andi (cmpi .sge v (broadcastInDim S64x16384x1 ![] bcast_S_S64x16384x1 (constantI S_ 32 0#32)))
        (cmpi .sle v (broadcastInDim S64x16384x1 ![0, 1, 2] bcast_S1x1x1_S64x16384x1_0_1_2
          (broadcastInDim S1x1x1 ![2] bcast_S1_S1x1x1_2 (constantI S1 32 65535#32)))))
      (constantI S_ 1 1#1) reducesTo_S64x16384x1_S64x16384_d2 h_S_)

theorem okH_apply (v : IVec S64x16384x1 32) (b : Fin 64) (k : Fin 16384) : okH v (ix3 b 0 k) = okW (v (ix3 b k 0)) := by
  unfold okH
  refine (broadcastInDim_apply _ _ _ _ (ix2 b k) (fun a => match a with | ⟨0, _⟩ => rfl | ⟨1, _⟩ => rfl)).trans ?_
  have hR : S64x16384x1.Reduces [2] S64x16384 := by decide
  rw [Host.reduce_eq_fold_single IntOp.andi _ _ reducesTo_S64x16384x1_S64x16384_d2 hR h_S_ (ix2 b k)]
  have hu : (Finset.univ : Finset (Fin (S64x16384x1.size 2))) = {⟨0, by decide⟩} := rfl
  have hl : hR.lift (ix2 b k) (⟨0, by decide⟩ : Fin (S64x16384x1.size 2)) = ix3 b k 0 := by
    funext a
    apply Fin.ext
    rw [hR.lift_val]
    match a with
    | ⟨0, _⟩ => rfl
    | ⟨1, _⟩ => rfl
    | ⟨2, _⟩ => rfl
  rw [hu, Finset.fold_singleton]
  show IntOp.andi (andi _ _ (hR.lift (ix2 b k) (⟨0, by decide⟩ : Fin (S64x16384x1.size 2)))) 1#1 = _
  rw [hl, andi_one]
  rfl

/-- `take_along_axis` of a `[64, 1, 65536]` table at `[64, 1, 16384]` index words, as the program composes it. -/
def takeH (x : S64x1x65536.Idx → EReal) (w : IVec S64x1x16384 32) : S64x1x16384.Idx → EReal :=
  select (okH (idxH w)) (Host.gather gather_S64x1x65536_S64x16384x1_S64x1x16384_1_2_0_0_2_2_111 x (idxH w))
    (broadcastInDim S64x1x16384 ![] bcast_S_S64x1x16384 (constant (F := Ideal) S_ .f32 0x7FC00000#32))

/-- At `(b, 0, k)` it is batch `b`'s table read at the word there. -/
theorem takeH_apply (x : S64x1x65536.Idx → EReal) (w : IVec S64x1x16384 32) (b : Fin 64) (k : Fin 16384) :
    takeH x w (ix3 b 0 k) = take (fun p => x (ix3 b 0 p)) (w (ix3 b 0 k)) := by
  unfold takeH
  rw [select_apply, okH_apply, KGather.gather_h, idxH_apply]
  rfl

/-! ## The same for the offset table, two channels -/

/-- The index words with the negative ones wrapped by the table's length, laid out `[64, 2, 16384, 1]`. -/
def idxO (w : IVec S64x2x16384 32) : IVec S64x2x16384x1 32 :=
  shapeCast S64x2x16384x1 (select (cmpi .slt w (broadcastInDim S64x2x16384 ![] bcast_S_S64x2x16384 (constantI S_ 32 0#32)))
    (addi w (broadcastInDim S64x2x16384 ![] bcast_S_S64x2x16384 (constantI S_ 32 65536#32))) w) shapeCasts_S64x2x16384_S64x2x16384x1

theorem idxO_apply (w : IVec S64x2x16384 32) (b : Fin 64) (ch : Fin 2) (k : Fin 16384) :
    idxO w (ix4 b ch k 0) = wrapW (w (ix3 b ch k)) := by
  unfold idxO
  rw [shapeCast_apply _ shapeCasts_S64x2x16384_S64x2x16384x1 (ix4 b ch k 0) (ix3 b ch k) (by
    rw [Shape.rowMajor_val_three, Shape.rowMajor_val_four]
    show (b.val * 2 + ch.val) * 16384 + k.val = ((b.val * 2 + ch.val) * 16384 + k.val) * 1 + 0
    omega)]
  rfl

/-- Which of the wrapped words name a position of the table, laid out `[64, 2, 16384]`. -/
def okO (v : IVec S64x2x16384x1 32) : IVec S64x2x16384 1 :=
  Host.reduce IntOp.andi
    (andi (cmpi .sge v (broadcastInDim S64x2x16384x1 ![] bcast_S_S64x2x16384x1 (constantI S_ 32 0#32)))
      (cmpi .sle v (broadcastInDim S64x2x16384x1 ![0, 1, 2, 3] bcast_S1x1x1x1_S64x2x16384x1_0_1_2_3
        (broadcastInDim S1x1x1x1 ![3] bcast_S1_S1x1x1x1_3 (constantI S1 32 65535#32)))))
    (constantI S_ 1 1#1) reducesTo_S64x2x16384x1_S64x2x16384_d3 h_S_

theorem okO_apply (v : IVec S64x2x16384x1 32) (b : Fin 64) (ch : Fin 2) (k : Fin 16384) :
    okO v (ix3 b ch k) = okW (v (ix4 b ch k 0)) := by
  unfold okO
  have hR : S64x2x16384x1.Reduces [3] S64x2x16384 := by decide
  rw [Host.reduce_eq_fold_single IntOp.andi _ _ reducesTo_S64x2x16384x1_S64x2x16384_d3 hR h_S_ (ix3 b ch k)]
  have hu : (Finset.univ : Finset (Fin (S64x2x16384x1.size 3))) = {⟨0, by decide⟩} := rfl
  have hl : hR.lift (ix3 b ch k) (⟨0, by decide⟩ : Fin (S64x2x16384x1.size 3)) = ix4 b ch k 0 := by
    funext a
    apply Fin.ext
    rw [hR.lift_val]
    match a with
    | ⟨0, _⟩ => rfl
    | ⟨1, _⟩ => rfl
    | ⟨2, _⟩ => rfl
    | ⟨3, _⟩ => rfl
  rw [hu, Finset.fold_singleton]
  show IntOp.andi (andi _ _ (hR.lift (ix3 b ch k) (⟨0, by decide⟩ : Fin (S64x2x16384x1.size 3)))) 1#1 = _
  rw [hl, andi_one]
  rfl

/-- `take_along_axis` of a `[64, 2, 65536]` table at `[64, 2, 16384]` index words, as the program composes it. -/
def takeO (x : S64x2x65536.Idx → EReal) (w : IVec S64x2x16384 32) : S64x2x16384.Idx → EReal :=
  select (okO (idxO w)) (Host.gather gather_S64x2x65536_S64x2x16384x1_S64x2x16384_n_2_01_01_2_3_111 x (idxO w))
    (broadcastInDim S64x2x16384 ![] bcast_S_S64x2x16384 (constant (F := Ideal) S_ .f32 0x7FC00000#32))

/-- At `(b, ch, k)` it is channel `ch` of batch `b`'s table read at the word there. -/
theorem takeO_apply (x : S64x2x65536.Idx → EReal) (w : IVec S64x2x16384 32) (b : Fin 64) (ch : Fin 2) (k : Fin 16384) :
    takeO x w (ix3 b ch k) = take (fun p => x (ix3 b ch p)) (w (ix3 b ch k)) := by
  unfold takeO
  rw [select_apply, okO_apply, KGather.gather_off, idxO_apply]
  rfl

/-! ## The repel heights -/

/-- The repel index words laid out `[64, 1, 16384]`. -/
abbrev wR : IVec S64x1x16384 32 :=
  broadcastInDim S64x1x16384 ![0, 2] bcast_S64x16384_S64x1x16384_0_2 (shapeCast S64x16384 (argR m c) shapeCasts_S64x2048x2x4_S64x16384)

theorem wR_apply (b : Fin 64) (mm : Fin 2048) (bx : Fin 2) (cn : Fin 4) (K : Fin 16384) (hK : K.val = (mm.val * 2 + bx.val) * 4 + cn.val) :
    wR m c (ix3 b 0 K) = argR m c (ix4 b mm bx cn) := by
  refine (broadcastInDim_apply _ _ _ _ (ix2 b K) (fun a => match a with | ⟨0, _⟩ => rfl | ⟨1, _⟩ => rfl)).trans ?_
  exact shapeCast_apply _ _ _ _ (by
    rw [Shape.rowMajor_val_four, Shape.rowMajor_val_two]
    show ((b.val * 2048 + mm.val) * 2 + bx.val) * 4 + cn.val = b.val * 16384 + K.val
    omega)

set_option maxHeartbeats 4000000 in
theorem v20_eq : (W6 m ρ c (Proc.devRef .tc main_v20) : S64x1x16384.Idx → EReal) = takeH (hf m c) (wR m c) := by
  dsimp only [W6]
  simp only [hostOps0_5]
  after_results_simp
  simp only [ofBuf_toBuf']
  unfold takeH okH idxH
  congr 1

/-- The last stretch of host operations writes the heights' array from the gathered heights. -/
theorem after8_v28 (Vv : Valuation τ sig (Elt Ideal)) :
    (StableHlo.after (hostOps0_8 (F := Ideal)) Vv (Proc.devRef .tc main_v28) : SQh.Idx → EReal)
      = shapeCast S64x8x2048 (transpose S64x2x4x2048 [0, 2, 3, 1]
        (shapeCast S64x2048x2x4 (shapeCast S64x1x2048x2x4 (Vv (Proc.devRef .tc main_v20) : S64x1x16384.Idx → EReal) shapeCasts_S64x1x16384_S64x1x2048x2x4)
          shapeCasts_S64x1x2048x2x4_S64x2048x2x4) transposes_S64x2048x2x4_S64x2x4x2048_0_2_3_1) shapeCasts_S64x2x4x2048_S64x8x2048 := by
  simp only [hostOps0_8]
  after_results_simp
  rfl

/-- The two stretches between leave the gathered heights alone. -/
theorem after7_v20 (Vv : Valuation τ sig (Elt Ideal)) :
    StableHlo.after (hostOps0_7 (F := Ideal)) Vv (Proc.devRef .tc main_v20) = Vv (Proc.devRef .tc main_v20) :=
  StableHlo.after_of_forall_not_mem (b := Proc.devRef .tc main_v20) _ _ (List.forall_iff_forall_mem.mp (by
    simp only [hostOps0_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem after6_v20 (Vv : Valuation τ sig (Elt Ideal)) :
    StableHlo.after (hostOps0_6 (F := Ideal)) Vv (Proc.devRef .tc main_v20) = Vv (Proc.devRef .tc main_v20) :=
  StableHlo.after_of_forall_not_mem (b := Proc.devRef .tc main_v20) _ _ (List.forall_iff_forall_mem.mp (by
    simp only [hostOps0_6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem v28_eq : (V9 m ρ c main_v28 : SQh.Idx → EReal)
    = shapeCast S64x8x2048 (transpose S64x2x4x2048 [0, 2, 3, 1]
        (shapeCast S64x2048x2x4 (shapeCast S64x1x2048x2x4 (takeH (hf m c) (wR m c)) shapeCasts_S64x1x16384_S64x1x2048x2x4)
          shapeCasts_S64x1x2048x2x4_S64x2048x2x4) transposes_S64x2048x2x4_S64x2x4x2048_0_2_3_1) shapeCasts_S64x2x4x2048_S64x8x2048 := by
  rw [← v20_eq m ρ c]
  show StableHlo.after (hostOps0_8 (F := Ideal)) (W8 m ρ c) (Proc.devRef .tc main_v28) = _
  rw [after8_v28]
  show shapeCast S64x8x2048 (transpose S64x2x4x2048 [0, 2, 3, 1]
        (shapeCast S64x2048x2x4 (shapeCast S64x1x2048x2x4 (StableHlo.after (hostOps0_7 (F := Ideal)) (W7 m ρ c) (Proc.devRef .tc main_v20) : S64x1x16384.Idx → EReal) shapeCasts_S64x1x16384_S64x1x2048x2x4)
          shapeCasts_S64x1x2048x2x4_S64x2048x2x4) transposes_S64x2048x2x4_S64x2x4x2048_0_2_3_1) shapeCasts_S64x2x4x2048_S64x8x2048 = _
  rw [after7_v20]
  show shapeCast S64x8x2048 (transpose S64x2x4x2048 [0, 2, 3, 1]
        (shapeCast S64x2048x2x4 (shapeCast S64x1x2048x2x4 (StableHlo.after (hostOps0_6 (F := Ideal)) (W6 m ρ c) (Proc.devRef .tc main_v20) : S64x1x16384.Idx → EReal) shapeCasts_S64x1x16384_S64x1x2048x2x4)
          shapeCasts_S64x1x2048x2x4_S64x2048x2x4) transposes_S64x2048x2x4_S64x2x4x2048_0_2_3_1) shapeCasts_S64x2x4x2048_S64x8x2048 = _
  rw [after6_v20]

theorem v28_apply (b : Fin 64) (bx : Fin 2) (cn : Fin 4) (mm : Fin 2048) :
    (V9 m ρ c main_v28 : SQh.Idx → EReal) (ix3 b (corner8 bx cn) mm) = rH (hf m c) (argR m c) b mm bx cn := by
  rw [v28_eq]
  have hK : (mm.val * 2 + bx.val) * 4 + cn.val < 16384 := by
    have := mm.isLt; have := bx.isLt; have := cn.isLt; omega
  refine (shapeCast_apply _ _ _ (ix4 b bx cn mm) (by
    rw [Shape.rowMajor_val_four, Shape.rowMajor_val_three]
    show ((b.val * 2 + bx.val) * 4 + cn.val) * 2048 + mm.val = (b.val * 8 + (4 * bx.val + cn.val)) * 2048 + mm.val
    omega)).trans ?_
  refine (transpose_apply _ _ _ _ (ix4 b mm bx cn) (fun a => match a with | ⟨0, _⟩ => rfl | ⟨1, _⟩ => rfl | ⟨2, _⟩ => rfl | ⟨3, _⟩ => rfl)).trans ?_
  refine (shapeCast_apply _ _ _ (ix5 b 0 mm bx cn) (by
    rw [Shape.rowMajor_val_five, Shape.rowMajor_val_four]
    show (((b.val * 1 + 0) * 2048 + mm.val) * 2 + bx.val) * 4 + cn.val = ((b.val * 2048 + mm.val) * 2 + bx.val) * 4 + cn.val
    omega)).trans ?_
  refine (shapeCast_apply _ _ _ (ix3 b 0 ⟨(mm.val * 2 + bx.val) * 4 + cn.val, hK⟩) (by
    rw [Shape.rowMajor_val_three, Shape.rowMajor_val_five]
    show (b.val * 1 + 0) * 16384 + ((mm.val * 2 + bx.val) * 4 + cn.val) = (((b.val * 1 + 0) * 2048 + mm.val) * 2 + bx.val) * 4 + cn.val
    omega)).trans ?_
  rw [takeH_apply, wR_apply m c b mm bx cn _ rfl]
  rfl

/-! ## The repel offsets -/

/-- The repel index words laid out `[64, 2, 16384]`, the same for both channels. -/
abbrev wR2 : IVec S64x2x16384 32 :=
  broadcastInDim S64x2x16384 ![0, 1, 2] bcast_S64x1x16384_S64x2x16384_0_1_2 (wR m c)

theorem wR2_apply (b : Fin 64) (ch : Fin 2) (K : Fin 16384) : wR2 m c (ix3 b ch K) = wR m c (ix3 b 0 K) :=
  broadcastInDim_apply _ _ _ _ (ix3 b 0 K) (fun a => match a with | ⟨0, _⟩ => rfl | ⟨1, _⟩ => rfl | ⟨2, _⟩ => rfl)

set_option maxHeartbeats 4000000 in
theorem v24_eq : (W8 m ρ c (Proc.devRef .tc main_v24) : S64x2x16384.Idx → EReal) = takeO (of_ m c) (wR2 m c) := by
  dsimp only [W8]
  simp only [hostOps0_7]
  after_results_simp
  simp only [ofBuf_toBuf']
  unfold takeO okO idxO
  congr 1

/-- The corner offsets' table: the unit square's corners, `[1, 1, 4, 2, 1]`. -/
abbrev cornerTab : S1x1x4x2x1.Idx → EReal := fun i => Ideal.ofBits .f32 (lit1 (S1x1x4x2x1.rowMajor i))

set_option maxHeartbeats 4000000 in
theorem cst0_eq : (W8 m ρ c (Proc.devRef .tc main_cst_0) : S1x1x4x2x1.Idx → EReal) = cornerTab := by
  dsimp only [W8]
  simp only [hostOps0_7]
  after_results_simp
  rfl

theorem lit1_eq : ∀ i : Fin 8, lit1 i = offTab i := by decide

/-- The last stretch of host operations writes the offsets' array from the gathered offsets and the corner table. -/
theorem after8_v33 (Vv : Valuation τ sig (Elt Ideal)) :
    (StableHlo.after (hostOps0_8 (F := Ideal)) Vv (Proc.devRef .tc main_v33) : SQo.Idx → EReal)
      = shapeCast S64x8x2x2048 (addf (F := Ideal) (φ := .f32)
          (transpose S64x2x4x2x2048 [0, 3, 4, 1, 2]
            (shapeCast S64x2x2048x2x4 (Vv (Proc.devRef .tc main_v24) : S64x2x16384.Idx → EReal) shapeCasts_S64x2x16384_S64x2x2048x2x4)
            transposes_S64x2x2048x2x4_S64x2x4x2x2048_0_3_4_1_2)
          (broadcastInDim S64x2x4x2x2048 ![0, 1, 2, 3, 4] bcast_S1x1x4x2x1_S64x2x4x2x2048_0_1_2_3_4
            (Vv (Proc.devRef .tc main_cst_0) : S1x1x4x2x1.Idx → EReal))) shapeCasts_S64x2x4x2x2048_S64x8x2x2048 := by
  simp only [hostOps0_8]
  after_results_simp
  rfl

theorem v33_eq : (V9 m ρ c main_v33 : SQo.Idx → EReal)
    = shapeCast S64x8x2x2048 (addf (F := Ideal) (φ := .f32)
        (transpose S64x2x4x2x2048 [0, 3, 4, 1, 2]
          (shapeCast S64x2x2048x2x4 (takeO (of_ m c) (wR2 m c)) shapeCasts_S64x2x16384_S64x2x2048x2x4)
          transposes_S64x2x2048x2x4_S64x2x4x2x2048_0_3_4_1_2)
        (broadcastInDim S64x2x4x2x2048 ![0, 1, 2, 3, 4] bcast_S1x1x4x2x1_S64x2x4x2x2048_0_1_2_3_4 cornerTab))
        shapeCasts_S64x2x4x2x2048_S64x8x2x2048 := by
  rw [← v24_eq m ρ c, ← cst0_eq m ρ c]
  exact after8_v33 (W8 m ρ c)

theorem v33_apply (b : Fin 64) (bx : Fin 2) (cn : Fin 4) (ch : Fin 2) (mm : Fin 2048) :
    (V9 m ρ c main_v33 : SQo.Idx → EReal) (ix4 b (corner8 bx cn) ch mm) = rO (of_ m c) (argR m c) b mm bx cn ch := by
  rw [v33_eq]
  have hK : (mm.val * 2 + bx.val) * 4 + cn.val < 16384 := by
    have := mm.isLt; have := bx.isLt; have := cn.isLt; omega
  refine (shapeCast_apply _ _ _ (ix5 b bx cn ch mm) (by
    rw [Shape.rowMajor_val_five, Shape.rowMajor_val_four]
    show (((b.val * 2 + bx.val) * 4 + cn.val) * 2 + ch.val) * 2048 + mm.val = ((b.val * 8 + (4 * bx.val + cn.val)) * 2 + ch.val) * 2048 + mm.val
    omega)).trans ?_
  rw [addf_apply]
  unfold rO go
  refine congrArg₂ (· + ·) ?_ ?_
  · refine (transpose_apply _ _ _ _ (ix5 b ch mm bx cn) (fun a => match a with | ⟨0, _⟩ => rfl | ⟨1, _⟩ => rfl | ⟨2, _⟩ => rfl | ⟨3, _⟩ => rfl | ⟨4, _⟩ => rfl)).trans ?_
    refine (shapeCast_apply _ _ _ (ix3 b ch ⟨(mm.val * 2 + bx.val) * 4 + cn.val, hK⟩) (by
      rw [Shape.rowMajor_val_three, Shape.rowMajor_val_five]
      show (b.val * 2 + ch.val) * 16384 + ((mm.val * 2 + bx.val) * 4 + cn.val) = ((((b.val * 2 + ch.val) * 2048 + mm.val) * 2 + bx.val) * 4 + cn.val)
      omega)).trans ?_
    rw [takeO_apply, wR2_apply, wR_apply m c b mm bx cn _ rfl]
  · refine (broadcastInDim_apply _ _ _ _ (ix5 0 0 cn ch 0) (fun a => match a with | ⟨0, _⟩ => rfl | ⟨1, _⟩ => rfl | ⟨2, _⟩ => rfl | ⟨3, _⟩ => rfl | ⟨4, _⟩ => rfl)).trans ?_
    have h8 : 2 * cn.val + ch.val < 8 := by
      have := cn.isLt; have := ch.isLt; omega
    have e : S1x1x4x2x1.rowMajor (ix5 (0 : Fin 1) (0 : Fin 1) cn ch (0 : Fin 1)) = (⟨2 * cn.val + ch.val, h8⟩ : Fin 8) := Fin.ext (by
      rw [Shape.rowMajor_val_five]
      show (((0 * 1 + 0) * 4 + cn.val) * 2 + ch.val) * 1 + 0 = 2 * cn.val + ch.val
      omega)
    show Ideal.ofBits .f32 (lit1 (S1x1x4x2x1.rowMajor (ix5 (0 : Fin 1) (0 : Fin 1) cn ch (0 : Fin 1)))) = offs cn ch
    rw [e]
    exact congrArg (Ideal.ofBits .f32) (lit1_eq ⟨2 * cn.val + ch.val, h8⟩)

/-! ## The extra offsets, the mask and the count -/

theorem v37_eq : (V9 m ρ c main_v37 : SQp.Idx → EReal) = transpose S64x2x2048 [0, 2, 1] (argP m c) transposes_S64x2048x2_S64x2x2048_0_2_1 := by
  dsimp only [V9, W9]
  simp only [hostOps0_8]
  after_results

theorem v37_apply (b : Fin 64) (ch : Fin 2) (mm : Fin 2048) :
    (V9 m ρ c main_v37 : SQp.Idx → EReal) (ix3 b ch mm) = argP m c (ix3 b mm ch) := by
  rw [v37_eq]
  exact transpose_apply _ _ _ _ _ (fun a => match a with | ⟨0, _⟩ => rfl | ⟨1, _⟩ => rfl | ⟨2, _⟩ => rfl)

theorem v36_eq : (V9 m ρ c main_v36 : SQm.Idx → EReal) = broadcastInDim S64x1x2048 ![0, 2] bcast_S64x2048_S64x1x2048_0_2 (uitofp (F := Ideal) .f32 (shapeCast S64x2048 (argMR m c) shapeCasts_S64x2048x1_S64x2048)) := by
  dsimp only [V9, W9]
  simp only [hostOps0_8]
  after_results
  rfl

theorem v36_apply (b : Fin 64) (mm : Fin 2048) :
    (V9 m ρ c main_v36 : SQm.Idx → EReal) (ix3 b 0 mm) = mf (argMR m c (ix3 b mm 0)) := by
  rw [v36_eq]
  refine (broadcastInDim_apply _ _ _ _ (ix2 b mm) (fun a => match a with | ⟨0, _⟩ => rfl | ⟨1, _⟩ => rfl)).trans ?_
  show FloatOps.uitofp (F := Ideal) .f32 (shapeCast S64x2048 (argMR m c) shapeCasts_S64x2048x1_S64x2048 (ix2 b mm)) = _
  rw [shapeCast_apply (argMR m c) shapeCasts_S64x2048x1_S64x2048 (ix2 b mm) (ix3 b mm 0) (by
    rw [Shape.rowMajor_val_three, Shape.rowMajor_val_two]
    show (b.val * 2048 + mm.val) * 1 + 0 = b.val * 2048 + mm.val
    omega)]
  rfl

theorem v43_eq : (V9 m ρ c main_v43 : S_.Idx → EReal) = fun _ => (((countR (argMR m c) reducesTo_S64x2048x1_S_d0_1_2).toInt : ℝ) : EReal) := by
  have e : (V9 m ρ c main_v43 : S_.Idx → EReal) = sitofp (F := Ideal) .f32 (Host.reduce IntOp.addi (extui 32 (argMR m c) natLt_1_32) (constantI S_ 32 0#32) reducesTo_S64x2048x1_S_d0_1_2 h_S_) := by
    dsimp only [V9, W9]
    simp only [hostOps0_8]
    after_results
  rw [e]
  funext i
  rw [eq_ix0 i]
  rfl

end Cert.KernelIdeal.KHostR

end
-- ==== Proof.KRegion0.lean ====
import proofs.«169223_j2216203125376_1_alg».proof.Proof.Gen.KernelIdeal.Frame
import proofs.«169223_j2216203125376_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.KRegion0

open Idealize.ShloMosaic Idealize.ShloMosaic.TcCoe Idealize.SL.Sem Idealize.ShloMosaic.ValueIdx Cert.KernelIdeal Cert.KernelIdeal.Gen Cert.IouSpec
open Idealize.ShloMosaic.Pipeline (Dat)

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The stored entry as one term of the three loaded blocks and the carried result. -/
def pay (x0 : Vec F S1x4x4096 .f32) (x1 : Vec F S1x4x2x4096 .f32) (x2 : Vec F S1x4x4096 .f32) (xo : Vec F S1x1 .f32) : Vec F S1x1 .f32 :=
  k0_pay1 (k0_pay5 x2)
    (k0_pay17 (k0_pay7 x0) (k0_pay8 x0) (k0_pay9 x1) (k0_pay10 x1) (k0_pay11 x1) (k0_pay12 x1) (k0_pay15 x0 x1) (k0_pay16 x0))
    (k0_pay18 (k0_pay7 x0) (k0_pay8 x0) (k0_pay9 x1) (k0_pay10 x1) (k0_pay11 x1) (k0_pay12 x1) (k0_pay13 x0) (k0_pay14 x0) (k0_pay15 x0 x1) (k0_pay16 x0))
    xo

/-- A later grid point leaves the carried result plus its partial sum. -/
theorem out_B (c : Dev nD) (i : grid0.Coords) (a1 : Memref sig .tc .vmem S1x4x4096 .f32) (h1 : a1.IsWhole) (a2 : Memref sig .tc .vmem S1x4x2x4096 .f32) (h2 : a2.IsWhole) (a3 : Memref sig .tc .vmem S1x4x4096 .f32) (h3 : a3.IsWhole) (a4 : Memref sig .tc .vmem S1x1 .f32) (h4 : a4.IsWhole) (hc : ¬cond0_0 i)
    (x0 : Vec F S1x4x4096 .f32) (x1 : Vec F S1x4x2x4096 .f32) (x2 : Vec F S1x4x4096 .f32) (xo : Vec F S1x1 .f32) :
    out0_B_3 c i a1 h1 a2 h2 a3 h3 a4 h4 hc x0 x1 x2 xo = pay x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz2]
  unfold pay
  simp only [View.readAt_eq_ld, h1.read_unread, h2.read_unread, h3.read_unread, h4.read_unread,
    View.ld_unit_zero (S := S1x4x4096) hz3, View.ld_unit_zero (S := S1x4x2x4096) hz4, View.ld_unit_zero (S := S1x1) hz2]

/-- The first grid point stores the zero entry, reads it back, and leaves it plus its partial sum. -/
theorem out_A (c : Dev nD) (i : grid0.Coords) (a1 : Memref sig .tc .vmem S1x4x4096 .f32) (h1 : a1.IsWhole) (a2 : Memref sig .tc .vmem S1x4x2x4096 .f32) (h2 : a2.IsWhole) (a3 : Memref sig .tc .vmem S1x4x4096 .f32) (h3 : a3.IsWhole) (a4 : Memref sig .tc .vmem S1x1 .f32) (h4 : a4.IsWhole) (hc : cond0_0 i)
    (x0 : Vec F S1x4x4096 .f32) (x1 : Vec F S1x4x2x4096 .f32) (x2 : Vec F S1x4x4096 .f32) :
    out0_A_3 c i a1 h1 a2 h2 a3 h3 a4 h4 hc x0 x1 x2 = pay x0 x1 x2 (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz2, View.readCov_unit_zero (S := S1x1) _ hz2]
  unfold pay
  simp only [View.readAt_eq_ld, h1.read_unread, h2.read_unread, h3.read_unread,
    View.ld_unit_zero (S := S1x4x4096) hz3, View.ld_unit_zero (S := S1x4x2x4096) hz4, View.ld_unit_zero (S := S1x1) hz2]
end Pieces

section AtIdeal

/-- The unit-leading cast of a block reads the block. -/
theorem pay3_apply (x : Vec Ideal S1x4x4096 .f32) (c : Fin 4) (n : Fin 4096) :
    k0_pay3 (F := Ideal) x (ix2 c n) = x (ix3 0 c n) := by
  unfold k0_pay3
  exact shapeCast_1ab_ab_apply x _ c n

theorem pay5_apply (x : Vec Ideal S1x4x4096 .f32) (c : Fin 4) (n : Fin 4096) :
    k0_pay5 (F := Ideal) x (ix2 c n) = x (ix3 0 c n) := by
  unfold k0_pay5
  exact shapeCast_1ab_ab_apply x _ c n

theorem pay4_apply (x : Vec Ideal S1x4x2x4096 .f32) (c : Fin 4) (ch : Fin 2) (n : Fin 4096) :
    k0_pay4 (F := Ideal) x (ix3 c ch n) = x (ix4 0 c ch n) := by
  unfold k0_pay4
  exact shapeCast_1abc_abc_apply x _ c ch n

/-- The exponential of a corner's height. -/
theorem pay7_apply (x : Vec Ideal S1x4x4096 .f32) (c : Fin 4) (n : Fin 4096) :
    k0_pay7 (F := Ideal) x (ix2 c n) = Ideal.exp (x (ix3 0 c n)) := by
  unfold k0_pay7
  exact congrArg Ideal.exp (pay3_apply x c n)

/-- The exponential of the four corners' mean height. -/
theorem pay8_apply (x : Vec Ideal S1x4x4096 .f32) (u : Fin 1) (n : Fin 4096) :
    k0_pay8 (F := Ideal) x (ix2 u n) = Ideal.exp (mean4 fun c' => x (ix3 0 c' n)) := by
  unfold k0_pay8
  refine congrArg Ideal.exp ?_
  refine congrArg (fun z => Ideal.div z fourF) ?_
  refine (shapeCast_a_1a_apply _ _ u n).trans ?_
  refine (Ideal.multiReduction_add_single (k0_pay3 (F := Ideal) x) _ _ _ _ (ix1 n)).trans ?_
  exact Finset.sum_congr rfl fun k _ => pay3_apply x k n

/-- The four corners' mean offsets, per channel. -/
theorem pay6_apply (x : Vec Ideal S1x4x2x4096 .f32) (u : Fin 1) (ch : Fin 2) (n : Fin 4096) :
    k0_pay6 (F := Ideal) x (ix3 u ch n) = mean4 fun c' => x (ix4 0 c' ch n) := by
  unfold k0_pay6
  refine congrArg (fun z => Ideal.div z fourF) ?_
  refine (shapeCast_ab_1ab_apply _ _ u ch n).trans ?_
  refine (Ideal.multiReduction_add_single (k0_pay4 (F := Ideal) x) _ _ _ _ (ix2 ch n)).trans ?_
  exact Finset.sum_congr rfl fun k _ => pay4_apply x k ch n

end AtIdeal

section AtIdeal2

/-- A row broadcast over the four corners reads the row. -/
theorem bcast_apply (v : FVec Ideal S1x4096 .f32) (h : S1x4096.Broadcasts S4x4096) (c : Fin 4) (n : Fin 4096) :
    broadcastTo S4x4096 v h (ix2 c n) = v (ix2 0 n) :=
  broadcastTo_apply v h _ _ fun a => match a with | ⟨0, _⟩ => rfl | ⟨1, _⟩ => rfl

/-- A corner's offset, per channel. -/
theorem pay9_apply (x : Vec Ideal S1x4x2x4096 .f32) (c : Fin 4) (n : Fin 4096) :
    k0_pay9 (F := Ideal) x (ix2 c n) = x (ix4 0 c 0 n) := by
  unfold k0_pay9
  refine (shapeCast_apply _ _ (ix2 c n) (ix3 c (0 : Fin 1) n) ?_).trans ?_
  · rw [Shape.rowMajor_val_three, Shape.rowMajor_val_two]
    show (c.val * 1 + 0) * 4096 + n.val = c.val * 4096 + n.val
    omega
  refine (extractStridedSlice_apply _ _ _ (ix3 c (0 : Fin 1) n) (ix3 c (0 : Fin 2) n) ?_).trans ?_
  · intro a
    match a with
    | ⟨0, _⟩ => show c.val = 0 + c.val; omega
    | ⟨1, _⟩ => rfl
    | ⟨2, _⟩ => show n.val = 0 + n.val; omega
  exact pay4_apply x c 0 n

theorem pay10_apply (x : Vec Ideal S1x4x2x4096 .f32) (c : Fin 4) (n : Fin 4096) :
    k0_pay10 (F := Ideal) x (ix2 c n) = x (ix4 0 c 1 n) := by
  unfold k0_pay10
  refine (shapeCast_apply _ _ (ix2 c n) (ix3 c (0 : Fin 1) n) ?_).trans ?_
  · rw [Shape.rowMajor_val_three, Shape.rowMajor_val_two]
    show (c.val * 1 + 0) * 4096 + n.val = c.val * 4096 + n.val
    omega
  refine (extractStridedSlice_apply _ _ _ (ix3 c (0 : Fin 1) n) (ix3 c (1 : Fin 2) n) ?_).trans ?_
  · intro a
    match a with
    | ⟨0, _⟩ => show c.val = 0 + c.val; omega
    | ⟨1, _⟩ => rfl
    | ⟨2, _⟩ => show n.val = 0 + n.val; omega
  exact pay4_apply x c 1 n

/-- The mean offsets, per channel, as rows. -/
theorem pay11_apply (x : Vec Ideal S1x4x2x4096 .f32) (u : Fin 1) (n : Fin 4096) :
    k0_pay11 (F := Ideal) x (ix2 u n) = mean4 fun c' => x (ix4 0 c' 0 n) := by
  unfold k0_pay11
  have hu : u.val = 0 := by omega
  refine (shapeCast_apply _ _ (ix2 u n) (ix3 (0 : Fin 1) (0 : Fin 1) n) ?_).trans ?_
  · rw [Shape.rowMajor_val_three, Shape.rowMajor_val_two]
    show (0 * 1 + 0) * 4096 + n.val = u.val * 4096 + n.val
    omega
  refine (extractStridedSlice_apply _ _ _ (ix3 (0 : Fin 1) (0 : Fin 1) n) (ix3 (0 : Fin 1) (0 : Fin 2) n) ?_).trans ?_
  · intro a
    match a with
    | ⟨0, _⟩ => rfl
    | ⟨1, _⟩ => rfl
    | ⟨2, _⟩ => show n.val = 0 + n.val; omega
  exact pay6_apply x 0 0 n

theorem pay12_apply (x : Vec Ideal S1x4x2x4096 .f32) (u : Fin 1) (n : Fin 4096) :
    k0_pay12 (F := Ideal) x (ix2 u n) = mean4 fun c' => x (ix4 0 c' 1 n) := by
  unfold k0_pay12
  have hu : u.val = 0 := by omega
  refine (shapeCast_apply _ _ (ix2 u n) (ix3 (0 : Fin 1) (0 : Fin 1) n) ?_).trans ?_
  · rw [Shape.rowMajor_val_three, Shape.rowMajor_val_two]
    show (0 * 1 + 0) * 4096 + n.val = u.val * 4096 + n.val
    omega
  refine (extractStridedSlice_apply _ _ _ (ix3 (0 : Fin 1) (0 : Fin 1) n) (ix3 (0 : Fin 1) (1 : Fin 2) n) ?_).trans ?_
  · intro a
    match a with
    | ⟨0, _⟩ => rfl
    | ⟨1, _⟩ => rfl
    | ⟨2, _⟩ => show n.val = 0 + n.val; omega
  exact pay6_apply x 0 1 n

/-- The overlap of two boxes: the product of the two clipped side overlaps. -/
def inter (hA yA xA hB yB xB : EReal) : EReal :=
  max (min (yA + hA * half) (yB + hB * half) - max (yA - hA * half) (yB - hB * half)) zeroF
    * max (min (xA + c041 * hA * half) (xB + c041 * hB * half) - max (xA - c041 * hA * half) (xB - c041 * hB * half)) zeroF

theorem boxIou_eq (hA yA xA hB yB xB : EReal) :
    boxIou hA yA xA hB yB xB
      = Ideal.div (inter hA yA xA hB yB xB) (hA * hA * c041 + hB * hB * c041 - inter hA yA xA hB yB xB + eps6) := rfl

/-- The overlap, entry by entry, over any operand vectors. -/
theorem pay17_apply (v17 : FVec Ideal S4x4096 .f32) (v18 : FVec Ideal S1x4096 .f32) (v20 v22 : FVec Ideal S4x4096 .f32)
    (v24 v26 : FVec Ideal S1x4096 .f32) (v35 : FVec Ideal S4x4096 .f32) (v37 : FVec Ideal S1x4096 .f32) (c : Fin 4) (n : Fin 4096)
    (h35 : v35 (ix2 c n) = v20 (ix2 c n) - v17 (ix2 c n) * half) (h37 : v37 (ix2 0 n) = v18 (ix2 0 n) * half) :
    k0_pay17 (F := Ideal) v17 v18 v20 v22 v24 v26 v35 v37 (ix2 c n)
      = inter (v17 (ix2 c n)) (v20 (ix2 c n)) (v22 (ix2 c n)) (v18 (ix2 0 n)) (v24 (ix2 0 n)) (v26 (ix2 0 n)) := by
  unfold k0_pay17
  simp only [mulf_apply, addf_apply, subf_apply, maximumf_apply, minimumf_apply, broadcast_apply, bcast_apply, h35, h37]
  rfl

/-- The union plus 1e-6, entry by entry, over any operand vectors. -/
theorem pay18_apply (v17 : FVec Ideal S4x4096 .f32) (v18 : FVec Ideal S1x4096 .f32) (v20 v22 : FVec Ideal S4x4096 .f32)
    (v24 v26 : FVec Ideal S1x4096 .f32) (v29 : FVec Ideal S4x4096 .f32) (v32 : FVec Ideal S1x4096 .f32)
    (v35 : FVec Ideal S4x4096 .f32) (v37 : FVec Ideal S1x4096 .f32) (c : Fin 4) (n : Fin 4096) :
    k0_pay18 (F := Ideal) v17 v18 v20 v22 v24 v26 v29 v32 v35 v37 (ix2 c n)
      = v29 (ix2 c n) + v32 (ix2 0 n) - k0_pay17 (F := Ideal) v17 v18 v20 v22 v24 v26 v35 v37 (ix2 c n) + eps6 := by
  unfold k0_pay18
  simp only [addf_apply, subf_apply, broadcast_apply, bcast_apply]
  rfl

theorem pay13_apply (x : Vec Ideal S1x4x4096 .f32) (c : Fin 4) (n : Fin 4096) :
    k0_pay13 (F := Ideal) x (ix2 c n) = Ideal.exp (x (ix3 0 c n)) * Ideal.exp (x (ix3 0 c n)) * c041 := by
  unfold k0_pay13
  show k0_pay7 (F := Ideal) x (ix2 c n) * k0_pay7 (F := Ideal) x (ix2 c n) * c041 = _
  rw [pay7_apply]

theorem pay14_apply (x : Vec Ideal S1x4x4096 .f32) (u : Fin 1) (n : Fin 4096) :
    k0_pay14 (F := Ideal) x (ix2 u n)
      = Ideal.exp (mean4 fun c' => x (ix3 0 c' n)) * Ideal.exp (mean4 fun c' => x (ix3 0 c' n)) * c041 := by
  unfold k0_pay14
  show k0_pay8 (F := Ideal) x (ix2 u n) * k0_pay8 (F := Ideal) x (ix2 u n) * c041 = _
  rw [pay8_apply]

end AtIdeal2

section Total
variable {F : FTy → Type} [FloatOps F]

/-- The overlaps of the four corners' boxes with the mean box, as a vector. -/
def p17 (x0 : Vec F S1x4x4096 .f32) (x1 : Vec F S1x4x2x4096 .f32) : FVec F S4x4096 .f32 :=
  k0_pay17 (k0_pay7 x0) (k0_pay8 x0) (k0_pay9 x1) (k0_pay10 x1) (k0_pay11 x1) (k0_pay12 x1) (k0_pay15 x0 x1) (k0_pay16 x0)
/-- The unions plus 1e-6, as a vector. -/
def p18 (x0 : Vec F S1x4x4096 .f32) (x1 : Vec F S1x4x2x4096 .f32) : FVec F S4x4096 .f32 :=
  k0_pay18 (k0_pay7 x0) (k0_pay8 x0) (k0_pay9 x1) (k0_pay10 x1) (k0_pay11 x1) (k0_pay12 x1) (k0_pay13 x0) (k0_pay14 x0) (k0_pay15 x0 x1) (k0_pay16 x0)
/-- The masked terms, as a vector. -/
def lossVec (x0 : Vec F S1x4x4096 .f32) (x1 : Vec F S1x4x2x4096 .f32) (x2 : Vec F S1x4x4096 .f32) : FVec F S4x4096 .f32 :=
  mulf (k0_pay5 x2) (subf (broadcast S4x4096 (Scalar.ofBits .f32 0x3F800000#32)) (divf (p17 x0 x1) (p18 x0 x1)))

theorem pay_eq (x0 : Vec F S1x4x4096 .f32) (x1 : Vec F S1x4x2x4096 .f32) (x2 : Vec F S1x4x4096 .f32) (xo : Vec F S1x1 .f32) :
    pay x0 x1 x2 xo = k0_pay1 (k0_pay5 x2) (p17 x0 x1) (p18 x0 x1) xo := rfl
end Total

section TotalIdeal

theorem p17_apply (x0 : Vec Ideal S1x4x4096 .f32) (x1 : Vec Ideal S1x4x2x4096 .f32) (c : Fin 4) (n : Fin 4096) :
    p17 (F := Ideal) x0 x1 (ix2 c n)
      = inter (Ideal.exp (x0 (ix3 0 c n))) (x1 (ix4 0 c 0 n)) (x1 (ix4 0 c 1 n))
          (Ideal.exp (mean4 fun c' => x0 (ix3 0 c' n))) (mean4 fun c' => x1 (ix4 0 c' 0 n)) (mean4 fun c' => x1 (ix4 0 c' 1 n)) := by
  unfold p17
  refine (pay17_apply _ _ _ _ _ _ _ _ c n rfl rfl).trans ?_
  rw [pay7_apply, pay8_apply, pay9_apply, pay10_apply, pay11_apply, pay12_apply]

theorem p18_apply (x0 : Vec Ideal S1x4x4096 .f32) (x1 : Vec Ideal S1x4x2x4096 .f32) (c : Fin 4) (n : Fin 4096) :
    p18 (F := Ideal) x0 x1 (ix2 c n)
      = Ideal.exp (x0 (ix3 0 c n)) * Ideal.exp (x0 (ix3 0 c n)) * c041
        + Ideal.exp (mean4 fun c' => x0 (ix3 0 c' n)) * Ideal.exp (mean4 fun c' => x0 (ix3 0 c' n)) * c041
        - inter (Ideal.exp (x0 (ix3 0 c n))) (x1 (ix4 0 c 0 n)) (x1 (ix4 0 c 1 n))
          (Ideal.exp (mean4 fun c' => x0 (ix3 0 c' n))) (mean4 fun c' => x1 (ix4 0 c' 0 n)) (mean4 fun c' => x1 (ix4 0 c' 1 n))
        + eps6 := by
  unfold p18
  refine (pay18_apply _ _ _ _ _ _ _ _ _ _ c n).trans ?_
  rw [show k0_pay17 (F := Ideal) (k0_pay7 x0) (k0_pay8 x0) (k0_pay9 x1) (k0_pay10 x1) (k0_pay11 x1) (k0_pay12 x1) (k0_pay15 x0 x1) (k0_pay16 x0) (ix2 c n) = _ from p17_apply x0 x1 c n,
    pay13_apply, pay14_apply]

/-- One masked term: the mask factor times one minus the corner's intersection over union with the mean box. -/
theorem lossVec_apply (x0 : Vec Ideal S1x4x4096 .f32) (x1 : Vec Ideal S1x4x2x4096 .f32) (x2 : Vec Ideal S1x4x4096 .f32) (c : Fin 4) (n : Fin 4096) :
    lossVec (F := Ideal) x0 x1 x2 (ix2 c n)
      = x2 (ix3 0 c n) * (oneF - boxIou (Ideal.exp (x0 (ix3 0 c n))) (x1 (ix4 0 c 0 n)) (x1 (ix4 0 c 1 n))
          (Ideal.exp (mean4 fun c' => x0 (ix3 0 c' n))) (mean4 fun c' => x1 (ix4 0 c' 0 n)) (mean4 fun c' => x1 (ix4 0 c' 1 n))) := by
  unfold lossVec
  show k0_pay5 (F := Ideal) x2 (ix2 c n) * (oneF - Ideal.div (p17 (F := Ideal) x0 x1 (ix2 c n)) (p18 (F := Ideal) x0 x1 (ix2 c n))) = _
  rw [pay5_apply, p17_apply, p18_apply, boxIou_eq]

end TotalIdeal

section Sums

/-- The stored entry at the ideal floats: the carried entry plus the sum of the masked terms over corners and boxes. -/
theorem pay_apply (x0 : Vec Ideal S1x4x4096 .f32) (x1 : Vec Ideal S1x4x2x4096 .f32) (x2 : Vec Ideal S1x4x4096 .f32) (xo : Vec Ideal S1x1 .f32) :
    pay (F := Ideal) x0 x1 x2 xo (ix2 0 0)
      = xo (ix2 0 0) + ∑ cc : Fin 4, ∑ n : Fin 4096, lossVec (F := Ideal) x0 x1 x2 (ix2 cc n) := by
  rw [pay_eq]
  unfold k0_pay1
  refine (addf_apply _ _ _).trans ?_
  refine congrArg₂ (· + ·) (congrFun (shapeCast_self xo _) (ix2 0 0)) ?_
  refine (shapeCast_a_1a_apply _ _ 0 0).trans ?_
  refine (Ideal.multiReduction_add_single _ _ _ _ _ (ix1 0)).trans ?_
  refine Finset.sum_congr rfl fun cc _ => ?_
  refine (shapeCast_apply _ _ _ (ix1 cc) ?_).trans ?_
  · rw [Shape.rowMajor_val_two, Shape.rowMajor_val_one]
    show cc.val = cc.val * 1 + 0
    omega
  refine (Ideal.multiReduction_add_single _ _ _ _ _ (ix1 cc)).trans ?_
  rfl

/-- One grid point's partial sum, over blocks that are the arrays' rows of batch `b`. -/
theorem term_of_blocks (x0 : Vec Ideal S1x4x4096 .f32) (x1 : Vec Ideal S1x4x2x4096 .f32) (x2 : Vec Ideal S1x4x4096 .f32)
    (Hh : SKh.Idx → EReal) (Oo : SKo.Idx → EReal) (Mm : SKh.Idx → EReal) (b : Fin 64)
    (h0 : ∀ (u : Fin 1) (cc : Fin 4) (n : Fin 4096), x0 (ix3 u cc n) = Hh (ix3 b cc n))
    (h1 : ∀ (u : Fin 1) (cc : Fin 4) (ch : Fin 2) (n : Fin 4096), x1 (ix4 u cc ch n) = Oo (ix4 b cc ch n))
    (h2 : ∀ (u : Fin 1) (cc : Fin 4) (n : Fin 4096), x2 (ix3 u cc n) = Mm (ix3 b cc n)) :
    ∑ cc : Fin 4, ∑ n : Fin 4096, lossVec (F := Ideal) x0 x1 x2 (ix2 cc n)
      = ∑ cc : Fin 4, ∑ n : Fin 4096, Mm (ix3 b cc n) *
          (oneF - boxIou (Ideal.exp (Hh (ix3 b cc n))) (Oo (ix4 b cc 0 n)) (Oo (ix4 b cc 1 n))
            (Ideal.exp (mean4 fun c' => Hh (ix3 b c' n))) (mean4 fun c' => Oo (ix4 b c' 0 n)) (mean4 fun c' => Oo (ix4 b c' 1 n))) := by
  simp only [lossVec_apply, h0, h1, h2]

end Sums

section Blocks
variable (V : (c : Dev nD) → (b : Ref sig .tc) → Buf (Elt Ideal) ((c : Thread nD τ).loc b)) (c : Dev nD)

theorem hN (t : Fin cfg0.N) : t.val < 64 := lt_of_lt_of_eq t.isLt (show cfg0.N = 64 from N_0)

/-- The three input windows sit at block (t, 0, …) at grid point t. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- The height block at grid point t is batch t of the height array. -/
theorem hblk_apply (t : Fin cfg0.N) (u : Fin 1) (cc : Fin 4) (n : Fin 4096) :
    (iblk0 V c 0 t : Vec Ideal S1x4x4096 .f32) (ix3 u cc n) = (V c main_v11 : SKh.Idx → EReal) (ix3 ⟨t.val, hN t⟩ cc n) := by
  obtain ⟨e0, e1, e2, -⟩ := idx_facts t
  unfold iblk0
  rw [View.read_apply]
  show V c main_v11 _ = V c main_v11 _
  congr 1
  funext a
  apply Fin.ext
  match a with
  | ⟨0, _⟩ => show win0_0.index t (0 : Fin 3) * 1 + 1 * u.val = t.val; rw [e0]; omega
  | ⟨1, _⟩ => show win0_0.index t (1 : Fin 3) * 4 + 1 * cc.val = cc.val; rw [e1]; omega
  | ⟨2, _⟩ => show win0_0.index t (2 : Fin 3) * 4096 + 1 * n.val = n.val; rw [e2]; omega

/-- The offset block at grid point t is batch t of the offset array. -/
theorem oblk_apply (t : Fin cfg0.N) (u : Fin 1) (cc : Fin 4) (ch : Fin 2) (n : Fin 4096) :
    (iblk0 V c 1 t : Vec Ideal S1x4x2x4096 .f32) (ix4 u cc ch n) = (V c main_v15 : SKo.Idx → EReal) (ix4 ⟨t.val, hN t⟩ cc ch n) := by
  obtain ⟨-, -, -, e0, e1, e2, e3, -⟩ := idx_facts t
  unfold iblk0
  rw [View.read_apply]
  show V c main_v15 _ = V c main_v15 _
  congr 1
  funext a
  apply Fin.ext
  match a with
  | ⟨0, _⟩ => show win0_1.index t (0 : Fin 4) * 1 + 1 * u.val = t.val; rw [e0]; omega
  | ⟨1, _⟩ => show win0_1.index t (1 : Fin 4) * 4 + 1 * cc.val = cc.val; rw [e1]; omega
  | ⟨2, _⟩ => show win0_1.index t (2 : Fin 4) * 2 + 1 * ch.val = ch.val; rw [e2]; omega
  | ⟨3, _⟩ => show win0_1.index t (3 : Fin 4) * 4096 + 1 * n.val = n.val; rw [e3]; omega

/-- The mask block at grid point t is batch t of the mask array. -/
theorem mblk_apply (t : Fin cfg0.N) (u : Fin 1) (cc : Fin 4) (n : Fin 4096) :
    (iblk0 V c 2 t : Vec Ideal S1x4x4096 .f32) (ix3 u cc n) = (V c main_v17 : SKh.Idx → EReal) (ix3 ⟨t.val, hN t⟩ cc n) := by
  obtain ⟨-, -, -, -, -, -, -, e0, e1, e2⟩ := idx_facts t
  unfold iblk0
  rw [View.read_apply]
  show V c main_v17 _ = V c main_v17 _
  congr 1
  funext a
  apply Fin.ext
  match a with
  | ⟨0, _⟩ => show win0_2.index t (0 : Fin 3) * 1 + 1 * u.val = t.val; rw [e0]; omega
  | ⟨1, _⟩ => show win0_2.index t (1 : Fin 3) * 4 + 1 * cc.val = cc.val; rw [e1]; omega
  | ⟨2, _⟩ => show win0_2.index t (2 : Fin 3) * 4096 + 1 * n.val = n.val; rw [e2]; omega

/-- Batch `b`'s total of the masked terms over the three arrays. -/
def batchTerm (Hh : SKh.Idx → EReal) (Oo : SKo.Idx → EReal) (Mm : SKh.Idx → EReal) (b : Fin 64) : EReal :=
  ∑ cc : Fin 4, ∑ n : Fin 4096, Mm (ix3 b cc n) *
    (oneF - boxIou (Ideal.exp (Hh (ix3 b cc n))) (Oo (ix4 b cc 0 n)) (Oo (ix4 b cc 1 n))
      (Ideal.exp (mean4 fun c' => Hh (ix3 b c' n))) (mean4 fun c' => Oo (ix4 b c' 0 n)) (mean4 fun c' => Oo (ix4 b c' 1 n)))

theorem attractBlock_eq (Hh : SKh.Idx → EReal) (Oo : SKo.Idx → EReal) (Mm : SKh.Idx → EReal) :
    attractBlock Hh Oo Mm = ∑ b : Fin 64, batchTerm Hh Oo Mm b := rfl

/-- The partial sum of grid point t is batch t's total. -/
theorem point_term (t : Fin cfg0.N) :
    ∑ cc : Fin 4, ∑ n : Fin 4096, lossVec (F := Ideal) (iblk0 V c 0 t) (iblk0 V c 1 t) (iblk0 V c 2 t) (ix2 cc n)
      = batchTerm (V c main_v11 : SKh.Idx → EReal) (V c main_v15 : SKo.Idx → EReal) (V c main_v17 : SKh.Idx → EReal) ⟨t.val, hN t⟩ :=
  term_of_blocks (iblk0 V c 0 t) (iblk0 V c 1 t) (iblk0 V c 2 t) (V c main_v11) (V c main_v15) (V c main_v17) ⟨t.val, hN t⟩
    (hblk_apply V c t) (oblk_apply V c t) (mblk_apply V c t)

/-- After grid point `n` the one-entry result holds the total of batches 0 … n. -/
theorem outsAt_eq : ∀ (n : ℕ) (h : n < cfg0.N), (outsAt0 V c n h : Vec Ideal S1x1 .f32) (ix2 0 0)
      = ∑ b : Fin (n + 1), batchTerm (V c main_v11 : SKh.Idx → EReal) (V c main_v15 : SKo.Idx → EReal) (V c main_v17 : SKh.Idx → EReal)
          ⟨b.val, lt_of_lt_of_eq (Nat.lt_of_lt_of_le b.isLt h) (show cfg0.N = 64 from N_0)⟩
  | 0, h => by
    have e := outsAt0_A V c ⟨0, h⟩ rfl
    dsimp only at e
    rw [e]
    refine (congrFun (out_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) ((hcond0_0 ⟨0, h⟩).mpr rfl) (iblk0 V c 0 ⟨0, h⟩) (iblk0 V c 1 ⟨0, h⟩) (iblk0 V c 2 ⟨0, h⟩)) (ix2 0 0)).trans ?_
    refine (pay_apply (iblk0 V c 0 ⟨0, h⟩) (iblk0 V c 1 ⟨0, h⟩) (iblk0 V c 2 ⟨0, h⟩) (k0_pay2 (F := Ideal))).trans ?_
    rw [point_term V c ⟨0, h⟩, Fin.sum_univ_one]
    show Ideal.ofBits .f32 0x00000000#32 + _ = _
    rw [Ideal.ofBits_zero_f32, zero_add]
    rfl
  | n + 1, h => by
    have hB : ¬(⟨n + 1, h⟩ : Fin cfg0.N).val % 64 = 0 := by
      have := lt_of_lt_of_eq h (show cfg0.N = 64 from N_0)
      dsimp only; omega
    have e := outsAt0_B V c ⟨n + 1, h⟩ hB
    dsimp only at e
    rw [e]
    refine (congrFun (out_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (outsAt0 V c n (Nat.lt_of_succ_lt h))) (ix2 0 0)).trans ?_
    refine (pay_apply (iblk0 V c 0 ⟨n + 1, h⟩) (iblk0 V c 1 ⟨n + 1, h⟩) (iblk0 V c 2 ⟨n + 1, h⟩) (outsAt0 V c n (Nat.lt_of_succ_lt h))).trans ?_
    rw [point_term V c ⟨n + 1, h⟩, Fin.sum_univ_castSucc, outsAt_eq n (Nat.lt_of_succ_lt h)]
    rfl

end Blocks

section Final
variable (V : (c : Dev nD) → (b : Ref sig .tc) → Buf (Elt Ideal) ((c : Thread nD τ).loc b)) (c : Dev nD)

/-- The last grid point, the one whose result is written back. -/
def tLast : Fin cfg0.N := ⟨63, by rw [show cfg0.N = 64 from N_0]; decide⟩

/-- What the result's staging buffer holds after the last grid point. -/
abbrev result : Buf (Elt Ideal) ((c : Thread nD τ).loc main_v44) := outsAt0 V c 63 tLast.isLt

/-- The one write-back, at the last point, writes it: the one block of the one-entry array is the array. -/
theorem flushed_eq (t : Fin cfg0.N) (hf : (cfg0.win 3).flush t = true) :
    (dat0 V c).flushed 3 t = ((cfg0.win 3).blk t).view.read (Elt Ideal) (result V c) := by
  have h3 : t.val = 63 := by have := (flush0_3 t).mp hf; have := hN t; omega
  obtain rfl : t = tLast := Fin.ext h3
  show (cfg0.win 3).cut (grid0.coords tLast) ((dat0 V c).after 3 tLast) = _
  rw [after0_3]
  have hz' : (fun a => win0_3.index tLast a * main_v44.ty.shape.size a) = fun _ => 0 := funext fun a => by fin_cases a <;> decide +kernel
  exact (Memref.read_access_unit_zero (Elt Ideal) main_v44 hz' (fun a => by rw [congrFun hz' a]; simp) (result V c)).symm

/-- So the result array ends holding it. -/
theorem final_o : (dat0 V c).arrAt 3 cfg0.N = result V c :=
  (dat0 V c).arrAt_eq_of_cover 3 (result V c) (flushed_eq V c) fun i =>
    ⟨tLast, (flush0_3 tLast).mpr rfl, by
      show i ∈ ((View.whole main_v44).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- After its 64 grid points the attract launch's one-entry result holds the whole batch's total of the masked terms
    over the arrays it was handed. -/
theorem region0_total :
    ((dat0 V c).arrAt 3 cfg0.N : S1x1.Idx → EReal)
      = fun _ => attractBlock (V c main_v11 : SKh.Idx → EReal) (V c main_v15 : SKo.Idx → EReal) (V c main_v17 : SKh.Idx → EReal) := by
  rw [final_o]
  funext i
  have hi : i = ix2 0 0 := funext fun a => match a with
    | ⟨0, _⟩ => Fin.ext (by have : (i 0 : Nat) < 1 := (i 0).isLt; show (i 0 : Nat) = 0; omega)
    | ⟨1, _⟩ => Fin.ext (by have : (i 1 : Nat) < 1 := (i 1).isLt; show (i 1 : Nat) = 0; omega)
  rw [hi]
  refine (outsAt_eq V c 63 tLast.isLt).trans ?_
  rw [attractBlock_eq]

end Final

end Cert.KernelIdeal.KRegion0

end
-- ==== Proof.KRegion1.lean ====
import proofs.«169223_j2216203125376_1_alg».proof.Proof.Gen.KernelIdeal.Frame
import proofs.«169223_j2216203125376_1_alg».proof.Proof.Spec
import Idealize.ShloMosaic.Lib.Pipeline.Value
import Idealize.ShloMosaic.Lib.ValueLayout
import Idealize.ShloMosaic.Lib.Tactic

set_option maxRecDepth 16384

noncomputable section

namespace Cert.KernelIdeal.KRegion1

open Idealize.ShloMosaic Idealize.ShloMosaic.TcCoe Idealize.SL.Sem Idealize.ShloMosaic.ValueIdx Cert.KernelIdeal Cert.KernelIdeal.Gen Cert.IouSpec

/-! ## What each control case leaves in the one-entry result -/

section pieces
variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The stored entry as one term of the four loaded blocks and the carried entry. -/
def stored (x0 : Vec F S1x8x2048 .f32) (x1 : Vec F S1x8x2x2048 .f32) (x2 : Vec F S1x1x2048 .f32) (x3 : Vec F S1x2x2048 .f32)
    (xo : Vec F S1x1 .f32) : Vec F S1x1 .f32 :=
  k1_pay1 (k1_pay5 x2) (k1_pay12 x1) (k1_pay13 (k1_pay6 x3) (k1_pay8 x1)) (k1_pay14 (k1_pay6 x3) (k1_pay8 x1))
    (k1_pay15 (k1_pay9 x0)) (k1_pay16 (k1_pay10 x0)) (k1_pay17 (k1_pay9 x0)) (k1_pay18 (k1_pay10 x0))
    (k1_pay19 (k1_pay6 x3) (k1_pay8 x1) (k1_pay9 x0) (k1_pay10 x0) (k1_pay11 x1))
    (k1_pay20 (k1_pay6 x3) (k1_pay8 x1) (k1_pay9 x0) (k1_pay10 x0) (k1_pay12 x1))
    (k1_pay21 (k1_pay9 x0) (k1_pay11 x1)) k1_pay22 xo

/-- Case B (points 1 to 63): the carried entry is loaded and the stored term over it is left. -/
theorem out_B (c : Dev nD) (i : grid1.Coords) (a1 : Memref sig .tc .vmem S1x8x2048 .f32) (h1 : a1.IsWhole)
    (a2 : Memref sig .tc .vmem S1x8x2x2048 .f32) (h2 : a2.IsWhole) (a3 : Memref sig .tc .vmem S1x1x2048 .f32) (h3 : a3.IsWhole)
    (a4 : Memref sig .tc .vmem S1x2x2048 .f32) (h4 : a4.IsWhole) (a5 : Memref sig .tc .vmem S1x1 .f32) (h5 : a5.IsWhole)
    (hc : ¬cond1_0 i) (x0 : Vec F S1x8x2048 .f32) (x1 : Vec F S1x8x2x2048 .f32) (x2 : Vec F S1x1x2048 .f32) (x3 : Vec F S1x2x2048 .f32) (xo : Vec F S1x1 .f32) :
    out1_B_4 c i a1 h1 a2 h2 a3 h3 a4 h4 a5 h5 hc x0 x1 x2 x3 xo = stored x0 x1 x2 x3 xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero zero2]
  simp only [View.readAt_eq_ld, h1.read_unread, h2.read_unread, h3.read_unread, h4.read_unread, h5.read_unread, View.ld_unit_zero (S := S1x1) zero2, View.ld_unit_zero (S := S1x8x2048) zero3, View.ld_unit_zero (S := S1x8x2x2048) zero4, View.ld_unit_zero (S := S1x1x2048) zero3, View.ld_unit_zero (S := S1x2x2048) zero3]
  rfl

/-- Case A (point 0): the zero entry is stored first, read back, and the stored term over it is left. -/
theorem out_A (c : Dev nD) (i : grid1.Coords) (a1 : Memref sig .tc .vmem S1x8x2048 .f32) (h1 : a1.IsWhole)
    (a2 : Memref sig .tc .vmem S1x8x2x2048 .f32) (h2 : a2.IsWhole) (a3 : Memref sig .tc .vmem S1x1x2048 .f32) (h3 : a3.IsWhole)
    (a4 : Memref sig .tc .vmem S1x2x2048 .f32) (h4 : a4.IsWhole) (a5 : Memref sig .tc .vmem S1x1 .f32) (h5 : a5.IsWhole)
    (hc : cond1_0 i) (x0 : Vec F S1x8x2048 .f32) (x1 : Vec F S1x8x2x2048 .f32) (x2 : Vec F S1x1x2048 .f32) (x3 : Vec F S1x2x2048 .f32) :
    out1_A_4 c i a1 h1 a2 h2 a3 h3 a4 h4 a5 h5 hc x0 x1 x2 x3 = stored x0 x1 x2 x3 k1_pay2 := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x1) zero2]
  simp only [View.readAt_eq_ld, h1.read_unread, h2.read_unread, h3.read_unread, h4.read_unread, h5.read_unread, View.readCov_unit_zero (S := S1x1) _ zero2, View.ld_unit_zero (S := S1x1) zero2, View.ld_unit_zero (S := S1x8x2048) zero3, View.ld_unit_zero (S := S1x8x2x2048) zero4, View.ld_unit_zero (S := S1x1x2048) zero3, View.ld_unit_zero (S := S1x2x2048) zero3]
  rfl
end pieces

/-! ## The stored term at the exact reals, lane by lane -/

section reads

theorem lift_rows (h : S4x2048.Reduces [0] S2048) (l : Fin 2048) (k : Fin 4) : h.lift (ix1 l) k = ix2 k l := by
  funext a
  match a with
  | ⟨0, _⟩ => exact Fin.ext rfl
  | ⟨1, _⟩ => exact Fin.ext rfl

theorem lift_lanes (h : S1x2048.Reduces [1] S1) (k : Fin 2048) : h.lift (ix1 (0 : Fin 1)) k = ix2 (0 : Fin 1) k := by
  funext a
  match a with
  | ⟨0, _⟩ => exact Fin.ext rfl
  | ⟨1, _⟩ => exact Fin.ext rfl

/-- A four-row column total divided by four is the mean of the four rows. -/
theorem mean_rows (v : FVec Ideal S4x2048 .f32) (h : S4x2048.Reduces [0] S2048) (hc : S2048.ShapeCasts S1x2048) (l : Fin 2048) :
    divf (shapeCast S1x2048 (multiReduction .add [0] S2048 v 0x00000000#32 h (.inl rfl) rfl) hc)
        (broadcast S1x2048 (Scalar.ofBits (F := Ideal) .f32 0x40800000#32)) (ix2 (0 : Fin 1) l)
      = mean4 fun c => v (ix2 c l) := by
  show Ideal.div (shapeCast S1x2048 (multiReduction .add [0] S2048 v 0x00000000#32 h (.inl rfl) rfl) hc (ix2 (0 : Fin 1) l)) (Ideal.ofBits .f32 0x40800000#32) = _
  unfold mean4 fourF
  refine congrArg (fun z => Ideal.div z (Ideal.ofBits .f32 0x40800000#32)) ?_
  refine (shapeCast_a_1a_apply _ hc (0 : Fin 1) l).trans ?_
  refine (Ideal.multiReduction_add_single v _ h _ _ (ix1 l)).trans ?_
  show ∑ k : Fin 4, v (h.lift (ix1 l) k) = ∑ c : Fin 4, v (ix2 c l)
  exact Finset.sum_congr rfl fun k _ => congrArg v (lift_rows h l k)

/-- Row `c` of the first box's slice of the offset block is corner `c` of box 0. -/
theorem box0_read (x1 : Vec Ideal S1x8x2x2048 .f32) (hc : S1x8x2x2048.ShapeCasts S8x2x2048) (hs : S8x2x2048.Slices ![0, 0, 0] S4x2x2048)
    (c : Fin 4) (ch : Fin 2) (l : Fin 2048) :
    extractStridedSlice S4x2x2048 ![0, 0, 0] (shapeCast S8x2x2048 x1 hc) hs (ix3 c ch l) = x1 (ix4 (0 : Fin 1) (corner8 0 c) ch l) := by
  refine (extractStridedSlice_apply _ _ hs (ix3 c ch l) (ix3 (corner8 0 c) ch l) (fun ax => ?_)).trans ?_
  · match ax with
    | ⟨0, _⟩ => show 4 * 0 + c.val = 0 + c.val; omega
    | ⟨1, _⟩ => exact (Nat.zero_add _).symm
    | ⟨2, _⟩ => exact (Nat.zero_add _).symm
  · exact shapeCast_1abc_abc_apply x1 hc (corner8 0 c) ch l

/-- Row `c` of the first box's slice of the height block is corner `c` of box 0. -/
theorem hbox0_read (x0 : Vec Ideal S1x8x2048 .f32) (hc : S1x8x2048.ShapeCasts S8x2048) (hs : S8x2048.Slices ![0, 0] S4x2048)
    (c : Fin 4) (l : Fin 2048) :
    extractStridedSlice S4x2048 ![0, 0] (shapeCast S8x2048 x0 hc) hs (ix2 c l) = x0 (ix3 (0 : Fin 1) (corner8 0 c) l) := by
  refine (slice2_axis0_apply 0 _ hs c l (corner8 0 c) (by show 4 * 0 + c.val = 0 + c.val; omega)).trans ?_
  exact shapeCast_1ab_ab_apply x0 hc (corner8 0 c) l

/-- Row `c` of the second box's slice of the offset block is corner `c` of box 1. -/
theorem box1_read (x1 : Vec Ideal S1x8x2x2048 .f32) (hc : S1x8x2x2048.ShapeCasts S8x2x2048) (hs : S8x2x2048.Slices ![4, 0, 0] S4x2x2048)
    (c : Fin 4) (ch : Fin 2) (l : Fin 2048) :
    extractStridedSlice S4x2x2048 ![4, 0, 0] (shapeCast S8x2x2048 x1 hc) hs (ix3 c ch l) = x1 (ix4 (0 : Fin 1) (corner8 1 c) ch l) := by
  refine (extractStridedSlice_apply _ _ hs (ix3 c ch l) (ix3 (corner8 1 c) ch l) (fun ax => ?_)).trans ?_
  · match ax with
    | ⟨0, _⟩ => show 4 * 1 + c.val = 4 + c.val; omega
    | ⟨1, _⟩ => exact (Nat.zero_add _).symm
    | ⟨2, _⟩ => exact (Nat.zero_add _).symm
  · exact shapeCast_1abc_abc_apply x1 hc (corner8 1 c) ch l

/-- Row `c` of the second box's slice of the height block is corner `c` of box 1. -/
theorem hbox1_read (x0 : Vec Ideal S1x8x2048 .f32) (hc : S1x8x2048.ShapeCasts S8x2048) (hs : S8x2048.Slices ![4, 0] S4x2048)
    (c : Fin 4) (l : Fin 2048) :
    extractStridedSlice S4x2048 ![4, 0] (shapeCast S8x2048 x0 hc) hs (ix2 c l) = x0 (ix3 (0 : Fin 1) (corner8 1 c) l) := by
  refine (slice2_axis0_apply 4 _ hs c l (corner8 1 c) (by show 4 * 1 + c.val = 4 + c.val; omega)).trans ?_
  exact shapeCast_1ab_ab_apply x0 hc (corner8 1 c) l

/-- Channel 0 of a box's four corners, as a four-row matrix. -/
theorem chan0_read (y : FVec Ideal S4x2x2048 .f32) (hs : S4x2x2048.Slices ![0, 0, 0] S4x1x2048) (hc : S4x1x2048.ShapeCasts S4x2048)
    (c : Fin 4) (l : Fin 2048) :
    shapeCast S4x2048 (extractStridedSlice S4x1x2048 ![0, 0, 0] y hs) hc (ix2 c l) = y (ix3 c (0 : Fin 2) l) := by
  refine (shapeCast_apply _ hc (ix2 c l) (ix3 c (0 : Fin 1) l) (by
    rw [Shape.rowMajor_val_three, Shape.rowMajor_val_two]
    show (c.val * 1 + 0) * 2048 + l.val = c.val * 2048 + l.val
    omega)).trans ?_
  exact slice3_axis1_apply 0 y hs c (0 : Fin 1) l (0 : Fin 2) rfl

/-- Channel 1 of a box's four corners, as a four-row matrix. -/
theorem chan1_read (y : FVec Ideal S4x2x2048 .f32) (hs : S4x2x2048.Slices ![0, 1, 0] S4x1x2048) (hc : S4x1x2048.ShapeCasts S4x2048)
    (c : Fin 4) (l : Fin 2048) :
    shapeCast S4x2048 (extractStridedSlice S4x1x2048 ![0, 1, 0] y hs) hc (ix2 c l) = y (ix3 c (1 : Fin 2) l) := by
  refine (shapeCast_apply _ hc (ix2 c l) (ix3 c (0 : Fin 1) l) (by
    rw [Shape.rowMajor_val_three, Shape.rowMajor_val_two]
    show (c.val * 1 + 0) * 2048 + l.val = c.val * 2048 + l.val
    omega)).trans ?_
  exact slice3_axis1_apply 1 y hs c (0 : Fin 1) l (1 : Fin 2) rfl

end reads

/-! ## The stored term's parts at a lane -/

section pays
variable (x0 : Vec Ideal S1x8x2048 .f32) (x1 : Vec Ideal S1x8x2x2048 .f32) (x2 : Vec Ideal S1x1x2048 .f32) (x3 : Vec Ideal S1x2x2048 .f32)
  (l : Fin 2048)

/-- Box 0's mean height. -/
theorem pay9_at : k1_pay9 (F := Ideal) x0 (ix2 (0 : Fin 1) l) = mean4 fun c => x0 (ix3 (0 : Fin 1) (corner8 0 c) l) := by
  unfold k1_pay9 k1_pay3
  refine (mean_rows _ _ _ l).trans ?_
  exact congrArg mean4 (funext fun c => hbox0_read x0 _ _ c l)

/-- Box 1's mean height. -/
theorem pay10_at : k1_pay10 (F := Ideal) x0 (ix2 (0 : Fin 1) l) = mean4 fun c => x0 (ix3 (0 : Fin 1) (corner8 1 c) l) := by
  unfold k1_pay10 k1_pay3
  refine (mean_rows _ _ _ l).trans ?_
  exact congrArg mean4 (funext fun c => hbox1_read x0 _ _ c l)

/-- Box 0's mean centre, channel 0. -/
theorem pay11_at : k1_pay11 (F := Ideal) x1 (ix2 (0 : Fin 1) l) = mean4 fun c => x1 (ix4 (0 : Fin 1) (corner8 0 c) 0 l) := by
  unfold k1_pay11 k1_pay7 k1_pay4
  refine (mean_rows _ _ _ l).trans ?_
  exact congrArg mean4 (funext fun c => (chan0_read _ _ _ c l).trans (box0_read x1 _ _ c 0 l))

/-- Box 0's mean centre, channel 1. -/
theorem pay12_at : k1_pay12 (F := Ideal) x1 (ix2 (0 : Fin 1) l) = mean4 fun c => x1 (ix4 (0 : Fin 1) (corner8 0 c) 1 l) := by
  unfold k1_pay12 k1_pay7 k1_pay4
  refine (mean_rows _ _ _ l).trans ?_
  exact congrArg mean4 (funext fun c => (chan1_read _ _ _ c l).trans (box0_read x1 _ _ c 1 l))

/-- Box 1's mean centre shifted by the extra offset, channel 0. -/
theorem pay13_at : k1_pay13 (F := Ideal) (k1_pay6 x3) (k1_pay8 x1) (ix2 (0 : Fin 1) l)
    = mean4 (fun c => x1 (ix4 (0 : Fin 1) (corner8 1 c) 0 l)) + x3 (ix3 (0 : Fin 1) 0 l) := by
  unfold k1_pay13 k1_pay6 k1_pay8 k1_pay4
  refine (addf_apply _ _ _).trans ?_
  refine congrArg₂ (· + ·) ((mean_rows _ _ _ l).trans ?_) ?_
  · exact congrArg mean4 (funext fun c => (chan0_read _ _ _ c l).trans (box1_read x1 _ _ c 0 l))
  · refine (slice2_axis0_apply 0 _ _ (0 : Fin 1) l (0 : Fin 2) rfl).trans ?_
    exact shapeCast_1ab_ab_apply x3 _ (0 : Fin 2) l

/-- Box 1's mean centre shifted by the extra offset, channel 1. -/
theorem pay14_at : k1_pay14 (F := Ideal) (k1_pay6 x3) (k1_pay8 x1) (ix2 (0 : Fin 1) l)
    = mean4 (fun c => x1 (ix4 (0 : Fin 1) (corner8 1 c) 1 l)) + x3 (ix3 (0 : Fin 1) 1 l) := by
  unfold k1_pay14 k1_pay6 k1_pay8 k1_pay4
  refine (addf_apply _ _ _).trans ?_
  refine congrArg₂ (· + ·) ((mean_rows _ _ _ l).trans ?_) ?_
  · exact congrArg mean4 (funext fun c => (chan1_read _ _ _ c l).trans (box1_read x1 _ _ c 1 l))
  · refine (slice2_axis0_apply 1 _ _ (0 : Fin 1) l (1 : Fin 2) rfl).trans ?_
    exact shapeCast_1ab_ab_apply x3 _ (1 : Fin 2) l

/-- The mask row. -/
theorem pay5_at : k1_pay5 (F := Ideal) x2 (ix2 (0 : Fin 1) l) = x2 (ix3 (0 : Fin 1) (0 : Fin 1) l) := by
  unfold k1_pay5
  exact shapeCast_1ab_ab_apply x2 _ (0 : Fin 1) l

end pays

/-! ## The stored entry: the carried entry plus the block's masked total -/

section stored

/-- The masked term of one lane from the values the stored term is handed. -/
def laneK (a8 a34 a42 a50 a51 a52 a55 a58 a65 a76 a79 a80 : EReal) : EReal :=
  a8 * Ideal.div
    (max (min a79 (a42 + a52 * a80) - a65) zeroF * max (min (a34 + c041 * a51 * half) (a50 + c041 * a52 * half) - a76) zeroF)
    (a55 + a58
      - max (min a79 (a42 + a52 * a80) - a65) zeroF * max (min (a34 + c041 * a51 * half) (a50 + c041 * a52 * half) - a76) zeroF
      + eps6)

/-- The stored entry is the carried entry plus the sum over the lanes of the masked terms. -/
theorem pay1_at (v8 v34 v42 v50 v51 v52 v55 v58 v65 v76 v79 v80 : FVec Ideal S1x2048 .f32) (v110 : Vec Ideal S1x1 .f32) :
    k1_pay1 (F := Ideal) v8 v34 v42 v50 v51 v52 v55 v58 v65 v76 v79 v80 v110 (ix2 (0 : Fin 1) (0 : Fin 1))
      = v110 (ix2 (0 : Fin 1) (0 : Fin 1)) + ∑ l : Fin 2048, laneK (v8 (ix2 (0 : Fin 1) l)) (v34 (ix2 (0 : Fin 1) l)) (v42 (ix2 (0 : Fin 1) l))
          (v50 (ix2 (0 : Fin 1) l)) (v51 (ix2 (0 : Fin 1) l)) (v52 (ix2 (0 : Fin 1) l)) (v55 (ix2 (0 : Fin 1) l)) (v58 (ix2 (0 : Fin 1) l))
          (v65 (ix2 (0 : Fin 1) l)) (v76 (ix2 (0 : Fin 1) l)) (v79 (ix2 (0 : Fin 1) l)) (v80 (ix2 (0 : Fin 1) l)) := by
  unfold k1_pay1
  refine (addf_apply _ _ _).trans ?_
  refine congrArg₂ (· + ·) ?_ ?_
  · exact shapeCast_apply v110 _ (ix2 (0 : Fin 1) (0 : Fin 1)) (ix2 (0 : Fin 1) (0 : Fin 1)) rfl
  · refine (shapeCast_a_1a_apply _ _ (0 : Fin 1) (0 : Fin 1)).trans ?_
    refine (Ideal.multiReduction_add_single _ _ _ _ _ (ix1 (0 : Fin 1))).trans ?_
    show ∑ k : Fin 2048, _ = _
    refine Finset.sum_congr rfl fun l _ => ?_
    rw [lift_lanes]
    rfl

variable (x0 : Vec Ideal S1x8x2048 .f32) (x1 : Vec Ideal S1x8x2x2048 .f32) (x2 : Vec Ideal S1x1x2048 .f32) (x3 : Vec Ideal S1x2x2048 .f32)

/-- The masked term of lane `l` of a block: the specification's term of pair `l` read off the block's rows. -/
def laneTerm (l : Fin 2048) : EReal :=
  x2 (ix3 (0 : Fin 1) (0 : Fin 1) l) *
    boxIou (Ideal.exp (mean4 fun c => x0 (ix3 (0 : Fin 1) (corner8 0 c) l))) (mean4 fun c => x1 (ix4 (0 : Fin 1) (corner8 0 c) 0 l)) (mean4 fun c => x1 (ix4 (0 : Fin 1) (corner8 0 c) 1 l))
      (Ideal.exp (mean4 fun c => x0 (ix3 (0 : Fin 1) (corner8 1 c) l))) (mean4 (fun c => x1 (ix4 (0 : Fin 1) (corner8 1 c) 0 l)) + x3 (ix3 (0 : Fin 1) 0 l)) (mean4 (fun c => x1 (ix4 (0 : Fin 1) (corner8 1 c) 1 l)) + x3 (ix3 (0 : Fin 1) 1 l))

theorem pay15_at (v : FVec Ideal S1x2048 .f32) (i : S1x2048.Idx) : k1_pay15 (F := Ideal) v i = Ideal.exp (v i) := rfl
theorem pay16_at (v : FVec Ideal S1x2048 .f32) (i : S1x2048.Idx) : k1_pay16 (F := Ideal) v i = Ideal.exp (v i) := rfl
theorem pay17_at (v : FVec Ideal S1x2048 .f32) (i : S1x2048.Idx) : k1_pay17 (F := Ideal) v i = Ideal.exp (v i) * Ideal.exp (v i) * c041 := rfl
theorem pay18_at (v : FVec Ideal S1x2048 .f32) (i : S1x2048.Idx) : k1_pay18 (F := Ideal) v i = Ideal.exp (v i) * Ideal.exp (v i) * c041 := rfl
theorem pay19_at (v10 : FVec Ideal S2x2048 .f32) (v14 : FVec Ideal S4x2x2048 .f32) (v18 v22 v28 : FVec Ideal S1x2048 .f32) (i : S1x2048.Idx) :
    k1_pay19 (F := Ideal) v10 v14 v18 v22 v28 i = max (v28 i - Ideal.exp (v18 i) * half) (k1_pay13 v10 v14 i - Ideal.exp (v22 i) * half) := rfl
theorem pay20_at (v10 : FVec Ideal S2x2048 .f32) (v14 : FVec Ideal S4x2x2048 .f32) (v18 v22 v34 : FVec Ideal S1x2048 .f32) (i : S1x2048.Idx) :
    k1_pay20 (F := Ideal) v10 v14 v18 v22 v34 i = max (v34 i - c041 * Ideal.exp (v18 i) * half) (k1_pay14 v10 v14 i - c041 * Ideal.exp (v22 i) * half) := rfl
theorem pay21_at (v18 v28 : FVec Ideal S1x2048 .f32) (i : S1x2048.Idx) : k1_pay21 (F := Ideal) v18 v28 i = v28 i + Ideal.exp (v18 i) * half := rfl
theorem pay22_at (i : S1x2048.Idx) : k1_pay22 (F := Ideal) i = half := rfl

/-- The entry a point stores: the carried entry plus its block's masked total. -/
theorem stored_at (xo : Vec Ideal S1x1 .f32) :
    stored (F := Ideal) x0 x1 x2 x3 xo (ix2 (0 : Fin 1) (0 : Fin 1)) = xo (ix2 (0 : Fin 1) (0 : Fin 1)) + ∑ l : Fin 2048, laneTerm x0 x1 x2 x3 l := by
  unfold stored
  refine (pay1_at _ _ _ _ _ _ _ _ _ _ _ _ xo).trans ?_
  refine congrArg (fun s => xo (ix2 (0 : Fin 1) (0 : Fin 1)) + s) (Finset.sum_congr rfl fun l _ => ?_)
  rw [pay15_at, pay16_at, pay17_at, pay18_at, pay19_at, pay20_at, pay21_at, pay22_at, pay5_at, pay9_at, pay10_at, pay11_at, pay12_at,
    pay13_at, pay14_at]
  rfl

end stored

/-! ## From blocks to the arrays' rows -/

section rows

/-- The specification's masked term of pair `m` of batch `b`. -/
def rowTerm (Hh : SQh.Idx → EReal) (Oo : SQo.Idx → EReal) (Mm : SQm.Idx → EReal) (Pp : SQp.Idx → EReal) (b : Fin 64) (m : Fin 2048) : EReal :=
  Mm (ix3 b 0 m) *
    boxIou (Ideal.exp (mean4 fun c => Hh (ix3 b (corner8 0 c) m))) (mean4 fun c => Oo (ix4 b (corner8 0 c) 0 m)) (mean4 fun c => Oo (ix4 b (corner8 0 c) 1 m))
      (Ideal.exp (mean4 fun c => Hh (ix3 b (corner8 1 c) m))) (mean4 (fun c => Oo (ix4 b (corner8 1 c) 0 m)) + Pp (ix3 b 0 m)) (mean4 (fun c => Oo (ix4 b (corner8 1 c) 1 m)) + Pp (ix3 b 1 m))

theorem repelBlock_rows (Hh : SQh.Idx → EReal) (Oo : SQo.Idx → EReal) (Mm : SQm.Idx → EReal) (Pp : SQp.Idx → EReal) :
    repelBlock Hh Oo Mm Pp = ∑ b : Fin 64, ∑ m : Fin 2048, rowTerm Hh Oo Mm Pp b m := rfl

/-- A block whose rows are batch `b`'s rows of the arrays has batch `b`'s terms. -/
theorem laneTerm_of (x0 : Vec Ideal S1x8x2048 .f32) (x1 : Vec Ideal S1x8x2x2048 .f32) (x2 : Vec Ideal S1x1x2048 .f32) (x3 : Vec Ideal S1x2x2048 .f32)
    (Hh : SQh.Idx → EReal) (Oo : SQo.Idx → EReal) (Mm : SQm.Idx → EReal) (Pp : SQp.Idx → EReal) (b : Fin 64) (l : Fin 2048)
    (h0 : ∀ r : Fin 8, x0 (ix3 (0 : Fin 1) r l) = Hh (ix3 b r l))
    (h1 : ∀ (r : Fin 8) (ch : Fin 2), x1 (ix4 (0 : Fin 1) r ch l) = Oo (ix4 b r ch l))
    (h2 : x2 (ix3 (0 : Fin 1) (0 : Fin 1) l) = Mm (ix3 b 0 l))
    (h3 : ∀ ch : Fin 2, x3 (ix3 (0 : Fin 1) ch l) = Pp (ix3 b ch l)) :
    laneTerm x0 x1 x2 x3 l = rowTerm Hh Oo Mm Pp b l := by
  unfold laneTerm rowTerm
  simp only [h0, h1, h2, h3]

end rows

section blocks
variable (V : (c : Dev nD) → (b : Ref sig .tc) → Buf (Elt Ideal) ((c : Thread nD τ).loc b)) (c : Dev nD)

abbrev arrH : SQh.Idx → EReal := V c main_v28
abbrev arrO : SQo.Idx → EReal := V c main_v33
abbrev arrM : SQm.Idx → EReal := V c main_v36
abbrev arrP : SQp.Idx → EReal := V c main_v37

abbrev hblk (t : Fin cfg1.N) : Vec Ideal S1x8x2048 .f32 := iblk1 V c 0 t
abbrev oblk (t : Fin cfg1.N) : Vec Ideal S1x8x2x2048 .f32 := iblk1 V c 1 t
abbrev mblk (t : Fin cfg1.N) : Vec Ideal S1x1x2048 .f32 := iblk1 V c 2 t
abbrev pblk (t : Fin cfg1.N) : Vec Ideal S1x2x2048 .f32 := iblk1 V c 3 t

/-- The four input windows' block indices at point `t`: batch `t`, everything else whole. -/
theorem idx_facts : ∀ t : Fin cfg1.N,
    win1_0.index t (0 : Fin 3) = t.val ∧ win1_0.index t (1 : Fin 3) = 0 ∧ win1_0.index t (2 : Fin 3) = 0
    ∧ win1_1.index t (0 : Fin 4) = t.val ∧ win1_1.index t (1 : Fin 4) = 0 ∧ win1_1.index t (2 : Fin 4) = 0 ∧ win1_1.index t (3 : Fin 4) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- The batch a point stages. -/
def bt (t : Fin cfg1.N) : Fin 64 := ⟨t.val, lt_of_lt_of_eq t.isLt N_1⟩

theorem hblk_read (t : Fin cfg1.N) (r : Fin 8) (l : Fin 2048) : hblk V c t (ix3 (0 : Fin 1) r l) = arrH V c (ix3 (bt t) r l) := by
  obtain ⟨e0, e1, e2, -⟩ := idx_facts t
  show arrH V c (((cfg1.win 0).blk t).view.emb (ix3 (0 : Fin 1) r l)) = _
  refine congrArg (arrH V c) (funext fun a => Fin.ext ?_)
  match a with
  | ⟨0, _⟩ => show win1_0.index t (0 : Fin 3) * 1 + 1 * 0 = t.val; omega
  | ⟨1, _⟩ => show win1_0.index t (1 : Fin 3) * 8 + 1 * r.val = r.val; omega
  | ⟨2, _⟩ => show win1_0.index t (2 : Fin 3) * 2048 + 1 * l.val = l.val; omega

theorem oblk_read (t : Fin cfg1.N) (r : Fin 8) (ch : Fin 2) (l : Fin 2048) : oblk V c t (ix4 (0 : Fin 1) r ch l) = arrO V c (ix4 (bt t) r ch l) := by
  obtain ⟨-, -, -, e0, e1, e2, e3, -⟩ := idx_facts t
  show arrO V c (((cfg1.win 1).blk t).view.emb (ix4 (0 : Fin 1) r ch l)) = _
  refine congrArg (arrO V c) (funext fun a => Fin.ext ?_)
  match a with
  | ⟨0, _⟩ => show win1_1.index t (0 : Fin 4) * 1 + 1 * 0 = t.val; omega
  | ⟨1, _⟩ => show win1_1.index t (1 : Fin 4) * 8 + 1 * r.val = r.val; omega
  | ⟨2, _⟩ => show win1_1.index t (2 : Fin 4) * 2 + 1 * ch.val = ch.val; omega
  | ⟨3, _⟩ => show win1_1.index t (3 : Fin 4) * 2048 + 1 * l.val = l.val; omega

theorem mblk_read (t : Fin cfg1.N) (l : Fin 2048) : mblk V c t (ix3 (0 : Fin 1) (0 : Fin 1) l) = arrM V c (ix3 (bt t) 0 l) := by
  obtain ⟨-, -, -, -, -, -, -, e0, e1, e2, -⟩ := idx_facts t
  show arrM V c (((cfg1.win 2).blk t).view.emb (ix3 (0 : Fin 1) (0 : Fin 1) l)) = _
  refine congrArg (arrM V c) (funext fun a => Fin.ext ?_)
  match a with
  | ⟨0, _⟩ => show win1_2.index t (0 : Fin 3) * 1 + 1 * 0 = t.val; omega
  | ⟨1, _⟩ => show win1_2.index t (1 : Fin 3) * 1 + 1 * 0 = 0; omega
  | ⟨2, _⟩ => show win1_2.index t (2 : Fin 3) * 2048 + 1 * l.val = l.val; omega

theorem pblk_read (t : Fin cfg1.N) (ch : Fin 2) (l : Fin 2048) : pblk V c t (ix3 (0 : Fin 1) ch l) = arrP V c (ix3 (bt t) ch l) := by
  obtain ⟨-, -, -, -, -, -, -, -, -, -, e0, e1, e2⟩ := idx_facts t
  show arrP V c (((cfg1.win 3).blk t).view.emb (ix3 (0 : Fin 1) ch l)) = _
  refine congrArg (arrP V c) (funext fun a => Fin.ext ?_)
  match a with
  | ⟨0, _⟩ => show win1_3.index t (0 : Fin 3) * 1 + 1 * 0 = t.val; omega
  | ⟨1, _⟩ => show win1_3.index t (1 : Fin 3) * 2 + 1 * ch.val = ch.val; omega
  | ⟨2, _⟩ => show win1_3.index t (2 : Fin 3) * 2048 + 1 * l.val = l.val; omega

/-- Batch `b`'s masked total. -/
def rowSum (b : Fin 64) : EReal := ∑ m : Fin 2048, rowTerm (arrH V c) (arrO V c) (arrM V c) (arrP V c) b m

/-- The same with the batch as a number (zero past the last batch). -/
def bs (i : ℕ) : EReal := if h : i < 64 then rowSum V c ⟨i, h⟩ else 0

/-- The block a point stages has that point's batch's total. -/
theorem block_total (t : Fin cfg1.N) :
    ∑ l : Fin 2048, laneTerm (hblk V c t) (oblk V c t) (mblk V c t) (pblk V c t) l = bs V c t.val := by
  have ht : t.val < 64 := lt_of_lt_of_eq t.isLt N_1
  unfold bs
  rw [dif_pos ht]
  unfold rowSum
  exact Finset.sum_congr rfl fun l _ =>
    laneTerm_of (hblk V c t) (oblk V c t) (mblk V c t) (pblk V c t) (arrH V c) (arrO V c) (arrM V c) (arrP V c) ⟨t.val, ht⟩ l
      (fun r => hblk_read V c t r l) (fun r ch => oblk_read V c t r ch l) (mblk_read V c t l) (fun ch => pblk_read V c t ch l)

end blocks

/-! ## The result after each point, and after the last -/

section chain
variable (V : (c : Dev nD) → (b : Ref sig .tc) → Buf (Elt Ideal) ((c : Thread nD τ).loc b)) (c : Dev nD)

/-- After point `n` the one entry holds the total of batches `0 … n`: by induction on the point. -/
theorem outsAt_eq : ∀ (n : ℕ) (h : n < cfg1.N),
    outsAt1 V c n h (ix2 (0 : Fin 1) (0 : Fin 1)) = ∑ i ∈ Finset.range (n + 1), bs V c i
  | 0, h => by
    have h0 : (⟨0, h⟩ : Fin cfg1.N).val % 64 = 0 := Nat.zero_mod 64
    rw [outsAt1_A V c ⟨0, h⟩ h0]
    refine (congrFun (out_A (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr h0)
      (hblk V c ⟨0, h⟩) (oblk V c ⟨0, h⟩) (mblk V c ⟨0, h⟩) (pblk V c ⟨0, h⟩)) (ix2 (0 : Fin 1) (0 : Fin 1))).trans ?_
    refine (stored_at (hblk V c ⟨0, h⟩) (oblk V c ⟨0, h⟩) (mblk V c ⟨0, h⟩) (pblk V c ⟨0, h⟩) (k1_pay2 (F := Ideal))).trans ?_
    rw [block_total V c ⟨0, h⟩, Finset.sum_range_one]
    show Ideal.ofBits .f32 0x00000000#32 + bs V c 0 = bs V c 0
    rw [Ideal.ofBits_zero_f32, zero_add]
  | n + 1, h => by
    have hN : n + 1 < 64 := lt_of_lt_of_eq h N_1
    have hB : ¬(⟨n + 1, h⟩ : Fin cfg1.N).val % 64 = 0 := by dsimp only; omega
    rw [outsAt1_B V c ⟨n + 1, h⟩ hB]
    refine (congrFun (out_B (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩)
      (fun hc => hB ((hcond1_0 ⟨n + 1, h⟩).mp hc))
      (hblk V c ⟨n + 1, h⟩) (oblk V c ⟨n + 1, h⟩) (mblk V c ⟨n + 1, h⟩) (pblk V c ⟨n + 1, h⟩)
      (outsAt1 V c n (Nat.lt_of_succ_lt h))) (ix2 (0 : Fin 1) (0 : Fin 1))).trans ?_
    refine (stored_at (hblk V c ⟨n + 1, h⟩) (oblk V c ⟨n + 1, h⟩) (mblk V c ⟨n + 1, h⟩) (pblk V c ⟨n + 1, h⟩)
      (outsAt1 V c n (Nat.lt_of_succ_lt h))).trans ?_
    rw [block_total V c ⟨n + 1, h⟩, Finset.sum_range_succ _ (n + 1), outsAt_eq n (Nat.lt_of_succ_lt h)]

/-- The batches' totals add up to the specification's total. -/
theorem total_eq : ∑ i ∈ Finset.range 64, bs V c i = repelBlock (arrH V c) (arrO V c) (arrM V c) (arrP V c) := by
  rw [Finset.sum_range, repelBlock_rows]
  refine Finset.sum_congr rfl fun b _ => ?_
  unfold bs
  rw [dif_pos b.isLt]
  rfl

/-- The last point. -/
def tLast : Fin cfg1.N := ⟨63, by rw [show cfg1.N = 64 from N_1]; decide⟩

/-- The result array's contents the launch leaves. -/
abbrev result : Buf (Elt Ideal) ((c : Thread nD τ).loc main_v45) :=
  fun _ => repelBlock (arrH V c) (arrO V c) (arrM V c) (arrP V c)

/-- An index of the one-entry array has both coordinates zero. -/
theorem idx_one (y : S1x1.Idx) : y = ix2 (0 : Fin 1) (0 : Fin 1) := by
  have h0 := idx2_lt0 y
  have h1 := idx2_lt1 y
  funext a
  apply Fin.ext
  match a with
  | ⟨0, _⟩ => show (y 0).val = 0; omega
  | ⟨1, _⟩ => show (y 1).val = 0; omega

/-- After the last point the one entry holds the whole total. -/
theorem outs_last : outsAt1 V c (tLast).val (tLast).isLt = result V c := by
  funext y
  rw [idx_one y]
  exact (outsAt_eq V c 63 (tLast).isLt).trans (total_eq V c)

/-- Only the last point writes the result back, and what it writes is the whole total: the result window's block is
    the whole one-entry array, and the total does not depend on the index. -/
theorem flushed_last (t : Fin cfg1.N) (hf : (cfg1.win 4).flush t = true) :
    (dat1 V c).flushed 4 t = ((cfg1.win 4).blk t).view.read (Elt Ideal) (result V c) := by
  have hN : t.val < 64 := lt_of_lt_of_eq t.isLt N_1
  have ht : t = tLast := Fin.ext (by have := (flush1_4 t).mp hf; show t.val = 63; omega)
  subst ht
  funext j
  rw [View.read_apply]
  show (cfg1.win 4).cut (grid1.coords tLast) ((dat1 V c).after 4 tLast) j = _
  rw [after1_4, outs_last]
  rfl

/-- The last point's block of the result window holds the one entry. -/
theorem last_block_holds : ∀ a : Fin 2,
    win1_4.index tLast a * win1_4.size a ≤ ((ix2 (0 : Fin 1) (0 : Fin 1) : S1x1.Idx) a).val
      ∧ ((ix2 (0 : Fin 1) (0 : Fin 1) : S1x1.Idx) a).val < win1_4.index tLast a * win1_4.size a + win1_4.xsize (grid1.coords tLast) a := by
  decide +kernel

/-- So the result array ends holding the whole total. -/
theorem final_total : (dat1 V c).arrAt 4 cfg1.N = result V c := by
  refine (dat1 V c).arrAt_eq_of_cover 4 (result V c) (flushed_last V c) fun i => ⟨tLast, (flush1_4 tLast).mpr rfl, ?_⟩
  rw [idx_one i]
  show ix2 (0 : Fin 1) (0 : Fin 1) ∈ ((View.whole main_v45).slice (win1_4.rect tLast)).set
  rw [View.set_slice_whole, Rect.mem_set_unit]
  exact last_block_holds

end chain

variable (V : (c : Dev nD) → (b : Ref sig .tc) → Buf (Elt Ideal) ((c : Thread nD τ).loc b)) (c : Dev nD)

/-- After its 64 grid points the repel launch's one-entry result holds the whole batch's total of the masked terms
    over the arrays it was handed. -/
theorem region1_total :
    ((dat1 V c).arrAt 4 cfg1.N : S1x1.Idx → EReal)
      = fun _ => repelBlock (V c main_v28 : SQh.Idx → EReal) (V c main_v33 : SQo.Idx → EReal) (V c main_v36 : SQm.Idx → EReal) (V c main_v37 : SQp.Idx → EReal) :=
  final_total V c

end Cert.KernelIdeal.KRegion1

end
-- ==== Proof.KVal.lean ====
/-
  The kernel program's result as the specification's kernel form: the tail's two quotients, each numerator a
  launch's total over the arrays the host prepared, each prepared array the gathered corners entry by entry.
-/
import proofs.«169223_j2216203125376_1_alg».proof.Proof.KTail
import proofs.«169223_j2216203125376_1_alg».proof.Proof.KHostA
import proofs.«169223_j2216203125376_1_alg».proof.Proof.KHostA15
import proofs.«169223_j2216203125376_1_alg».proof.Proof.KHostR
import proofs.«169223_j2216203125376_1_alg».proof.Proof.KRegion0
import proofs.«169223_j2216203125376_1_alg».proof.Proof.KRegion1

set_option maxRecDepth 16384

noncomputable section

namespace Cert.KernelIdeal.KVal

open Idealize.ShloMosaic Idealize.ShloMosaic.TcCoe Idealize.SL.Sem Idealize.ShloMosaic.ValueIdx Cert.KernelIdeal Cert.KernelIdeal.Gen Cert.IouSpec

variable (m : (ℓ : Loc nD τ sig) → Buf (Elt Ideal) ℓ) (ρ : Dev nD → PrngReg) (c : Dev nD)

/-! The arrays the host prepares for the two launches, as functions of their coordinates. -/

theorem v11_fun : (V9 m ρ c main_v11 : SKh.Idx → EReal) = fun i => aH (KHostA.hf m c) (KHostA.argA m c) (i 0) (i 2) (i 1) :=
  funext fun i => (congrArg _ (eq_ix3 i)).trans (KHostA.v11_apply m ρ c (i 0) (i 1) (i 2))
theorem v15_fun : (V9 m ρ c main_v15 : SKo.Idx → EReal) = fun i => aO (KHostA.of_ m c) (KHostA.argA m c) (i 0) (i 3) (i 1) (i 2) :=
  funext fun i => (congrArg _ (eq_ix4 i)).trans (KHostA15.v15_apply m ρ c (i 0) (i 1) (i 2) (i 3))
theorem v17_fun : (V9 m ρ c main_v17 : SKh.Idx → EReal) = fun i => mf (KHostA.argMA m c (ix3 (i 0) (i 2) (i 1))) :=
  funext fun i => (congrArg _ (eq_ix3 i)).trans (KHostA.v17_apply m ρ c (i 0) (i 1) (i 2))

/-- The attract launch's total over the arrays the host prepared is the specification's attract total of the
    arguments: entry by entry the prepared arrays are the gathered corners. -/
theorem attract_total :
    KTail.sumA m ρ c (ix2 0 0) = attractSumK (KHostA.hf m c) (KHostA.of_ m c) (KHostA.argA m c) (KHostA.argMA m c) := by
  have h1 : KTail.sumA m ρ c
      = fun _ => attractBlock (V9 m ρ c main_v11 : SKh.Idx → EReal) (V9 m ρ c main_v15 : SKo.Idx → EReal) (V9 m ρ c main_v17 : SKh.Idx → EReal) :=
    (KTail.sumA_eq m ρ c).trans (KRegion0.region0_total (V9 m ρ) c)
  rw [h1, v11_fun, v15_fun, v17_fun]
  show attractBlock _ _ _ = attractSumK _ _ _ _
  unfold attractBlock attractSumK attractTerm
  exact Finset.sum_congr rfl fun b _ => Finset.sum_congr rfl fun cn _ => Finset.sum_congr rfl fun n _ => rfl

/-- The repel launch's total likewise (the first launch leaves the second's inputs alone). -/
theorem repel_total :
    KTail.sumR m ρ c (ix2 0 0) = repelSumK (KHostR.hf m c) (KHostR.of_ m c) (KHostR.argP m c) (KHostR.argR m c) (KHostR.argMR m c) := by
  have h1 : KTail.sumR m ρ c
      = fun _ => repelBlock (V9 m ρ c main_v28 : SQh.Idx → EReal) (V9 m ρ c main_v33 : SQo.Idx → EReal) (V9 m ρ c main_v36 : SQm.Idx → EReal) (V9 m ρ c main_v37 : SQp.Idx → EReal) := by
    have h := (KTail.sumR_eq m ρ c).trans (KRegion1.region1_total (V10 m ρ) c)
    rw [KTail.V10_v28, KTail.V10_v33, KTail.V10_v36, KTail.V10_v37] at h
    exact h
  rw [h1]
  show repelBlock _ _ _ _ = repelSumK _ _ _ _ _
  unfold repelBlock repelSumK repelTerm
  refine Finset.sum_congr rfl fun b _ => Finset.sum_congr rfl fun mm _ => ?_
  rw [KHostR.v36_apply m ρ c b mm, KHostR.v37_apply m ρ c b 0 mm, KHostR.v37_apply m ρ c b 1 mm]
  have e28 : ∀ (bx : Fin 2) (cn : Fin 4), (V9 m ρ c main_v28 : SQh.Idx → EReal) (ix3 b (corner8 bx cn) mm) = rH (KHostR.hf m c) (KHostR.argR m c) b mm bx cn :=
    fun bx cn => KHostR.v28_apply m ρ c b bx cn mm
  have e33 : ∀ (bx : Fin 2) (cn : Fin 4) (ch : Fin 2), (V9 m ρ c main_v33 : SQo.Idx → EReal) (ix4 b (corner8 bx cn) ch mm) = rO (KHostR.of_ m c) (KHostR.argR m c) b mm bx cn ch :=
    fun bx cn ch => KHostR.v33_apply m ρ c b bx cn ch mm
  have f28 : ∀ bx : Fin 2, (fun cn : Fin 4 => (V9 m ρ c main_v28 : SQh.Idx → EReal) (ix3 b (corner8 bx cn) mm)) = fun cn => rH (KHostR.hf m c) (KHostR.argR m c) b mm bx cn :=
    fun bx => funext fun cn => e28 bx cn
  have f33 : ∀ (bx : Fin 2) (ch : Fin 2), (fun cn : Fin 4 => (V9 m ρ c main_v33 : SQo.Idx → EReal) (ix4 b (corner8 bx cn) ch mm)) = fun cn => rO (KHostR.of_ m c) (KHostR.argR m c) b mm bx cn ch :=
    fun bx ch => funext fun cn => e33 bx cn ch
  rw [f28 0, f28 1, f33 0 0, f33 0 1, f33 1 0, f33 1 1]

/-- The kernel program's result, as the specification's kernel form of the arguments. -/
theorem kernel_val :
    (W12 m ρ c (Proc.devRef .tc main_v52) : S_.Idx → EReal)
      = fun _ => GK (KHostA.hf m c) (KHostA.of_ m c) (KHostA.argP m c) (KHostA.argA m c) (KHostA.argR m c) (KHostA.argMA m c) (KHostA.argMR m c)
          (countA (KHostA.argMA m c) reducesTo_S64x4096x4_S_d0_1_2) (countR (KHostA.argMR m c) reducesTo_S64x2048x1_S_d0_1_2) := by
  rw [KTail.tail_val]
  funext _
  rw [attract_total, repel_total, KTail.cntA_eq, KTail.cntR_eq, KHostA.v40_eq, KHostR.v43_eq]
  rfl

end Cert.KernelIdeal.KVal

end
-- ==== Proof.RefOps.lean ====
import proofs.«169223_j2216203125376_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference program's @main as lists of its operations, one list per printed window, in program
    order; a call stands as its callee's operations over the call's record and operands. 360 operations:
    window 0 has 102, window 1 has 64, window 2 has 104, window 3 has 60, window 4 has 30. -/

set_option maxRecDepth 16384 in
set_option maxHeartbeats 4000000 in
/-- The operations of @main's window 0 (102 of them), in order. -/
abbrev opsW0 : List (HloOp τ sig (Elt F)) :=
  [ nullary main_cst (fun i => FloatOps.ofBits .f32 (lit0 (S4x2.rowMajor i))),
    unary main_arg7 main_v0 ((extui 32 · natLt_1_32) : (⟨S64x4096x4, .i1⟩ : BufTy).Contents (Elt F) → (⟨S64x4096x4, .i32⟩ : BufTy).Contents (Elt F)),
    nullary main_c (constantI S_ 32 0#32),
    binary main_v0 main_c main_v1 ((fun x v => Host.reduce IntOp.addi x v reducesTo_S64x4096x4_S_d0_1_2 h_S_) : (⟨S64x4096x4, .i32⟩ : BufTy).Contents (Elt F) → (⟨S_, .i32⟩ : BufTy).Contents (Elt F) → (⟨S_, .i32⟩ : BufTy).Contents (Elt F)),
    unary main_v1 main_v2 (sitofp .f32 : (⟨S_, .i32⟩ : BufTy).Contents (Elt F) → (⟨S_, .f32⟩ : BufTy).Contents (Elt F)),
    reshape main_arg5 main_v3 rfl shapeCasts_S64x4096x4_S64x16384,
    reshape main_arg0 main_v4 rfl shapeCasts_S64x1x256x256_S64x1x65536,
    unary main_v4 main_v5 ((transpose S64x65536x1 [0, 2, 1] · transposes_S64x1x65536_S64x65536x1_0_2_1) : (⟨S64x1x65536, .f32⟩ : BufTy).Contents (Elt F) → (⟨S64x65536x1, .f32⟩ : BufTy).Contents (Elt F)),
    unary main_v3 main_v6 (broadcastInDim S64x16384x1 ![0, 1] bcast_S64x16384_S64x16384x1_0_1 : (⟨S64x16384, .i32⟩ : BufTy).Contents (Elt F) → (⟨S64x16384x1, .i32⟩ : BufTy).Contents (Elt F)),
    TRef.nullary main_call0.c (constantI S_ 32 0#32),
    TRef.unary main_call0.c main_call0.v0 (broadcastInDim S64x16384x1 ![] bcast_S_S64x16384x1),
    TRef.binary (.of main_v6 : TRef sig ⟨S64x16384x1, .i32⟩) main_call0.v0 main_call0.v1 (cmpi .slt),
    TRef.nullary main_call0.c_0 (constantI S_ 32 65536#32),
    TRef.unary main_call0.c_0 main_call0.v2 (broadcastInDim S64x16384x1 ![] bcast_S_S64x16384x1),
    TRef.binary (.of main_v6 : TRef sig ⟨S64x16384x1, .i32⟩) main_call0.v2 main_call0.v3 addi,
    TRef.ternary main_call0.v1 main_call0.v3 (.of main_v6 : TRef sig ⟨S64x16384x1, .i32⟩) main_call0.v4 select,
    TRef.nullary main_call0.c_1 (constantI S1 32 65535#32),
    TRef.nullary main_call0.c_2 (constantI S_ 32 0#32),
    TRef.unary main_call0.c_2 main_call0.v5 (broadcastInDim S64x16384x1 ![] bcast_S_S64x16384x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S64x16384x1 ![0, 1, 2] bcast_S1x1x1_S64x16384x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S64x16384x1_S64x16384_d2 h_S_),
    TRef.binary (.of main_v5 : TRef sig ⟨S64x65536x1, .f32⟩) main_call0.v4 main_call0.v12 (fun x i => Host.gather gather_S64x65536x1_S64x16384x1_S64x16384x1_2_1_0_0_1_2_111 x i),
    TRef.unary main_call0.v11 main_call0.v13 (broadcastInDim S64x16384x1 ![0, 1] bcast_S64x16384_S64x16384x1_0_1),
    TRef.nullary main_call0.cst (constant S_ .f32 0x7FC00000#32),
    TRef.unary main_call0.cst main_call0.v14 (broadcastInDim S64x16384x1 ![] bcast_S_S64x16384x1),
    TRef.ternary main_call0.v13 main_call0.v12 main_call0.v14 main_call0.v15 select,
    reshape main_v7 main_v8 rfl shapeCasts_S64x16384x1_S64x4096x4x1,
    nullary main_cst_0 (constant S_ .f32 0x00000000#32),
    binary main_v8 main_cst_0 main_v9 ((fun x v => Host.reduceAdd x v reducesTo_S64x4096x4x1_S64x4096x1_d2 h_S_) : (⟨S64x4096x4x1, .f32⟩ : BufTy).Contents (Elt F) → (⟨S_, .f32⟩ : BufTy).Contents (Elt F) → (⟨S64x4096x1, .f32⟩ : BufTy).Contents (Elt F)),
    unary main_v9 main_v10 (broadcastInDim S64x4096x1x1 ![0, 1, 3] bcast_S64x4096x1_S64x4096x1x1_0_1_3 : (⟨S64x4096x1, .f32⟩ : BufTy).Contents (Elt F) → (⟨S64x4096x1x1, .f32⟩ : BufTy).Contents (Elt F)),
    nullary main_cst_1 (constant S_ .f32 0x40800000#32),
    unary main_cst_1 main_v11 (broadcastInDim S64x4096x1x1 ![] bcast_S_S64x4096x1x1 : (⟨S_, .f32⟩ : BufTy).Contents (Elt F) → (⟨S64x4096x1x1, .f32⟩ : BufTy).Contents (Elt F)),
    binary main_v10 main_v11 main_v12 (Host.divf : (⟨S64x4096x1x1, .f32⟩ : BufTy).Contents (Elt F) → (⟨S64x4096x1x1, .f32⟩ : BufTy).Contents (Elt F) → (⟨S64x4096x1x1, .f32⟩ : BufTy).Contents (Elt F)),
    reshape main_arg5 main_v13 rfl shapeCasts_S64x4096x4_S64x16384,
    reshape main_arg1 main_v14 rfl shapeCasts_S64x2x256x256_S64x2x65536,
    unary main_v14 main_v15 ((transpose S64x65536x2 [0, 2, 1] · transposes_S64x2x65536_S64x65536x2_0_2_1) : (⟨S64x2x65536, .f32⟩ : BufTy).Contents (Elt F) → (⟨S64x65536x2, .f32⟩ : BufTy).Contents (Elt F)),
    unary main_v13 main_v16 (broadcastInDim S64x16384x1 ![0, 1] bcast_S64x16384_S64x16384x1_0_1 : (⟨S64x16384, .i32⟩ : BufTy).Contents (Elt F) → (⟨S64x16384x1, .i32⟩ : BufTy).Contents (Elt F)),
    TRef.nullary main_call1.c (constantI S_ 32 0#32),
    TRef.unary main_call1.c main_call1.v0 (broadcastInDim S64x16384x1 ![] bcast_S_S64x16384x1),
    TRef.binary (.of main_v16 : TRef sig ⟨S64x16384x1, .i32⟩) main_call1.v0 main_call1.v1 (cmpi .slt),
    TRef.nullary main_call1.c_0 (constantI S_ 32 65536#32),
    TRef.unary main_call1.c_0 main_call1.v2 (broadcastInDim S64x16384x1 ![] bcast_S_S64x16384x1),
    TRef.binary (.of main_v16 : TRef sig ⟨S64x16384x1, .i32⟩) main_call1.v2 main_call1.v3 addi,
    TRef.ternary main_call1.v1 main_call1.v3 (.of main_v16 : TRef sig ⟨S64x16384x1, .i32⟩) main_call1.v4 select,
    TRef.nullary main_call1.c_1 (constantI S1 32 65535#32),
    TRef.nullary main_call1.c_2 (constantI S_ 32 0#32),
    TRef.unary main_call1.c_2 main_call1.v5 (broadcastInDim S64x16384x1 ![] bcast_S_S64x16384x1),
    TRef.binary main_call1.v4 main_call1.v5 main_call1.v6 (cmpi .sge),
    TRef.unary main_call1.c_1 main_call1.v7 (broadcastInDim S1x1x1 ![2] bcast_S1_S1x1x1_2),
    TRef.unary main_call1.v7 main_call1.v8 (broadcastInDim S64x16384x1 ![0, 1, 2] bcast_S1x1x1_S64x16384x1_0_1_2),
    TRef.binary main_call1.v4 main_call1.v8 main_call1.v9 (cmpi .sle),
    TRef.binary main_call1.v6 main_call1.v9 main_call1.v10 andi,
    TRef.nullary main_call1.c_3 (constantI S_ 1 1#1),
    TRef.binary main_call1.v10 main_call1.c_3 main_call1.v11 (fun x v => Host.reduce IntOp.andi x v reducesTo_S64x16384x1_S64x16384_d2 h_S_),
    TRef.binary (.of main_v15 : TRef sig ⟨S64x65536x2, .f32⟩) main_call1.v4 main_call1.v12 (fun x i => Host.gather gather_S64x65536x2_S64x16384x1_S64x16384x2_2_1_0_0_1_2_112 x i),
    TRef.unary main_call1.v11 main_call1.v13 (broadcastInDim S64x16384x2 ![0, 1] bcast_S64x16384_S64x16384x2_0_1),
    TRef.nullary main_call1.cst (constant S_ .f32 0x7FC00000#32),
    TRef.unary main_call1.cst main_call1.v14 (broadcastInDim S64x16384x2 ![] bcast_S_S64x16384x2),
    TRef.ternary main_call1.v13 main_call1.v12 main_call1.v14 main_call1.v15 select,
    reshape main_v17 main_v18 rfl shapeCasts_S64x16384x2_S64x4096x4x2,
    reshape main_cst main_v19 rfl shapeCasts_S4x2_S1x1x4x2,
    unary main_v19 main_v20 (broadcastInDim S64x4096x4x2 ![0, 1, 2, 3] bcast_S1x1x4x2_S64x4096x4x2_0_1_2_3 : (⟨S1x1x4x2, .f32⟩ : BufTy).Contents (Elt F) → (⟨S64x4096x4x2, .f32⟩ : BufTy).Contents (Elt F)),
    binary main_v18 main_v20 main_v21 (addf : (⟨S64x4096x4x2, .f32⟩ : BufTy).Contents (Elt F) → (⟨S64x4096x4x2, .f32⟩ : BufTy).Contents (Elt F) → (⟨S64x4096x4x2, .f32⟩ : BufTy).Contents (Elt F)),
    nullary main_cst_2 (constant S_ .f32 0x00000000#32),
    binary main_v21 main_cst_2 main_v22 ((fun x v => Host.reduceAdd x v reducesTo_S64x4096x4x2_S64x4096x2_d2 h_S_) : (⟨S64x4096x4x2, .f32⟩ : BufTy).Contents (Elt F) → (⟨S_, .f32⟩ : BufTy).Contents (Elt F) → (⟨S64x4096x2, .f32⟩ : BufTy).Contents (Elt F)),
    unary main_v22 main_v23 (broadcastInDim S64x4096x1x2 ![0, 1, 3] bcast_S64x4096x2_S64x4096x1x2_0_1_3 : (⟨S64x4096x2, .f32⟩ : BufTy).Contents (Elt F) → (⟨S64x4096x1x2, .f32⟩ : BufTy).Contents (Elt F)),
    nullary main_cst_3 (constant S_ .f32 0x40800000#32),
    unary main_cst_3 main_v24 (broadcastInDim S64x4096x1x2 ![] bcast_S_S64x4096x1x2 : (⟨S_, .f32⟩ : BufTy).Contents (Elt F) → (⟨S64x4096x1x2, .f32⟩ : BufTy).Contents (Elt F)),
    binary main_v23 main_v24 main_v25 (Host.divf : (⟨S64x4096x1x2, .f32⟩ : BufTy).Contents (Elt F) → (⟨S64x4096x1x2, .f32⟩ : BufTy).Contents (Elt F) → (⟨S64x4096x1x2, .f32⟩ : BufTy).Contents (Elt F)),
    unary main_v8 main_v26 (Host.exp : (⟨S64x4096x4x1, .f32⟩ : BufTy).Contents (Elt F) → (⟨S64x4096x4x1, .f32⟩ : BufTy).Contents (Elt F)),
    binary main_v26 main_v21 main_v27 ((fun a b => concatenate S64x4096x4x3 3 [⟨S64x4096x4x1, a⟩, ⟨S64x4096x4x2, b⟩] concatenates_S64x4096x4x1_S64x4096x4x2_S64x4096x4x3_d3) : (⟨S64x4096x4x1, .f32⟩ : BufTy).Contents (Elt F) → (⟨S64x4096x4x2, .f32⟩ : BufTy).Contents (Elt F) → (⟨S64x4096x4x3, .f32⟩ : BufTy).Contents (Elt F)),
    unary main_v12 main_v28 (Host.exp : (⟨S64x4096x1x1, .f32⟩ : BufTy).Contents (Elt F) → (⟨S64x4096x1x1, .f32⟩ : BufTy).Contents (Elt F)),
    binary main_v28 main_v25 main_v29 ((fun a b => concatenate S64x4096x1x3 3 [⟨S64x4096x1x1, a⟩, ⟨S64x4096x1x2, b⟩] concatenates_S64x4096x1x1_S64x4096x1x2_S64x4096x1x3_d3) : (⟨S64x4096x1x1, .f32⟩ : BufTy).Contents (Elt F) → (⟨S64x4096x1x2, .f32⟩ : BufTy).Contents (Elt F) → (⟨S64x4096x1x3, .f32⟩ : BufTy).Contents (Elt F)),
    unary main_v27 main_v30 ((extractStridedSlice S64x4096x4x1 ![0, 0, 0, 0] · slices_S64x4096x4x3_S64x4096x4x1_0_0_0_0) : (⟨S64x4096x4x3, .f32⟩ : BufTy).Contents (Elt F) → (⟨S64x4096x4x1, .f32⟩ : BufTy).Contents (Elt F)),
    reshape main_v30 main_v31 rfl shapeCasts_S64x4096x4x1_S64x4096x4,
    unary main_v27 main_v32 ((extractStridedSlice S64x4096x4x1 ![0, 0, 0, 1] · slices_S64x4096x4x3_S64x4096x4x1_0_0_0_1) : (⟨S64x4096x4x3, .f32⟩ : BufTy).Contents (Elt F) → (⟨S64x4096x4x1, .f32⟩ : BufTy).Contents (Elt F)),
    reshape main_v32 main_v33 rfl shapeCasts_S64x4096x4x1_S64x4096x4,
    unary main_v27 main_v34 ((extractStridedSlice S64x4096x4x1 ![0, 0, 0, 2] · slices_S64x4096x4x3_S64x4096x4x1_0_0_0_2) : (⟨S64x4096x4x3, .f32⟩ : BufTy).Contents (Elt F) → (⟨S64x4096x4x1, .f32⟩ : BufTy).Contents (Elt F)),
    reshape main_v34 main_v35 rfl shapeCasts_S64x4096x4x1_S64x4096x4,
    unary main_v29 main_v36 ((extractStridedSlice S64x4096x1x1 ![0, 0, 0, 0] · slices_S64x4096x1x3_S64x4096x1x1_0_0_0_0) : (⟨S64x4096x1x3, .f32⟩ : BufTy).Contents (Elt F) → (⟨S64x4096x1x1, .f32⟩ : BufTy).Contents (Elt F)),
    reshape main_v36 main_v37 rfl shapeCasts_S64x4096x1x1_S64x4096x1,
    unary main_v29 main_v38 ((extractStridedSlice S64x4096x1x1 ![0, 0, 0, 1] · slices_S64x4096x1x3_S64x4096x1x1_0_0_0_1) : (⟨S64x4096x1x3, .f32⟩ : BufTy).Contents (Elt F) → (⟨S64x4096x1x1, .f32⟩ : BufTy).Contents (Elt F)),
    reshape main_v38 main_v39 rfl shapeCasts_S64x4096x1x1_S64x4096x1,
    unary main_v29 main_v40 ((extractStridedSlice S64x4096x1x1 ![0, 0, 0, 2] · slices_S64x4096x1x3_S64x4096x1x1_0_0_0_2) : (⟨S64x4096x1x3, .f32⟩ : BufTy).Contents (Elt F) → (⟨S64x4096x1x1, .f32⟩ : BufTy).Contents (Elt F)),
    reshape main_v40 main_v41 rfl shapeCasts_S64x4096x1x1_S64x4096x1,
    binary main_v31 main_v31 main_v42 (mulf : (⟨S64x4096x4, .f32⟩ : BufTy).Contents (Elt F) → (⟨S64x4096x4, .f32⟩ : BufTy).Contents (Elt F) → (⟨S64x4096x4, .f32⟩ : BufTy).Contents (Elt F)),
    nullary main_cst_4 (constant S_ .f32 0x3ED1EB85#32),
    unary main_cst_4 main_v43 (broadcastInDim S64x4096x4 ![] bcast_S_S64x4096x4 : (⟨S_, .f32⟩ : BufTy).Contents (Elt F) → (⟨S64x4096x4, .f32⟩ : BufTy).Contents (Elt F)),
    binary main_v42 main_v43 main_v44 (mulf : (⟨S64x4096x4, .f32⟩ : BufTy).Contents (Elt F) → (⟨S64x4096x4, .f32⟩ : BufTy).Contents (Elt F) → (⟨S64x4096x4, .f32⟩ : BufTy).Contents (Elt F)),
    binary main_v37 main_v37 main_v45 (mulf : (⟨S64x4096x1, .f32⟩ : BufTy).Contents (Elt F) → (⟨S64x4096x1, .f32⟩ : BufTy).Contents (Elt F) → (⟨S64x4096x1, .f32⟩ : BufTy).Contents (Elt F)),
    nullary main_cst_5 (constant S_ .f32 0x3ED1EB85#32),
    unary main_cst_5 main_v46 (broadcastInDim S64x4096x1 ![] bcast_S_S64x4096x1 : (⟨S_, .f32⟩ : BufTy).Contents (Elt F) → (⟨S64x4096x1, .f32⟩ : BufTy).Contents (Elt F)),
    binary main_v45 main_v46 main_v47 (mulf : (⟨S64x4096x1, .f32⟩ : BufTy).Contents (Elt F) → (⟨S64x4096x1, .f32⟩ : BufTy).Contents (Elt F) → (⟨S64x4096x1, .f32⟩ : BufTy).Contents (Elt F)),
    nullary main_cst_6 (constant S_ .f32 0x40000000#32),
    unary main_cst_6 main_v48 (broadcastInDim S64x4096x4 ![] bcast_S_S64x4096x4 : (⟨S_, .f32⟩ : BufTy).Contents (Elt F) → (⟨S64x4096x4, .f32⟩ : BufTy).Contents (Elt F)),
    binary main_v31 main_v48 main_v49 (Host.divf : (⟨S64x4096x4, .f32⟩ : BufTy).Contents (Elt F) → (⟨S64x4096x4, .f32⟩ : BufTy).Contents (Elt F) → (⟨S64x4096x4, .f32⟩ : BufTy).Contents (Elt F)),
    binary main_v33 main_v49 main_v50 (subf : (⟨S64x4096x4, .f32⟩ : BufTy).Contents (Elt F) → (⟨S64x4096x4, .f32⟩ : BufTy).Contents (Elt F) → (⟨S64x4096x4, .f32⟩ : BufTy).Contents (Elt F)) ]

set_option maxRecDepth 16384 in
set_option maxHeartbeats 4000000 in
/-- The operations of @main's window 1 (64 of them), in order. -/
abbrev opsW1 : List (HloOp τ sig (Elt F)) :=
  [ nullary main_cst_7 (constant S_ .f32 0x40000000#32),
    unary main_cst_7 main_v51 (broadcastInDim S64x4096x1 ![] bcast_S_S64x4096x1 : (⟨S_, .f32⟩ : BufTy).Contents (Elt F) → (⟨S64x4096x1, .f32⟩ : BufTy).Contents (Elt F)),
    binary main_v37 main_v51 main_v52 (Host.divf : (⟨S64x4096x1, .f32⟩ : BufTy).Contents (Elt F) → (⟨S64x4096x1, .f32⟩ : BufTy).Contents (Elt F) → (⟨S64x4096x1, .f32⟩ : BufTy).Contents (Elt F)),
    binary main_v39 main_v52 main_v53 (subf : (⟨S64x4096x1, .f32⟩ : BufTy).Contents (Elt F) → (⟨S64x4096x1, .f32⟩ : BufTy).Contents (Elt F) → (⟨S64x4096x1, .f32⟩ : BufTy).Contents (Elt F)),
    unary main_v53 main_v54 (broadcastInDim S64x4096x4 ![0, 1, 2] bcast_S64x4096x1_S64x4096x4_0_1_2 : (⟨S64x4096x1, .f32⟩ : BufTy).Contents (Elt F) → (⟨S64x4096x4, .f32⟩ : BufTy).Contents (Elt F)),
    binary main_v50 main_v54 main_v55 (maximumf : (⟨S64x4096x4, .f32⟩ : BufTy).Contents (Elt F) → (⟨S64x4096x4, .f32⟩ : BufTy).Contents (Elt F) → (⟨S64x4096x4, .f32⟩ : BufTy).Contents (Elt F)),
    nullary main_cst_8 (constant S_ .f32 0x3ED1EB85#32),
    unary main_cst_8 main_v56 (broadcastInDim S64x4096x4 ![] bcast_S_S64x4096x4 : (⟨S_, .f32⟩ : BufTy).Contents (Elt F) → (⟨S64x4096x4, .f32⟩ : BufTy).Contents (Elt F)),
    binary main_v56 main_v31 main_v57 (mulf : (⟨S64x4096x4, .f32⟩ : BufTy).Contents (Elt F) → (⟨S64x4096x4, .f32⟩ : BufTy).Contents (Elt F) → (⟨S64x4096x4, .f32⟩ : BufTy).Contents (Elt F)),
    nullary main_cst_9 (constant S_ .f32 0x40000000#32),
    unary main_cst_9 main_v58 (broadcastInDim S64x4096x4 ![] bcast_S_S64x4096x4 : (⟨S_, .f32⟩ : BufTy).Contents (Elt F) → (⟨S64x4096x4, .f32⟩ : BufTy).Contents (Elt F)),
    binary main_v57 main_v58 main_v59 (Host.divf : (⟨S64x4096x4, .f32⟩ : BufTy).Contents (Elt F) → (⟨S64x4096x4, .f32⟩ : BufTy).Contents (Elt F) → (⟨S64x4096x4, .f32⟩ : BufTy).Contents (Elt F)),
    binary main_v35 main_v59 main_v60 (subf : (⟨S64x4096x4, .f32⟩ : BufTy).Contents (Elt F) → (⟨S64x4096x4, .f32⟩ : BufTy).Contents (Elt F) → (⟨S64x4096x4, .f32⟩ : BufTy).Contents (Elt F)),
    nullary main_cst_10 (constant S_ .f32 0x3ED1EB85#32),
    unary main_cst_10 main_v61 (broadcastInDim S64x4096x1 ![] bcast_S_S64x4096x1 : (⟨S_, .f32⟩ : BufTy).Contents (Elt F) → (⟨S64x4096x1, .f32⟩ : BufTy).Contents (Elt F)),
    binary main_v61 main_v37 main_v62 (mulf : (⟨S64x4096x1, .f32⟩ : BufTy).Contents (Elt F) → (⟨S64x4096x1, .f32⟩ : BufTy).Contents (Elt F) → (⟨S64x4096x1, .f32⟩ : BufTy).Contents (Elt F)),
    nullary main_cst_11 (constant S_ .f32 0x40000000#32),
    unary main_cst_11 main_v63 (broadcastInDim S64x4096x1 ![] bcast_S_S64x4096x1 : (⟨S_, .f32⟩ : BufTy).Contents (Elt F) → (⟨S64x4096x1, .f32⟩ : BufTy).Contents (Elt F)),
    binary main_v62 main_v63 main_v64 (Host.divf : (⟨S64x4096x1, .f32⟩ : BufTy).Contents (Elt F) → (⟨S64x4096x1, .f32⟩ : BufTy).Contents (Elt F) → (⟨S64x4096x1, .f32⟩ : BufTy).Contents (Elt F)),
    binary main_v41 main_v64 main_v65 (subf : (⟨S64x4096x1, .f32⟩ : BufTy).Contents (Elt F) → (⟨S64x4096x1, .f32⟩ : BufTy).Contents (Elt F) → (⟨S64x4096x1, .f32⟩ : BufTy).Contents (Elt F)),
    unary main_v65 main_v66 (broadcastInDim S64x4096x4 ![0, 1, 2] bcast_S64x4096x1_S64x4096x4_0_1_2 : (⟨S64x4096x1, .f32⟩ : BufTy).Contents (Elt F) → (⟨S64x4096x4, .f32⟩ : BufTy).Contents (Elt F)),
    binary main_v60 main_v66 main_v67 (maximumf : (⟨S64x4096x4, .f32⟩ : BufTy).Contents (Elt F) → (⟨S64x4096x4, .f32⟩ : BufTy).Contents (Elt F) → (⟨S64x4096x4, .f32⟩ : BufTy).Contents (Elt F)),
    nullary main_cst_12 (constant S_ .f32 0x40000000#32),
    unary main_cst_12 main_v68 (broadcastInDim S64x4096x4 ![] bcast_S_S64x4096x4 : (⟨S_, .f32⟩ : BufTy).Contents (Elt F) → (⟨S64x4096x4, .f32⟩ : BufTy).Contents (Elt F)),
    binary main_v31 main_v68 main_v69 (Host.divf : (⟨S64x4096x4, .f32⟩ : BufTy).Contents (Elt F) → (⟨S64x4096x4, .f32⟩ : BufTy).Contents (Elt F) → (⟨S64x4096x4, .f32⟩ : BufTy).Contents (Elt F)),
    binary main_v33 main_v69 main_v70 (addf : (⟨S64x4096x4, .f32⟩ : BufTy).Contents (Elt F) → (⟨S64x4096x4, .f32⟩ : BufTy).Contents (Elt F) → (⟨S64x4096x4, .f32⟩ : BufTy).Contents (Elt F)),
    nullary main_cst_13 (constant S_ .f32 0x40000000#32),
    unary main_cst_13 main_v71 (broadcastInDim S64x4096x1 ![] bcast_S_S64x4096x1 : (⟨S_, .f32⟩ : BufTy).Contents (Elt F) → (⟨S64x4096x1, .f32⟩ : BufTy).Contents (Elt F)),
    binary main_v37 main_v71 main_v72 (Host.divf : (⟨S64x4096x1, .f32⟩ : BufTy).Contents (Elt F) → (⟨S64x4096x1, .f32⟩ : BufTy).Contents (Elt F) → (⟨S64x4096x1, .f32⟩ : BufTy).Contents (Elt F)),
    binary main_v39 main_v72 main_v73 (addf : (⟨S64x4096x1, .f32⟩ : BufTy).Contents (Elt F) → (⟨S64x4096x1, .f32⟩ : BufTy).Contents (Elt F) → (⟨S64x4096x1, .f32⟩ : BufTy).Contents (Elt F)),
    unary main_v73 main_v74 (broadcastInDim S64x4096x4 ![0, 1, 2] bcast_S64x4096x1_S64x4096x4_0_1_2 : (⟨S64x4096x1, .f32⟩ : BufTy).Contents (Elt F) → (⟨S64x4096x4, .f32⟩ : BufTy).Contents (Elt F)),
    binary main_v70 main_v74 main_v75 (minimumf : (⟨S64x4096x4, .f32⟩ : BufTy).Contents (Elt F) → (⟨S64x4096x4, .f32⟩ : BufTy).Contents (Elt F) → (⟨S64x4096x4, .f32⟩ : BufTy).Contents (Elt F)),
    nullary main_cst_14 (constant S_ .f32 0x3ED1EB85#32),
    unary main_cst_14 main_v76 (broadcastInDim S64x4096x4 ![] bcast_S_S64x4096x4 : (⟨S_, .f32⟩ : BufTy).Contents (Elt F) → (⟨S64x4096x4, .f32⟩ : BufTy).Contents (Elt F)),
    binary main_v76 main_v31 main_v77 (mulf : (⟨S64x4096x4, .f32⟩ : BufTy).Contents (Elt F) → (⟨S64x4096x4, .f32⟩ : BufTy).Contents (Elt F) → (⟨S64x4096x4, .f32⟩ : BufTy).Contents (Elt F)),
    nullary main_cst_15 (constant S_ .f32 0x40000000#32),
    unary main_cst_15 main_v78 (broadcastInDim S64x4096x4 ![] bcast_S_S64x4096x4 : (⟨S_, .f32⟩ : BufTy).Contents (Elt F) → (⟨S64x4096x4, .f32⟩ : BufTy).Contents (Elt F)),
    binary main_v77 main_v78 main_v79 (Host.divf : (⟨S64x4096x4, .f32⟩ : BufTy).Contents (Elt F) → (⟨S64x4096x4, .f32⟩ : BufTy).Contents (Elt F) → (⟨S64x4096x4, .f32⟩ : BufTy).Contents (Elt F)),
    binary main_v35 main_v79 main_v80 (addf : (⟨S64x4096x4, .f32⟩ : BufTy).Contents (Elt F) → (⟨S64x4096x4, .f32⟩ : BufTy).Contents (Elt F) → (⟨S64x4096x4, .f32⟩ : BufTy).Contents (Elt F)),
    nullary main_cst_16 (constant S_ .f32 0x3ED1EB85#32),
    unary main_cst_16 main_v81 (broadcastInDim S64x4096x1 ![] bcast_S_S64x4096x1 : (⟨S_, .f32⟩ : BufTy).Contents (Elt F) → (⟨S64x4096x1, .f32⟩ : BufTy).Contents (Elt F)),
    binary main_v81 main_v37 main_v82 (mulf : (⟨S64x4096x1, .f32⟩ : BufTy).Contents (Elt F) → (⟨S64x4096x1, .f32⟩ : BufTy).Contents (Elt F) → (⟨S64x4096x1, .f32⟩ : BufTy).Contents (Elt F)),
    nullary main_cst_17 (constant S_ .f32 0x40000000#32),
    unary main_cst_17 main_v83 (broadcastInDim S64x4096x1 ![] bcast_S_S64x4096x1 : (⟨S_, .f32⟩ : BufTy).Contents (Elt F) → (⟨S64x4096x1, .f32⟩ : BufTy).Contents (Elt F)),
    binary main_v82 main_v83 main_v84 (Host.divf : (⟨S64x4096x1, .f32⟩ : BufTy).Contents (Elt F) → (⟨S64x4096x1, .f32⟩ : BufTy).Contents (Elt F) → (⟨S64x4096x1, .f32⟩ : BufTy).Contents (Elt F)),
    binary main_v41 main_v84 main_v85 (addf : (⟨S64x4096x1, .f32⟩ : BufTy).Contents (Elt F) → (⟨S64x4096x1, .f32⟩ : BufTy).Contents (Elt F) → (⟨S64x4096x1, .f32⟩ : BufTy).Contents (Elt F)),
    unary main_v85 main_v86 (broadcastInDim S64x4096x4 ![0, 1, 2] bcast_S64x4096x1_S64x4096x4_0_1_2 : (⟨S64x4096x1, .f32⟩ : BufTy).Contents (Elt F) → (⟨S64x4096x4, .f32⟩ : BufTy).Contents (Elt F)),
    binary main_v80 main_v86 main_v87 (minimumf : (⟨S64x4096x4, .f32⟩ : BufTy).Contents (Elt F) → (⟨S64x4096x4, .f32⟩ : BufTy).Contents (Elt F) → (⟨S64x4096x4, .f32⟩ : BufTy).Contents (Elt F)),
    binary main_v75 main_v55 main_v88 (subf : (⟨S64x4096x4, .f32⟩ : BufTy).Contents (Elt F) → (⟨S64x4096x4, .f32⟩ : BufTy).Contents (Elt F) → (⟨S64x4096x4, .f32⟩ : BufTy).Contents (Elt F)),
    nullary main_c_18 (constantI S_ 32 0#32),
    TRef.unary (.of main_c_18 : TRef sig ⟨S_, .i32⟩) main_call2.v0 (sitofp .f32),
    TRef.unary main_call2.v0 main_call2.v1 (broadcastInDim S64x4096x4 ![] bcast_S_S64x4096x4),
    TRef.binary main_call2.v1 (.of main_v88 : TRef sig ⟨S64x4096x4, .f32⟩) main_call2.v2 maximumf,
    binary main_v87 main_v67 main_v90 (subf : (⟨S64x4096x4, .f32⟩ : BufTy).Contents (Elt F) → (⟨S64x4096x4, .f32⟩ : BufTy).Contents (Elt F) → (⟨S64x4096x4, .f32⟩ : BufTy).Contents (Elt F)),
    nullary main_c_19 (constantI S_ 32 0#32),
    TRef.unary (.of main_c_19 : TRef sig ⟨S_, .i32⟩) main_call3.v0 (sitofp .f32),
    TRef.unary main_call3.v0 main_call3.v1 (broadcastInDim S64x4096x4 ![] bcast_S_S64x4096x4),
    TRef.binary main_call3.v1 (.of main_v90 : TRef sig ⟨S64x4096x4, .f32⟩) main_call3.v2 maximumf,
    binary main_v89 main_v91 main_v92 (mulf : (⟨S64x4096x4, .f32⟩ : BufTy).Contents (Elt F) → (⟨S64x4096x4, .f32⟩ : BufTy).Contents (Elt F) → (⟨S64x4096x4, .f32⟩ : BufTy).Contents (Elt F)),
    unary main_v47 main_v93 (broadcastInDim S64x4096x4 ![0, 1, 2] bcast_S64x4096x1_S64x4096x4_0_1_2 : (⟨S64x4096x1, .f32⟩ : BufTy).Contents (Elt F) → (⟨S64x4096x4, .f32⟩ : BufTy).Contents (Elt F)),
    binary main_v44 main_v93 main_v94 (addf : (⟨S64x4096x4, .f32⟩ : BufTy).Contents (Elt F) → (⟨S64x4096x4, .f32⟩ : BufTy).Contents (Elt F) → (⟨S64x4096x4, .f32⟩ : BufTy).Contents (Elt F)),
    binary main_v94 main_v92 main_v95 (subf : (⟨S64x4096x4, .f32⟩ : BufTy).Contents (Elt F) → (⟨S64x4096x4, .f32⟩ : BufTy).Contents (Elt F) → (⟨S64x4096x4, .f32⟩ : BufTy).Contents (Elt F)),
    nullary main_cst_20 (constant S_ .f32 0x358637BD#32),
    unary main_cst_20 main_v96 (broadcastInDim S64x4096x4 ![] bcast_S_S64x4096x4 : (⟨S_, .f32⟩ : BufTy).Contents (Elt F) → (⟨S64x4096x4, .f32⟩ : BufTy).Contents (Elt F)) ]

set_option maxRecDepth 16384 in
set_option maxHeartbeats 4000000 in
/-- The operations of @main's window 2 (104 of them), in order. -/
abbrev opsW2 : List (HloOp τ sig (Elt F)) :=
  [ binary main_v95 main_v96 main_v97 (addf : (⟨S64x4096x4, .f32⟩ : BufTy).Contents (Elt F) → (⟨S64x4096x4, .f32⟩ : BufTy).Contents (Elt F) → (⟨S64x4096x4, .f32⟩ : BufTy).Contents (Elt F)),
    binary main_v92 main_v97 main_v98 (Host.divf : (⟨S64x4096x4, .f32⟩ : BufTy).Contents (Elt F) → (⟨S64x4096x4, .f32⟩ : BufTy).Contents (Elt F) → (⟨S64x4096x4, .f32⟩ : BufTy).Contents (Elt F)),
    nullary main_cst_21 (constant S_ .f32 0x3F800000#32),
    unary main_cst_21 main_v99 (broadcastInDim S64x4096x4 ![] bcast_S_S64x4096x4 : (⟨S_, .f32⟩ : BufTy).Contents (Elt F) → (⟨S64x4096x4, .f32⟩ : BufTy).Contents (Elt F)),
    binary main_v99 main_v98 main_v100 (subf : (⟨S64x4096x4, .f32⟩ : BufTy).Contents (Elt F) → (⟨S64x4096x4, .f32⟩ : BufTy).Contents (Elt F) → (⟨S64x4096x4, .f32⟩ : BufTy).Contents (Elt F)),
    nullary main_cst_22 (constant S_ .f32 0x38D1B717#32),
    binary main_v2 main_cst_22 main_v101 (addf : (⟨S_, .f32⟩ : BufTy).Contents (Elt F) → (⟨S_, .f32⟩ : BufTy).Contents (Elt F) → (⟨S_, .f32⟩ : BufTy).Contents (Elt F)),
    unary main_v101 main_v102 (broadcastInDim S64x4096x4 ![] bcast_S_S64x4096x4 : (⟨S_, .f32⟩ : BufTy).Contents (Elt F) → (⟨S64x4096x4, .f32⟩ : BufTy).Contents (Elt F)),
    binary main_v100 main_v102 main_v103 (Host.divf : (⟨S64x4096x4, .f32⟩ : BufTy).Contents (Elt F) → (⟨S64x4096x4, .f32⟩ : BufTy).Contents (Elt F) → (⟨S64x4096x4, .f32⟩ : BufTy).Contents (Elt F)),
    nullary main_cst_23 (constant S_ .f32 0x00000000#32),
    TRef.unary (.of main_cst_23 : TRef sig ⟨S_, .f32⟩) main_call4.v0 id,
    TRef.unary main_call4.v0 main_call4.v1 (broadcastInDim S64x4096x4 ![] bcast_S_S64x4096x4),
    TRef.ternary (.of main_arg7 : TRef sig ⟨S64x4096x4, .i1⟩) (.of main_v103 : TRef sig ⟨S64x4096x4, .f32⟩) main_call4.v1 main_call4.v2 select,
    nullary main_cst_24 (constant S_ .f32 0x00000000#32),
    binary main_v104 main_cst_24 main_v105 ((fun x v => Host.reduceAdd x v reducesTo_S64x4096x4_S_d0_1_2 h_S_) : (⟨S64x4096x4, .f32⟩ : BufTy).Contents (Elt F) → (⟨S_, .f32⟩ : BufTy).Contents (Elt F) → (⟨S_, .f32⟩ : BufTy).Contents (Elt F)),
    unary main_arg8 main_v106 ((extui 32 · natLt_1_32) : (⟨S64x2048x1, .i1⟩ : BufTy).Contents (Elt F) → (⟨S64x2048x1, .i32⟩ : BufTy).Contents (Elt F)),
    nullary main_c_25 (constantI S_ 32 0#32),
    binary main_v106 main_c_25 main_v107 ((fun x v => Host.reduce IntOp.addi x v reducesTo_S64x2048x1_S_d0_1_2 h_S_) : (⟨S64x2048x1, .i32⟩ : BufTy).Contents (Elt F) → (⟨S_, .i32⟩ : BufTy).Contents (Elt F) → (⟨S_, .i32⟩ : BufTy).Contents (Elt F)),
    unary main_v107 main_v108 (sitofp .f32 : (⟨S_, .i32⟩ : BufTy).Contents (Elt F) → (⟨S_, .f32⟩ : BufTy).Contents (Elt F)),
    reshape main_arg6 main_v109 rfl shapeCasts_S64x2048x2x4_S64x16384,
    reshape main_arg0 main_v110 rfl shapeCasts_S64x1x256x256_S64x1x65536,
    unary main_v110 main_v111 ((transpose S64x65536x1 [0, 2, 1] · transposes_S64x1x65536_S64x65536x1_0_2_1) : (⟨S64x1x65536, .f32⟩ : BufTy).Contents (Elt F) → (⟨S64x65536x1, .f32⟩ : BufTy).Contents (Elt F)),
    unary main_v109 main_v112 (broadcastInDim S64x16384x1 ![0, 1] bcast_S64x16384_S64x16384x1_0_1 : (⟨S64x16384, .i32⟩ : BufTy).Contents (Elt F) → (⟨S64x16384x1, .i32⟩ : BufTy).Contents (Elt F)),
    TRef.nullary main_call5.c (constantI S_ 32 0#32),
    TRef.unary main_call5.c main_call5.v0 (broadcastInDim S64x16384x1 ![] bcast_S_S64x16384x1),
    TRef.binary (.of main_v112 : TRef sig ⟨S64x16384x1, .i32⟩) main_call5.v0 main_call5.v1 (cmpi .slt),
    TRef.nullary main_call5.c_0 (constantI S_ 32 65536#32),
    TRef.unary main_call5.c_0 main_call5.v2 (broadcastInDim S64x16384x1 ![] bcast_S_S64x16384x1),
    TRef.binary (.of main_v112 : TRef sig ⟨S64x16384x1, .i32⟩) main_call5.v2 main_call5.v3 addi,
    TRef.ternary main_call5.v1 main_call5.v3 (.of main_v112 : TRef sig ⟨S64x16384x1, .i32⟩) main_call5.v4 select,
    TRef.nullary main_call5.c_1 (constantI S1 32 65535#32),
    TRef.nullary main_call5.c_2 (constantI S_ 32 0#32),
    TRef.unary main_call5.c_2 main_call5.v5 (broadcastInDim S64x16384x1 ![] bcast_S_S64x16384x1),
    TRef.binary main_call5.v4 main_call5.v5 main_call5.v6 (cmpi .sge),
    TRef.unary main_call5.c_1 main_call5.v7 (broadcastInDim S1x1x1 ![2] bcast_S1_S1x1x1_2),
    TRef.unary main_call5.v7 main_call5.v8 (broadcastInDim S64x16384x1 ![0, 1, 2] bcast_S1x1x1_S64x16384x1_0_1_2),
    TRef.binary main_call5.v4 main_call5.v8 main_call5.v9 (cmpi .sle),
    TRef.binary main_call5.v6 main_call5.v9 main_call5.v10 andi,
    TRef.nullary main_call5.c_3 (constantI S_ 1 1#1),
    TRef.binary main_call5.v10 main_call5.c_3 main_call5.v11 (fun x v => Host.reduce IntOp.andi x v reducesTo_S64x16384x1_S64x16384_d2 h_S_),
    TRef.binary (.of main_v111 : TRef sig ⟨S64x65536x1, .f32⟩) main_call5.v4 main_call5.v12 (fun x i => Host.gather gather_S64x65536x1_S64x16384x1_S64x16384x1_2_1_0_0_1_2_111 x i),
    TRef.unary main_call5.v11 main_call5.v13 (broadcastInDim S64x16384x1 ![0, 1] bcast_S64x16384_S64x16384x1_0_1),
    TRef.nullary main_call5.cst (constant S_ .f32 0x7FC00000#32),
    TRef.unary main_call5.cst main_call5.v14 (broadcastInDim S64x16384x1 ![] bcast_S_S64x16384x1),
    TRef.ternary main_call5.v13 main_call5.v12 main_call5.v14 main_call5.v15 select,
    reshape main_v113 main_v114 rfl shapeCasts_S64x16384x1_S64x2048x2x4x1,
    nullary main_cst_26 (constant S_ .f32 0x00000000#32),
    binary main_v114 main_cst_26 main_v115 ((fun x v => Host.reduceAdd x v reducesTo_S64x2048x2x4x1_S64x2048x2x1_d3 h_S_) : (⟨S64x2048x2x4x1, .f32⟩ : BufTy).Contents (Elt F) → (⟨S_, .f32⟩ : BufTy).Contents (Elt F) → (⟨S64x2048x2x1, .f32⟩ : BufTy).Contents (Elt F)),
    unary main_v115 main_v116 (broadcastInDim S64x2048x2x1x1 ![0, 1, 2, 4] bcast_S64x2048x2x1_S64x2048x2x1x1_0_1_2_4 : (⟨S64x2048x2x1, .f32⟩ : BufTy).Contents (Elt F) → (⟨S64x2048x2x1x1, .f32⟩ : BufTy).Contents (Elt F)),
    nullary main_cst_27 (constant S_ .f32 0x40800000#32),
    unary main_cst_27 main_v117 (broadcastInDim S64x2048x2x1x1 ![] bcast_S_S64x2048x2x1x1 : (⟨S_, .f32⟩ : BufTy).Contents (Elt F) → (⟨S64x2048x2x1x1, .f32⟩ : BufTy).Contents (Elt F)),
    binary main_v116 main_v117 main_v118 (Host.divf : (⟨S64x2048x2x1x1, .f32⟩ : BufTy).Contents (Elt F) → (⟨S64x2048x2x1x1, .f32⟩ : BufTy).Contents (Elt F) → (⟨S64x2048x2x1x1, .f32⟩ : BufTy).Contents (Elt F)),
    reshape main_arg6 main_v119 rfl shapeCasts_S64x2048x2x4_S64x16384,
    reshape main_arg1 main_v120 rfl shapeCasts_S64x2x256x256_S64x2x65536,
    unary main_v120 main_v121 ((transpose S64x65536x2 [0, 2, 1] · transposes_S64x2x65536_S64x65536x2_0_2_1) : (⟨S64x2x65536, .f32⟩ : BufTy).Contents (Elt F) → (⟨S64x65536x2, .f32⟩ : BufTy).Contents (Elt F)),
    unary main_v119 main_v122 (broadcastInDim S64x16384x1 ![0, 1] bcast_S64x16384_S64x16384x1_0_1 : (⟨S64x16384, .i32⟩ : BufTy).Contents (Elt F) → (⟨S64x16384x1, .i32⟩ : BufTy).Contents (Elt F)),
    TRef.nullary main_call6.c (constantI S_ 32 0#32),
    TRef.unary main_call6.c main_call6.v0 (broadcastInDim S64x16384x1 ![] bcast_S_S64x16384x1),
    TRef.binary (.of main_v122 : TRef sig ⟨S64x16384x1, .i32⟩) main_call6.v0 main_call6.v1 (cmpi .slt),
    TRef.nullary main_call6.c_0 (constantI S_ 32 65536#32),
    TRef.unary main_call6.c_0 main_call6.v2 (broadcastInDim S64x16384x1 ![] bcast_S_S64x16384x1),
    TRef.binary (.of main_v122 : TRef sig ⟨S64x16384x1, .i32⟩) main_call6.v2 main_call6.v3 addi,
    TRef.ternary main_call6.v1 main_call6.v3 (.of main_v122 : TRef sig ⟨S64x16384x1, .i32⟩) main_call6.v4 select,
    TRef.nullary main_call6.c_1 (constantI S1 32 65535#32),
    TRef.nullary main_call6.c_2 (constantI S_ 32 0#32),
    TRef.unary main_call6.c_2 main_call6.v5 (broadcastInDim S64x16384x1 ![] bcast_S_S64x16384x1),
    TRef.binary main_call6.v4 main_call6.v5 main_call6.v6 (cmpi .sge),
    TRef.unary main_call6.c_1 main_call6.v7 (broadcastInDim S1x1x1 ![2] bcast_S1_S1x1x1_2),
    TRef.unary main_call6.v7 main_call6.v8 (broadcastInDim S64x16384x1 ![0, 1, 2] bcast_S1x1x1_S64x16384x1_0_1_2),
    TRef.binary main_call6.v4 main_call6.v8 main_call6.v9 (cmpi .sle),
    TRef.binary main_call6.v6 main_call6.v9 main_call6.v10 andi,
    TRef.nullary main_call6.c_3 (constantI S_ 1 1#1),
    TRef.binary main_call6.v10 main_call6.c_3 main_call6.v11 (fun x v => Host.reduce IntOp.andi x v reducesTo_S64x16384x1_S64x16384_d2 h_S_),
    TRef.binary (.of main_v121 : TRef sig ⟨S64x65536x2, .f32⟩) main_call6.v4 main_call6.v12 (fun x i => Host.gather gather_S64x65536x2_S64x16384x1_S64x16384x2_2_1_0_0_1_2_112 x i),
    TRef.unary main_call6.v11 main_call6.v13 (broadcastInDim S64x16384x2 ![0, 1] bcast_S64x16384_S64x16384x2_0_1),
    TRef.nullary main_call6.cst (constant S_ .f32 0x7FC00000#32),
    TRef.unary main_call6.cst main_call6.v14 (broadcastInDim S64x16384x2 ![] bcast_S_S64x16384x2),
    TRef.ternary main_call6.v13 main_call6.v12 main_call6.v14 main_call6.v15 select,
    reshape main_v123 main_v124 rfl shapeCasts_S64x16384x2_S64x2048x2x4x2,
    reshape main_cst main_v125 rfl shapeCasts_S4x2_S1x1x1x4x2,
    unary main_v125 main_v126 (broadcastInDim S64x2048x2x4x2 ![0, 1, 2, 3, 4] bcast_S1x1x1x4x2_S64x2048x2x4x2_0_1_2_3_4 : (⟨S1x1x1x4x2, .f32⟩ : BufTy).Contents (Elt F) → (⟨S64x2048x2x4x2, .f32⟩ : BufTy).Contents (Elt F)),
    binary main_v124 main_v126 main_v127 (addf : (⟨S64x2048x2x4x2, .f32⟩ : BufTy).Contents (Elt F) → (⟨S64x2048x2x4x2, .f32⟩ : BufTy).Contents (Elt F) → (⟨S64x2048x2x4x2, .f32⟩ : BufTy).Contents (Elt F)),
    nullary main_cst_28 (constant S_ .f32 0x00000000#32),
    binary main_v127 main_cst_28 main_v128 ((fun x v => Host.reduceAdd x v reducesTo_S64x2048x2x4x2_S64x2048x2x2_d3 h_S_) : (⟨S64x2048x2x4x2, .f32⟩ : BufTy).Contents (Elt F) → (⟨S_, .f32⟩ : BufTy).Contents (Elt F) → (⟨S64x2048x2x2, .f32⟩ : BufTy).Contents (Elt F)),
    unary main_v128 main_v129 (broadcastInDim S64x2048x2x1x2 ![0, 1, 2, 4] bcast_S64x2048x2x2_S64x2048x2x1x2_0_1_2_4 : (⟨S64x2048x2x2, .f32⟩ : BufTy).Contents (Elt F) → (⟨S64x2048x2x1x2, .f32⟩ : BufTy).Contents (Elt F)),
    nullary main_cst_29 (constant S_ .f32 0x40800000#32),
    unary main_cst_29 main_v130 (broadcastInDim S64x2048x2x1x2 ![] bcast_S_S64x2048x2x1x2 : (⟨S_, .f32⟩ : BufTy).Contents (Elt F) → (⟨S64x2048x2x1x2, .f32⟩ : BufTy).Contents (Elt F)),
    binary main_v129 main_v130 main_v131 (Host.divf : (⟨S64x2048x2x1x2, .f32⟩ : BufTy).Contents (Elt F) → (⟨S64x2048x2x1x2, .f32⟩ : BufTy).Contents (Elt F) → (⟨S64x2048x2x1x2, .f32⟩ : BufTy).Contents (Elt F)),
    unary main_arg4 main_v132 (broadcastInDim S64x2048x1x2 ![0, 1, 3] bcast_S64x2048x2_S64x2048x1x2_0_1_3 : (⟨S64x2048x2, .f32⟩ : BufTy).Contents (Elt F) → (⟨S64x2048x1x2, .f32⟩ : BufTy).Contents (Elt F)),
    nullary main_c_30 (constantI S_ 32 1#32),
    unary main_c_30 main_v133 (broadcastInDim S1 ![] bcast_S_S1 : (⟨S_, .i32⟩ : BufTy).Contents (Elt F) → (⟨S1, .i32⟩ : BufTy).Contents (Elt F)),
    ternary main_v131 main_v133 main_v132 main_v134 ((fun x i u => Host.scatter scatter_S64x2048x2x1x2_S1_S64x2048x1x2_0123_2_2_0 FloatOps.addf x i u) : (⟨S64x2048x2x1x2, .f32⟩ : BufTy).Contents (Elt F) → (⟨S1, .i32⟩ : BufTy).Contents (Elt F) → (⟨S64x2048x1x2, .f32⟩ : BufTy).Contents (Elt F) → (⟨S64x2048x2x1x2, .f32⟩ : BufTy).Contents (Elt F)),
    unary main_v118 main_v135 (Host.exp : (⟨S64x2048x2x1x1, .f32⟩ : BufTy).Contents (Elt F) → (⟨S64x2048x2x1x1, .f32⟩ : BufTy).Contents (Elt F)),
    binary main_v135 main_v134 main_v136 ((fun a b => concatenate S64x2048x2x1x3 4 [⟨S64x2048x2x1x1, a⟩, ⟨S64x2048x2x1x2, b⟩] concatenates_S64x2048x2x1x1_S64x2048x2x1x2_S64x2048x2x1x3_d4) : (⟨S64x2048x2x1x1, .f32⟩ : BufTy).Contents (Elt F) → (⟨S64x2048x2x1x2, .f32⟩ : BufTy).Contents (Elt F) → (⟨S64x2048x2x1x3, .f32⟩ : BufTy).Contents (Elt F)),
    unary main_v136 main_v137 ((extractStridedSlice S64x2048x1x1x3 ![0, 0, 0, 0, 0] · slices_S64x2048x2x1x3_S64x2048x1x1x3_0_0_0_0_0) : (⟨S64x2048x2x1x3, .f32⟩ : BufTy).Contents (Elt F) → (⟨S64x2048x1x1x3, .f32⟩ : BufTy).Contents (Elt F)),
    reshape main_v137 main_v138 rfl shapeCasts_S64x2048x1x1x3_S64x2048x1x3,
    unary main_v136 main_v139 ((extractStridedSlice S64x2048x1x1x3 ![0, 0, 1, 0, 0] · slices_S64x2048x2x1x3_S64x2048x1x1x3_0_0_1_0_0) : (⟨S64x2048x2x1x3, .f32⟩ : BufTy).Contents (Elt F) → (⟨S64x2048x1x1x3, .f32⟩ : BufTy).Contents (Elt F)),
    reshape main_v139 main_v140 rfl shapeCasts_S64x2048x1x1x3_S64x2048x1x3,
    unary main_v138 main_v141 ((extractStridedSlice S64x2048x1x1 ![0, 0, 0, 0] · slices_S64x2048x1x3_S64x2048x1x1_0_0_0_0) : (⟨S64x2048x1x3, .f32⟩ : BufTy).Contents (Elt F) → (⟨S64x2048x1x1, .f32⟩ : BufTy).Contents (Elt F)),
    reshape main_v141 main_v142 rfl shapeCasts_S64x2048x1x1_S64x2048x1,
    unary main_v138 main_v143 ((extractStridedSlice S64x2048x1x1 ![0, 0, 0, 1] · slices_S64x2048x1x3_S64x2048x1x1_0_0_0_1) : (⟨S64x2048x1x3, .f32⟩ : BufTy).Contents (Elt F) → (⟨S64x2048x1x1, .f32⟩ : BufTy).Contents (Elt F)),
    reshape main_v143 main_v144 rfl shapeCasts_S64x2048x1x1_S64x2048x1,
    unary main_v138 main_v145 ((extractStridedSlice S64x2048x1x1 ![0, 0, 0, 2] · slices_S64x2048x1x3_S64x2048x1x1_0_0_0_2) : (⟨S64x2048x1x3, .f32⟩ : BufTy).Contents (Elt F) → (⟨S64x2048x1x1, .f32⟩ : BufTy).Contents (Elt F)),
    reshape main_v145 main_v146 rfl shapeCasts_S64x2048x1x1_S64x2048x1 ]

set_option maxRecDepth 16384 in
set_option maxHeartbeats 4000000 in
/-- The operations of @main's window 3 (60 of them), in order. -/
abbrev opsW3 : List (HloOp τ sig (Elt F)) :=
  [ unary main_v140 main_v147 ((extractStridedSlice S64x2048x1x1 ![0, 0, 0, 0] · slices_S64x2048x1x3_S64x2048x1x1_0_0_0_0) : (⟨S64x2048x1x3, .f32⟩ : BufTy).Contents (Elt F) → (⟨S64x2048x1x1, .f32⟩ : BufTy).Contents (Elt F)),
    reshape main_v147 main_v148 rfl shapeCasts_S64x2048x1x1_S64x2048x1,
    unary main_v140 main_v149 ((extractStridedSlice S64x2048x1x1 ![0, 0, 0, 1] · slices_S64x2048x1x3_S64x2048x1x1_0_0_0_1) : (⟨S64x2048x1x3, .f32⟩ : BufTy).Contents (Elt F) → (⟨S64x2048x1x1, .f32⟩ : BufTy).Contents (Elt F)),
    reshape main_v149 main_v150 rfl shapeCasts_S64x2048x1x1_S64x2048x1,
    unary main_v140 main_v151 ((extractStridedSlice S64x2048x1x1 ![0, 0, 0, 2] · slices_S64x2048x1x3_S64x2048x1x1_0_0_0_2) : (⟨S64x2048x1x3, .f32⟩ : BufTy).Contents (Elt F) → (⟨S64x2048x1x1, .f32⟩ : BufTy).Contents (Elt F)),
    reshape main_v151 main_v152 rfl shapeCasts_S64x2048x1x1_S64x2048x1,
    binary main_v142 main_v142 main_v153 (mulf : (⟨S64x2048x1, .f32⟩ : BufTy).Contents (Elt F) → (⟨S64x2048x1, .f32⟩ : BufTy).Contents (Elt F) → (⟨S64x2048x1, .f32⟩ : BufTy).Contents (Elt F)),
    nullary main_cst_31 (constant S_ .f32 0x3ED1EB85#32),
    unary main_cst_31 main_v154 (broadcastInDim S64x2048x1 ![] bcast_S_S64x2048x1 : (⟨S_, .f32⟩ : BufTy).Contents (Elt F) → (⟨S64x2048x1, .f32⟩ : BufTy).Contents (Elt F)),
    binary main_v153 main_v154 main_v155 (mulf : (⟨S64x2048x1, .f32⟩ : BufTy).Contents (Elt F) → (⟨S64x2048x1, .f32⟩ : BufTy).Contents (Elt F) → (⟨S64x2048x1, .f32⟩ : BufTy).Contents (Elt F)),
    binary main_v148 main_v148 main_v156 (mulf : (⟨S64x2048x1, .f32⟩ : BufTy).Contents (Elt F) → (⟨S64x2048x1, .f32⟩ : BufTy).Contents (Elt F) → (⟨S64x2048x1, .f32⟩ : BufTy).Contents (Elt F)),
    nullary main_cst_32 (constant S_ .f32 0x3ED1EB85#32),
    unary main_cst_32 main_v157 (broadcastInDim S64x2048x1 ![] bcast_S_S64x2048x1 : (⟨S_, .f32⟩ : BufTy).Contents (Elt F) → (⟨S64x2048x1, .f32⟩ : BufTy).Contents (Elt F)),
    binary main_v156 main_v157 main_v158 (mulf : (⟨S64x2048x1, .f32⟩ : BufTy).Contents (Elt F) → (⟨S64x2048x1, .f32⟩ : BufTy).Contents (Elt F) → (⟨S64x2048x1, .f32⟩ : BufTy).Contents (Elt F)),
    nullary main_cst_33 (constant S_ .f32 0x40000000#32),
    unary main_cst_33 main_v159 (broadcastInDim S64x2048x1 ![] bcast_S_S64x2048x1 : (⟨S_, .f32⟩ : BufTy).Contents (Elt F) → (⟨S64x2048x1, .f32⟩ : BufTy).Contents (Elt F)),
    binary main_v142 main_v159 main_v160 (Host.divf : (⟨S64x2048x1, .f32⟩ : BufTy).Contents (Elt F) → (⟨S64x2048x1, .f32⟩ : BufTy).Contents (Elt F) → (⟨S64x2048x1, .f32⟩ : BufTy).Contents (Elt F)),
    binary main_v144 main_v160 main_v161 (subf : (⟨S64x2048x1, .f32⟩ : BufTy).Contents (Elt F) → (⟨S64x2048x1, .f32⟩ : BufTy).Contents (Elt F) → (⟨S64x2048x1, .f32⟩ : BufTy).Contents (Elt F)),
    nullary main_cst_34 (constant S_ .f32 0x40000000#32),
    unary main_cst_34 main_v162 (broadcastInDim S64x2048x1 ![] bcast_S_S64x2048x1 : (⟨S_, .f32⟩ : BufTy).Contents (Elt F) → (⟨S64x2048x1, .f32⟩ : BufTy).Contents (Elt F)),
    binary main_v148 main_v162 main_v163 (Host.divf : (⟨S64x2048x1, .f32⟩ : BufTy).Contents (Elt F) → (⟨S64x2048x1, .f32⟩ : BufTy).Contents (Elt F) → (⟨S64x2048x1, .f32⟩ : BufTy).Contents (Elt F)),
    binary main_v150 main_v163 main_v164 (subf : (⟨S64x2048x1, .f32⟩ : BufTy).Contents (Elt F) → (⟨S64x2048x1, .f32⟩ : BufTy).Contents (Elt F) → (⟨S64x2048x1, .f32⟩ : BufTy).Contents (Elt F)),
    binary main_v161 main_v164 main_v165 (maximumf : (⟨S64x2048x1, .f32⟩ : BufTy).Contents (Elt F) → (⟨S64x2048x1, .f32⟩ : BufTy).Contents (Elt F) → (⟨S64x2048x1, .f32⟩ : BufTy).Contents (Elt F)),
    nullary main_cst_35 (constant S_ .f32 0x3ED1EB85#32),
    unary main_cst_35 main_v166 (broadcastInDim S64x2048x1 ![] bcast_S_S64x2048x1 : (⟨S_, .f32⟩ : BufTy).Contents (Elt F) → (⟨S64x2048x1, .f32⟩ : BufTy).Contents (Elt F)),
    binary main_v166 main_v142 main_v167 (mulf : (⟨S64x2048x1, .f32⟩ : BufTy).Contents (Elt F) → (⟨S64x2048x1, .f32⟩ : BufTy).Contents (Elt F) → (⟨S64x2048x1, .f32⟩ : BufTy).Contents (Elt F)),
    nullary main_cst_36 (constant S_ .f32 0x40000000#32),
    unary main_cst_36 main_v168 (broadcastInDim S64x2048x1 ![] bcast_S_S64x2048x1 : (⟨S_, .f32⟩ : BufTy).Contents (Elt F) → (⟨S64x2048x1, .f32⟩ : BufTy).Contents (Elt F)),
    binary main_v167 main_v168 main_v169 (Host.divf : (⟨S64x2048x1, .f32⟩ : BufTy).Contents (Elt F) → (⟨S64x2048x1, .f32⟩ : BufTy).Contents (Elt F) → (⟨S64x2048x1, .f32⟩ : BufTy).Contents (Elt F)),
    binary main_v146 main_v169 main_v170 (subf : (⟨S64x2048x1, .f32⟩ : BufTy).Contents (Elt F) → (⟨S64x2048x1, .f32⟩ : BufTy).Contents (Elt F) → (⟨S64x2048x1, .f32⟩ : BufTy).Contents (Elt F)),
    nullary main_cst_37 (constant S_ .f32 0x3ED1EB85#32),
    unary main_cst_37 main_v171 (broadcastInDim S64x2048x1 ![] bcast_S_S64x2048x1 : (⟨S_, .f32⟩ : BufTy).Contents (Elt F) → (⟨S64x2048x1, .f32⟩ : BufTy).Contents (Elt F)),
    binary main_v171 main_v148 main_v172 (mulf : (⟨S64x2048x1, .f32⟩ : BufTy).Contents (Elt F) → (⟨S64x2048x1, .f32⟩ : BufTy).Contents (Elt F) → (⟨S64x2048x1, .f32⟩ : BufTy).Contents (Elt F)),
    nullary main_cst_38 (constant S_ .f32 0x40000000#32),
    unary main_cst_38 main_v173 (broadcastInDim S64x2048x1 ![] bcast_S_S64x2048x1 : (⟨S_, .f32⟩ : BufTy).Contents (Elt F) → (⟨S64x2048x1, .f32⟩ : BufTy).Contents (Elt F)),
    binary main_v172 main_v173 main_v174 (Host.divf : (⟨S64x2048x1, .f32⟩ : BufTy).Contents (Elt F) → (⟨S64x2048x1, .f32⟩ : BufTy).Contents (Elt F) → (⟨S64x2048x1, .f32⟩ : BufTy).Contents (Elt F)),
    binary main_v152 main_v174 main_v175 (subf : (⟨S64x2048x1, .f32⟩ : BufTy).Contents (Elt F) → (⟨S64x2048x1, .f32⟩ : BufTy).Contents (Elt F) → (⟨S64x2048x1, .f32⟩ : BufTy).Contents (Elt F)),
    binary main_v170 main_v175 main_v176 (maximumf : (⟨S64x2048x1, .f32⟩ : BufTy).Contents (Elt F) → (⟨S64x2048x1, .f32⟩ : BufTy).Contents (Elt F) → (⟨S64x2048x1, .f32⟩ : BufTy).Contents (Elt F)),
    nullary main_cst_39 (constant S_ .f32 0x40000000#32),
    unary main_cst_39 main_v177 (broadcastInDim S64x2048x1 ![] bcast_S_S64x2048x1 : (⟨S_, .f32⟩ : BufTy).Contents (Elt F) → (⟨S64x2048x1, .f32⟩ : BufTy).Contents (Elt F)),
    binary main_v142 main_v177 main_v178 (Host.divf : (⟨S64x2048x1, .f32⟩ : BufTy).Contents (Elt F) → (⟨S64x2048x1, .f32⟩ : BufTy).Contents (Elt F) → (⟨S64x2048x1, .f32⟩ : BufTy).Contents (Elt F)),
    binary main_v144 main_v178 main_v179 (addf : (⟨S64x2048x1, .f32⟩ : BufTy).Contents (Elt F) → (⟨S64x2048x1, .f32⟩ : BufTy).Contents (Elt F) → (⟨S64x2048x1, .f32⟩ : BufTy).Contents (Elt F)),
    nullary main_cst_40 (constant S_ .f32 0x40000000#32),
    unary main_cst_40 main_v180 (broadcastInDim S64x2048x1 ![] bcast_S_S64x2048x1 : (⟨S_, .f32⟩ : BufTy).Contents (Elt F) → (⟨S64x2048x1, .f32⟩ : BufTy).Contents (Elt F)),
    binary main_v148 main_v180 main_v181 (Host.divf : (⟨S64x2048x1, .f32⟩ : BufTy).Contents (Elt F) → (⟨S64x2048x1, .f32⟩ : BufTy).Contents (Elt F) → (⟨S64x2048x1, .f32⟩ : BufTy).Contents (Elt F)),
    binary main_v150 main_v181 main_v182 (addf : (⟨S64x2048x1, .f32⟩ : BufTy).Contents (Elt F) → (⟨S64x2048x1, .f32⟩ : BufTy).Contents (Elt F) → (⟨S64x2048x1, .f32⟩ : BufTy).Contents (Elt F)),
    binary main_v179 main_v182 main_v183 (minimumf : (⟨S64x2048x1, .f32⟩ : BufTy).Contents (Elt F) → (⟨S64x2048x1, .f32⟩ : BufTy).Contents (Elt F) → (⟨S64x2048x1, .f32⟩ : BufTy).Contents (Elt F)),
    nullary main_cst_41 (constant S_ .f32 0x3ED1EB85#32),
    unary main_cst_41 main_v184 (broadcastInDim S64x2048x1 ![] bcast_S_S64x2048x1 : (⟨S_, .f32⟩ : BufTy).Contents (Elt F) → (⟨S64x2048x1, .f32⟩ : BufTy).Contents (Elt F)),
    binary main_v184 main_v142 main_v185 (mulf : (⟨S64x2048x1, .f32⟩ : BufTy).Contents (Elt F) → (⟨S64x2048x1, .f32⟩ : BufTy).Contents (Elt F) → (⟨S64x2048x1, .f32⟩ : BufTy).Contents (Elt F)),
    nullary main_cst_42 (constant S_ .f32 0x40000000#32),
    unary main_cst_42 main_v186 (broadcastInDim S64x2048x1 ![] bcast_S_S64x2048x1 : (⟨S_, .f32⟩ : BufTy).Contents (Elt F) → (⟨S64x2048x1, .f32⟩ : BufTy).Contents (Elt F)),
    binary main_v185 main_v186 main_v187 (Host.divf : (⟨S64x2048x1, .f32⟩ : BufTy).Contents (Elt F) → (⟨S64x2048x1, .f32⟩ : BufTy).Contents (Elt F) → (⟨S64x2048x1, .f32⟩ : BufTy).Contents (Elt F)),
    binary main_v146 main_v187 main_v188 (addf : (⟨S64x2048x1, .f32⟩ : BufTy).Contents (Elt F) → (⟨S64x2048x1, .f32⟩ : BufTy).Contents (Elt F) → (⟨S64x2048x1, .f32⟩ : BufTy).Contents (Elt F)),
    nullary main_cst_43 (constant S_ .f32 0x3ED1EB85#32),
    unary main_cst_43 main_v189 (broadcastInDim S64x2048x1 ![] bcast_S_S64x2048x1 : (⟨S_, .f32⟩ : BufTy).Contents (Elt F) → (⟨S64x2048x1, .f32⟩ : BufTy).Contents (Elt F)),
    binary main_v189 main_v148 main_v190 (mulf : (⟨S64x2048x1, .f32⟩ : BufTy).Contents (Elt F) → (⟨S64x2048x1, .f32⟩ : BufTy).Contents (Elt F) → (⟨S64x2048x1, .f32⟩ : BufTy).Contents (Elt F)),
    nullary main_cst_44 (constant S_ .f32 0x40000000#32),
    unary main_cst_44 main_v191 (broadcastInDim S64x2048x1 ![] bcast_S_S64x2048x1 : (⟨S_, .f32⟩ : BufTy).Contents (Elt F) → (⟨S64x2048x1, .f32⟩ : BufTy).Contents (Elt F)),
    binary main_v190 main_v191 main_v192 (Host.divf : (⟨S64x2048x1, .f32⟩ : BufTy).Contents (Elt F) → (⟨S64x2048x1, .f32⟩ : BufTy).Contents (Elt F) → (⟨S64x2048x1, .f32⟩ : BufTy).Contents (Elt F)) ]

set_option maxRecDepth 16384 in
set_option maxHeartbeats 4000000 in
/-- The operations of @main's window 4 (30 of them), in order. -/
abbrev opsW4 : List (HloOp τ sig (Elt F)) :=
  [ binary main_v152 main_v192 main_v193 (addf : (⟨S64x2048x1, .f32⟩ : BufTy).Contents (Elt F) → (⟨S64x2048x1, .f32⟩ : BufTy).Contents (Elt F) → (⟨S64x2048x1, .f32⟩ : BufTy).Contents (Elt F)),
    binary main_v188 main_v193 main_v194 (minimumf : (⟨S64x2048x1, .f32⟩ : BufTy).Contents (Elt F) → (⟨S64x2048x1, .f32⟩ : BufTy).Contents (Elt F) → (⟨S64x2048x1, .f32⟩ : BufTy).Contents (Elt F)),
    binary main_v183 main_v165 main_v195 (subf : (⟨S64x2048x1, .f32⟩ : BufTy).Contents (Elt F) → (⟨S64x2048x1, .f32⟩ : BufTy).Contents (Elt F) → (⟨S64x2048x1, .f32⟩ : BufTy).Contents (Elt F)),
    nullary main_c_45 (constantI S_ 32 0#32),
    TRef.unary (.of main_c_45 : TRef sig ⟨S_, .i32⟩) main_call7.v0 (sitofp .f32),
    TRef.unary main_call7.v0 main_call7.v1 (broadcastInDim S64x2048x1 ![] bcast_S_S64x2048x1),
    TRef.binary main_call7.v1 (.of main_v195 : TRef sig ⟨S64x2048x1, .f32⟩) main_call7.v2 maximumf,
    binary main_v194 main_v176 main_v197 (subf : (⟨S64x2048x1, .f32⟩ : BufTy).Contents (Elt F) → (⟨S64x2048x1, .f32⟩ : BufTy).Contents (Elt F) → (⟨S64x2048x1, .f32⟩ : BufTy).Contents (Elt F)),
    nullary main_c_46 (constantI S_ 32 0#32),
    TRef.unary (.of main_c_46 : TRef sig ⟨S_, .i32⟩) main_call8.v0 (sitofp .f32),
    TRef.unary main_call8.v0 main_call8.v1 (broadcastInDim S64x2048x1 ![] bcast_S_S64x2048x1),
    TRef.binary main_call8.v1 (.of main_v197 : TRef sig ⟨S64x2048x1, .f32⟩) main_call8.v2 maximumf,
    binary main_v196 main_v198 main_v199 (mulf : (⟨S64x2048x1, .f32⟩ : BufTy).Contents (Elt F) → (⟨S64x2048x1, .f32⟩ : BufTy).Contents (Elt F) → (⟨S64x2048x1, .f32⟩ : BufTy).Contents (Elt F)),
    binary main_v155 main_v158 main_v200 (addf : (⟨S64x2048x1, .f32⟩ : BufTy).Contents (Elt F) → (⟨S64x2048x1, .f32⟩ : BufTy).Contents (Elt F) → (⟨S64x2048x1, .f32⟩ : BufTy).Contents (Elt F)),
    binary main_v200 main_v199 main_v201 (subf : (⟨S64x2048x1, .f32⟩ : BufTy).Contents (Elt F) → (⟨S64x2048x1, .f32⟩ : BufTy).Contents (Elt F) → (⟨S64x2048x1, .f32⟩ : BufTy).Contents (Elt F)),
    nullary main_cst_47 (constant S_ .f32 0x358637BD#32),
    unary main_cst_47 main_v202 (broadcastInDim S64x2048x1 ![] bcast_S_S64x2048x1 : (⟨S_, .f32⟩ : BufTy).Contents (Elt F) → (⟨S64x2048x1, .f32⟩ : BufTy).Contents (Elt F)),
    binary main_v201 main_v202 main_v203 (addf : (⟨S64x2048x1, .f32⟩ : BufTy).Contents (Elt F) → (⟨S64x2048x1, .f32⟩ : BufTy).Contents (Elt F) → (⟨S64x2048x1, .f32⟩ : BufTy).Contents (Elt F)),
    binary main_v199 main_v203 main_v204 (Host.divf : (⟨S64x2048x1, .f32⟩ : BufTy).Contents (Elt F) → (⟨S64x2048x1, .f32⟩ : BufTy).Contents (Elt F) → (⟨S64x2048x1, .f32⟩ : BufTy).Contents (Elt F)),
    nullary main_cst_48 (constant S_ .f32 0x38D1B717#32),
    binary main_v108 main_cst_48 main_v205 (addf : (⟨S_, .f32⟩ : BufTy).Contents (Elt F) → (⟨S_, .f32⟩ : BufTy).Contents (Elt F) → (⟨S_, .f32⟩ : BufTy).Contents (Elt F)),
    unary main_v205 main_v206 (broadcastInDim S64x2048x1 ![] bcast_S_S64x2048x1 : (⟨S_, .f32⟩ : BufTy).Contents (Elt F) → (⟨S64x2048x1, .f32⟩ : BufTy).Contents (Elt F)),
    binary main_v204 main_v206 main_v207 (Host.divf : (⟨S64x2048x1, .f32⟩ : BufTy).Contents (Elt F) → (⟨S64x2048x1, .f32⟩ : BufTy).Contents (Elt F) → (⟨S64x2048x1, .f32⟩ : BufTy).Contents (Elt F)),
    nullary main_cst_49 (constant S_ .f32 0x00000000#32),
    TRef.unary (.of main_cst_49 : TRef sig ⟨S_, .f32⟩) main_call9.v0 id,
    TRef.unary main_call9.v0 main_call9.v1 (broadcastInDim S64x2048x1 ![] bcast_S_S64x2048x1),
    TRef.ternary (.of main_arg8 : TRef sig ⟨S64x2048x1, .i1⟩) (.of main_v207 : TRef sig ⟨S64x2048x1, .f32⟩) main_call9.v1 main_call9.v2 select,
    nullary main_cst_50 (constant S_ .f32 0x00000000#32),
    binary main_v208 main_cst_50 main_v209 ((fun x v => Host.reduceAdd x v reducesTo_S64x2048x1_S_d0_1_2 h_S_) : (⟨S64x2048x1, .f32⟩ : BufTy).Contents (Elt F) → (⟨S_, .f32⟩ : BufTy).Contents (Elt F) → (⟨S_, .f32⟩ : BufTy).Contents (Elt F)),
    binary main_v105 main_v209 main_v210 (addf : (⟨S_, .f32⟩ : BufTy).Contents (Elt F) → (⟨S_, .f32⟩ : BufTy).Contents (Elt F) → (⟨S_, .f32⟩ : BufTy).Contents (Elt F)) ]

end Cert.ReferenceIdeal.RefRun

end
-- ==== Proof.RefRun.lean ====
/- The reference program's run: @main is the straight line of the operations listed window by window in RefOps, so
   every weakly fair execution of it terminates with each TensorCore buffer at the fold of the operations' results
   over the launch contents; no operation writes an argument. -/
import proofs.«169223_j2216203125376_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 360 operations, in order: the five windows one after the other. -/
abbrev ops : List (HloOp τ sig (Elt F)) := opsW0 ++ (opsW1 ++ (opsW2 ++ (opsW3 ++ opsW4)))

/-! ## @main is the line of its operations

Each printed window is the line of its list: a call unfolds to its callee's statements over the call's record, and
both sides are then the same chain of steps. -/

set_option maxRecDepth 16384 in
set_option maxHeartbeats 4000000 in
theorem main_part0_eq (c : Dev nD) : main_part0 (F := F) c = seq opsW0 := rfl

set_option maxRecDepth 16384 in
set_option maxHeartbeats 4000000 in
theorem main_part1_eq (c : Dev nD) : main_part1 (F := F) c = seq opsW1 := rfl

set_option maxRecDepth 16384 in
set_option maxHeartbeats 4000000 in
theorem main_part2_eq (c : Dev nD) : main_part2 (F := F) c = seq opsW2 := rfl

set_option maxRecDepth 16384 in
set_option maxHeartbeats 4000000 in
theorem main_part3_eq (c : Dev nD) : main_part3 (F := F) c = seq opsW3 := rfl

set_option maxRecDepth 16384 in
set_option maxHeartbeats 4000000 in
theorem main_part4_eq (c : Dev nD) : main_part4 (F := F) c = seq opsW4 := rfl

/-- @main runs its windows in order, and a line of two lists in a row is the two lines in a row. -/
theorem main_eq (c : Dev nD) : main (F := F) c = seq ops := by
  simp only [ops, seq_append, ← main_part0_eq c, ← main_part1_eq c, ← main_part2_eq c, ← main_part3_eq c, ← main_part4_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every buffer an operation of window 0 touches is a TensorCore reference. -/
theorem opsW0_sub : (opsW0 : List (HloOp τ sig (Elt F))).Forall fun op => op.bufs ⊆ tcRefs τ sig :=
  ⟨nullary_bufs_sub .., unary_bufs_sub .., nullary_bufs_sub .., binary_bufs_sub .., unary_bufs_sub .., reshape_bufs_sub ..,
    reshape_bufs_sub .., unary_bufs_sub .., unary_bufs_sub .., nullary_bufs_sub .., unary_bufs_sub .., binary_bufs_sub ..,
    nullary_bufs_sub .., unary_bufs_sub .., binary_bufs_sub .., ternary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., reshape_bufs_sub .., nullary_bufs_sub .., binary_bufs_sub .., unary_bufs_sub .., nullary_bufs_sub ..,
    unary_bufs_sub .., binary_bufs_sub .., reshape_bufs_sub .., reshape_bufs_sub .., unary_bufs_sub .., unary_bufs_sub ..,
    nullary_bufs_sub .., unary_bufs_sub .., binary_bufs_sub .., nullary_bufs_sub .., unary_bufs_sub .., binary_bufs_sub ..,
    ternary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., reshape_bufs_sub .., reshape_bufs_sub ..,
    unary_bufs_sub .., binary_bufs_sub .., nullary_bufs_sub .., binary_bufs_sub .., unary_bufs_sub .., nullary_bufs_sub ..,
    unary_bufs_sub .., binary_bufs_sub .., unary_bufs_sub .., binary_bufs_sub .., unary_bufs_sub .., binary_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..⟩

set_option maxRecDepth 16384 in
/-- Every buffer an operation of window 1 touches is a TensorCore reference. -/
theorem opsW1_sub : (opsW1 : List (HloOp τ sig (Elt F))).Forall fun op => op.bufs ⊆ tcRefs τ sig :=
  ⟨nullary_bufs_sub .., unary_bufs_sub .., binary_bufs_sub .., binary_bufs_sub .., unary_bufs_sub .., binary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., binary_bufs_sub ..,
    unary_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., unary_bufs_sub .., binary_bufs_sub ..,
    binary_bufs_sub .., nullary_bufs_sub .., unary_bufs_sub .., unary_bufs_sub .., binary_bufs_sub .., binary_bufs_sub ..,
    nullary_bufs_sub .., unary_bufs_sub .., unary_bufs_sub .., binary_bufs_sub .., binary_bufs_sub .., unary_bufs_sub ..,
    binary_bufs_sub .., binary_bufs_sub .., nullary_bufs_sub .., unary_bufs_sub ..⟩

set_option maxRecDepth 16384 in
/-- Every buffer an operation of window 2 touches is a TensorCore reference. -/
theorem opsW2_sub : (opsW2 : List (HloOp τ sig (Elt F))).Forall fun op => op.bufs ⊆ tcRefs τ sig :=
  ⟨binary_bufs_sub .., binary_bufs_sub .., nullary_bufs_sub .., unary_bufs_sub .., binary_bufs_sub .., nullary_bufs_sub ..,
    binary_bufs_sub .., unary_bufs_sub .., binary_bufs_sub .., nullary_bufs_sub .., unary_bufs_sub .., unary_bufs_sub ..,
    ternary_bufs_sub .., nullary_bufs_sub .., binary_bufs_sub .., unary_bufs_sub .., nullary_bufs_sub .., binary_bufs_sub ..,
    unary_bufs_sub .., reshape_bufs_sub .., reshape_bufs_sub .., unary_bufs_sub .., unary_bufs_sub .., nullary_bufs_sub ..,
    unary_bufs_sub .., binary_bufs_sub .., nullary_bufs_sub .., unary_bufs_sub .., binary_bufs_sub .., ternary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., reshape_bufs_sub .., nullary_bufs_sub .., binary_bufs_sub ..,
    unary_bufs_sub .., nullary_bufs_sub .., unary_bufs_sub .., binary_bufs_sub .., reshape_bufs_sub .., reshape_bufs_sub ..,
    unary_bufs_sub .., unary_bufs_sub .., nullary_bufs_sub .., unary_bufs_sub .., binary_bufs_sub .., nullary_bufs_sub ..,
    unary_bufs_sub .., binary_bufs_sub .., ternary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., reshape_bufs_sub .., unary_bufs_sub .., binary_bufs_sub .., nullary_bufs_sub .., binary_bufs_sub ..,
    unary_bufs_sub .., nullary_bufs_sub .., unary_bufs_sub .., binary_bufs_sub .., unary_bufs_sub .., nullary_bufs_sub ..,
    unary_bufs_sub .., ternary_bufs_sub .., unary_bufs_sub .., binary_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub ..⟩

set_option maxRecDepth 16384 in
/-- Every buffer an operation of window 3 touches is a TensorCore reference. -/
theorem opsW3_sub : (opsW3 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., binary_bufs_sub ..,
    nullary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..⟩

set_option maxRecDepth 16384 in
/-- Every buffer an operation of window 4 touches is a TensorCore reference. -/
theorem opsW4_sub : (opsW4 : List (HloOp τ sig (Elt F))).Forall fun op => op.bufs ⊆ tcRefs τ sig :=
  ⟨binary_bufs_sub .., binary_bufs_sub .., binary_bufs_sub .., nullary_bufs_sub .., unary_bufs_sub .., unary_bufs_sub ..,
    binary_bufs_sub .., binary_bufs_sub .., nullary_bufs_sub .., unary_bufs_sub .., unary_bufs_sub .., binary_bufs_sub ..,
    binary_bufs_sub .., binary_bufs_sub .., binary_bufs_sub .., nullary_bufs_sub .., unary_bufs_sub .., binary_bufs_sub ..,
    binary_bufs_sub .., nullary_bufs_sub .., binary_bufs_sub .., unary_bufs_sub .., binary_bufs_sub .., nullary_bufs_sub ..,
    unary_bufs_sub .., unary_bufs_sub .., ternary_bufs_sub .., nullary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp opsW0_sub op h, List.forall_iff_forall_mem.mp opsW1_sub op h,
      List.forall_iff_forall_mem.mp opsW2_sub op h, List.forall_iff_forall_mem.mp opsW3_sub op h,
      List.forall_iff_forall_mem.mp opsW4_sub op h]

set_option maxRecDepth 16384 in
/-- Every operation of window 0 determines its result (none allocates a buffer of undetermined contents). -/
theorem opsW0_fresh : (opsW0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

set_option maxRecDepth 16384 in
/-- Every operation of window 1 determines its result (none allocates a buffer of undetermined contents). -/
theorem opsW1_fresh : (opsW1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

set_option maxRecDepth 16384 in
/-- Every operation of window 2 determines its result (none allocates a buffer of undetermined contents). -/
theorem opsW2_fresh : (opsW2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

set_option maxRecDepth 16384 in
/-- Every operation of window 3 determines its result (none allocates a buffer of undetermined contents). -/
theorem opsW3_fresh : (opsW3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 16384 in
/-- Every operation of window 4 determines its result (none allocates a buffer of undetermined contents). -/
theorem opsW4_fresh : (opsW4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

theorem ops_fresh : ∀ op ∈ (ops : List (HloOp τ sig (Elt F))), op.fresh = ∅ := fun op h => by
  simp only [ops, List.mem_append] at h
  rcases h with h | h | h | h | h
  exacts [List.forall_iff_forall_mem.mp opsW0_fresh op h, List.forall_iff_forall_mem.mp opsW1_fresh op h,
    List.forall_iff_forall_mem.mp opsW2_fresh op h, List.forall_iff_forall_mem.mp opsW3_fresh op h,
    List.forall_iff_forall_mem.mp opsW4_fresh op h]

/-! ## The run -/

/-- On every device, for any float values, from any memory with zero counters: every weakly fair execution of @main
    on the TensorCores terminates, and every final state has each TensorCore buffer at the fold of the operations'
    results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The fold, window by window -/

/-- The fold over two lists in a row is the fold over the second of the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over @main's operations is the windows' folds, one inside the next. -/
theorem after_ops (V : Valuation τ sig (Elt F)) :
    after ops V = after opsW4 (after opsW3 (after opsW2 (after opsW1 (after opsW0 V)))) := by
  unfold ops
  rw [after_app, after_app, after_app, after_app]

/-! ## What each window writes, and what it keeps -/

/-- The buffers window 0's operations write, in order. -/
abbrev opsW0_W : List (Ref sig .tc) :=
  [main_cst, main_v0, main_c, main_v1, main_v2, main_v3, main_v4, main_v5,
   main_v6, main_call0.c.ref, main_call0.v0.ref, main_call0.v1.ref, main_call0.c_0.ref, main_call0.v2.ref, main_call0.v3.ref, main_call0.v4.ref,
   main_call0.c_1.ref, main_call0.c_2.ref, main_call0.v5.ref, main_call0.v6.ref, main_call0.v7.ref, main_call0.v8.ref, main_call0.v9.ref, main_call0.v10.ref,
   main_call0.c_3.ref, main_call0.v11.ref, main_call0.v12.ref, main_call0.v13.ref, main_call0.cst.ref, main_call0.v14.ref, main_call0.v15.ref, main_v8,
   main_cst_0, main_v9, main_v10, main_cst_1, main_v11, main_v12, main_v13, main_v14,
   main_v15, main_v16, main_call1.c.ref, main_call1.v0.ref, main_call1.v1.ref, main_call1.c_0.ref, main_call1.v2.ref, main_call1.v3.ref,
   main_call1.v4.ref, main_call1.c_1.ref, main_call1.c_2.ref, main_call1.v5.ref, main_call1.v6.ref, main_call1.v7.ref, main_call1.v8.ref, main_call1.v9.ref,
   main_call1.v10.ref, main_call1.c_3.ref, main_call1.v11.ref, main_call1.v12.ref, main_call1.v13.ref, main_call1.cst.ref, main_call1.v14.ref, main_call1.v15.ref,
   main_v18, main_v19, main_v20, main_v21, main_cst_2, main_v22, main_v23, main_cst_3,
   main_v24, main_v25, main_v26, main_v27, main_v28, main_v29, main_v30, main_v31,
   main_v32, main_v33, main_v34, main_v35, main_v36, main_v37, main_v38, main_v39,
   main_v40, main_v41, main_v42, main_cst_4, main_v43, main_v44, main_v45, main_cst_5,
   main_v46, main_v47, main_cst_6, main_v48, main_v49, main_v50]

set_option maxRecDepth 16384 in
set_option maxHeartbeats 4000000 in
theorem opsW0_writes : (opsW0 : List (HloOp τ sig (Elt F))).Forall fun op =>
    op.writes ⊆ (opsW0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer window 0 does not write keeps its contents through it. -/
theorem opsW0_keep (V : Valuation τ sig (Elt F)) (r : Ref sig .tc) (h : r ∉ opsW0_W) :
    after opsW0 V (Proc.devRef .tc r) = V (Proc.devRef .tc r) :=
  after_of_writes_sub opsW0 V opsW0_writes h

/-- The buffers window 1's operations write, in order. -/
abbrev opsW1_W : List (Ref sig .tc) :=
  [main_cst_7, main_v51, main_v52, main_v53, main_v54, main_v55, main_cst_8, main_v56,
   main_v57, main_cst_9, main_v58, main_v59, main_v60, main_cst_10, main_v61, main_v62,
   main_cst_11, main_v63, main_v64, main_v65, main_v66, main_v67, main_cst_12, main_v68,
   main_v69, main_v70, main_cst_13, main_v71, main_v72, main_v73, main_v74, main_v75,
   main_cst_14, main_v76, main_v77, main_cst_15, main_v78, main_v79, main_v80, main_cst_16,
   main_v81, main_v82, main_cst_17, main_v83, main_v84, main_v85, main_v86, main_v87,
   main_v88, main_c_18, main_call2.v0.ref, main_call2.v1.ref, main_call2.v2.ref, main_v90, main_c_19, main_call3.v0.ref,
   main_call3.v1.ref, main_call3.v2.ref, main_v92, main_v93, main_v94, main_v95, main_cst_20, main_v96]

set_option maxRecDepth 16384 in
set_option maxHeartbeats 4000000 in
theorem opsW1_writes : (opsW1 : List (HloOp τ sig (Elt F))).Forall fun op =>
    op.writes ⊆ (opsW1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer window 1 does not write keeps its contents through it. -/
theorem opsW1_keep (V : Valuation τ sig (Elt F)) (r : Ref sig .tc) (h : r ∉ opsW1_W) :
    after opsW1 V (Proc.devRef .tc r) = V (Proc.devRef .tc r) :=
  after_of_writes_sub opsW1 V opsW1_writes h

/-- The buffers window 2's operations write, in order. -/
abbrev opsW2_W : List (Ref sig .tc) :=
  [main_v97, main_v98, main_cst_21, main_v99, main_v100, main_cst_22, main_v101, main_v102,
   main_v103, main_cst_23, main_call4.v0.ref, main_call4.v1.ref, main_call4.v2.ref, main_cst_24, main_v105, main_v106,
   main_c_25, main_v107, main_v108, main_v109, main_v110, main_v111, main_v112, main_call5.c.ref,
   main_call5.v0.ref, main_call5.v1.ref, main_call5.c_0.ref, main_call5.v2.ref, main_call5.v3.ref, main_call5.v4.ref, main_call5.c_1.ref, main_call5.c_2.ref,
   main_call5.v5.ref, main_call5.v6.ref, main_call5.v7.ref, main_call5.v8.ref, main_call5.v9.ref, main_call5.v10.ref, main_call5.c_3.ref, main_call5.v11.ref,
   main_call5.v12.ref, main_call5.v13.ref, main_call5.cst.ref, main_call5.v14.ref, main_call5.v15.ref, main_v114, main_cst_26, main_v115,
   main_v116, main_cst_27, main_v117, main_v118, main_v119, main_v120, main_v121, main_v122,
   main_call6.c.ref, main_call6.v0.ref, main_call6.v1.ref, main_call6.c_0.ref, main_call6.v2.ref, main_call6.v3.ref, main_call6.v4.ref, main_call6.c_1.ref,
   main_call6.c_2.ref, main_call6.v5.ref, main_call6.v6.ref, main_call6.v7.ref, main_call6.v8.ref, main_call6.v9.ref, main_call6.v10.ref, main_call6.c_3.ref,
   main_call6.v11.ref, main_call6.v12.ref, main_call6.v13.ref, main_call6.cst.ref, main_call6.v14.ref, main_call6.v15.ref, main_v124, main_v125,
   main_v126, main_v127, main_cst_28, main_v128, main_v129, main_cst_29, main_v130, main_v131,
   main_v132, main_c_30, main_v133, main_v134, main_v135, main_v136, main_v137, main_v138,
   main_v139, main_v140, main_v141, main_v142, main_v143, main_v144, main_v145, main_v146]

set_option maxRecDepth 16384 in
set_option maxHeartbeats 4000000 in
theorem opsW2_writes : (opsW2 : List (HloOp τ sig (Elt F))).Forall fun op =>
    op.writes ⊆ (opsW2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer window 2 does not write keeps its contents through it. -/
theorem opsW2_keep (V : Valuation τ sig (Elt F)) (r : Ref sig .tc) (h : r ∉ opsW2_W) :
    after opsW2 V (Proc.devRef .tc r) = V (Proc.devRef .tc r) :=
  after_of_writes_sub opsW2 V opsW2_writes h

/-- The buffers window 3's operations write, in order. -/
abbrev opsW3_W : List (Ref sig .tc) :=
  [main_v147, main_v148, main_v149, main_v150, main_v151, main_v152, main_v153, main_cst_31,
   main_v154, main_v155, main_v156, main_cst_32, main_v157, main_v158, main_cst_33, main_v159,
   main_v160, main_v161, main_cst_34, main_v162, main_v163, main_v164, main_v165, main_cst_35,
   main_v166, main_v167, main_cst_36, main_v168, main_v169, main_v170, main_cst_37, main_v171,
   main_v172, main_cst_38, main_v173, main_v174, main_v175, main_v176, main_cst_39, main_v177,
   main_v178, main_v179, main_cst_40, main_v180, main_v181, main_v182, main_v183, main_cst_41,
   main_v184, main_v185, main_cst_42, main_v186, main_v187, main_v188, main_cst_43, main_v189,
   main_v190, main_cst_44, main_v191, main_v192]

set_option maxRecDepth 16384 in
set_option maxHeartbeats 4000000 in
theorem opsW3_writes : (opsW3 : List (HloOp τ sig (Elt F))).Forall fun op =>
    op.writes ⊆ (opsW3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer window 3 does not write keeps its contents through it. -/
theorem opsW3_keep (V : Valuation τ sig (Elt F)) (r : Ref sig .tc) (h : r ∉ opsW3_W) :
    after opsW3 V (Proc.devRef .tc r) = V (Proc.devRef .tc r) :=
  after_of_writes_sub opsW3 V opsW3_writes h

/-- The buffers window 4's operations write, in order. -/
abbrev opsW4_W : List (Ref sig .tc) :=
  [main_v193, main_v194, main_v195, main_c_45, main_call7.v0.ref, main_call7.v1.ref, main_call7.v2.ref, main_v197,
   main_c_46, main_call8.v0.ref, main_call8.v1.ref, main_call8.v2.ref, main_v199, main_v200, main_v201, main_cst_47,
   main_v202, main_v203, main_v204, main_cst_48, main_v205, main_v206, main_v207, main_cst_49,
   main_call9.v0.ref, main_call9.v1.ref, main_call9.v2.ref, main_cst_50, main_v209, main_v210]

set_option maxRecDepth 16384 in
set_option maxHeartbeats 4000000 in
theorem opsW4_writes : (opsW4 : List (HloOp τ sig (Elt F))).Forall fun op =>
    op.writes ⊆ (opsW4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer window 4 does not write keeps its contents through it. -/
theorem opsW4_keep (V : Valuation τ sig (Elt F)) (r : Ref sig .tc) (h : r ∉ opsW4_W) :
    after opsW4 V (Proc.devRef .tc r) = V (Proc.devRef .tc r) :=
  after_of_writes_sub opsW4 V opsW4_writes h

/-- A buffer no window writes keeps its contents through @main. -/
theorem ops_keep (V : Valuation τ sig (Elt F)) (r : Ref sig .tc) (h0 : r ∉ opsW0_W) (h1 : r ∉ opsW1_W) (h2 : r ∉ opsW2_W)
    (h3 : r ∉ opsW3_W) (h4 : r ∉ opsW4_W) : after ops V (Proc.devRef .tc r) = V (Proc.devRef .tc r) := by
  rw [after_ops, opsW4_keep _ r h4, opsW3_keep _ r h3, opsW2_keep _ r h2, opsW1_keep _ r h1, opsW0_keep _ r h0]

/-! ## No operation writes an argument -/

theorem arg0_eq (V : Valuation τ sig (Elt F)) : after ops V (main_arg0 : DevRef τ sig) = V (main_arg0 : DevRef τ sig) :=
  ops_keep V main_arg0 (by decide) (by decide) (by decide) (by decide) (by decide)
theorem arg1_eq (V : Valuation τ sig (Elt F)) : after ops V (main_arg1 : DevRef τ sig) = V (main_arg1 : DevRef τ sig) :=
  ops_keep V main_arg1 (by decide) (by decide) (by decide) (by decide) (by decide)
theorem arg2_eq (V : Valuation τ sig (Elt F)) : after ops V (main_arg2 : DevRef τ sig) = V (main_arg2 : DevRef τ sig) :=
  ops_keep V main_arg2 (by decide) (by decide) (by decide) (by decide) (by decide)
theorem arg3_eq (V : Valuation τ sig (Elt F)) : after ops V (main_arg3 : DevRef τ sig) = V (main_arg3 : DevRef τ sig) :=
  ops_keep V main_arg3 (by decide) (by decide) (by decide) (by decide) (by decide)
theorem arg4_eq (V : Valuation τ sig (Elt F)) : after ops V (main_arg4 : DevRef τ sig) = V (main_arg4 : DevRef τ sig) :=
  ops_keep V main_arg4 (by decide) (by decide) (by decide) (by decide) (by decide)
theorem arg5_eq (V : Valuation τ sig (Elt F)) : after ops V (main_arg5 : DevRef τ sig) = V (main_arg5 : DevRef τ sig) :=
  ops_keep V main_arg5 (by decide) (by decide) (by decide) (by decide) (by decide)
theorem arg6_eq (V : Valuation τ sig (Elt F)) : after ops V (main_arg6 : DevRef τ sig) = V (main_arg6 : DevRef τ sig) :=
  ops_keep V main_arg6 (by decide) (by decide) (by decide) (by decide) (by decide)
theorem arg7_eq (V : Valuation τ sig (Elt F)) : after ops V (main_arg7 : DevRef τ sig) = V (main_arg7 : DevRef τ sig) :=
  ops_keep V main_arg7 (by decide) (by decide) (by decide) (by decide) (by decide)
theorem arg8_eq (V : Valuation τ sig (Elt F)) : after ops V (main_arg8 : DevRef τ sig) = V (main_arg8 : DevRef τ sig) :=
  ops_keep V main_arg8 (by decide) (by decide) (by decide) (by decide) (by decide)

end Cert.ReferenceIdeal.RefRun

end
-- ==== Proof.RArgs.lean ====
import proofs.«169223_j2216203125376_1_alg».proof.Proof.RefOps
import proofs.«169223_j2216203125376_1_alg».proof.Proof.Spec
import proofs.«169223_j2216203125376_1_alg».proof.Proof.Gen.ReferenceIdeal
import Idealize.ShloMosaic.Lib.StableHlo.Run

set_option maxRecDepth 16384

noncomputable section

namespace Cert.ReferenceIdeal.RArgs

open Idealize.ShloMosaic Idealize.ShloMosaic.TcCoe Idealize.SL.Sem Idealize.ShloMosaic.ValueIdx Idealize.ShloMosaic.StableHlo Cert.ReferenceIdeal Cert.ReferenceIdeal.Gen Cert.ReferenceIdeal.RefRun Cert.IouSpec

variable (V : Valuation τ sig (Elt Ideal))

/-- The argument arrays, at a valuation of the buffers, as functions of their coordinates. -/
abbrev argH : S64x1x256x256.Idx → EReal := V (main_arg0 : DevRef τ sig)
abbrev argO : S64x2x256x256.Idx → EReal := V (main_arg1 : DevRef τ sig)
abbrev argP : SP.Idx → EReal := V (main_arg4 : DevRef τ sig)
abbrev argA : SA.Idx → BitVec 32 := V (main_arg5 : DevRef τ sig)
abbrev argR : SR.Idx → BitVec 32 := V (main_arg6 : DevRef τ sig)
abbrev argMA : SA.Idx → BitVec 1 := V (main_arg7 : DevRef τ sig)
abbrev argMR : SMR.Idx → BitVec 1 := V (main_arg8 : DevRef τ sig)
/-- The two feature maps with their positions laid end to end. -/
abbrev hf : SHf.Idx → EReal := shapeCast SHf (argH V) shapeCasts_S64x1x256x256_S64x1x65536
abbrev of_ : SOf.Idx → EReal := shapeCast SOf (argO V) shapeCasts_S64x2x256x256_S64x2x65536
/-- The buffers after all five windows of the program. -/
abbrev fin : Valuation τ sig (Elt Ideal) := after opsW4 (after opsW3 (after opsW2 (after opsW1 (after opsW0 V))))

end Cert.ReferenceIdeal.RArgs

end
-- ==== Proof.RGather.lean ====
/-
  The reference program's two batched gathers read at an index: each is the operand at the same batch coordinates and
  the position the start index names, read signed and clamped into the gathered axis.
-/
import proofs.«169223_j2216203125376_1_alg».proof.ReferenceIdeal
import proofs.«169223_j2216203125376_1_alg».proof.Proof.LibBatchedTake

set_option maxRecDepth 16384

namespace Cert.ReferenceIdeal.RGather

open Idealize.ShloMosaic Idealize.ShloMosaic.ValueIdx Idealize.ShloMosaic.BatchedTake

variable [Facts₀] {α : Type}

/-- The gather of a `[64, 65536, 1]` operand along its middle axis, at `(b, k, 0)`: the operand at `(b, p, 0)`, `p` the
    start index `idx[b, k, 0]` read signed and clamped into `[0, 65535]`. -/
theorem gather_h (x : S64x65536x1.Idx → α) (idx : IVec S64x16384x1 32) (b : Fin 64) (k : Fin 16384) :
    Host.gather gather_S64x65536x1_S64x16384x1_S64x16384x1_2_1_0_0_1_2_111 x idx (ix3 b k 0)
      = x (ix3 b (clampPos 65536 (by decide) (idx (ix3 b k 0))) 0) :=
  gather_takeMid_apply (B := 64) (N := 65536) (C := 1) (K := 16384) (by decide)
    Facts₀.gather_S64x65536x1_S64x16384x1_S64x16384x1_2_1_0_0_1_2_111_wf x idx b k 0

/-- The gather of a `[64, 65536, 2]` operand along its middle axis, at `(b, k, ch)`: the operand at `(b, p, ch)`, `p` the
    start index `idx[b, k, 0]` read signed and clamped into `[0, 65535]`. -/
theorem gather_off (x : S64x65536x2.Idx → α) (idx : IVec S64x16384x1 32) (b : Fin 64) (k : Fin 16384) (ch : Fin 2) :
    Host.gather gather_S64x65536x2_S64x16384x1_S64x16384x2_2_1_0_0_1_2_112 x idx (ix3 b k ch)
      = x (ix3 b (clampPos 65536 (by decide) (idx (ix3 b k 0))) ch) :=
  gather_takeMid_apply (B := 64) (N := 65536) (C := 2) (K := 16384) (by decide)
    Facts₀.gather_S64x65536x2_S64x16384x1_S64x16384x2_2_1_0_0_1_2_112_wf x idx b k ch

end Cert.ReferenceIdeal.RGather
-- ==== Proof.RValA0oS.lean ====
/-
  Window 0 of the reference program cut into four consecutive pieces, so that each piece is read over an arbitrary
  valuation of the buffers the pieces before it leave: the tables and index words laid out; the offset table read at
  the index words (the inlined call); the gathered offsets by box and corner, the corner table added, and the mean over
  the corners; the exponentials, the two concatenations, the six columns cut out and the first operations of the
  intersection over union. Run one after the other the four pieces are the window.
-/
import proofs.«169223_j2216203125376_1_alg».proof.Proof.RefOps
import proofs.«169223_j2216203125376_1_alg».proof.Proof.RefRun
import Idealize.ShloMosaic.Lib.StableHlo.Run

noncomputable section

namespace Cert.ReferenceIdeal.RValA0o

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxRecDepth 16384 in
set_option maxHeartbeats 4000000 in
/-- The corner table, the count, the height chain and the offset table and index words laid out (operations 1 to 42). -/
abbrev segA : List (HloOp τ sig (Elt F)) :=
  [ nullary main_cst (fun i => FloatOps.ofBits .f32 (lit0 (S4x2.rowMajor i))),
    unary main_arg7 main_v0 ((extui 32 · natLt_1_32) : (⟨S64x4096x4, .i1⟩ : BufTy).Contents (Elt F) → (⟨S64x4096x4, .i32⟩ : BufTy).Contents (Elt F)),
    nullary main_c (constantI S_ 32 0#32),
    binary main_v0 main_c main_v1 ((fun x v => Host.reduce IntOp.addi x v reducesTo_S64x4096x4_S_d0_1_2 h_S_) : (⟨S64x4096x4, .i32⟩ : BufTy).Contents (Elt F) → (⟨S_, .i32⟩ : BufTy).Contents (Elt F) → (⟨S_, .i32⟩ : BufTy).Contents (Elt F)),
    unary main_v1 main_v2 (sitofp .f32 : (⟨S_, .i32⟩ : BufTy).Contents (Elt F) → (⟨S_, .f32⟩ : BufTy).Contents (Elt F)),
    reshape main_arg5 main_v3 rfl shapeCasts_S64x4096x4_S64x16384,
    reshape main_arg0 main_v4 rfl shapeCasts_S64x1x256x256_S64x1x65536,
    unary main_v4 main_v5 ((transpose S64x65536x1 [0, 2, 1] · transposes_S64x1x65536_S64x65536x1_0_2_1) : (⟨S64x1x65536, .f32⟩ : BufTy).Contents (Elt F) → (⟨S64x65536x1, .f32⟩ : BufTy).Contents (Elt F)),
    unary main_v3 main_v6 (broadcastInDim S64x16384x1 ![0, 1] bcast_S64x16384_S64x16384x1_0_1 : (⟨S64x16384, .i32⟩ : BufTy).Contents (Elt F) → (⟨S64x16384x1, .i32⟩ : BufTy).Contents (Elt F)),
    TRef.nullary main_call0.c (constantI S_ 32 0#32),
    TRef.unary main_call0.c main_call0.v0 (broadcastInDim S64x16384x1 ![] bcast_S_S64x16384x1),
    TRef.binary (.of main_v6 : TRef sig ⟨S64x16384x1, .i32⟩) main_call0.v0 main_call0.v1 (cmpi .slt),
    TRef.nullary main_call0.c_0 (constantI S_ 32 65536#32),
    TRef.unary main_call0.c_0 main_call0.v2 (broadcastInDim S64x16384x1 ![] bcast_S_S64x16384x1),
    TRef.binary (.of main_v6 : TRef sig ⟨S64x16384x1, .i32⟩) main_call0.v2 main_call0.v3 addi,
    TRef.ternary main_call0.v1 main_call0.v3 (.of main_v6 : TRef sig ⟨S64x16384x1, .i32⟩) main_call0.v4 select,
    TRef.nullary main_call0.c_1 (constantI S1 32 65535#32),
    TRef.nullary main_call0.c_2 (constantI S_ 32 0#32),
    TRef.unary main_call0.c_2 main_call0.v5 (broadcastInDim S64x16384x1 ![] bcast_S_S64x16384x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S64x16384x1 ![0, 1, 2] bcast_S1x1x1_S64x16384x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S64x16384x1_S64x16384_d2 h_S_),
    TRef.binary (.of main_v5 : TRef sig ⟨S64x65536x1, .f32⟩) main_call0.v4 main_call0.v12 (fun x i => Host.gather gather_S64x65536x1_S64x16384x1_S64x16384x1_2_1_0_0_1_2_111 x i),
    TRef.unary main_call0.v11 main_call0.v13 (broadcastInDim S64x16384x1 ![0, 1] bcast_S64x16384_S64x16384x1_0_1),
    TRef.nullary main_call0.cst (constant S_ .f32 0x7FC00000#32),
    TRef.unary main_call0.cst main_call0.v14 (broadcastInDim S64x16384x1 ![] bcast_S_S64x16384x1),
    TRef.ternary main_call0.v13 main_call0.v12 main_call0.v14 main_call0.v15 select,
    reshape main_v7 main_v8 rfl shapeCasts_S64x16384x1_S64x4096x4x1,
    nullary main_cst_0 (constant S_ .f32 0x00000000#32),
    binary main_v8 main_cst_0 main_v9 ((fun x v => Host.reduceAdd x v reducesTo_S64x4096x4x1_S64x4096x1_d2 h_S_) : (⟨S64x4096x4x1, .f32⟩ : BufTy).Contents (Elt F) → (⟨S_, .f32⟩ : BufTy).Contents (Elt F) → (⟨S64x4096x1, .f32⟩ : BufTy).Contents (Elt F)),
    unary main_v9 main_v10 (broadcastInDim S64x4096x1x1 ![0, 1, 3] bcast_S64x4096x1_S64x4096x1x1_0_1_3 : (⟨S64x4096x1, .f32⟩ : BufTy).Contents (Elt F) → (⟨S64x4096x1x1, .f32⟩ : BufTy).Contents (Elt F)),
    nullary main_cst_1 (constant S_ .f32 0x40800000#32),
    unary main_cst_1 main_v11 (broadcastInDim S64x4096x1x1 ![] bcast_S_S64x4096x1x1 : (⟨S_, .f32⟩ : BufTy).Contents (Elt F) → (⟨S64x4096x1x1, .f32⟩ : BufTy).Contents (Elt F)),
    binary main_v10 main_v11 main_v12 (Host.divf : (⟨S64x4096x1x1, .f32⟩ : BufTy).Contents (Elt F) → (⟨S64x4096x1x1, .f32⟩ : BufTy).Contents (Elt F) → (⟨S64x4096x1x1, .f32⟩ : BufTy).Contents (Elt F)),
    reshape main_arg5 main_v13 rfl shapeCasts_S64x4096x4_S64x16384,
    reshape main_arg1 main_v14 rfl shapeCasts_S64x2x256x256_S64x2x65536,
    unary main_v14 main_v15 ((transpose S64x65536x2 [0, 2, 1] · transposes_S64x2x65536_S64x65536x2_0_2_1) : (⟨S64x2x65536, .f32⟩ : BufTy).Contents (Elt F) → (⟨S64x65536x2, .f32⟩ : BufTy).Contents (Elt F)),
    unary main_v13 main_v16 (broadcastInDim S64x16384x1 ![0, 1] bcast_S64x16384_S64x16384x1_0_1 : (⟨S64x16384, .i32⟩ : BufTy).Contents (Elt F) → (⟨S64x16384x1, .i32⟩ : BufTy).Contents (Elt F)) ]

set_option maxRecDepth 16384 in
set_option maxHeartbeats 4000000 in
/-- The offset table read at the index words: the inlined call (operations 43 to 64). -/
abbrev segB : List (HloOp τ sig (Elt F)) :=
  [ TRef.nullary main_call1.c (constantI S_ 32 0#32),
    TRef.unary main_call1.c main_call1.v0 (broadcastInDim S64x16384x1 ![] bcast_S_S64x16384x1),
    TRef.binary (.of main_v16 : TRef sig ⟨S64x16384x1, .i32⟩) main_call1.v0 main_call1.v1 (cmpi .slt),
    TRef.nullary main_call1.c_0 (constantI S_ 32 65536#32),
    TRef.unary main_call1.c_0 main_call1.v2 (broadcastInDim S64x16384x1 ![] bcast_S_S64x16384x1),
    TRef.binary (.of main_v16 : TRef sig ⟨S64x16384x1, .i32⟩) main_call1.v2 main_call1.v3 addi,
    TRef.ternary main_call1.v1 main_call1.v3 (.of main_v16 : TRef sig ⟨S64x16384x1, .i32⟩) main_call1.v4 select,
    TRef.nullary main_call1.c_1 (constantI S1 32 65535#32),
    TRef.nullary main_call1.c_2 (constantI S_ 32 0#32),
    TRef.unary main_call1.c_2 main_call1.v5 (broadcastInDim S64x16384x1 ![] bcast_S_S64x16384x1),
    TRef.binary main_call1.v4 main_call1.v5 main_call1.v6 (cmpi .sge),
    TRef.unary main_call1.c_1 main_call1.v7 (broadcastInDim S1x1x1 ![2] bcast_S1_S1x1x1_2),
    TRef.unary main_call1.v7 main_call1.v8 (broadcastInDim S64x16384x1 ![0, 1, 2] bcast_S1x1x1_S64x16384x1_0_1_2),
    TRef.binary main_call1.v4 main_call1.v8 main_call1.v9 (cmpi .sle),
    TRef.binary main_call1.v6 main_call1.v9 main_call1.v10 andi,
    TRef.nullary main_call1.c_3 (constantI S_ 1 1#1),
    TRef.binary main_call1.v10 main_call1.c_3 main_call1.v11 (fun x v => Host.reduce IntOp.andi x v reducesTo_S64x16384x1_S64x16384_d2 h_S_),
    TRef.binary (.of main_v15 : TRef sig ⟨S64x65536x2, .f32⟩) main_call1.v4 main_call1.v12 (fun x i => Host.gather gather_S64x65536x2_S64x16384x1_S64x16384x2_2_1_0_0_1_2_112 x i),
    TRef.unary main_call1.v11 main_call1.v13 (broadcastInDim S64x16384x2 ![0, 1] bcast_S64x16384_S64x16384x2_0_1),
    TRef.nullary main_call1.cst (constant S_ .f32 0x7FC00000#32),
    TRef.unary main_call1.cst main_call1.v14 (broadcastInDim S64x16384x2 ![] bcast_S_S64x16384x2),
    TRef.ternary main_call1.v13 main_call1.v12 main_call1.v14 main_call1.v15 select ]

set_option maxRecDepth 16384 in
set_option maxHeartbeats 4000000 in
/-- The gathered offsets by box and corner plus the corner table, their mean over the corners, and the exponential of the heights (operations 65 to 75). -/
abbrev segC : List (HloOp τ sig (Elt F)) :=
  [ reshape main_v17 main_v18 rfl shapeCasts_S64x16384x2_S64x4096x4x2,
    reshape main_cst main_v19 rfl shapeCasts_S4x2_S1x1x4x2,
    unary main_v19 main_v20 (broadcastInDim S64x4096x4x2 ![0, 1, 2, 3] bcast_S1x1x4x2_S64x4096x4x2_0_1_2_3 : (⟨S1x1x4x2, .f32⟩ : BufTy).Contents (Elt F) → (⟨S64x4096x4x2, .f32⟩ : BufTy).Contents (Elt F)),
    binary main_v18 main_v20 main_v21 (addf : (⟨S64x4096x4x2, .f32⟩ : BufTy).Contents (Elt F) → (⟨S64x4096x4x2, .f32⟩ : BufTy).Contents (Elt F) → (⟨S64x4096x4x2, .f32⟩ : BufTy).Contents (Elt F)),
    nullary main_cst_2 (constant S_ .f32 0x00000000#32),
    binary main_v21 main_cst_2 main_v22 ((fun x v => Host.reduceAdd x v reducesTo_S64x4096x4x2_S64x4096x2_d2 h_S_) : (⟨S64x4096x4x2, .f32⟩ : BufTy).Contents (Elt F) → (⟨S_, .f32⟩ : BufTy).Contents (Elt F) → (⟨S64x4096x2, .f32⟩ : BufTy).Contents (Elt F)),
    unary main_v22 main_v23 (broadcastInDim S64x4096x1x2 ![0, 1, 3] bcast_S64x4096x2_S64x4096x1x2_0_1_3 : (⟨S64x4096x2, .f32⟩ : BufTy).Contents (Elt F) → (⟨S64x4096x1x2, .f32⟩ : BufTy).Contents (Elt F)),
    nullary main_cst_3 (constant S_ .f32 0x40800000#32),
    unary main_cst_3 main_v24 (broadcastInDim S64x4096x1x2 ![] bcast_S_S64x4096x1x2 : (⟨S_, .f32⟩ : BufTy).Contents (Elt F) → (⟨S64x4096x1x2, .f32⟩ : BufTy).Contents (Elt F)),
    binary main_v23 main_v24 main_v25 (Host.divf : (⟨S64x4096x1x2, .f32⟩ : BufTy).Contents (Elt F) → (⟨S64x4096x1x2, .f32⟩ : BufTy).Contents (Elt F) → (⟨S64x4096x1x2, .f32⟩ : BufTy).Contents (Elt F)),
    unary main_v8 main_v26 (Host.exp : (⟨S64x4096x4x1, .f32⟩ : BufTy).Contents (Elt F) → (⟨S64x4096x4x1, .f32⟩ : BufTy).Contents (Elt F)) ]

set_option maxRecDepth 16384 in
set_option maxHeartbeats 4000000 in
/-- The concatenations, the six columns cut out, and the first operations of the intersection over union (operations 76 to 102). -/
abbrev segD : List (HloOp τ sig (Elt F)) :=
  [ binary main_v26 main_v21 main_v27 ((fun a b => concatenate S64x4096x4x3 3 [⟨S64x4096x4x1, a⟩, ⟨S64x4096x4x2, b⟩] concatenates_S64x4096x4x1_S64x4096x4x2_S64x4096x4x3_d3) : (⟨S64x4096x4x1, .f32⟩ : BufTy).Contents (Elt F) → (⟨S64x4096x4x2, .f32⟩ : BufTy).Contents (Elt F) → (⟨S64x4096x4x3, .f32⟩ : BufTy).Contents (Elt F)),
    unary main_v12 main_v28 (Host.exp : (⟨S64x4096x1x1, .f32⟩ : BufTy).Contents (Elt F) → (⟨S64x4096x1x1, .f32⟩ : BufTy).Contents (Elt F)),
    binary main_v28 main_v25 main_v29 ((fun a b => concatenate S64x4096x1x3 3 [⟨S64x4096x1x1, a⟩, ⟨S64x4096x1x2, b⟩] concatenates_S64x4096x1x1_S64x4096x1x2_S64x4096x1x3_d3) : (⟨S64x4096x1x1, .f32⟩ : BufTy).Contents (Elt F) → (⟨S64x4096x1x2, .f32⟩ : BufTy).Contents (Elt F) → (⟨S64x4096x1x3, .f32⟩ : BufTy).Contents (Elt F)),
    unary main_v27 main_v30 ((extractStridedSlice S64x4096x4x1 ![0, 0, 0, 0] · slices_S64x4096x4x3_S64x4096x4x1_0_0_0_0) : (⟨S64x4096x4x3, .f32⟩ : BufTy).Contents (Elt F) → (⟨S64x4096x4x1, .f32⟩ : BufTy).Contents (Elt F)),
    reshape main_v30 main_v31 rfl shapeCasts_S64x4096x4x1_S64x4096x4,
    unary main_v27 main_v32 ((extractStridedSlice S64x4096x4x1 ![0, 0, 0, 1] · slices_S64x4096x4x3_S64x4096x4x1_0_0_0_1) : (⟨S64x4096x4x3, .f32⟩ : BufTy).Contents (Elt F) → (⟨S64x4096x4x1, .f32⟩ : BufTy).Contents (Elt F)),
    reshape main_v32 main_v33 rfl shapeCasts_S64x4096x4x1_S64x4096x4,
    unary main_v27 main_v34 ((extractStridedSlice S64x4096x4x1 ![0, 0, 0, 2] · slices_S64x4096x4x3_S64x4096x4x1_0_0_0_2) : (⟨S64x4096x4x3, .f32⟩ : BufTy).Contents (Elt F) → (⟨S64x4096x4x1, .f32⟩ : BufTy).Contents (Elt F)),
    reshape main_v34 main_v35 rfl shapeCasts_S64x4096x4x1_S64x4096x4,
    unary main_v29 main_v36 ((extractStridedSlice S64x4096x1x1 ![0, 0, 0, 0] · slices_S64x4096x1x3_S64x4096x1x1_0_0_0_0) : (⟨S64x4096x1x3, .f32⟩ : BufTy).Contents (Elt F) → (⟨S64x4096x1x1, .f32⟩ : BufTy).Contents (Elt F)),
    reshape main_v36 main_v37 rfl shapeCasts_S64x4096x1x1_S64x4096x1,
    unary main_v29 main_v38 ((extractStridedSlice S64x4096x1x1 ![0, 0, 0, 1] · slices_S64x4096x1x3_S64x4096x1x1_0_0_0_1) : (⟨S64x4096x1x3, .f32⟩ : BufTy).Contents (Elt F) → (⟨S64x4096x1x1, .f32⟩ : BufTy).Contents (Elt F)),
    reshape main_v38 main_v39 rfl shapeCasts_S64x4096x1x1_S64x4096x1,
    unary main_v29 main_v40 ((extractStridedSlice S64x4096x1x1 ![0, 0, 0, 2] · slices_S64x4096x1x3_S64x4096x1x1_0_0_0_2) : (⟨S64x4096x1x3, .f32⟩ : BufTy).Contents (Elt F) → (⟨S64x4096x1x1, .f32⟩ : BufTy).Contents (Elt F)),
    reshape main_v40 main_v41 rfl shapeCasts_S64x4096x1x1_S64x4096x1,
    binary main_v31 main_v31 main_v42 (mulf : (⟨S64x4096x4, .f32⟩ : BufTy).Contents (Elt F) → (⟨S64x4096x4, .f32⟩ : BufTy).Contents (Elt F) → (⟨S64x4096x4, .f32⟩ : BufTy).Contents (Elt F)),
    nullary main_cst_4 (constant S_ .f32 0x3ED1EB85#32),
    unary main_cst_4 main_v43 (broadcastInDim S64x4096x4 ![] bcast_S_S64x4096x4 : (⟨S_, .f32⟩ : BufTy).Contents (Elt F) → (⟨S64x4096x4, .f32⟩ : BufTy).Contents (Elt F)),
    binary main_v42 main_v43 main_v44 (mulf : (⟨S64x4096x4, .f32⟩ : BufTy).Contents (Elt F) → (⟨S64x4096x4, .f32⟩ : BufTy).Contents (Elt F) → (⟨S64x4096x4, .f32⟩ : BufTy).Contents (Elt F)),
    binary main_v37 main_v37 main_v45 (mulf : (⟨S64x4096x1, .f32⟩ : BufTy).Contents (Elt F) → (⟨S64x4096x1, .f32⟩ : BufTy).Contents (Elt F) → (⟨S64x4096x1, .f32⟩ : BufTy).Contents (Elt F)),
    nullary main_cst_5 (constant S_ .f32 0x3ED1EB85#32),
    unary main_cst_5 main_v46 (broadcastInDim S64x4096x1 ![] bcast_S_S64x4096x1 : (⟨S_, .f32⟩ : BufTy).Contents (Elt F) → (⟨S64x4096x1, .f32⟩ : BufTy).Contents (Elt F)),
    binary main_v45 main_v46 main_v47 (mulf : (⟨S64x4096x1, .f32⟩ : BufTy).Contents (Elt F) → (⟨S64x4096x1, .f32⟩ : BufTy).Contents (Elt F) → (⟨S64x4096x1, .f32⟩ : BufTy).Contents (Elt F)),
    nullary main_cst_6 (constant S_ .f32 0x40000000#32),
    unary main_cst_6 main_v48 (broadcastInDim S64x4096x4 ![] bcast_S_S64x4096x4 : (⟨S_, .f32⟩ : BufTy).Contents (Elt F) → (⟨S64x4096x4, .f32⟩ : BufTy).Contents (Elt F)),
    binary main_v31 main_v48 main_v49 (Host.divf : (⟨S64x4096x4, .f32⟩ : BufTy).Contents (Elt F) → (⟨S64x4096x4, .f32⟩ : BufTy).Contents (Elt F) → (⟨S64x4096x4, .f32⟩ : BufTy).Contents (Elt F)),
    binary main_v33 main_v49 main_v50 (subf : (⟨S64x4096x4, .f32⟩ : BufTy).Contents (Elt F) → (⟨S64x4096x4, .f32⟩ : BufTy).Contents (Elt F) → (⟨S64x4096x4, .f32⟩ : BufTy).Contents (Elt F)) ]

set_option maxRecDepth 16384 in
set_option maxHeartbeats 4000000 in
/-- The four pieces in a row are window 0. -/
theorem opsW0_cut : (opsW0 : List (HloOp τ sig (Elt F))) = segA ++ (segB ++ (segC ++ segD)) := rfl

/-- So window 0's run is the four pieces' runs one after the other. -/
theorem after_opsW0 (V : Valuation τ sig (Elt F)) :
    after opsW0 V = after segD (after segC (after segB (after segA V))) := by
  rw [opsW0_cut, after_app, after_app, after_app]

end Cert.ReferenceIdeal.RValA0o

end
-- ==== Proof.RValA0o.lean ====
/-
  The offsets' chain of the reference program's window 0, read at an index. The index words `[64, 4096, 4]` are laid
  flat and the offset table `[64, 2, 65536]` has its channels moved last; the inlined call reads the table at every
  word the way `take_along_axis` does (a negative word wrapped by the table's length, the in-range bit and-ed over a
  unit axis, the gather at the clamped position, the fill value where the bit is clear); the rows are regrouped by box
  and corner and the unit square's corner is added; the mean over the four corners is their sum from zero divided by
  four; and the six columns of the two concatenated arrays are cut out again. At corner `c` of box `(b, n)` and channel
  `ch` this is the specification's `aO`, and the means are its `mean4`.
-/
import proofs.«169223_j2216203125376_1_alg».proof.Proof.RArgs
import proofs.«169223_j2216203125376_1_alg».proof.Proof.RefRun
import proofs.«169223_j2216203125376_1_alg».proof.Proof.RGather
import proofs.«169223_j2216203125376_1_alg».proof.Proof.RValA0oS
import Idealize.ShloMosaic.Lib.IdealHost
import Idealize.ShloMosaic.Lib.Pipeline.Value

set_option maxRecDepth 16384

noncomputable section

namespace Cert.ReferenceIdeal.RValA0o

open Idealize.ShloMosaic Idealize.ShloMosaic.TcCoe Idealize.SL.Sem Idealize.ShloMosaic.ValueIdx Idealize.ShloMosaic.StableHlo Cert.ReferenceIdeal Cert.ReferenceIdeal.Gen Cert.ReferenceIdeal.RefRun Cert.ReferenceIdeal.RArgs Cert.IouSpec

/-- Contents moved to a typed reference's buffer and back are the contents. -/
theorem ofBuf_toBuf' {Val : EltTy → Type} {T : BufTy} (x : TRef sig T) (v : T.Contents Val) : x.ofBuf (x.toBuf v) = v := by
  obtain ⟨r, rfl, _, _⟩ := x; rfl

/-! ## Reading the offset table at index words, as the inlined call spells it -/

/-- A negative word wrapped by the table's length, array-wide. -/
def wrapV (idx : IVec S64x16384x1 32) : IVec S64x16384x1 32 :=
  select (cmpi .slt idx (broadcastInDim S64x16384x1 ![] bcast_S_S64x16384x1 (constantI S_ 32 0#32)))
    (addi idx (broadcastInDim S64x16384x1 ![] bcast_S_S64x16384x1 (constantI S_ 32 65536#32))) idx

/-- The in-range bit, array-wide: both comparisons, and-ed over the size-one last axis from true. -/
def okV (w : IVec S64x16384x1 32) : IVec S64x16384 1 :=
  Host.reduce IntOp.andi
    (andi (cmpi .sge w (broadcastInDim S64x16384x1 ![] bcast_S_S64x16384x1 (constantI S_ 32 0#32)))
      (cmpi .sle w (broadcastInDim S64x16384x1 ![0, 1, 2] bcast_S1x1x1_S64x16384x1_0_1_2
        (broadcastInDim S1x1x1 ![2] bcast_S1_S1x1x1_2 (constantI S1 32 65535#32)))))
    (constantI S_ 1 1#1) reducesTo_S64x16384x1_S64x16384_d2 h_S_

/-- The offset table read at every index word, both channels. -/
def take2V (x : S64x65536x2.Idx → EReal) (idx : IVec S64x16384x1 32) : S64x16384x2.Idx → EReal :=
  select (broadcastInDim S64x16384x2 ![0, 1] bcast_S64x16384_S64x16384x2_0_1 (okV (wrapV idx)))
    (Host.gather gather_S64x65536x2_S64x16384x1_S64x16384x2_2_1_0_0_1_2_112 x (wrapV idx))
    (broadcastInDim S64x16384x2 ![] bcast_S_S64x16384x2 (constant (F := Ideal) S_ .f32 0x7FC00000#32))

/-- And-ing a bit with true leaves it. -/
theorem and_true1 : ∀ x : BitVec 1, IntOp.andi x 1#1 = x := by decide

/-- The one index a reduced `(b, k)` comes from over the unit axis. -/
theorem lift_unit (h : S64x16384x1.Reduces [2] S64x16384) (b : Fin 64) (k : Fin 16384) (z : Fin 1) :
    h.lift (ix2 b k) z = ix3 b k (0 : Fin 1) := by
  funext a
  match a with
  | ⟨0, _⟩ => exact Fin.ext rfl
  | ⟨1, _⟩ => exact Fin.ext rfl
  | ⟨2, _⟩ => exact Fin.ext (by have := z.isLt; show z.val = 0; omega)

/-- A fold over the one-element range is one application. -/
theorem fold_fin1 {α : Type} (op : α → α → α) [Std.Commutative op] [Std.Associative op] (b : α) (f : Fin 1 → α) :
    (Finset.univ : Finset (Fin 1)).fold op b f = op (f 0) b := by
  rw [Finset.univ_unique, Finset.fold_singleton]; rfl

/-- The in-range bit at a word. -/
theorem okV_at (w : IVec S64x16384x1 32) (b : Fin 64) (k : Fin 16384) : okV w (ix2 b k) = okW (w (ix3 b k 0)) := by
  have hR : S64x16384x1.Reduces [2] S64x16384 := by decide
  unfold okV
  refine (Host.reduce_eq_fold_single IntOp.andi _ _ _ hR h_S_ (ix2 b k)).trans ?_
  refine (fold_fin1 IntOp.andi _ _).trans ?_
  refine (and_true1 _).trans ?_
  exact (congrArg (fun i => IntOp.andi (IntOp.cmpi .sge (w i) 0#32) (IntOp.cmpi .sle (w i) 65535#32)) (lift_unit hR b k 0)).trans rfl

/-- The wrapped word at an index. -/
theorem wrapV_at (idx : IVec S64x16384x1 32) (i : S64x16384x1.Idx) : wrapV idx i = wrapW (idx i) := rfl

/-- The gather's clamped position is the specification's. -/
theorem pos_eq (w : BitVec 32) : Idealize.ShloMosaic.BatchedTake.clampPos 65536 (by decide) w = pos w := Fin.ext rfl

/-- The offset table read at an index word is the specification's read, channel by channel. -/
theorem take2V_at (x : S64x65536x2.Idx → EReal) (idx : IVec S64x16384x1 32) (b : Fin 64) (k : Fin 16384) (ch : Fin 2) :
    take2V x idx (ix3 b k ch) = take (fun p => x (ix3 b p ch)) (idx (ix3 b k 0)) := by
  unfold take2V take
  show Scalar.select (broadcastInDim S64x16384x2 ![0, 1] bcast_S64x16384_S64x16384x2_0_1 (okV (wrapV idx)) (ix3 b k ch))
    (Host.gather gather_S64x65536x2_S64x16384x1_S64x16384x2_2_1_0_0_1_2_112 x (wrapV idx) (ix3 b k ch)) fillV = _
  rw [RGather.gather_off, pos_eq, wrapV_at]
  rw [broadcastInDim_apply _ bcast_S64x16384_S64x16384x2_0_1 _ (ix3 b k ch) (ix2 b k) (fun a => by
    match a with
    | ⟨0, _⟩ => rfl
    | ⟨1, _⟩ => rfl)]
  rw [okV_at, wrapV_at]

/-! ## The layout operations of the offsets' chain read at an index -/

section Layout
variable {α : Type}

/-- The index words `[64, 4096, 4]` laid flat `[64, 16384]` and given a unit axis: word `4n + c` of batch `b` is the word of
    corner `c` of box `n`. -/
theorem idx_at (a : S64x4096x4.Idx → α) (b : Fin 64) (n : Fin 4096) (c : Fin 4) :
    broadcastInDim S64x16384x1 ![0, 1] bcast_S64x16384_S64x16384x1_0_1
        (shapeCast S64x16384 a shapeCasts_S64x4096x4_S64x16384) (ix3 b (⟨4 * n.val + c.val, by omega⟩ : Fin 16384) (0 : Fin 1))
      = a (ix3 b n c) := by
  rw [broadcastInDim_apply _ bcast_S64x16384_S64x16384x1_0_1 _ _ (ix2 b (⟨4 * n.val + c.val, by omega⟩ : Fin 16384))
    (fun a => match a with | ⟨0, _⟩ => rfl | ⟨1, _⟩ => rfl)]
  exact shapeCast_apply a _ _ (ix3 b n c) (by
    rw [Shape.rowMajor_val_three, Shape.rowMajor_val_two]
    show (b.val * 4096 + n.val) * 4 + c.val = b.val * 16384 + (4 * n.val + c.val)
    omega)

/-- The gathered rows `[64, 16384, 2]` regrouped by box and corner `[64, 4096, 4, 2]`. -/
theorem rs18_at (x : S64x16384x2.Idx → α) (b : Fin 64) (n : Fin 4096) (c : Fin 4) (ch : Fin 2) :
    shapeCast S64x4096x4x2 x shapeCasts_S64x16384x2_S64x4096x4x2 (ix4 b n c ch)
      = x (ix3 b (⟨4 * n.val + c.val, by omega⟩ : Fin 16384) ch) :=
  shapeCast_apply x _ _ _ (by
    rw [Shape.rowMajor_val_three, Shape.rowMajor_val_four]
    show (b.val * 16384 + (4 * n.val + c.val)) * 2 + ch.val = ((b.val * 4096 + n.val) * 4 + c.val) * 2 + ch.val
    omega)

/-- The corner table `[4, 2]` given two unit axes and broadcast over batches and boxes. -/
theorem tab_at (t : S4x2.Idx → α) (b : Fin 64) (n : Fin 4096) (c : Fin 4) (ch : Fin 2) :
    broadcastInDim S64x4096x4x2 ![0, 1, 2, 3] bcast_S1x1x4x2_S64x4096x4x2_0_1_2_3
        (shapeCast S1x1x4x2 t shapeCasts_S4x2_S1x1x4x2) (ix4 b n c ch) = t (ix2 c ch) := by
  rw [broadcastInDim_apply _ bcast_S1x1x4x2_S64x4096x4x2_0_1_2_3 _ _ (ix4 (0 : Fin 1) (0 : Fin 1) c ch)
    (fun a => match a with | ⟨0, _⟩ => rfl | ⟨1, _⟩ => rfl | ⟨2, _⟩ => rfl | ⟨3, _⟩ => rfl)]
  exact shapeCast_apply t _ _ (ix2 c ch) (by
    rw [Shape.rowMajor_val_two, Shape.rowMajor_val_four]
    show c.val * 2 + ch.val = ((0 * 1 + 0) * 4 + c.val) * 2 + ch.val
    omega)

/-- The offset table with its two channels moved last. -/
theorem tr_at (x : S64x2x65536.Idx → α) (b : Fin 64) (p : Fin 65536) (ch : Fin 2) :
    transpose S64x65536x2 [0, 2, 1] x transposes_S64x2x65536_S64x65536x2_0_2_1 (ix3 b p ch) = x (ix3 b ch p) :=
  transpose_apply _ x _ _ _ fun c => match c with | ⟨0, _⟩ => rfl | ⟨1, _⟩ => rfl | ⟨2, _⟩ => rfl

/-- Column 1 of the corners' rows `[exp h | y, x]` is the first offset. -/
theorem col1_at (x1 : S64x4096x4x1.Idx → α) (x2 : S64x4096x4x2.Idx → α) (b : Fin 64) (n : Fin 4096) (c : Fin 4) :
    shapeCast S64x4096x4 (extractStridedSlice S64x4096x4x1 ![0, 0, 0, 1]
        (concatenate S64x4096x4x3 3 [⟨S64x4096x4x1, x1⟩, ⟨S64x4096x4x2, x2⟩] concatenates_S64x4096x4x1_S64x4096x4x2_S64x4096x4x3_d3)
        slices_S64x4096x4x3_S64x4096x4x1_0_0_0_1) shapeCasts_S64x4096x4x1_S64x4096x4 (ix3 b n c)
      = x2 (ix4 b n c (0 : Fin 2)) := by
  rw [shapeCast_apply _ shapeCasts_S64x4096x4x1_S64x4096x4 (ix3 b n c) (ix4 b n c (0 : Fin 1)) (by
    rw [Shape.rowMajor_val_four, Shape.rowMajor_val_three]
    show ((b.val * 4096 + n.val) * 4 + c.val) * 1 + 0 = (b.val * 4096 + n.val) * 4 + c.val
    omega)]
  rw [extractStridedSlice_apply _ _ slices_S64x4096x4x3_S64x4096x4x1_0_0_0_1 (ix4 b n c (0 : Fin 1)) (ix4 b n c (1 : Fin 3)) (fun a => by
    match a with
    | ⟨0, _⟩ => show b.val = 0 + b.val; omega
    | ⟨1, _⟩ => show n.val = 0 + n.val; omega
    | ⟨2, _⟩ => show c.val = 0 + c.val; omega
    | ⟨3, _⟩ => rfl)]
  exact concatenate_pair_apply_right 3 x1 x2 _ (ix4 b n c (1 : Fin 3)) rfl rfl (ix4 b n c (0 : Fin 2)) (fun a ha => by
    match a with
    | ⟨0, _⟩ => rfl
    | ⟨1, _⟩ => rfl
    | ⟨2, _⟩ => rfl
    | ⟨3, _⟩ => exact absurd rfl ha) rfl

/-- Column 2 of the corners' rows is the second offset. -/
theorem col2_at (x1 : S64x4096x4x1.Idx → α) (x2 : S64x4096x4x2.Idx → α) (b : Fin 64) (n : Fin 4096) (c : Fin 4) :
    shapeCast S64x4096x4 (extractStridedSlice S64x4096x4x1 ![0, 0, 0, 2]
        (concatenate S64x4096x4x3 3 [⟨S64x4096x4x1, x1⟩, ⟨S64x4096x4x2, x2⟩] concatenates_S64x4096x4x1_S64x4096x4x2_S64x4096x4x3_d3)
        slices_S64x4096x4x3_S64x4096x4x1_0_0_0_2) shapeCasts_S64x4096x4x1_S64x4096x4 (ix3 b n c)
      = x2 (ix4 b n c (1 : Fin 2)) := by
  rw [shapeCast_apply _ shapeCasts_S64x4096x4x1_S64x4096x4 (ix3 b n c) (ix4 b n c (0 : Fin 1)) (by
    rw [Shape.rowMajor_val_four, Shape.rowMajor_val_three]
    show ((b.val * 4096 + n.val) * 4 + c.val) * 1 + 0 = (b.val * 4096 + n.val) * 4 + c.val
    omega)]
  rw [extractStridedSlice_apply _ _ slices_S64x4096x4x3_S64x4096x4x1_0_0_0_2 (ix4 b n c (0 : Fin 1)) (ix4 b n c (2 : Fin 3)) (fun a => by
    match a with
    | ⟨0, _⟩ => show b.val = 0 + b.val; omega
    | ⟨1, _⟩ => show n.val = 0 + n.val; omega
    | ⟨2, _⟩ => show c.val = 0 + c.val; omega
    | ⟨3, _⟩ => rfl)]
  exact concatenate_pair_apply_right 3 x1 x2 _ (ix4 b n c (2 : Fin 3)) rfl rfl (ix4 b n c (1 : Fin 2)) (fun a ha => by
    match a with
    | ⟨0, _⟩ => rfl
    | ⟨1, _⟩ => rfl
    | ⟨2, _⟩ => rfl
    | ⟨3, _⟩ => exact absurd rfl ha) rfl

/-- Column 1 of the mean rows is the first mean offset. -/
theorem mcol1_at (x1 : S64x4096x1x1.Idx → α) (x2 : S64x4096x1x2.Idx → α) (b : Fin 64) (n : Fin 4096) (c : Fin 1) :
    shapeCast S64x4096x1 (extractStridedSlice S64x4096x1x1 ![0, 0, 0, 1]
        (concatenate S64x4096x1x3 3 [⟨S64x4096x1x1, x1⟩, ⟨S64x4096x1x2, x2⟩] concatenates_S64x4096x1x1_S64x4096x1x2_S64x4096x1x3_d3)
        slices_S64x4096x1x3_S64x4096x1x1_0_0_0_1) shapeCasts_S64x4096x1x1_S64x4096x1 (ix3 b n c)
      = x2 (ix4 b n c (0 : Fin 2)) := by
  rw [shapeCast_apply _ shapeCasts_S64x4096x1x1_S64x4096x1 (ix3 b n c) (ix4 b n c (0 : Fin 1)) (by
    rw [Shape.rowMajor_val_four, Shape.rowMajor_val_three]
    show ((b.val * 4096 + n.val) * 1 + c.val) * 1 + 0 = (b.val * 4096 + n.val) * 1 + c.val
    omega)]
  rw [extractStridedSlice_apply _ _ slices_S64x4096x1x3_S64x4096x1x1_0_0_0_1 (ix4 b n c (0 : Fin 1)) (ix4 b n c (1 : Fin 3)) (fun a => by
    match a with
    | ⟨0, _⟩ => show b.val = 0 + b.val; omega
    | ⟨1, _⟩ => show n.val = 0 + n.val; omega
    | ⟨2, _⟩ => show c.val = 0 + c.val; omega
    | ⟨3, _⟩ => rfl)]
  exact concatenate_pair_apply_right 3 x1 x2 _ (ix4 b n c (1 : Fin 3)) rfl rfl (ix4 b n c (0 : Fin 2)) (fun a ha => by
    match a with
    | ⟨0, _⟩ => rfl
    | ⟨1, _⟩ => rfl
    | ⟨2, _⟩ => rfl
    | ⟨3, _⟩ => exact absurd rfl ha) rfl

/-- Column 2 of the mean rows is the second mean offset. -/
theorem mcol2_at (x1 : S64x4096x1x1.Idx → α) (x2 : S64x4096x1x2.Idx → α) (b : Fin 64) (n : Fin 4096) (c : Fin 1) :
    shapeCast S64x4096x1 (extractStridedSlice S64x4096x1x1 ![0, 0, 0, 2]
        (concatenate S64x4096x1x3 3 [⟨S64x4096x1x1, x1⟩, ⟨S64x4096x1x2, x2⟩] concatenates_S64x4096x1x1_S64x4096x1x2_S64x4096x1x3_d3)
        slices_S64x4096x1x3_S64x4096x1x1_0_0_0_2) shapeCasts_S64x4096x1x1_S64x4096x1 (ix3 b n c)
      = x2 (ix4 b n c (1 : Fin 2)) := by
  rw [shapeCast_apply _ shapeCasts_S64x4096x1x1_S64x4096x1 (ix3 b n c) (ix4 b n c (0 : Fin 1)) (by
    rw [Shape.rowMajor_val_four, Shape.rowMajor_val_three]
    show ((b.val * 4096 + n.val) * 1 + c.val) * 1 + 0 = (b.val * 4096 + n.val) * 1 + c.val
    omega)]
  rw [extractStridedSlice_apply _ _ slices_S64x4096x1x3_S64x4096x1x1_0_0_0_2 (ix4 b n c (0 : Fin 1)) (ix4 b n c (2 : Fin 3)) (fun a => by
    match a with
    | ⟨0, _⟩ => show b.val = 0 + b.val; omega
    | ⟨1, _⟩ => show n.val = 0 + n.val; omega
    | ⟨2, _⟩ => show c.val = 0 + c.val; omega
    | ⟨3, _⟩ => rfl)]
  exact concatenate_pair_apply_right 3 x1 x2 _ (ix4 b n c (2 : Fin 3)) rfl rfl (ix4 b n c (1 : Fin 2)) (fun a ha => by
    match a with
    | ⟨0, _⟩ => rfl
    | ⟨1, _⟩ => rfl
    | ⟨2, _⟩ => rfl
    | ⟨3, _⟩ => exact absurd rfl ha) rfl

end Layout

/-- The mean over the corner axis: the sum from zero over the four corners, divided by four. -/
theorem mean_at (x : S64x4096x4x2.Idx → EReal) (b : Fin 64) (n : Fin 4096) (ch : Fin 2) :
    Host.divf (F := Ideal) (broadcastInDim S64x4096x1x2 ![0, 1, 3] bcast_S64x4096x2_S64x4096x1x2_0_1_3
        (Host.reduceAdd (F := Ideal) (φ := .f32) x (constant S_ .f32 0x00000000#32) reducesTo_S64x4096x4x2_S64x4096x2_d2 h_S_))
      (broadcastInDim S64x4096x1x2 ![] bcast_S_S64x4096x1x2 (constant (F := Ideal) S_ .f32 0x40800000#32)) (ix4 b n (0 : Fin 1) ch)
      = mean4 fun c' => x (ix4 b n c' ch) := by
  have hR : S64x4096x4x2.Reduces [2] S64x4096x2 := by decide
  rw [hostDivf_apply, broadcastInDim_scalar_apply, constant_apply,
    broadcastInDim_apply _ bcast_S64x4096x2_S64x4096x1x2_0_1_3 _ _ (ix3 b n ch)
      (fun a => match a with | ⟨0, _⟩ => rfl | ⟨1, _⟩ => rfl | ⟨2, _⟩ => rfl),
    hostReduceAdd_apply, Ideal.hostReduceAdd_single _ hR, constant_apply, Ideal.ofBits_zero_f32, zero_add]
  unfold mean4 fourF
  refine congrArg (fun s => Ideal.div s _) (Finset.sum_congr rfl fun k _ => congrArg x ?_)
  funext a
  match a with
  | ⟨0, _⟩ => exact Fin.ext rfl
  | ⟨1, _⟩ => exact Fin.ext rfl
  | ⟨2, _⟩ => exact Fin.ext rfl
  | ⟨3, _⟩ => exact Fin.ext rfl

/-! ## What each piece leaves, over what it finds -/

section Stages
variable (V X : Valuation τ sig (Elt Ideal))

set_option maxHeartbeats 4000000 in
/-- Piece A leaves the offset table with its channels last … -/
theorem sA_v15 : (after segA V (Proc.devRef .tc main_v15) : S64x65536x2.Idx → EReal)
    = transpose S64x65536x2 [0, 2, 1] (of_ V) transposes_S64x2x65536_S64x65536x2_0_2_1 := by
  after_results_simp
  rfl

set_option maxHeartbeats 4000000 in
/-- … the index words laid flat with a unit axis … -/
theorem sA_v16 : (after segA V (Proc.devRef .tc main_v16) : IVec S64x16384x1 32)
    = broadcastInDim S64x16384x1 ![0, 1] bcast_S64x16384_S64x16384x1_0_1 (shapeCast S64x16384 (argA V) shapeCasts_S64x4096x4_S64x16384) := by
  after_results_simp
  rfl

set_option maxHeartbeats 4000000 in
/-- … and the corner table. -/
theorem sA_cst : (after segA V (Proc.devRef .tc main_cst) : S4x2.Idx → EReal)
    = fun i => Ideal.ofBits .f32 (lit0 (S4x2.rowMajor i)) := by
  after_results_simp
  rfl

/-- The typed references of the call's operands and result carry the buffers' own types. -/
theorem of15 (p1 p2 p3) :
    (TRef.of (T := ⟨S64x65536x2, .f32⟩) main_v15 p1 p2 p3).ofBuf (X (Proc.devRef .tc main_v15))
      = (X (Proc.devRef .tc main_v15) : S64x65536x2.Idx → EReal) := rfl
theorem of16 (p1 p2 p3) :
    (TRef.of (T := ⟨S64x16384x1, .i32⟩) main_v16 p1 p2 p3).ofBuf (X (Proc.devRef .tc main_v16))
      = (X (Proc.devRef .tc main_v16) : IVec S64x16384x1 32) := rfl
theorem to17 (p1 p2 p3) (v : S64x16384x2.Idx → EReal) :
    ((TRef.of (T := ⟨S64x16384x2, .f32⟩) main_v17 p1 p2 p3).toBuf (Val := Elt Ideal) v : S64x16384x2.Idx → EReal) = v := rfl

set_option maxHeartbeats 4000000 in
/-- Piece B is the inlined call: the offset table read at the index words. -/
theorem sB_v17 (x15 : S64x65536x2.Idx → EReal) (x16 : IVec S64x16384x1 32)
    (h15 : X (Proc.devRef .tc main_v15) = x15) (h16 : X (Proc.devRef .tc main_v16) = x16) :
    (after segB X (Proc.devRef .tc main_v17) : S64x16384x2.Idx → EReal) = take2V x15 x16 := by
  after_results_simp
  simp only [ofBuf_toBuf']
  simp only [of15, of16, to17]
  rw [h15, h16]
  rfl

set_option maxHeartbeats 4000000 in
/-- Piece B keeps the corner table. -/
theorem sB_cst : after segB X (Proc.devRef .tc main_cst) = X (Proc.devRef .tc main_cst) := by
  after_results_simp

set_option maxHeartbeats 4000000 in
/-- Piece C: the gathered offsets regrouped by box and corner, plus the corner table. -/
theorem sC_v21 (x17 : S64x16384x2.Idx → EReal) (xc : S4x2.Idx → EReal)
    (h17 : X (Proc.devRef .tc main_v17) = x17) (hc : X (Proc.devRef .tc main_cst) = xc) :
    (after segC X (Proc.devRef .tc main_v21) : S64x4096x4x2.Idx → EReal)
      = addf (F := Ideal) (φ := .f32) (shapeCast S64x4096x4x2 x17 shapeCasts_S64x16384x2_S64x4096x4x2)
          (broadcastInDim S64x4096x4x2 ![0, 1, 2, 3] bcast_S1x1x4x2_S64x4096x4x2_0_1_2_3 (shapeCast S1x1x4x2 xc shapeCasts_S4x2_S1x1x4x2)) := by
  after_results_simp
  rw [h17, hc]
  rfl

set_option maxHeartbeats 4000000 in
/-- Piece C: the mean of those over the corner axis. -/
theorem sC_v25 :
    (after segC X (Proc.devRef .tc main_v25) : S64x4096x1x2.Idx → EReal)
      = Host.divf (F := Ideal) (broadcastInDim S64x4096x1x2 ![0, 1, 3] bcast_S64x4096x2_S64x4096x1x2_0_1_3
          (Host.reduceAdd (F := Ideal) (φ := .f32) (after segC X (Proc.devRef .tc main_v21) : S64x4096x4x2.Idx → EReal)
            (constant S_ .f32 0x00000000#32) reducesTo_S64x4096x4x2_S64x4096x2_d2 h_S_))
        (broadcastInDim S64x4096x1x2 ![] bcast_S_S64x4096x1x2 (constant (F := Ideal) S_ .f32 0x40800000#32)) := by
  after_results_simp

end Stages

section StageD
variable (X : Valuation τ sig (Elt Ideal))
  (x26 : S64x4096x4x1.Idx → EReal) (x21 : S64x4096x4x2.Idx → EReal) (x25 : S64x4096x1x2.Idx → EReal)

set_option maxHeartbeats 4000000 in
/-- Piece D: the corners' first offsets are column 1 of the corners' rows. -/
theorem sD_v33 (h26 : X (Proc.devRef .tc main_v26) = x26) (h21 : X (Proc.devRef .tc main_v21) = x21) (b : Fin 64) (n : Fin 4096) (c : Fin 4) :
    (after segD X (Proc.devRef .tc main_v33) : S64x4096x4.Idx → EReal) (ix3 b n c) = x21 (ix4 b n c 0) := by
  after_results_simp
  rw [h26, h21]
  exact col1_at x26 x21 b n c

set_option maxHeartbeats 4000000 in
/-- Piece D: the corners' second offsets are column 2. -/
theorem sD_v35 (h26 : X (Proc.devRef .tc main_v26) = x26) (h21 : X (Proc.devRef .tc main_v21) = x21) (b : Fin 64) (n : Fin 4096) (c : Fin 4) :
    (after segD X (Proc.devRef .tc main_v35) : S64x4096x4.Idx → EReal) (ix3 b n c) = x21 (ix4 b n c 1) := by
  after_results_simp
  rw [h26, h21]
  exact col2_at x26 x21 b n c

set_option maxHeartbeats 4000000 in
/-- Piece D: the mean first offset is column 1 of the mean rows. -/
theorem sD_v39 (h25 : X (Proc.devRef .tc main_v25) = x25) (b : Fin 64) (n : Fin 4096) :
    (after segD X (Proc.devRef .tc main_v39) : S64x4096x1.Idx → EReal) (ix3 b n 0) = x25 (ix4 b n 0 0) := by
  after_results_simp
  repeat (first | rw [unary_result] | (rw [unary_result_ne]; rotate_left; decide) | (rw [binary_result_ne]; rotate_left; decide))
  rw [h25]
  exact mcol1_at _ x25 b n 0

set_option maxHeartbeats 4000000 in
/-- Piece D: the mean second offset is column 2 of the mean rows. -/
theorem sD_v41 (h25 : X (Proc.devRef .tc main_v25) = x25) (b : Fin 64) (n : Fin 4096) :
    (after segD X (Proc.devRef .tc main_v41) : S64x4096x1.Idx → EReal) (ix3 b n 0) = x25 (ix4 b n 0 1) := by
  after_results_simp
  repeat (first | rw [unary_result] | (rw [unary_result_ne]; rotate_left; decide) | (rw [binary_result_ne]; rotate_left; decide))
  rw [h25]
  exact mcol2_at _ x25 b n 0

set_option maxHeartbeats 4000000 in
/-- Piece D: the lower edge along the first axis is the first offset less half the height. -/
theorem sD_v50 :
    (after segD X (Proc.devRef .tc main_v50) : S64x4096x4.Idx → EReal)
      = subf (after segD X (Proc.devRef .tc main_v33) : S64x4096x4.Idx → EReal)
          (Host.divf (F := Ideal) (after segD X (Proc.devRef .tc main_v31) : S64x4096x4.Idx → EReal)
            (broadcastInDim S64x4096x4 ![] bcast_S_S64x4096x4 (constant (F := Ideal) S_ .f32 0x40000000#32))) := by
  after_results_simp

end StageD

/-! ## The offsets' buffers of window 0 read at an index -/

section Exports
variable (V : Valuation τ sig (Elt Ideal))

/-- The corner table's words are the unit square's corners. -/
theorem lit0_eq (c : Fin 4) (ch : Fin 2) : lit0 (S4x2.rowMajor (ix2 c ch)) = offTab ⟨2 * c.val + ch.val, by omega⟩ := by
  fin_cases c <;> fin_cases ch <;> rfl

/-- The offsets by box, corner and channel: the offset table read at the corner's index word, plus the corner's own
    offset. -/
theorem v21_at (b : Fin 64) (n : Fin 4096) (c : Fin 4) (ch : Fin 2) :
    (after segC (after segB (after segA V)) (Proc.devRef .tc main_v21) : S64x4096x4x2.Idx → EReal) (ix4 b n c ch)
      = aO (of_ V) (argA V) b n c ch := by
  rw [sC_v21 (after segB (after segA V)) _ _ rfl rfl, addf_apply, rs18_at, tab_at,
    sB_v17 (after segA V) _ _ rfl rfl, take2V_at, sB_cst, sA_cst, sA_v15, sA_v16, idx_at]
  beta_reduce
  rw [lit0_eq]
  simp only [tr_at]
  rfl

/-- Their means over the four corners. -/
theorem v25_at (b : Fin 64) (n : Fin 4096) (ch : Fin 2) :
    (after segC (after segB (after segA V)) (Proc.devRef .tc main_v25) : S64x4096x1x2.Idx → EReal) (ix4 b n 0 ch)
      = mean4 fun c' => aO (of_ V) (argA V) b n c' ch := by
  rw [sC_v25, mean_at]
  exact congrArg mean4 (funext fun c' => v21_at V b n c' ch)

/-- The corners' first offsets. -/
theorem w0_v33 (b : Fin 64) (n : Fin 4096) (c : Fin 4) :
    (after opsW0 V (Proc.devRef .tc main_v33) : S64x4096x4.Idx → EReal) (ix3 b n c) = aO (of_ V) (argA V) b n c 0 := by
  rw [after_opsW0, sD_v33 _ _ _ rfl rfl b n c]
  exact v21_at V b n c 0

/-- The corners' second offsets. -/
theorem w0_v35 (b : Fin 64) (n : Fin 4096) (c : Fin 4) :
    (after opsW0 V (Proc.devRef .tc main_v35) : S64x4096x4.Idx → EReal) (ix3 b n c) = aO (of_ V) (argA V) b n c 1 := by
  rw [after_opsW0, sD_v35 _ _ _ rfl rfl b n c]
  exact v21_at V b n c 1

/-- The mean first offset. -/
theorem w0_v39 (b : Fin 64) (n : Fin 4096) :
    (after opsW0 V (Proc.devRef .tc main_v39) : S64x4096x1.Idx → EReal) (ix3 b n 0) = mean4 fun c' => aO (of_ V) (argA V) b n c' 0 := by
  rw [after_opsW0, sD_v39 _ _ rfl b n]
  exact v25_at V b n 0

/-- The mean second offset. -/
theorem w0_v41 (b : Fin 64) (n : Fin 4096) :
    (after opsW0 V (Proc.devRef .tc main_v41) : S64x4096x1.Idx → EReal) (ix3 b n 0) = mean4 fun c' => aO (of_ V) (argA V) b n c' 1 := by
  rw [after_opsW0, sD_v41 _ _ rfl b n]
  exact v25_at V b n 1

/-- The lower edge along the first axis, given the heights' exponentials. -/
theorem w0_v50_of
    (h31 : ∀ b n c, (after opsW0 V (Proc.devRef .tc main_v31) : S64x4096x4.Idx → EReal) (ix3 b n c) = Ideal.exp (aH (hf V) (argA V) b n c))
    (b : Fin 64) (n : Fin 4096) (c : Fin 4) :
    (after opsW0 V (Proc.devRef .tc main_v50) : S64x4096x4.Idx → EReal) (ix3 b n c)
      = aO (of_ V) (argA V) b n c 0 - Ideal.div (Ideal.exp (aH (hf V) (argA V) b n c)) (Ideal.ofBits .f32 0x40000000#32) := by
  have h33 := w0_v33 V b n c
  have h31' := h31 b n c
  rw [after_opsW0] at h33 h31' ⊢
  rw [sD_v50, subf_apply, hostDivf_apply, broadcastInDim_scalar_apply, constant_apply, h33, h31']

end Exports

end Cert.ReferenceIdeal.RValA0o

end
-- ==== Proof.RValA0hS.lean ====
/-
  The first piece of window 0 cut in three: the corner table, the mask's count, the height table with its one channel
  moved last and the index words laid flat; the height table read at the index words (the inlined call); the gathered
  heights by box and corner, their mean over the corners, and the offset table and index words laid out for the second
  call. Run one after the other the three are the first piece.
-/
import proofs.«169223_j2216203125376_1_alg».proof.Proof.RValA0oS

noncomputable section

namespace Cert.ReferenceIdeal.RValA0h

open Cert.ReferenceIdeal Cert.ReferenceIdeal.Gen Cert.ReferenceIdeal.RefRun Cert.ReferenceIdeal.RValA0o Idealize.ShloMosaic Idealize.ShloMosaic.TcCoe Idealize.SL.Sem Idealize.ShloMosaic.StableHlo

variable {F : FTy → Type} [FloatOps F]

set_option maxRecDepth 16384 in
set_option maxHeartbeats 4000000 in
/-- The corner table, the mask's count, the height table with its channel last and the index words laid flat (operations 1 to 9). -/
abbrev hA1 : List (HloOp τ sig (Elt F)) :=
  [ nullary main_cst (fun i => FloatOps.ofBits .f32 (lit0 (S4x2.rowMajor i))),
    unary main_arg7 main_v0 ((extui 32 · natLt_1_32) : (⟨S64x4096x4, .i1⟩ : BufTy).Contents (Elt F) → (⟨S64x4096x4, .i32⟩ : BufTy).Contents (Elt F)),
    nullary main_c (constantI S_ 32 0#32),
    binary main_v0 main_c main_v1 ((fun x v => Host.reduce IntOp.addi x v reducesTo_S64x4096x4_S_d0_1_2 h_S_) : (⟨S64x4096x4, .i32⟩ : BufTy).Contents (Elt F) → (⟨S_, .i32⟩ : BufTy).Contents (Elt F) → (⟨S_, .i32⟩ : BufTy).Contents (Elt F)),
    unary main_v1 main_v2 (sitofp .f32 : (⟨S_, .i32⟩ : BufTy).Contents (Elt F) → (⟨S_, .f32⟩ : BufTy).Contents (Elt F)),
    reshape main_arg5 main_v3 rfl shapeCasts_S64x4096x4_S64x16384,
    reshape main_arg0 main_v4 rfl shapeCasts_S64x1x256x256_S64x1x65536,
    unary main_v4 main_v5 ((transpose S64x65536x1 [0, 2, 1] · transposes_S64x1x65536_S64x65536x1_0_2_1) : (⟨S64x1x65536, .f32⟩ : BufTy).Contents (Elt F) → (⟨S64x65536x1, .f32⟩ : BufTy).Contents (Elt F)),
    unary main_v3 main_v6 (broadcastInDim S64x16384x1 ![0, 1] bcast_S64x16384_S64x16384x1_0_1 : (⟨S64x16384, .i32⟩ : BufTy).Contents (Elt F) → (⟨S64x16384x1, .i32⟩ : BufTy).Contents (Elt F)) ]

set_option maxRecDepth 16384 in
set_option maxHeartbeats 4000000 in
/-- The height table read at the index words: the inlined call (operations 10 to 31). -/
abbrev hA2 : List (HloOp τ sig (Elt F)) :=
  [ TRef.nullary main_call0.c (constantI S_ 32 0#32),
    TRef.unary main_call0.c main_call0.v0 (broadcastInDim S64x16384x1 ![] bcast_S_S64x16384x1),
    TRef.binary (.of main_v6 : TRef sig ⟨S64x16384x1, .i32⟩) main_call0.v0 main_call0.v1 (cmpi .slt),
    TRef.nullary main_call0.c_0 (constantI S_ 32 65536#32),
    TRef.unary main_call0.c_0 main_call0.v2 (broadcastInDim S64x16384x1 ![] bcast_S_S64x16384x1),
    TRef.binary (.of main_v6 : TRef sig ⟨S64x16384x1, .i32⟩) main_call0.v2 main_call0.v3 addi,
    TRef.ternary main_call0.v1 main_call0.v3 (.of main_v6 : TRef sig ⟨S64x16384x1, .i32⟩) main_call0.v4 select,
    TRef.nullary main_call0.c_1 (constantI S1 32 65535#32),
    TRef.nullary main_call0.c_2 (constantI S_ 32 0#32),
    TRef.unary main_call0.c_2 main_call0.v5 (broadcastInDim S64x16384x1 ![] bcast_S_S64x16384x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S64x16384x1 ![0, 1, 2] bcast_S1x1x1_S64x16384x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S64x16384x1_S64x16384_d2 h_S_),
    TRef.binary (.of main_v5 : TRef sig ⟨S64x65536x1, .f32⟩) main_call0.v4 main_call0.v12 (fun x i => Host.gather gather_S64x65536x1_S64x16384x1_S64x16384x1_2_1_0_0_1_2_111 x i),
    TRef.unary main_call0.v11 main_call0.v13 (broadcastInDim S64x16384x1 ![0, 1] bcast_S64x16384_S64x16384x1_0_1),
    TRef.nullary main_call0.cst (constant S_ .f32 0x7FC00000#32),
    TRef.unary main_call0.cst main_call0.v14 (broadcastInDim S64x16384x1 ![] bcast_S_S64x16384x1),
    TRef.ternary main_call0.v13 main_call0.v12 main_call0.v14 main_call0.v15 select ]

set_option maxRecDepth 16384 in
set_option maxHeartbeats 4000000 in
/-- The gathered heights by box and corner, their mean over the corners, and the second call's operands laid out (operations 32 to 42). -/
abbrev hA3 : List (HloOp τ sig (Elt F)) :=
  [ reshape main_v7 main_v8 rfl shapeCasts_S64x16384x1_S64x4096x4x1,
    nullary main_cst_0 (constant S_ .f32 0x00000000#32),
    binary main_v8 main_cst_0 main_v9 ((fun x v => Host.reduceAdd x v reducesTo_S64x4096x4x1_S64x4096x1_d2 h_S_) : (⟨S64x4096x4x1, .f32⟩ : BufTy).Contents (Elt F) → (⟨S_, .f32⟩ : BufTy).Contents (Elt F) → (⟨S64x4096x1, .f32⟩ : BufTy).Contents (Elt F)),
    unary main_v9 main_v10 (broadcastInDim S64x4096x1x1 ![0, 1, 3] bcast_S64x4096x1_S64x4096x1x1_0_1_3 : (⟨S64x4096x1, .f32⟩ : BufTy).Contents (Elt F) → (⟨S64x4096x1x1, .f32⟩ : BufTy).Contents (Elt F)),
    nullary main_cst_1 (constant S_ .f32 0x40800000#32),
    unary main_cst_1 main_v11 (broadcastInDim S64x4096x1x1 ![] bcast_S_S64x4096x1x1 : (⟨S_, .f32⟩ : BufTy).Contents (Elt F) → (⟨S64x4096x1x1, .f32⟩ : BufTy).Contents (Elt F)),
    binary main_v10 main_v11 main_v12 (Host.divf : (⟨S64x4096x1x1, .f32⟩ : BufTy).Contents (Elt F) → (⟨S64x4096x1x1, .f32⟩ : BufTy).Contents (Elt F) → (⟨S64x4096x1x1, .f32⟩ : BufTy).Contents (Elt F)),
    reshape main_arg5 main_v13 rfl shapeCasts_S64x4096x4_S64x16384,
    reshape main_arg1 main_v14 rfl shapeCasts_S64x2x256x256_S64x2x65536,
    unary main_v14 main_v15 ((transpose S64x65536x2 [0, 2, 1] · transposes_S64x2x65536_S64x65536x2_0_2_1) : (⟨S64x2x65536, .f32⟩ : BufTy).Contents (Elt F) → (⟨S64x65536x2, .f32⟩ : BufTy).Contents (Elt F)),
    unary main_v13 main_v16 (broadcastInDim S64x16384x1 ![0, 1] bcast_S64x16384_S64x16384x1_0_1 : (⟨S64x16384, .i32⟩ : BufTy).Contents (Elt F) → (⟨S64x16384x1, .i32⟩ : BufTy).Contents (Elt F)) ]

set_option maxRecDepth 16384 in
set_option maxHeartbeats 4000000 in
/-- The three in a row are window 0's first piece. -/
theorem segA_cut : (segA : List (HloOp τ sig (Elt F))) = hA1 ++ (hA2 ++ hA3) := rfl

/-- So the first piece's run is the three runs one after the other. -/
theorem after_segA (V : Valuation τ sig (Elt F)) : after segA V = after hA3 (after hA2 (after hA1 V)) := by
  rw [segA_cut, after_app, after_app]

end Cert.ReferenceIdeal.RValA0h

end
-- ==== Proof.RValA0h.lean ====
/-
  The heights' chain of the reference program's window 0 and the mask's count, read at an index. The height table
  `[64, 1, 65536]` has its one channel moved last and is read at every index word the way `take_along_axis` reads it; the
  rows are regrouped by box and corner; the mean over the four corners is their sum from zero divided by four; both are
  exponentiated, put in column 0 of the two concatenated arrays and cut out again; a box's area is its height squared
  times the aspect 0.41. At corner `c` of box `(b, n)` the height is the specification's `aH` and the mean its `mean4`.
  The count is the mask's bits widened to words and added up from zero, converted to a float.
-/
import proofs.«169223_j2216203125376_1_alg».proof.Proof.RValA0o
import proofs.«169223_j2216203125376_1_alg».proof.Proof.RValA0hS

set_option maxRecDepth 16384

noncomputable section

namespace Cert.ReferenceIdeal.RValA0h

open Idealize.ShloMosaic Idealize.ShloMosaic.TcCoe Idealize.SL.Sem Idealize.ShloMosaic.ValueIdx Idealize.ShloMosaic.StableHlo Cert.ReferenceIdeal Cert.ReferenceIdeal.Gen Cert.ReferenceIdeal.RefRun Cert.ReferenceIdeal.RArgs Cert.IouSpec Cert.ReferenceIdeal.RValA0o

/-! ## The heights' call and layout operations read at an index -/

/-- The height table read at every index word. -/
def take1V (x : S64x65536x1.Idx → EReal) (idx : IVec S64x16384x1 32) : S64x16384x1.Idx → EReal :=
  select (broadcastInDim S64x16384x1 ![0, 1] bcast_S64x16384_S64x16384x1_0_1 (okV (wrapV idx)))
    (Host.gather gather_S64x65536x1_S64x16384x1_S64x16384x1_2_1_0_0_1_2_111 x (wrapV idx))
    (broadcastInDim S64x16384x1 ![] bcast_S_S64x16384x1 (constant (F := Ideal) S_ .f32 0x7FC00000#32))

/-- The height table read at an index word is the specification's read. -/
theorem take1V_at (x : S64x65536x1.Idx → EReal) (idx : IVec S64x16384x1 32) (b : Fin 64) (k : Fin 16384) :
    take1V x idx (ix3 b k 0) = take (fun p => x (ix3 b p 0)) (idx (ix3 b k 0)) := by
  unfold take1V take
  show Scalar.select (broadcastInDim S64x16384x1 ![0, 1] bcast_S64x16384_S64x16384x1_0_1 (okV (wrapV idx)) (ix3 b k 0))
    (Host.gather gather_S64x65536x1_S64x16384x1_S64x16384x1_2_1_0_0_1_2_111 x (wrapV idx) (ix3 b k 0)) fillV = _
  rw [RGather.gather_h, pos_eq, wrapV_at]
  rw [broadcastInDim_apply _ bcast_S64x16384_S64x16384x1_0_1 _ (ix3 b k 0) (ix2 b k) (fun a => by
    match a with
    | ⟨0, _⟩ => rfl
    | ⟨1, _⟩ => rfl)]
  rw [okV_at, wrapV_at]

section Layout
variable {α : Type}

/-- The gathered heights `[64, 16384, 1]` regrouped by box and corner `[64, 4096, 4, 1]`. -/
theorem rs8_at (x : S64x16384x1.Idx → α) (b : Fin 64) (n : Fin 4096) (c : Fin 4) :
    shapeCast S64x4096x4x1 x shapeCasts_S64x16384x1_S64x4096x4x1 (ix4 b n c (0 : Fin 1))
      = x (ix3 b (⟨4 * n.val + c.val, by omega⟩ : Fin 16384) (0 : Fin 1)) :=
  shapeCast_apply x _ _ _ (by
    rw [Shape.rowMajor_val_three, Shape.rowMajor_val_four]
    show (b.val * 16384 + (4 * n.val + c.val)) * 1 + 0 = ((b.val * 4096 + n.val) * 4 + c.val) * 1 + 0
    omega)

/-- The height table with its one channel moved last. -/
theorem trh_at (x : S64x1x65536.Idx → α) (b : Fin 64) (p : Fin 65536) :
    transpose S64x65536x1 [0, 2, 1] x transposes_S64x1x65536_S64x65536x1_0_2_1 (ix3 b p (0 : Fin 1)) = x (ix3 b (0 : Fin 1) p) :=
  transpose_apply _ x _ _ _ fun c => match c with | ⟨0, _⟩ => rfl | ⟨1, _⟩ => rfl | ⟨2, _⟩ => rfl

/-- Column 0 of the corners' rows `[exp h | y, x]` is the height's exponential. -/
theorem col0_at (x1 : S64x4096x4x1.Idx → α) (x2 : S64x4096x4x2.Idx → α) (b : Fin 64) (n : Fin 4096) (c : Fin 4) :
    shapeCast S64x4096x4 (extractStridedSlice S64x4096x4x1 ![0, 0, 0, 0]
        (concatenate S64x4096x4x3 3 [⟨S64x4096x4x1, x1⟩, ⟨S64x4096x4x2, x2⟩] concatenates_S64x4096x4x1_S64x4096x4x2_S64x4096x4x3_d3)
        slices_S64x4096x4x3_S64x4096x4x1_0_0_0_0) shapeCasts_S64x4096x4x1_S64x4096x4 (ix3 b n c)
      = x1 (ix4 b n c (0 : Fin 1)) := by
  rw [shapeCast_apply _ shapeCasts_S64x4096x4x1_S64x4096x4 (ix3 b n c) (ix4 b n c (0 : Fin 1)) (by
    rw [Shape.rowMajor_val_four, Shape.rowMajor_val_three]
    show ((b.val * 4096 + n.val) * 4 + c.val) * 1 + 0 = (b.val * 4096 + n.val) * 4 + c.val
    omega)]
  rw [extractStridedSlice_apply _ _ slices_S64x4096x4x3_S64x4096x4x1_0_0_0_0 (ix4 b n c (0 : Fin 1)) (ix4 b n c (0 : Fin 3)) (fun a => by
    match a with
    | ⟨0, _⟩ => show b.val = 0 + b.val; omega
    | ⟨1, _⟩ => show n.val = 0 + n.val; omega
    | ⟨2, _⟩ => show c.val = 0 + c.val; omega
    | ⟨3, _⟩ => rfl)]
  exact concatenate_pair_apply_left 3 x1 x2 _ (ix4 b n c (0 : Fin 3)) rfl (ix4 b n c (0 : Fin 1)) (fun a => by
    match a with
    | ⟨0, _⟩ => rfl
    | ⟨1, _⟩ => rfl
    | ⟨2, _⟩ => rfl
    | ⟨3, _⟩ => rfl)

/-- Column 0 of the mean rows is the mean height's exponential. -/
theorem mcol0_at (x1 : S64x4096x1x1.Idx → α) (x2 : S64x4096x1x2.Idx → α) (b : Fin 64) (n : Fin 4096) (c : Fin 1) :
    shapeCast S64x4096x1 (extractStridedSlice S64x4096x1x1 ![0, 0, 0, 0]
        (concatenate S64x4096x1x3 3 [⟨S64x4096x1x1, x1⟩, ⟨S64x4096x1x2, x2⟩] concatenates_S64x4096x1x1_S64x4096x1x2_S64x4096x1x3_d3)
        slices_S64x4096x1x3_S64x4096x1x1_0_0_0_0) shapeCasts_S64x4096x1x1_S64x4096x1 (ix3 b n c)
      = x1 (ix4 b n c (0 : Fin 1)) := by
  rw [shapeCast_apply _ shapeCasts_S64x4096x1x1_S64x4096x1 (ix3 b n c) (ix4 b n c (0 : Fin 1)) (by
    rw [Shape.rowMajor_val_four, Shape.rowMajor_val_three]
    show ((b.val * 4096 + n.val) * 1 + c.val) * 1 + 0 = (b.val * 4096 + n.val) * 1 + c.val
    omega)]
  rw [extractStridedSlice_apply _ _ slices_S64x4096x1x3_S64x4096x1x1_0_0_0_0 (ix4 b n c (0 : Fin 1)) (ix4 b n c (0 : Fin 3)) (fun a => by
    match a with
    | ⟨0, _⟩ => show b.val = 0 + b.val; omega
    | ⟨1, _⟩ => show n.val = 0 + n.val; omega
    | ⟨2, _⟩ => show c.val = 0 + c.val; omega
    | ⟨3, _⟩ => rfl)]
  exact concatenate_pair_apply_left 3 x1 x2 _ (ix4 b n c (0 : Fin 3)) rfl (ix4 b n c (0 : Fin 1)) (fun a => by
    match a with
    | ⟨0, _⟩ => rfl
    | ⟨1, _⟩ => rfl
    | ⟨2, _⟩ => rfl
    | ⟨3, _⟩ => rfl)

end Layout

/-- The host's exponential at an index is the extended reals' exponential of the element. -/
theorem hostExp_apply {s : Shape} {φ : FTy} (x : FVec Ideal s φ) (i : s.Idx) : Host.exp x i = Ideal.exp (x i) := rfl

/-- The mean height over the corner axis: the sum from zero over the four corners, divided by four. -/
theorem meanh_at (x : S64x4096x4x1.Idx → EReal) (b : Fin 64) (n : Fin 4096) :
    Host.divf (F := Ideal) (broadcastInDim S64x4096x1x1 ![0, 1, 3] bcast_S64x4096x1_S64x4096x1x1_0_1_3
        (Host.reduceAdd (F := Ideal) (φ := .f32) x (constant S_ .f32 0x00000000#32) reducesTo_S64x4096x4x1_S64x4096x1_d2 h_S_))
      (broadcastInDim S64x4096x1x1 ![] bcast_S_S64x4096x1x1 (constant (F := Ideal) S_ .f32 0x40800000#32)) (ix4 b n (0 : Fin 1) (0 : Fin 1))
      = mean4 fun c' => x (ix4 b n c' (0 : Fin 1)) := by
  have hR : S64x4096x4x1.Reduces [2] S64x4096x1 := by decide
  rw [hostDivf_apply, broadcastInDim_scalar_apply, constant_apply,
    broadcastInDim_apply _ bcast_S64x4096x1_S64x4096x1x1_0_1_3 _ _ (ix3 b n (0 : Fin 1))
      (fun a => match a with | ⟨0, _⟩ => rfl | ⟨1, _⟩ => rfl | ⟨2, _⟩ => rfl),
    hostReduceAdd_apply, Ideal.hostReduceAdd_single _ hR, constant_apply, Ideal.ofBits_zero_f32, zero_add]
  unfold mean4 fourF
  refine congrArg (fun s => Ideal.div s _) (Finset.sum_congr rfl fun k _ => congrArg x ?_)
  funext a
  match a with
  | ⟨0, _⟩ => exact Fin.ext rfl
  | ⟨1, _⟩ => exact Fin.ext rfl
  | ⟨2, _⟩ => exact Fin.ext rfl
  | ⟨3, _⟩ => exact Fin.ext rfl

/-! ## What each piece leaves, over what it finds -/

section Stages
variable (V X : Valuation τ sig (Elt Ideal))

set_option maxHeartbeats 4000000 in
/-- The first operations leave the height table with its channel last … -/
theorem hA1_v5 : (after hA1 V (Proc.devRef .tc main_v5) : S64x65536x1.Idx → EReal)
    = transpose S64x65536x1 [0, 2, 1] (hf V) transposes_S64x1x65536_S64x65536x1_0_2_1 := by
  after_results_simp
  rfl

set_option maxHeartbeats 4000000 in
/-- … the index words laid flat with a unit axis … -/
theorem hA1_v6 : (after hA1 V (Proc.devRef .tc main_v6) : IVec S64x16384x1 32)
    = broadcastInDim S64x16384x1 ![0, 1] bcast_S64x16384_S64x16384x1_0_1 (shapeCast S64x16384 (argA V) shapeCasts_S64x4096x4_S64x16384) := by
  after_results_simp
  rfl

set_option maxHeartbeats 4000000 in
/-- … and the mask's count converted to a float. -/
theorem hA1_v2 : (after hA1 V (Proc.devRef .tc main_v2) : S_.Idx → EReal)
    = fun _ => (((countA (argMA V) reducesTo_S64x4096x4_S_d0_1_2).toInt : ℝ) : EReal) := by
  after_results_simp
  funext j
  rw [eq_ix0 j]
  rfl

/-- The typed references of the call's operands and result carry the buffers' own types. -/
theorem of5 (p1 p2 p3) :
    (TRef.of (T := ⟨S64x65536x1, .f32⟩) main_v5 p1 p2 p3).ofBuf (X (Proc.devRef .tc main_v5))
      = (X (Proc.devRef .tc main_v5) : S64x65536x1.Idx → EReal) := rfl
theorem of6 (p1 p2 p3) :
    (TRef.of (T := ⟨S64x16384x1, .i32⟩) main_v6 p1 p2 p3).ofBuf (X (Proc.devRef .tc main_v6))
      = (X (Proc.devRef .tc main_v6) : IVec S64x16384x1 32) := rfl
theorem to7 (p1 p2 p3) (v : S64x16384x1.Idx → EReal) :
    ((TRef.of (T := ⟨S64x16384x1, .f32⟩) main_v7 p1 p2 p3).toBuf (Val := Elt Ideal) v : S64x16384x1.Idx → EReal) = v := rfl

set_option maxHeartbeats 4000000 in
/-- The inlined call: the height table read at the index words. -/
theorem hA2_v7 (x5 : S64x65536x1.Idx → EReal) (x6 : IVec S64x16384x1 32)
    (h5 : X (Proc.devRef .tc main_v5) = x5) (h6 : X (Proc.devRef .tc main_v6) = x6) :
    (after hA2 X (Proc.devRef .tc main_v7) : S64x16384x1.Idx → EReal) = take1V x5 x6 := by
  after_results_simp
  simp only [ofBuf_toBuf']
  simp only [of5, of6, to7]
  rw [h5, h6]
  rfl

set_option maxHeartbeats 4000000 in
/-- The gathered heights regrouped by box and corner. -/
theorem hA3_v8 (x7 : S64x16384x1.Idx → EReal) (h7 : X (Proc.devRef .tc main_v7) = x7) :
    (after hA3 X (Proc.devRef .tc main_v8) : S64x4096x4x1.Idx → EReal)
      = shapeCast S64x4096x4x1 x7 shapeCasts_S64x16384x1_S64x4096x4x1 := by
  after_results_simp
  rw [h7]
  rfl

set_option maxHeartbeats 4000000 in
/-- Their mean over the corner axis. -/
theorem hA3_v12 :
    (after hA3 X (Proc.devRef .tc main_v12) : S64x4096x1x1.Idx → EReal)
      = Host.divf (F := Ideal) (broadcastInDim S64x4096x1x1 ![0, 1, 3] bcast_S64x4096x1_S64x4096x1x1_0_1_3
          (Host.reduceAdd (F := Ideal) (φ := .f32) (after hA3 X (Proc.devRef .tc main_v8) : S64x4096x4x1.Idx → EReal)
            (constant S_ .f32 0x00000000#32) reducesTo_S64x4096x4x1_S64x4096x1_d2 h_S_))
        (broadcastInDim S64x4096x1x1 ![] bcast_S_S64x4096x1x1 (constant (F := Ideal) S_ .f32 0x40800000#32)) := by
  after_results_simp

/-! The buffers a later piece reads are kept by the pieces in between. -/

set_option maxHeartbeats 4000000 in
theorem hA2_keep2 : after hA2 X (Proc.devRef .tc main_v2) = X (Proc.devRef .tc main_v2) := by after_results_simp
set_option maxHeartbeats 4000000 in
theorem hA3_keep2 : after hA3 X (Proc.devRef .tc main_v2) = X (Proc.devRef .tc main_v2) := by after_results_simp
set_option maxHeartbeats 4000000 in
theorem sB_keep2 : after segB X (Proc.devRef .tc main_v2) = X (Proc.devRef .tc main_v2) := by after_results_simp
set_option maxHeartbeats 4000000 in
theorem sC_keep2 : after segC X (Proc.devRef .tc main_v2) = X (Proc.devRef .tc main_v2) := by after_results_simp
set_option maxHeartbeats 4000000 in
theorem sD_keep2 : after segD X (Proc.devRef .tc main_v2) = X (Proc.devRef .tc main_v2) := by after_results_simp
set_option maxHeartbeats 4000000 in
theorem sB_keep8 : after segB X (Proc.devRef .tc main_v8) = X (Proc.devRef .tc main_v8) := by after_results_simp
set_option maxHeartbeats 4000000 in
theorem sB_keep12 : after segB X (Proc.devRef .tc main_v12) = X (Proc.devRef .tc main_v12) := by after_results_simp
set_option maxHeartbeats 4000000 in
theorem sC_keep12 : after segC X (Proc.devRef .tc main_v12) = X (Proc.devRef .tc main_v12) := by after_results_simp

set_option maxHeartbeats 4000000 in
/-- Piece C: the heights' exponentials. -/
theorem sC_v26 (x8 : S64x4096x4x1.Idx → EReal) (h8 : X (Proc.devRef .tc main_v8) = x8) :
    (after segC X (Proc.devRef .tc main_v26) : S64x4096x4x1.Idx → EReal) = Host.exp (F := Ideal) (φ := .f32) x8 := by
  after_results_simp
  rw [h8]

end Stages

section StageD
variable (X : Valuation τ sig (Elt Ideal))
  (x26 : S64x4096x4x1.Idx → EReal) (x21 : S64x4096x4x2.Idx → EReal) (x12 : S64x4096x1x1.Idx → EReal)

set_option maxHeartbeats 4000000 in
/-- Piece D: the corners' heights are column 0 of the corners' rows. -/
theorem sD_v31 (h26 : X (Proc.devRef .tc main_v26) = x26) (h21 : X (Proc.devRef .tc main_v21) = x21) (b : Fin 64) (n : Fin 4096) (c : Fin 4) :
    (after segD X (Proc.devRef .tc main_v31) : S64x4096x4.Idx → EReal) (ix3 b n c) = x26 (ix4 b n c 0) := by
  after_results_simp
  rw [h26, h21]
  exact col0_at x26 x21 b n c

set_option maxHeartbeats 4000000 in
/-- Piece D: the mean height's exponential is column 0 of the mean rows. -/
theorem sD_v37 (h12 : X (Proc.devRef .tc main_v12) = x12) (b : Fin 64) (n : Fin 4096) :
    (after segD X (Proc.devRef .tc main_v37) : S64x4096x1.Idx → EReal) (ix3 b n 0) = Ideal.exp (x12 (ix4 b n 0 0)) := by
  after_results_simp
  repeat (first | rw [unary_result] | (rw [unary_result_ne]; rotate_left; decide) | (rw [binary_result_ne]; rotate_left; decide))
  rw [h12]
  exact mcol0_at (Host.exp (F := Ideal) (φ := .f32) x12) _ b n 0

set_option maxHeartbeats 4000000 in
/-- Piece D: a corner's area is its height squared times the aspect. -/
theorem sD_v44 :
    (after segD X (Proc.devRef .tc main_v44) : S64x4096x4.Idx → EReal)
      = mulf (F := Ideal) (φ := .f32) (mulf (F := Ideal) (φ := .f32) (after segD X (Proc.devRef .tc main_v31) : S64x4096x4.Idx → EReal)
            (after segD X (Proc.devRef .tc main_v31) : S64x4096x4.Idx → EReal))
          (broadcastInDim S64x4096x4 ![] bcast_S_S64x4096x4 (constant (F := Ideal) S_ .f32 0x3ED1EB85#32)) := by
  after_results_simp

set_option maxHeartbeats 4000000 in
/-- Piece D: the mean box's area likewise. -/
theorem sD_v47 :
    (after segD X (Proc.devRef .tc main_v47) : S64x4096x1.Idx → EReal)
      = mulf (F := Ideal) (φ := .f32) (mulf (F := Ideal) (φ := .f32) (after segD X (Proc.devRef .tc main_v37) : S64x4096x1.Idx → EReal)
            (after segD X (Proc.devRef .tc main_v37) : S64x4096x1.Idx → EReal))
          (broadcastInDim S64x4096x1 ![] bcast_S_S64x4096x1 (constant (F := Ideal) S_ .f32 0x3ED1EB85#32)) := by
  after_results_simp

end StageD

/-! ## The heights' buffers of window 0 and the count, read at an index -/

section Exports
variable (V : Valuation τ sig (Elt Ideal))

/-- The heights by box and corner: the height table read at the corner's index word. -/
theorem v8_at (b : Fin 64) (n : Fin 4096) (c : Fin 4) :
    (after segA V (Proc.devRef .tc main_v8) : S64x4096x4x1.Idx → EReal) (ix4 b n c 0) = aH (hf V) (argA V) b n c := by
  rw [after_segA, hA3_v8 _ _ rfl, rs8_at, hA2_v7 _ _ _ rfl rfl, take1V_at, hA1_v5, hA1_v6, idx_at]
  simp only [trh_at]
  rfl

/-- Their mean over the four corners. -/
theorem v12_at (b : Fin 64) (n : Fin 4096) :
    (after segA V (Proc.devRef .tc main_v12) : S64x4096x1x1.Idx → EReal) (ix4 b n 0 0) = mean4 fun c' => aH (hf V) (argA V) b n c' := by
  have h := fun c' => v8_at V b n c'
  rw [after_segA] at h ⊢
  rw [hA3_v12, meanh_at]
  exact congrArg mean4 (funext h)

/-- The mask's count, converted. -/
theorem w0_v2 : (after opsW0 V (Proc.devRef .tc main_v2) : S_.Idx → EReal)
    = fun _ => (((countA (argMA V) reducesTo_S64x4096x4_S_d0_1_2).toInt : ℝ) : EReal) := by
  rw [after_opsW0, sD_keep2, sC_keep2, sB_keep2, after_segA, hA3_keep2, hA2_keep2, hA1_v2]

/-- The corners' heights, exponentiated. -/
theorem w0_v31 (b : Fin 64) (n : Fin 4096) (c : Fin 4) :
    (after opsW0 V (Proc.devRef .tc main_v31) : S64x4096x4.Idx → EReal) (ix3 b n c) = Ideal.exp (aH (hf V) (argA V) b n c) := by
  rw [after_opsW0, sD_v31 _ _ _ rfl rfl b n c, sC_v26 _ _ rfl, sB_keep8, hostExp_apply, v8_at]

/-- The mean height, exponentiated. -/
theorem w0_v37 (b : Fin 64) (n : Fin 4096) :
    (after opsW0 V (Proc.devRef .tc main_v37) : S64x4096x1.Idx → EReal) (ix3 b n 0)
      = Ideal.exp (mean4 fun c' => aH (hf V) (argA V) b n c') := by
  rw [after_opsW0, sD_v37 _ _ rfl b n, sC_keep12, sB_keep12, v12_at]

/-- A corner's area. -/
theorem w0_v44 (b : Fin 64) (n : Fin 4096) (c : Fin 4) :
    (after opsW0 V (Proc.devRef .tc main_v44) : S64x4096x4.Idx → EReal) (ix3 b n c)
      = Ideal.exp (aH (hf V) (argA V) b n c) * Ideal.exp (aH (hf V) (argA V) b n c) * c041 := by
  have h31 := w0_v31 V b n c
  rw [after_opsW0] at h31 ⊢
  rw [sD_v44, mulf_apply, mulf_apply, broadcastInDim_scalar_apply, constant_apply, h31]
  rfl

/-- The mean box's area. -/
theorem w0_v47 (b : Fin 64) (n : Fin 4096) :
    (after opsW0 V (Proc.devRef .tc main_v47) : S64x4096x1.Idx → EReal) (ix3 b n 0)
      = Ideal.exp (mean4 fun c' => aH (hf V) (argA V) b n c') * Ideal.exp (mean4 fun c' => aH (hf V) (argA V) b n c') * c041 := by
  have h37 := w0_v37 V b n
  rw [after_opsW0] at h37 ⊢
  rw [sD_v47, mulf_apply, mulf_apply, broadcastInDim_scalar_apply, constant_apply, h37]
  rfl

end Exports

end Cert.ReferenceIdeal.RValA0h

end
-- ==== Proof.RValA1.lean ====
/-
  The reference's attract total after window 0. Windows 1 and 2 are pointwise: at corner `c` of box `(b, n)` they form the
  overlap of the corner's box with the box of the corner means (halves by division by two, the clip as a maximum with
  the converted integer zero), the union as the two areas less the overlap plus 1e-6, one minus their quotient, that
  divided by the mask's count plus 1e-4, the select by the mask, and the sum of everything from zero. Read over an
  arbitrary valuation of the buffers window 0 leaves, then over window 0's buffers as read at an index, the total is
  the specification's `attractSumR`: division by two is the product with one half on every extended real, and the
  maximum is symmetric.
-/
import proofs.«169223_j2216203125376_1_alg».proof.Proof.RArgs
import proofs.«169223_j2216203125376_1_alg».proof.Proof.RefRun
import Idealize.ShloMosaic.Lib.IdealHost
import Idealize.ShloMosaic.Lib.Pipeline.Value

set_option maxRecDepth 16384

noncomputable section

namespace Cert.ReferenceIdeal.RValA

open Idealize.ShloMosaic Idealize.ShloMosaic.TcCoe Idealize.SL.Sem Idealize.ShloMosaic.ValueIdx Idealize.ShloMosaic.StableHlo Cert.ReferenceIdeal Cert.ReferenceIdeal.Gen Cert.ReferenceIdeal.RefRun Cert.ReferenceIdeal.RArgs Cert.IouSpec

/-! ## Scalars: the reference's spelling of the box overlap -/

section Scalars

/-- The word of 2.0 read as an extended real. -/
theorem two_eq : Ideal.ofBits .f32 0x40000000#32 = ((2 : ℝ) : EReal) := by
  simp [Ideal.ofBits, Ideal.ieee, -EReal.coe_mul]; norm_num

/-- The word of 0.5 read as an extended real. -/
theorem half_eq : half = (((1 : ℝ) / 2 : ℝ) : EReal) := by
  unfold half
  simp [Ideal.ofBits, Ideal.ieee, -EReal.coe_mul]; norm_num

/-- Halving by division is halving by the factor one half, on every extended real. -/
theorem div_two (x : EReal) : Ideal.div x (Ideal.ofBits .f32 0x40000000#32) = x * half := by
  rw [two_eq, half_eq, Ideal.div_coe (by norm_num)]

/-- The integer zero converted to a float is the float zero. -/
theorem sitofp_zero : (((0#32 : BitVec 32).toInt : ℝ) : EReal) = zeroF := by
  unfold zeroF; rw [Ideal.ofBits_zero_f32]; simp

/-- The reference's overlap of two boxes, in its own spelling: halves by division, the clip as a maximum with the
    converted integer zero on the left. -/
def refI (h y x H Y X v50 : EReal) : EReal :=
  max (((0#32 : BitVec 32).toInt : ℝ) : EReal)
      (min (y + Ideal.div h (Ideal.ofBits .f32 0x40000000#32)) (Y + Ideal.div H (Ideal.ofBits .f32 0x40000000#32))
        - max v50 (Y - Ideal.div H (Ideal.ofBits .f32 0x40000000#32)))
    * max (((0#32 : BitVec 32).toInt : ℝ) : EReal)
      (min (x + Ideal.div (Ideal.ofBits .f32 0x3ED1EB85#32 * h) (Ideal.ofBits .f32 0x40000000#32))
          (X + Ideal.div (Ideal.ofBits .f32 0x3ED1EB85#32 * H) (Ideal.ofBits .f32 0x40000000#32))
        - max (x - Ideal.div (Ideal.ofBits .f32 0x3ED1EB85#32 * h) (Ideal.ofBits .f32 0x40000000#32))
          (X - Ideal.div (Ideal.ofBits .f32 0x3ED1EB85#32 * H) (Ideal.ofBits .f32 0x40000000#32)))

/-- The reference's intersection over union from its overlap and the two areas. -/
theorem refIou_eq (h y x H Y X : EReal) :
    Ideal.div (refI h y x H Y X (y - Ideal.div h (Ideal.ofBits .f32 0x40000000#32)))
        (h * h * c041 + H * H * c041
          - refI h y x H Y X (y - Ideal.div h (Ideal.ofBits .f32 0x40000000#32)) + eps6)
      = boxIou h y x H Y X := by
  unfold refI boxIou
  simp only [div_two, sitofp_zero, max_comm zeroF]
  rfl

end Scalars

/-! ## Broadcasts read at an index -/

section Bcast
variable {α : Type}

/-- A `[64, 4096, 1]` array broadcast along its last axis to `[64, 4096, 4]` reads the box's one entry at every corner. -/
theorem bc3 (x : S64x4096x1.Idx → α) (b : Fin 64) (n : Fin 4096) (c : Fin 4) :
    broadcastInDim S64x4096x4 ![0, 1, 2] bcast_S64x4096x1_S64x4096x4_0_1_2 x (ix3 b n c) = x (ix3 b n 0) :=
  broadcastInDim_apply _ _ x _ (ix3 b n 0) fun a => match a with | ⟨0, _⟩ => rfl | ⟨1, _⟩ => rfl | ⟨2, _⟩ => rfl

end Bcast

/-- Read a pointwise host term at an index: the elementwise operations by definition, the broadcasts by their lemmas. -/
macro "read_at" : tactic =>
  `(tactic| repeat (first
      | rw [broadcastInDim_scalar_apply]
      | rw [bc3]
      | simp only [mulf_apply, maximumf_apply, minimumf_apply, subf_apply, addf_apply, hostDivf_apply, constant_apply,
          sitofp_apply, select_apply]))

/-! ## Windows 1 and 2 over an arbitrary valuation of the buffers window 0 leaves -/

section Tail
variable (W : Valuation τ sig (Elt Ideal))
  (f31 f33 f35 f44 f50 : S64x4096x4.Idx → EReal) (f37 f39 f41 f47 : S64x4096x1.Idx → EReal)

set_option maxHeartbeats 4000000 in
/-- The overlap buffer at a corner: the reference's overlap of the corner's box with the mean box. -/
theorem w1_v92 (h31 : W (Proc.devRef .tc main_v31) = f31) (h33 : W (Proc.devRef .tc main_v33) = f33) (h35 : W (Proc.devRef .tc main_v35) = f35)
    (h37 : W (Proc.devRef .tc main_v37) = f37) (h39 : W (Proc.devRef .tc main_v39) = f39) (h41 : W (Proc.devRef .tc main_v41) = f41)
    (h50 : W (Proc.devRef .tc main_v50) = f50) (b : Fin 64) (n : Fin 4096) (c : Fin 4) :
    (after opsW1 W (Proc.devRef .tc main_v92) : S64x4096x4.Idx → EReal) (ix3 b n c)
      = refI (f31 (ix3 b n c)) (f33 (ix3 b n c)) (f35 (ix3 b n c)) (f37 (ix3 b n 0)) (f39 (ix3 b n 0)) (f41 (ix3 b n 0)) (f50 (ix3 b n c)) := by
  after_results_simp
  simp only [TRef.ofBuf, TRef.toBuf, cast_eq]
  rw [h31, h33, h35, h37, h39, h41, h50]
  read_at
  rfl

set_option maxHeartbeats 4000000 in
/-- The union buffer before the 1e-6: the two areas less the overlap. -/
theorem w1_v95 (h31 : W (Proc.devRef .tc main_v31) = f31) (h33 : W (Proc.devRef .tc main_v33) = f33) (h35 : W (Proc.devRef .tc main_v35) = f35)
    (h37 : W (Proc.devRef .tc main_v37) = f37) (h39 : W (Proc.devRef .tc main_v39) = f39) (h41 : W (Proc.devRef .tc main_v41) = f41)
    (h50 : W (Proc.devRef .tc main_v50) = f50) (h44 : W (Proc.devRef .tc main_v44) = f44) (h47 : W (Proc.devRef .tc main_v47) = f47)
    (b : Fin 64) (n : Fin 4096) (c : Fin 4) :
    (after opsW1 W (Proc.devRef .tc main_v95) : S64x4096x4.Idx → EReal) (ix3 b n c)
      = f44 (ix3 b n c) + f47 (ix3 b n 0)
        - refI (f31 (ix3 b n c)) (f33 (ix3 b n c)) (f35 (ix3 b n c)) (f37 (ix3 b n 0)) (f39 (ix3 b n 0)) (f41 (ix3 b n 0)) (f50 (ix3 b n c)) := by
  after_results_simp
  simp only [TRef.ofBuf, TRef.toBuf, cast_eq]
  rw [h31, h33, h35, h37, h39, h41, h50, h44, h47]
  read_at
  rfl

set_option maxHeartbeats 4000000 in
/-- The 1e-6 splat. -/
theorem w1_v96 (i : S64x4096x4.Idx) :
    (after opsW1 W (Proc.devRef .tc main_v96) : S64x4096x4.Idx → EReal) i = eps6 := by
  after_results_simp
  rw [broadcastInDim_scalar_apply]
  rfl

set_option maxHeartbeats 4000000 in
/-- Window 2's total over the buffers it reads: each corner's `1 − overlap / (union + 1e-6)` divided by the count plus
    1e-4, kept where the mask is set, all added up from zero. -/
theorem w2_v105 (g92 g95 g96 : S64x4096x4.Idx → EReal) (g2 : S_.Idx → EReal) (m : S64x4096x4.Idx → BitVec 1)
    (h92 : W (Proc.devRef .tc main_v92) = g92) (h95 : W (Proc.devRef .tc main_v95) = g95) (h96 : W (Proc.devRef .tc main_v96) = g96)
    (h2 : W (Proc.devRef .tc main_v2) = g2) (hm : W (Proc.devRef .tc main_arg7) = m) :
    (after opsW2 W (Proc.devRef .tc main_v105) : S_.Idx → EReal)
      = fun _ => ∑ i : S64x4096x4.Idx, Scalar.select (m i)
          (Ideal.div (oneF - Ideal.div (g92 i) (g95 i + g96 i)) (g2 ix0 + eps4)) zeroF := by
  after_results_simp
  simp only [TRef.ofBuf, TRef.toBuf, cast_eq]
  rw [h92, h95, h96, h2, hm]
  funext j
  rw [hostReduceAdd_apply, Ideal.hostReduceAdd_total _ (fun b => b.elim0), constant_apply, Ideal.ofBits_zero_f32, zero_add]
  refine Finset.sum_congr rfl fun i _ => ?_
  read_at
  rfl

end Tail

/-! ## The total -/

section Final
variable (V : Valuation τ sig (Elt Ideal))

set_option maxHeartbeats 4000000 in
/-- The reference's attract total from window 0's buffers read at an index. -/
theorem attract_val_of
    (g2 : (after opsW0 V (Proc.devRef .tc main_v2) : S_.Idx → EReal)
      = fun _ => (((countA (argMA V) reducesTo_S64x4096x4_S_d0_1_2).toInt : ℝ) : EReal))
    (g31 : ∀ b n c, (after opsW0 V (Proc.devRef .tc main_v31) : S64x4096x4.Idx → EReal) (ix3 b n c) = Ideal.exp (aH (hf V) (argA V) b n c))
    (g33 : ∀ b n c, (after opsW0 V (Proc.devRef .tc main_v33) : S64x4096x4.Idx → EReal) (ix3 b n c) = aO (of_ V) (argA V) b n c 0)
    (g35 : ∀ b n c, (after opsW0 V (Proc.devRef .tc main_v35) : S64x4096x4.Idx → EReal) (ix3 b n c) = aO (of_ V) (argA V) b n c 1)
    (g37 : ∀ b n, (after opsW0 V (Proc.devRef .tc main_v37) : S64x4096x1.Idx → EReal) (ix3 b n 0)
      = Ideal.exp (mean4 fun c' => aH (hf V) (argA V) b n c'))
    (g39 : ∀ b n, (after opsW0 V (Proc.devRef .tc main_v39) : S64x4096x1.Idx → EReal) (ix3 b n 0) = mean4 fun c' => aO (of_ V) (argA V) b n c' 0)
    (g41 : ∀ b n, (after opsW0 V (Proc.devRef .tc main_v41) : S64x4096x1.Idx → EReal) (ix3 b n 0) = mean4 fun c' => aO (of_ V) (argA V) b n c' 1)
    (g44 : ∀ b n c, (after opsW0 V (Proc.devRef .tc main_v44) : S64x4096x4.Idx → EReal) (ix3 b n c)
      = Ideal.exp (aH (hf V) (argA V) b n c) * Ideal.exp (aH (hf V) (argA V) b n c) * c041)
    (g47 : ∀ b n, (after opsW0 V (Proc.devRef .tc main_v47) : S64x4096x1.Idx → EReal) (ix3 b n 0)
      = Ideal.exp (mean4 fun c' => aH (hf V) (argA V) b n c') * Ideal.exp (mean4 fun c' => aH (hf V) (argA V) b n c') * c041)
    (g50 : ∀ b n c, (after opsW0 V (Proc.devRef .tc main_v50) : S64x4096x4.Idx → EReal) (ix3 b n c)
      = aO (of_ V) (argA V) b n c 0 - Ideal.div (Ideal.exp (aH (hf V) (argA V) b n c)) (Ideal.ofBits .f32 0x40000000#32)) :
    (fin V (main_v105 : DevRef τ sig) : S_.Idx → EReal)
      = fun _ => attractSumR (hf V) (of_ V) (argA V) (argMA V) (denom (countA (argMA V) reducesTo_S64x4096x4_S_d0_1_2)) := by
  -- the total is not written after window 2
  have keep : (fin V (main_v105 : DevRef τ sig) : S_.Idx → EReal)
      = after opsW2 (after opsW1 (after opsW0 V)) (Proc.devRef .tc main_v105) := by
    show after opsW4 (after opsW3 (after opsW2 (after opsW1 (after opsW0 V)))) (Proc.devRef .tc main_v105) = _
    rw [opsW4_keep _ main_v105 (by decide), opsW3_keep _ main_v105 (by decide)]
  rw [keep, w2_v105 (after opsW1 (after opsW0 V)) _ _ _ _ _ rfl rfl rfl rfl rfl]
  funext _
  unfold attractSumR
  refine Finset.sum_congr rfl fun i _ => ?_
  obtain ⟨b, n, c, rfl⟩ : ∃ b n c, i = ix3 b n c := ⟨i 0, i 1, i 2, eq_ix3 i⟩
  -- window 1's buffers at the corner, over window 0's
  rw [w1_v92 (after opsW0 V) _ _ _ _ _ _ _ rfl rfl rfl rfl rfl rfl rfl b n c,
    w1_v95 (after opsW0 V) _ _ _ _ _ _ _ _ _ rfl rfl rfl rfl rfl rfl rfl rfl rfl b n c, w1_v96,
    opsW1_keep _ main_v2 (by decide), opsW1_keep _ main_arg7 (by decide), opsW0_keep _ main_arg7 (by decide)]
  -- window 0's buffers at the corner
  rw [g31 b n c, g33 b n c, g35 b n c, g37 b n, g39 b n, g41 b n, g44 b n c, g47 b n, g50 b n c, g2]
  rw [refIou_eq]
  rfl

end Final

end Cert.ReferenceIdeal.RValA

end
-- ==== Proof.RValA.lean ====
/-
  The reference's attract total: every box corner's `1 − IoU` against the box of the corner means, divided by the mask's
  count plus 1e-4, kept where the mask is set, all added up. Window 0's buffers read at an index, put through the
  pointwise windows 1 and 2.
-/
import proofs.«169223_j2216203125376_1_alg».proof.Proof.RValA0h
import proofs.«169223_j2216203125376_1_alg».proof.Proof.RValA0o
import proofs.«169223_j2216203125376_1_alg».proof.Proof.RValA1

set_option maxRecDepth 16384

noncomputable section

namespace Cert.ReferenceIdeal.RValA

open Idealize.ShloMosaic Idealize.ShloMosaic.TcCoe Idealize.SL.Sem Idealize.ShloMosaic.ValueIdx Idealize.ShloMosaic.StableHlo Cert.ReferenceIdeal Cert.ReferenceIdeal.Gen Cert.ReferenceIdeal.RefRun Cert.ReferenceIdeal.RArgs Cert.IouSpec

variable (V : Valuation τ sig (Elt Ideal))

/-- The reference's attract total: every box corner's term divided by (count + 1e-4), kept where the mask is set, all
    added up. -/
theorem attract_val :
    (fin V (main_v105 : DevRef τ sig) : S_.Idx → EReal)
      = fun _ => attractSumR (hf V) (of_ V) (argA V) (argMA V) (denom (countA (argMA V) reducesTo_S64x4096x4_S_d0_1_2)) :=
  attract_val_of V (RValA0h.w0_v2 V) (fun b n c => RValA0h.w0_v31 V b n c) (fun b n c => RValA0o.w0_v33 V b n c)
    (fun b n c => RValA0o.w0_v35 V b n c) (fun b n => RValA0h.w0_v37 V b n) (fun b n => RValA0o.w0_v39 V b n)
    (fun b n => RValA0o.w0_v41 V b n) (fun b n c => RValA0h.w0_v44 V b n c) (fun b n => RValA0h.w0_v47 V b n)
    (fun b n c => RValA0o.w0_v50_of V (fun b n c => RValA0h.w0_v31 V b n c) b n c)

end Cert.ReferenceIdeal.RValA

end
-- ==== Proof.RScatter.lean ====
import proofs.«169223_j2216203125376_1_alg».proof.ReferenceIdeal
import Idealize.ShloMosaic.PureOps.Ideal.Laws
import Idealize.ShloMosaic.Lib.ValueIdx

noncomputable section

namespace Cert.ReferenceIdeal.RScatter

open Idealize.ShloMosaic Idealize.ShloMosaic.ValueIdx Cert.ReferenceIdeal

/-! ## A scatter whose updates land on pairwise distinct entries, read at an entry -/

section Once
variable {α : Type} {s si u : Shape} {w : ℕ}

/-- One update applied to an array: the element at the update's landing index becomes the body of it and the update's
    element; an update that lands outside the array is dropped. -/
def step (d : ScatterDims s si u) (f : α → α → α) (idx : IVec si w) (upd : u.Idx → α) (r : s.Idx → α) (j : u.Idx) :
    s.Idx → α :=
  match d.resultIdx? j idx with
  | some i => fun i' => if i' = i then f (r i) (upd j) else r i'
  | none => r

variable (d : ScatterDims s si u) (f : α → α → α) (idx : IVec si w) (upd : u.Idx → α)

/-- The scatter is the fold of the updates, one by one, in row-major order. -/
theorem scatter_eq_foldl (x : s.Idx → α) :
    Host.scatter d f x idx upd = ((List.finRange u.numel).map u.rowMajor.symm).foldl (step d f idx upd) x := by
  unfold Host.scatter
  rw [List.foldl_map]
  rfl

/-- An update that does not land at `i` leaves the element at `i`. -/
theorem step_ne {r : s.Idx → α} {j : u.Idx} {i : s.Idx} (hne : d.resultIdx? j idx ≠ some i) :
    step d f idx upd r j i = r i := by
  unfold step
  cases h : d.resultIdx? j idx with
  | none => rfl
  | some i0 =>
    have hi : i ≠ i0 := fun e => hne (e ▸ h)
    exact if_neg hi

/-- An update that lands at `i` puts there the body of the element and the update's. -/
theorem step_eq {r : s.Idx → α} {j : u.Idx} {i : s.Idx} (h : d.resultIdx? j idx = some i) :
    step d f idx upd r j i = f (r i) (upd j) := by
  simp only [step, h, if_true]

/-- Updates none of which lands at `i` leave the element at `i`. -/
theorem foldl_miss (l : List u.Idx) (r : s.Idx → α) (i : s.Idx) (h : ∀ j ∈ l, d.resultIdx? j idx ≠ some i) :
    l.foldl (step d f idx upd) r i = r i := by
  induction l generalizing r with
  | nil => rfl
  | cons j t ih =>
    rw [List.foldl_cons, ih _ (fun j' hj' => h j' (List.mem_cons_of_mem _ hj')), step_ne d f idx upd (h j List.mem_cons_self)]

/-- Distinct updates exactly one of which lands at `i` put there the body of the element and that update's. -/
theorem foldl_hit (l : List u.Idx) (hnd : l.Nodup) (r : s.Idx → α) (i : s.Idx) (j₀ : u.Idx) (hj₀ : j₀ ∈ l)
    (h₀ : d.resultIdx? j₀ idx = some i) (hu : ∀ j ∈ l, d.resultIdx? j idx = some i → j = j₀) :
    l.foldl (step d f idx upd) r i = f (r i) (upd j₀) := by
  induction l generalizing r with
  | nil => cases hj₀
  | cons j t ih =>
    rw [List.foldl_cons]
    have hnd' := List.nodup_cons.mp hnd
    by_cases hj : j = j₀
    · subst hj
      rw [foldl_miss d f idx upd t _ i (fun j' hj' e => hnd'.1 ((hu j' (List.mem_cons_of_mem _ hj') e) ▸ hj')),
        step_eq d f idx upd h₀]
    · have hmem : j₀ ∈ t := (List.mem_cons.mp hj₀).resolve_left (Ne.symm hj)
      rw [ih hnd'.2 _ hmem (fun j' hj' => hu j' (List.mem_cons_of_mem _ hj')),
        step_ne d f idx upd (fun e => hj (hu j List.mem_cons_self e))]

/-- The scatter at an index no update lands at is the operand there. -/
theorem scatter_apply_miss (x : s.Idx → α) (i : s.Idx) (h : ∀ j, d.resultIdx? j idx ≠ some i) :
    Host.scatter d f x idx upd i = x i := by
  rw [scatter_eq_foldl]
  exact foldl_miss d f idx upd _ x i fun j _ => h j

/-- The scatter at an index exactly one update lands at is the body of the operand's element and that update's. -/
theorem scatter_apply_hit (x : s.Idx → α) (i : s.Idx) (j₀ : u.Idx) (h₀ : d.resultIdx? j₀ idx = some i)
    (hu : ∀ j, d.resultIdx? j idx = some i → j = j₀) :
    Host.scatter d f x idx upd i = f (x i) (upd j₀) := by
  rw [scatter_eq_foldl]
  refine foldl_hit d f idx upd _ ((List.nodup_finRange _).map u.rowMajor.symm.injective) x i j₀ ?_ h₀ fun j _ => hu j
  exact List.mem_map.2 ⟨u.rowMajor j₀, List.mem_finRange _, u.rowMajor.symm_apply_apply j₀⟩

end Once

/-! ## The scatter that adds the extra offsets into box 1 -/

section Box
variable [Facts₀]

/-- The dimension numbers: the whole update is one window, placed at the index word along the box axis. -/
abbrev dS : ScatterDims S64x2048x2x1x2 S1 S64x2048x1x2 := scatter_S64x2048x2x1x2_S1_S64x2048x1x2_0123_2_2_0

/-- With the index word 1, update (b, m, z, ch) lands at (b, m, 1, z, ch). -/
theorem resultIdx_eq (j : S64x2048x1x2.Idx) (idx : IVec S1 32) (hidx : idx (ix1 0) = 1#32) :
    dS.resultIdx? j idx = some (ix5 (j 0) (j 1) (1 : Fin 2) (j 2) (j 3)) := by
  have hsi : dS.siIdx j ⟨0, Nat.zero_lt_one⟩ = ix1 0 := funext fun b => match b with | ⟨0, _⟩ => rfl
  have s2 : dS.start j idx 2 = 1 := by
    show (idx (dS.siIdx j ⟨0, _⟩)).toInt = 1
    rw [hsi, hidx]
    rfl
  have e0 : dS.start j idx 0 + dS.window j 0 = ((j 0).val : Int) := by
    show (0 : Int) + ((j 0).val : Int) = _; omega
  have e1 : dS.start j idx 1 + dS.window j 1 = ((j 1).val : Int) := by
    show (0 : Int) + ((j 1).val : Int) = _; omega
  have e2 : dS.start j idx 2 + dS.window j 2 = 1 := by
    rw [s2]; rfl
  have e3 : dS.start j idx 3 + dS.window j 3 = ((j 2).val : Int) := by
    show (0 : Int) + ((j 2).val : Int) = _; omega
  have e4 : dS.start j idx 4 + dS.window j 4 = ((j 3).val : Int) := by
    show (0 : Int) + ((j 3).val : Int) = _; omega
  have h0 : (j 0).val < 64 := (j 0).isLt
  have h1 : (j 1).val < 2048 := (j 1).isLt
  have h2 : (j 2).val < 1 := (j 2).isLt
  have h3 : (j 3).val < 2 := (j 3).isLt
  have hin : ∀ a, 0 ≤ dS.start j idx a + dS.window j a ∧ dS.start j idx a + dS.window j a < S64x2048x2x1x2.size a := fun a =>
    match a with
    | ⟨0, _⟩ => by show 0 ≤ dS.start j idx 0 + (dS.window j 0 : Int) ∧ dS.start j idx 0 + (dS.window j 0 : Int) < (64 : Nat); rw [e0]; omega
    | ⟨1, _⟩ => by show 0 ≤ dS.start j idx 1 + (dS.window j 1 : Int) ∧ dS.start j idx 1 + (dS.window j 1 : Int) < (2048 : Nat); rw [e1]; omega
    | ⟨2, _⟩ => by show 0 ≤ dS.start j idx 2 + (dS.window j 2 : Int) ∧ dS.start j idx 2 + (dS.window j 2 : Int) < (2 : Nat); rw [e2]; omega
    | ⟨3, _⟩ => by show 0 ≤ dS.start j idx 3 + (dS.window j 3 : Int) ∧ dS.start j idx 3 + (dS.window j 3 : Int) < (1 : Nat); rw [e3]; omega
    | ⟨4, _⟩ => by show 0 ≤ dS.start j idx 4 + (dS.window j 4 : Int) ∧ dS.start j idx 4 + (dS.window j 4 : Int) < (2 : Nat); rw [e4]; omega
  unfold ScatterDims.resultIdx?
  rw [dif_pos hin]
  refine congrArg some (funext fun a => Fin.ext ?_)
  match a with
  | ⟨0, _⟩ => show (dS.start j idx 0 + dS.window j 0).toNat = (j 0).val; rw [e0]; omega
  | ⟨1, _⟩ => show (dS.start j idx 1 + dS.window j 1).toNat = (j 1).val; rw [e1]; omega
  | ⟨2, _⟩ => show (dS.start j idx 2 + dS.window j 2).toNat = 1; rw [e2]; rfl
  | ⟨3, _⟩ => show (dS.start j idx 3 + dS.window j 3).toNat = (j 2).val; rw [e3]; omega
  | ⟨4, _⟩ => show (dS.start j idx 4 + dS.window j 4).toNat = (j 3).val; rw [e4]; omega

/-- The scatter adds the update's entry (b, m, 0, ch) into box 1's entry (b, m, 1, 0, ch) and leaves box 0 as it was. -/
theorem scatter_box (x : S64x2048x2x1x2.Idx → EReal) (idx : IVec S1 32) (hidx : idx (ix1 0) = 1#32) (u : S64x2048x1x2.Idx → EReal)
    (b : Fin 64) (m : Fin 2048) (bx : Fin 2) (ch : Fin 2) :
    Host.scatter scatter_S64x2048x2x1x2_S1_S64x2048x1x2_0123_2_2_0 (FloatOps.addf (F := Ideal) (φ := .f32)) x idx u (ix5 b m bx 0 ch)
      = if bx = 1 then x (ix5 b m bx 0 ch) + u (ix4 b m 0 ch) else x (ix5 b m bx 0 ch) := by
  by_cases hb : bx = 1
  · subst hb
    rw [if_pos rfl]
    refine scatter_apply_hit dS _ idx u x (ix5 b m 1 0 ch) (ix4 b m 0 ch) (resultIdx_eq (ix4 b m 0 ch) idx hidx) fun j hj => ?_
    rw [resultIdx_eq j idx hidx] at hj
    have hj' := Option.some.inj hj
    funext a
    match a with
    | ⟨0, _⟩ => exact congrFun hj' 0
    | ⟨1, _⟩ => exact congrFun hj' 1
    | ⟨2, _⟩ => exact congrFun hj' 3
    | ⟨3, _⟩ => exact congrFun hj' 4
  · rw [if_neg hb]
    refine scatter_apply_miss dS _ idx u x (ix5 b m bx 0 ch) fun j hj => hb ?_
    rw [resultIdx_eq j idx hidx] at hj
    exact (congrFun (Option.some.inj hj) 2).symm

end Box

end Cert.ReferenceIdeal.RScatter

end
-- ==== Proof.RIouScalar.lean ====
/-
  The intersection over union of two boxes in the reference's spelling. The reference halves by dividing by two where
  the specification multiplies by one half, and clips at zero by a maximum with the converted integer zero on the left
  where the specification has the float zero on the right. Division by the real two is the product with its
  reciprocal on every extended real, the converted integer zero is the float zero, and the maximum is symmetric: the
  two spellings are one number.
-/
import proofs.«169223_j2216203125376_1_alg».proof.Proof.Spec

noncomputable section

namespace Cert.ReferenceIdeal.RIouScalar

open Idealize.ShloMosaic Cert.IouSpec

/-- 2.0 -/
def twoF : EReal := Ideal.ofBits .f32 0x40000000#32
/-- The integer zero converted to a float. -/
def zeroI : EReal := (((0#32 : BitVec 32).toInt : ℝ) : EReal)

/-- The word of 2.0 read as an extended real. -/
theorem two_eq : Ideal.ofBits .f32 0x40000000#32 = ((2 : ℝ) : EReal) := by
  simp [Ideal.ofBits, Ideal.ieee, -EReal.coe_mul]; norm_num

/-- The word of 0.5 read as an extended real. -/
theorem half_eq : half = (((1 : ℝ) / 2 : ℝ) : EReal) := by
  unfold half
  simp [Ideal.ofBits, Ideal.ieee, -EReal.coe_mul]; norm_num

/-- Halving by division is halving by the factor one half, on every extended real. -/
theorem div_two (x : EReal) : Ideal.div x (Ideal.ofBits .f32 0x40000000#32) = x * half := by
  rw [two_eq, half_eq, Ideal.div_coe (by norm_num)]

/-- The same with the divisor named. -/
theorem div_twoF (x : EReal) : Ideal.div x twoF = x * half := div_two x

/-- The integer zero converted to a float is the float zero. -/
theorem sitofp_zero : (((0#32 : BitVec 32).toInt : ℝ) : EReal) = zeroF := by
  unfold zeroF; rw [Ideal.ofBits_zero_f32]; simp

/-- The same with the converted zero named. -/
theorem zeroI_eq : zeroI = zeroF := sitofp_zero

/-- The reference's overlap of two boxes: along each axis the smaller upper edge less the larger lower edge, clipped at
    zero, the halves by division. -/
def refOverlap (hA yA xA hB yB xB : EReal) : EReal :=
  max zeroI (min (yA + Ideal.div hA twoF) (yB + Ideal.div hB twoF) - max (yA - Ideal.div hA twoF) (yB - Ideal.div hB twoF))
    * max zeroI (min (xA + Ideal.div (c041 * hA) twoF) (xB + Ideal.div (c041 * hB) twoF)
        - max (xA - Ideal.div (c041 * hA) twoF) (xB - Ideal.div (c041 * hB) twoF))

/-- The reference's intersection over union: the overlap over the two areas less the overlap plus 1e-6. -/
def refIou (hA yA xA hB yB xB : EReal) : EReal :=
  Ideal.div (refOverlap hA yA xA hB yB xB) (hA * hA * c041 + hB * hB * c041 - refOverlap hA yA xA hB yB xB + eps6)

/-- The reference's overlap is the specification's. -/
theorem refOverlap_eq (hA yA xA hB yB xB : EReal) :
    refOverlap hA yA xA hB yB xB
      = max (min (yA + hA * half) (yB + hB * half) - max (yA - hA * half) (yB - hB * half)) zeroF
        * max (min (xA + c041 * hA * half) (xB + c041 * hB * half) - max (xA - c041 * hA * half) (xB - c041 * hB * half)) zeroF := by
  unfold refOverlap
  simp only [div_twoF, zeroI_eq, max_comm zeroF]

/-- The reference's intersection over union is the specification's. -/
theorem refIou_eq (hA yA xA hB yB xB : EReal) : refIou hA yA xA hB yB xB = boxIou hA yA xA hB yB xB := by
  unfold refIou boxIou
  rw [refOverlap_eq]

end Cert.ReferenceIdeal.RIouScalar

end
-- ==== Proof.RValR0.lean ====
/-
  The reference's repel branch as functions of whole arrays: each stretch of its operations, from the repel index
  words to the total, written once over its input arrays. The gathers read a table at the index words (negative words
  wrapped, positions clamped, words out of range filled); the means divide a sum over the four corners by four; the
  scatter adds the extra offsets into box 1; the boxes' three components are laid side by side and cut out again; the
  total divides every pair's term by the count plus 1e-4, keeps it where the mask is set and adds everything up.
-/
import proofs.«169223_j2216203125376_1_alg».proof.Proof.RArgs
import proofs.«169223_j2216203125376_1_alg».proof.Proof.RGather
import proofs.«169223_j2216203125376_1_alg».proof.Proof.RScatter
import proofs.«169223_j2216203125376_1_alg».proof.Proof.RIouScalar
import Idealize.ShloMosaic.Lib.Pipeline.Value
import Idealize.ShloMosaic.Lib.IdealHost

set_option maxRecDepth 16384

noncomputable section

namespace Cert.ReferenceIdeal.RValR

open Idealize.ShloMosaic Idealize.ShloMosaic.TcCoe Idealize.SL.Sem Idealize.ShloMosaic.ValueIdx Idealize.ShloMosaic.StableHlo Cert.ReferenceIdeal Cert.ReferenceIdeal.Gen Cert.ReferenceIdeal.RefRun Cert.ReferenceIdeal.RArgs Cert.IouSpec Cert.ReferenceIdeal.RIouScalar

/-- Where corner `c` of box `bx` of pair `m` sits among a batch's repel words laid end to end. -/
def kR (m : Fin 2048) (bx : Fin 2) (c : Fin 4) : Fin 16384 := ⟨8 * m.val + 4 * bx.val + c.val, by omega⟩

/-! ## The gathers' index words -/

/-- A negative index word counts from the table's end: the whole array of words. -/
abbrev wrapV (x : IVec S64x16384x1 32) : IVec S64x16384x1 32 :=
  select (cmpi .slt x (broadcastInDim S64x16384x1 ![] bcast_S_S64x16384x1 (constantI S_ 32 0#32)))
    (addi x (broadcastInDim S64x16384x1 ![] bcast_S_S64x16384x1 (constantI S_ 32 65536#32))) x

/-- The wrapped words that name a position of the table. -/
abbrev okV (y : IVec S64x16384x1 32) : IVec S64x16384 1 :=
  Host.reduce IntOp.andi
    (andi (cmpi .sge y (broadcastInDim S64x16384x1 ![] bcast_S_S64x16384x1 (constantI S_ 32 0#32)))
      (cmpi .sle y (broadcastInDim S64x16384x1 ![0, 1, 2] bcast_S1x1x1_S64x16384x1_0_1_2
        (broadcastInDim S1x1x1 ![2] bcast_S1_S1x1x1_2 (constantI S1 32 65535#32)))))
    (constantI S_ 1 1#1) reducesTo_S64x16384x1_S64x16384_d2 h_S_

/-- The repel index words laid end to end, batch by batch. -/
abbrev idxV (R : SR.Idx → BitVec 32) : IVec S64x16384x1 32 :=
  broadcastInDim S64x16384x1 ![0, 1] bcast_S64x16384_S64x16384x1_0_1 (shapeCast S64x16384 R shapeCasts_S64x2048x2x4_S64x16384)

/-- The heights read at the repel words. -/
def hTake (H : S64x1x256x256.Idx → EReal) (R : SR.Idx → BitVec 32) : S64x16384x1.Idx → EReal :=
  select (broadcastInDim S64x16384x1 ![0, 1] bcast_S64x16384_S64x16384x1_0_1 (okV (wrapV (idxV R))))
    (Host.gather gather_S64x65536x1_S64x16384x1_S64x16384x1_2_1_0_0_1_2_111
      (transpose S64x65536x1 [0, 2, 1] (shapeCast S64x1x65536 H shapeCasts_S64x1x256x256_S64x1x65536) transposes_S64x1x65536_S64x65536x1_0_2_1)
      (wrapV (idxV R)))
    (broadcastInDim S64x16384x1 ![] bcast_S_S64x16384x1 (constant (F := Ideal) S_ .f32 0x7FC00000#32))

/-- The mean over the four corners of the gathered heights. -/
def meanH (x : S64x16384x1.Idx → EReal) : S64x2048x2x1x1.Idx → EReal :=
  Host.divf
    (broadcastInDim S64x2048x2x1x1 ![0, 1, 2, 4] bcast_S64x2048x2x1_S64x2048x2x1x1_0_1_2_4
      (Host.reduceAdd (shapeCast S64x2048x2x4x1 x shapeCasts_S64x16384x1_S64x2048x2x4x1) (constant (F := Ideal) S_ .f32 0x00000000#32)
        reducesTo_S64x2048x2x4x1_S64x2048x2x1_d3 h_S_))
    (broadcastInDim S64x2048x2x1x1 ![] bcast_S_S64x2048x2x1x1 (constant (F := Ideal) S_ .f32 0x40800000#32))

/-- The number of set bits of the repel mask, as a float. -/
def cntR (M : SMR.Idx → BitVec 1) : S_.Idx → EReal :=
  sitofp (F := Ideal) .f32 (Host.reduce IntOp.addi (extui 32 M natLt_1_32) (constantI S_ 32 0#32) reducesTo_S64x2048x1_S_d0_1_2 h_S_)

/-- The offsets read at the repel words. -/
def oTake (O : S64x2x256x256.Idx → EReal) (R : SR.Idx → BitVec 32) : S64x16384x2.Idx → EReal :=
  select (broadcastInDim S64x16384x2 ![0, 1] bcast_S64x16384_S64x16384x2_0_1 (okV (wrapV (idxV R))))
    (Host.gather gather_S64x65536x2_S64x16384x1_S64x16384x2_2_1_0_0_1_2_112
      (transpose S64x65536x2 [0, 2, 1] (shapeCast S64x2x65536 O shapeCasts_S64x2x256x256_S64x2x65536) transposes_S64x2x65536_S64x65536x2_0_2_1)
      (wrapV (idxV R)))
    (broadcastInDim S64x16384x2 ![] bcast_S_S64x16384x2 (constant (F := Ideal) S_ .f32 0x7FC00000#32))

/-- The mean over the four corners of the gathered offsets, each moved by its corner of the unit square. -/
def meanO (x : S64x16384x2.Idx → EReal) (T : S4x2.Idx → EReal) : S64x2048x2x1x2.Idx → EReal :=
  Host.divf
    (broadcastInDim S64x2048x2x1x2 ![0, 1, 2, 4] bcast_S64x2048x2x2_S64x2048x2x1x2_0_1_2_4
      (Host.reduceAdd
        (addf (shapeCast S64x2048x2x4x2 x shapeCasts_S64x16384x2_S64x2048x2x4x2)
          (broadcastInDim S64x2048x2x4x2 ![0, 1, 2, 3, 4] bcast_S1x1x1x4x2_S64x2048x2x4x2_0_1_2_3_4
            (shapeCast S1x1x1x4x2 T shapeCasts_S4x2_S1x1x1x4x2)))
        (constant (F := Ideal) S_ .f32 0x00000000#32) reducesTo_S64x2048x2x4x2_S64x2048x2x2_d3 h_S_))
    (broadcastInDim S64x2048x2x1x2 ![] bcast_S_S64x2048x2x1x2 (constant (F := Ideal) S_ .f32 0x40800000#32))

/-- The unit square's corners as the program's constant table holds them. -/
def cornerTab : S4x2.Idx → EReal := fun i => FloatOps.ofBits (F := Ideal) .f32 (lit0 (S4x2.rowMajor i))

/-- The extra offsets added into box 1 of the mean offsets. -/
def scat (x : S64x2048x2x1x2.Idx → EReal) (P : SP.Idx → EReal) : S64x2048x2x1x2.Idx → EReal :=
  Host.scatter scatter_S64x2048x2x1x2_S1_S64x2048x1x2_0123_2_2_0 (FloatOps.addf (F := Ideal) (φ := .f32)) x (broadcastInDim S1 ![] bcast_S_S1 (constantI S_ 32 1#32))
    (broadcastInDim S64x2048x1x2 ![0, 1, 3] bcast_S64x2048x2_S64x2048x1x2_0_1_3 P)

/-- A box's three components side by side: the exponential of the mean height, then the two mean offsets. -/
def cat (h : S64x2048x2x1x1.Idx → EReal) (o : S64x2048x2x1x2.Idx → EReal) : S64x2048x2x1x3.Idx → EReal :=
  concatenate S64x2048x2x1x3 4 [⟨S64x2048x2x1x1, Host.exp (F := Ideal) (φ := .f32) h⟩, ⟨S64x2048x2x1x2, o⟩]
    concatenates_S64x2048x2x1x1_S64x2048x2x1x2_S64x2048x2x1x3_d4

/-- Box 0 of every pair. -/
def box0 (z : S64x2048x2x1x3.Idx → EReal) : S64x2048x1x3.Idx → EReal :=
  shapeCast S64x2048x1x3 (extractStridedSlice S64x2048x1x1x3 ![0, 0, 0, 0, 0] z slices_S64x2048x2x1x3_S64x2048x1x1x3_0_0_0_0_0)
    shapeCasts_S64x2048x1x1x3_S64x2048x1x3
/-- Box 1 of every pair. -/
def box1 (z : S64x2048x2x1x3.Idx → EReal) : S64x2048x1x3.Idx → EReal :=
  shapeCast S64x2048x1x3 (extractStridedSlice S64x2048x1x1x3 ![0, 0, 1, 0, 0] z slices_S64x2048x2x1x3_S64x2048x1x1x3_0_0_1_0_0)
    shapeCasts_S64x2048x1x1x3_S64x2048x1x3
/-- A box's component 0, 1, 2. -/
def comp0 (y : S64x2048x1x3.Idx → EReal) : S64x2048x1.Idx → EReal :=
  shapeCast S64x2048x1 (extractStridedSlice S64x2048x1x1 ![0, 0, 0, 0] y slices_S64x2048x1x3_S64x2048x1x1_0_0_0_0) shapeCasts_S64x2048x1x1_S64x2048x1
def comp1 (y : S64x2048x1x3.Idx → EReal) : S64x2048x1.Idx → EReal :=
  shapeCast S64x2048x1 (extractStridedSlice S64x2048x1x1 ![0, 0, 0, 1] y slices_S64x2048x1x3_S64x2048x1x1_0_0_0_1) shapeCasts_S64x2048x1x1_S64x2048x1
def comp2 (y : S64x2048x1x3.Idx → EReal) : S64x2048x1.Idx → EReal :=
  shapeCast S64x2048x1 (extractStridedSlice S64x2048x1x1 ![0, 0, 0, 2] y slices_S64x2048x1x3_S64x2048x1x1_0_0_0_2) shapeCasts_S64x2048x1x1_S64x2048x1

/-- Every pair's term over (count + 1e-4), kept where the mask is set, all added up. -/
def totalV (M : SMR.Idx → BitVec 1) (cnt : S_.Idx → EReal) (iou : S64x2048x1.Idx → EReal) : S_.Idx → EReal :=
  Host.reduceAdd
    (select M
      (Host.divf iou (broadcastInDim S64x2048x1 ![] bcast_S_S64x2048x1 (addf cnt (constant (F := Ideal) S_ .f32 0x38D1B717#32))))
      (broadcastInDim S64x2048x1 ![] bcast_S_S64x2048x1 (id (constant (F := Ideal) S_ .f32 0x00000000#32))))
    (constant (F := Ideal) S_ .f32 0x00000000#32) reducesTo_S64x2048x1_S_d0_1_2 h_S_

end Cert.ReferenceIdeal.RValR

end
-- ==== Proof.RValR1.lean ====
/-
  Window 2 of the reference from the repel mask's count on, cut into stretches: the count; the heights gathered at the
  repel words and their mean; the offsets gathered, moved by the unit square's corners, and their mean; the extra
  offsets added into box 1; the boxes' components laid side by side and cut out. Each stretch's result is the
  corresponding function of the arrays it reads, and every buffer a later stretch reads is left alone by the stretches
  between; so after the window the boxes' components and the count are those functions of the argument arrays.
-/
import proofs.«169223_j2216203125376_1_alg».proof.Proof.RValR0
import proofs.«169223_j2216203125376_1_alg».proof.Proof.RefRun

set_option maxRecDepth 16384

noncomputable section

namespace Cert.ReferenceIdeal.RValR

open Idealize.ShloMosaic Idealize.ShloMosaic.TcCoe Idealize.SL.Sem Idealize.ShloMosaic.ValueIdx Idealize.ShloMosaic.StableHlo Cert.ReferenceIdeal Cert.ReferenceIdeal.Gen Cert.ReferenceIdeal.RefRun Cert.ReferenceIdeal.RArgs Cert.IouSpec Cert.ReferenceIdeal.RIouScalar
set_option maxHeartbeats 4000000 in
/-- The end of the attract branch. -/
def segA {F : FTy → Type} [FloatOps F] : List (HloOp τ sig (Elt F)) :=
  [ binary main_v95 main_v96 main_v97 (addf : (⟨S64x4096x4, .f32⟩ : BufTy).Contents (Elt F) → (⟨S64x4096x4, .f32⟩ : BufTy).Contents (Elt F) → (⟨S64x4096x4, .f32⟩ : BufTy).Contents (Elt F)),
    binary main_v92 main_v97 main_v98 (Host.divf : (⟨S64x4096x4, .f32⟩ : BufTy).Contents (Elt F) → (⟨S64x4096x4, .f32⟩ : BufTy).Contents (Elt F) → (⟨S64x4096x4, .f32⟩ : BufTy).Contents (Elt F)),
    nullary main_cst_21 (constant S_ .f32 0x3F800000#32),
    unary main_cst_21 main_v99 (broadcastInDim S64x4096x4 ![] bcast_S_S64x4096x4 : (⟨S_, .f32⟩ : BufTy).Contents (Elt F) → (⟨S64x4096x4, .f32⟩ : BufTy).Contents (Elt F)),
    binary main_v99 main_v98 main_v100 (subf : (⟨S64x4096x4, .f32⟩ : BufTy).Contents (Elt F) → (⟨S64x4096x4, .f32⟩ : BufTy).Contents (Elt F) → (⟨S64x4096x4, .f32⟩ : BufTy).Contents (Elt F)),
    nullary main_cst_22 (constant S_ .f32 0x38D1B717#32),
    binary main_v2 main_cst_22 main_v101 (addf : (⟨S_, .f32⟩ : BufTy).Contents (Elt F) → (⟨S_, .f32⟩ : BufTy).Contents (Elt F) → (⟨S_, .f32⟩ : BufTy).Contents (Elt F)),
    unary main_v101 main_v102 (broadcastInDim S64x4096x4 ![] bcast_S_S64x4096x4 : (⟨S_, .f32⟩ : BufTy).Contents (Elt F) → (⟨S64x4096x4, .f32⟩ : BufTy).Contents (Elt F)),
    binary main_v100 main_v102 main_v103 (Host.divf : (⟨S64x4096x4, .f32⟩ : BufTy).Contents (Elt F) → (⟨S64x4096x4, .f32⟩ : BufTy).Contents (Elt F) → (⟨S64x4096x4, .f32⟩ : BufTy).Contents (Elt F)),
    nullary main_cst_23 (constant S_ .f32 0x00000000#32),
    TRef.unary (.of main_cst_23 : TRef sig ⟨S_, .f32⟩) main_call4.v0 id,
    TRef.unary main_call4.v0 main_call4.v1 (broadcastInDim S64x4096x4 ![] bcast_S_S64x4096x4),
    TRef.ternary (.of main_arg7 : TRef sig ⟨S64x4096x4, .i1⟩) (.of main_v103 : TRef sig ⟨S64x4096x4, .f32⟩) main_call4.v1 main_call4.v2 select,
    nullary main_cst_24 (constant S_ .f32 0x00000000#32),
    binary main_v104 main_cst_24 main_v105 ((fun x v => Host.reduceAdd x v reducesTo_S64x4096x4_S_d0_1_2 h_S_) : (⟨S64x4096x4, .f32⟩ : BufTy).Contents (Elt F) → (⟨S_, .f32⟩ : BufTy).Contents (Elt F) → (⟨S_, .f32⟩ : BufTy).Contents (Elt F)) ]
set_option maxHeartbeats 4000000 in
/-- The repel mask counted. -/
def segB {F : FTy → Type} [FloatOps F] : List (HloOp τ sig (Elt F)) :=
  [ unary main_arg8 main_v106 ((extui 32 · natLt_1_32) : (⟨S64x2048x1, .i1⟩ : BufTy).Contents (Elt F) → (⟨S64x2048x1, .i32⟩ : BufTy).Contents (Elt F)),
    nullary main_c_25 (constantI S_ 32 0#32),
    binary main_v106 main_c_25 main_v107 ((fun x v => Host.reduce IntOp.addi x v reducesTo_S64x2048x1_S_d0_1_2 h_S_) : (⟨S64x2048x1, .i32⟩ : BufTy).Contents (Elt F) → (⟨S_, .i32⟩ : BufTy).Contents (Elt F) → (⟨S_, .i32⟩ : BufTy).Contents (Elt F)),
    unary main_v107 main_v108 (sitofp .f32 : (⟨S_, .i32⟩ : BufTy).Contents (Elt F) → (⟨S_, .f32⟩ : BufTy).Contents (Elt F)) ]
set_option maxHeartbeats 4000000 in
/-- The heights gathered at the repel words. -/
def segC {F : FTy → Type} [FloatOps F] : List (HloOp τ sig (Elt F)) :=
  [ reshape main_arg6 main_v109 rfl shapeCasts_S64x2048x2x4_S64x16384,
    reshape main_arg0 main_v110 rfl shapeCasts_S64x1x256x256_S64x1x65536,
    unary main_v110 main_v111 ((transpose S64x65536x1 [0, 2, 1] · transposes_S64x1x65536_S64x65536x1_0_2_1) : (⟨S64x1x65536, .f32⟩ : BufTy).Contents (Elt F) → (⟨S64x65536x1, .f32⟩ : BufTy).Contents (Elt F)),
    unary main_v109 main_v112 (broadcastInDim S64x16384x1 ![0, 1] bcast_S64x16384_S64x16384x1_0_1 : (⟨S64x16384, .i32⟩ : BufTy).Contents (Elt F) → (⟨S64x16384x1, .i32⟩ : BufTy).Contents (Elt F)),
    TRef.nullary main_call5.c (constantI S_ 32 0#32),
    TRef.unary main_call5.c main_call5.v0 (broadcastInDim S64x16384x1 ![] bcast_S_S64x16384x1),
    TRef.binary (.of main_v112 : TRef sig ⟨S64x16384x1, .i32⟩) main_call5.v0 main_call5.v1 (cmpi .slt),
    TRef.nullary main_call5.c_0 (constantI S_ 32 65536#32),
    TRef.unary main_call5.c_0 main_call5.v2 (broadcastInDim S64x16384x1 ![] bcast_S_S64x16384x1),
    TRef.binary (.of main_v112 : TRef sig ⟨S64x16384x1, .i32⟩) main_call5.v2 main_call5.v3 addi,
    TRef.ternary main_call5.v1 main_call5.v3 (.of main_v112 : TRef sig ⟨S64x16384x1, .i32⟩) main_call5.v4 select,
    TRef.nullary main_call5.c_1 (constantI S1 32 65535#32),
    TRef.nullary main_call5.c_2 (constantI S_ 32 0#32),
    TRef.unary main_call5.c_2 main_call5.v5 (broadcastInDim S64x16384x1 ![] bcast_S_S64x16384x1),
    TRef.binary main_call5.v4 main_call5.v5 main_call5.v6 (cmpi .sge),
    TRef.unary main_call5.c_1 main_call5.v7 (broadcastInDim S1x1x1 ![2] bcast_S1_S1x1x1_2),
    TRef.unary main_call5.v7 main_call5.v8 (broadcastInDim S64x16384x1 ![0, 1, 2] bcast_S1x1x1_S64x16384x1_0_1_2),
    TRef.binary main_call5.v4 main_call5.v8 main_call5.v9 (cmpi .sle),
    TRef.binary main_call5.v6 main_call5.v9 main_call5.v10 andi,
    TRef.nullary main_call5.c_3 (constantI S_ 1 1#1),
    TRef.binary main_call5.v10 main_call5.c_3 main_call5.v11 (fun x v => Host.reduce IntOp.andi x v reducesTo_S64x16384x1_S64x16384_d2 h_S_),
    TRef.binary (.of main_v111 : TRef sig ⟨S64x65536x1, .f32⟩) main_call5.v4 main_call5.v12 (fun x i => Host.gather gather_S64x65536x1_S64x16384x1_S64x16384x1_2_1_0_0_1_2_111 x i),
    TRef.unary main_call5.v11 main_call5.v13 (broadcastInDim S64x16384x1 ![0, 1] bcast_S64x16384_S64x16384x1_0_1),
    TRef.nullary main_call5.cst (constant S_ .f32 0x7FC00000#32),
    TRef.unary main_call5.cst main_call5.v14 (broadcastInDim S64x16384x1 ![] bcast_S_S64x16384x1),
    TRef.ternary main_call5.v13 main_call5.v12 main_call5.v14 main_call5.v15 select ]
set_option maxHeartbeats 4000000 in
/-- The gathered heights' mean over the corners. -/
def segD {F : FTy → Type} [FloatOps F] : List (HloOp τ sig (Elt F)) :=
  [ reshape main_v113 main_v114 rfl shapeCasts_S64x16384x1_S64x2048x2x4x1,
    nullary main_cst_26 (constant S_ .f32 0x00000000#32),
    binary main_v114 main_cst_26 main_v115 ((fun x v => Host.reduceAdd x v reducesTo_S64x2048x2x4x1_S64x2048x2x1_d3 h_S_) : (⟨S64x2048x2x4x1, .f32⟩ : BufTy).Contents (Elt F) → (⟨S_, .f32⟩ : BufTy).Contents (Elt F) → (⟨S64x2048x2x1, .f32⟩ : BufTy).Contents (Elt F)),
    unary main_v115 main_v116 (broadcastInDim S64x2048x2x1x1 ![0, 1, 2, 4] bcast_S64x2048x2x1_S64x2048x2x1x1_0_1_2_4 : (⟨S64x2048x2x1, .f32⟩ : BufTy).Contents (Elt F) → (⟨S64x2048x2x1x1, .f32⟩ : BufTy).Contents (Elt F)),
    nullary main_cst_27 (constant S_ .f32 0x40800000#32),
    unary main_cst_27 main_v117 (broadcastInDim S64x2048x2x1x1 ![] bcast_S_S64x2048x2x1x1 : (⟨S_, .f32⟩ : BufTy).Contents (Elt F) → (⟨S64x2048x2x1x1, .f32⟩ : BufTy).Contents (Elt F)),
    binary main_v116 main_v117 main_v118 (Host.divf : (⟨S64x2048x2x1x1, .f32⟩ : BufTy).Contents (Elt F) → (⟨S64x2048x2x1x1, .f32⟩ : BufTy).Contents (Elt F) → (⟨S64x2048x2x1x1, .f32⟩ : BufTy).Contents (Elt F)) ]
set_option maxHeartbeats 4000000 in
/-- The offsets gathered at the repel words. -/
def segE {F : FTy → Type} [FloatOps F] : List (HloOp τ sig (Elt F)) :=
  [ reshape main_arg6 main_v119 rfl shapeCasts_S64x2048x2x4_S64x16384,
    reshape main_arg1 main_v120 rfl shapeCasts_S64x2x256x256_S64x2x65536,
    unary main_v120 main_v121 ((transpose S64x65536x2 [0, 2, 1] · transposes_S64x2x65536_S64x65536x2_0_2_1) : (⟨S64x2x65536, .f32⟩ : BufTy).Contents (Elt F) → (⟨S64x65536x2, .f32⟩ : BufTy).Contents (Elt F)),
    unary main_v119 main_v122 (broadcastInDim S64x16384x1 ![0, 1] bcast_S64x16384_S64x16384x1_0_1 : (⟨S64x16384, .i32⟩ : BufTy).Contents (Elt F) → (⟨S64x16384x1, .i32⟩ : BufTy).Contents (Elt F)),
    TRef.nullary main_call6.c (constantI S_ 32 0#32),
    TRef.unary main_call6.c main_call6.v0 (broadcastInDim S64x16384x1 ![] bcast_S_S64x16384x1),
    TRef.binary (.of main_v122 : TRef sig ⟨S64x16384x1, .i32⟩) main_call6.v0 main_call6.v1 (cmpi .slt),
    TRef.nullary main_call6.c_0 (constantI S_ 32 65536#32),
    TRef.unary main_call6.c_0 main_call6.v2 (broadcastInDim S64x16384x1 ![] bcast_S_S64x16384x1),
    TRef.binary (.of main_v122 : TRef sig ⟨S64x16384x1, .i32⟩) main_call6.v2 main_call6.v3 addi,
    TRef.ternary main_call6.v1 main_call6.v3 (.of main_v122 : TRef sig ⟨S64x16384x1, .i32⟩) main_call6.v4 select,
    TRef.nullary main_call6.c_1 (constantI S1 32 65535#32),
    TRef.nullary main_call6.c_2 (constantI S_ 32 0#32),
    TRef.unary main_call6.c_2 main_call6.v5 (broadcastInDim S64x16384x1 ![] bcast_S_S64x16384x1),
    TRef.binary main_call6.v4 main_call6.v5 main_call6.v6 (cmpi .sge),
    TRef.unary main_call6.c_1 main_call6.v7 (broadcastInDim S1x1x1 ![2] bcast_S1_S1x1x1_2),
    TRef.unary main_call6.v7 main_call6.v8 (broadcastInDim S64x16384x1 ![0, 1, 2] bcast_S1x1x1_S64x16384x1_0_1_2),
    TRef.binary main_call6.v4 main_call6.v8 main_call6.v9 (cmpi .sle),
    TRef.binary main_call6.v6 main_call6.v9 main_call6.v10 andi,
    TRef.nullary main_call6.c_3 (constantI S_ 1 1#1),
    TRef.binary main_call6.v10 main_call6.c_3 main_call6.v11 (fun x v => Host.reduce IntOp.andi x v reducesTo_S64x16384x1_S64x16384_d2 h_S_),
    TRef.binary (.of main_v121 : TRef sig ⟨S64x65536x2, .f32⟩) main_call6.v4 main_call6.v12 (fun x i => Host.gather gather_S64x65536x2_S64x16384x1_S64x16384x2_2_1_0_0_1_2_112 x i),
    TRef.unary main_call6.v11 main_call6.v13 (broadcastInDim S64x16384x2 ![0, 1] bcast_S64x16384_S64x16384x2_0_1),
    TRef.nullary main_call6.cst (constant S_ .f32 0x7FC00000#32),
    TRef.unary main_call6.cst main_call6.v14 (broadcastInDim S64x16384x2 ![] bcast_S_S64x16384x2),
    TRef.ternary main_call6.v13 main_call6.v12 main_call6.v14 main_call6.v15 select ]
set_option maxHeartbeats 4000000 in
/-- The gathered offsets, moved by the corners, and their mean. -/
def segF {F : FTy → Type} [FloatOps F] : List (HloOp τ sig (Elt F)) :=
  [ reshape main_v123 main_v124 rfl shapeCasts_S64x16384x2_S64x2048x2x4x2,
    reshape main_cst main_v125 rfl shapeCasts_S4x2_S1x1x1x4x2,
    unary main_v125 main_v126 (broadcastInDim S64x2048x2x4x2 ![0, 1, 2, 3, 4] bcast_S1x1x1x4x2_S64x2048x2x4x2_0_1_2_3_4 : (⟨S1x1x1x4x2, .f32⟩ : BufTy).Contents (Elt F) → (⟨S64x2048x2x4x2, .f32⟩ : BufTy).Contents (Elt F)),
    binary main_v124 main_v126 main_v127 (addf : (⟨S64x2048x2x4x2, .f32⟩ : BufTy).Contents (Elt F) → (⟨S64x2048x2x4x2, .f32⟩ : BufTy).Contents (Elt F) → (⟨S64x2048x2x4x2, .f32⟩ : BufTy).Contents (Elt F)),
    nullary main_cst_28 (constant S_ .f32 0x00000000#32),
    binary main_v127 main_cst_28 main_v128 ((fun x v => Host.reduceAdd x v reducesTo_S64x2048x2x4x2_S64x2048x2x2_d3 h_S_) : (⟨S64x2048x2x4x2, .f32⟩ : BufTy).Contents (Elt F) → (⟨S_, .f32⟩ : BufTy).Contents (Elt F) → (⟨S64x2048x2x2, .f32⟩ : BufTy).Contents (Elt F)),
    unary main_v128 main_v129 (broadcastInDim S64x2048x2x1x2 ![0, 1, 2, 4] bcast_S64x2048x2x2_S64x2048x2x1x2_0_1_2_4 : (⟨S64x2048x2x2, .f32⟩ : BufTy).Contents (Elt F) → (⟨S64x2048x2x1x2, .f32⟩ : BufTy).Contents (Elt F)),
    nullary main_cst_29 (constant S_ .f32 0x40800000#32),
    unary main_cst_29 main_v130 (broadcastInDim S64x2048x2x1x2 ![] bcast_S_S64x2048x2x1x2 : (⟨S_, .f32⟩ : BufTy).Contents (Elt F) → (⟨S64x2048x2x1x2, .f32⟩ : BufTy).Contents (Elt F)),
    binary main_v129 main_v130 main_v131 (Host.divf : (⟨S64x2048x2x1x2, .f32⟩ : BufTy).Contents (Elt F) → (⟨S64x2048x2x1x2, .f32⟩ : BufTy).Contents (Elt F) → (⟨S64x2048x2x1x2, .f32⟩ : BufTy).Contents (Elt F)) ]
set_option maxHeartbeats 4000000 in
/-- The extra offsets added into box 1. -/
def segG {F : FTy → Type} [FloatOps F] : List (HloOp τ sig (Elt F)) :=
  [ unary main_arg4 main_v132 (broadcastInDim S64x2048x1x2 ![0, 1, 3] bcast_S64x2048x2_S64x2048x1x2_0_1_3 : (⟨S64x2048x2, .f32⟩ : BufTy).Contents (Elt F) → (⟨S64x2048x1x2, .f32⟩ : BufTy).Contents (Elt F)),
    nullary main_c_30 (constantI S_ 32 1#32),
    unary main_c_30 main_v133 (broadcastInDim S1 ![] bcast_S_S1 : (⟨S_, .i32⟩ : BufTy).Contents (Elt F) → (⟨S1, .i32⟩ : BufTy).Contents (Elt F)),
    ternary main_v131 main_v133 main_v132 main_v134 ((fun x i u => Host.scatter scatter_S64x2048x2x1x2_S1_S64x2048x1x2_0123_2_2_0 FloatOps.addf x i u) : (⟨S64x2048x2x1x2, .f32⟩ : BufTy).Contents (Elt F) → (⟨S1, .i32⟩ : BufTy).Contents (Elt F) → (⟨S64x2048x1x2, .f32⟩ : BufTy).Contents (Elt F) → (⟨S64x2048x2x1x2, .f32⟩ : BufTy).Contents (Elt F)) ]
set_option maxHeartbeats 4000000 in
/-- The boxes' components laid side by side. -/
def segH1 {F : FTy → Type} [FloatOps F] : List (HloOp τ sig (Elt F)) :=
  [ unary main_v118 main_v135 (Host.exp : (⟨S64x2048x2x1x1, .f32⟩ : BufTy).Contents (Elt F) → (⟨S64x2048x2x1x1, .f32⟩ : BufTy).Contents (Elt F)),
    binary main_v135 main_v134 main_v136 ((fun a b => concatenate S64x2048x2x1x3 4 [⟨S64x2048x2x1x1, a⟩, ⟨S64x2048x2x1x2, b⟩] concatenates_S64x2048x2x1x1_S64x2048x2x1x2_S64x2048x2x1x3_d4) : (⟨S64x2048x2x1x1, .f32⟩ : BufTy).Contents (Elt F) → (⟨S64x2048x2x1x2, .f32⟩ : BufTy).Contents (Elt F) → (⟨S64x2048x2x1x3, .f32⟩ : BufTy).Contents (Elt F)) ]
set_option maxHeartbeats 4000000 in
/-- The boxes and their components cut out. -/
def segH2 {F : FTy → Type} [FloatOps F] : List (HloOp τ sig (Elt F)) :=
  [ unary main_v136 main_v137 ((extractStridedSlice S64x2048x1x1x3 ![0, 0, 0, 0, 0] · slices_S64x2048x2x1x3_S64x2048x1x1x3_0_0_0_0_0) : (⟨S64x2048x2x1x3, .f32⟩ : BufTy).Contents (Elt F) → (⟨S64x2048x1x1x3, .f32⟩ : BufTy).Contents (Elt F)),
    reshape main_v137 main_v138 rfl shapeCasts_S64x2048x1x1x3_S64x2048x1x3,
    unary main_v136 main_v139 ((extractStridedSlice S64x2048x1x1x3 ![0, 0, 1, 0, 0] · slices_S64x2048x2x1x3_S64x2048x1x1x3_0_0_1_0_0) : (⟨S64x2048x2x1x3, .f32⟩ : BufTy).Contents (Elt F) → (⟨S64x2048x1x1x3, .f32⟩ : BufTy).Contents (Elt F)),
    reshape main_v139 main_v140 rfl shapeCasts_S64x2048x1x1x3_S64x2048x1x3,
    unary main_v138 main_v141 ((extractStridedSlice S64x2048x1x1 ![0, 0, 0, 0] · slices_S64x2048x1x3_S64x2048x1x1_0_0_0_0) : (⟨S64x2048x1x3, .f32⟩ : BufTy).Contents (Elt F) → (⟨S64x2048x1x1, .f32⟩ : BufTy).Contents (Elt F)),
    reshape main_v141 main_v142 rfl shapeCasts_S64x2048x1x1_S64x2048x1,
    unary main_v138 main_v143 ((extractStridedSlice S64x2048x1x1 ![0, 0, 0, 1] · slices_S64x2048x1x3_S64x2048x1x1_0_0_0_1) : (⟨S64x2048x1x3, .f32⟩ : BufTy).Contents (Elt F) → (⟨S64x2048x1x1, .f32⟩ : BufTy).Contents (Elt F)),
    reshape main_v143 main_v144 rfl shapeCasts_S64x2048x1x1_S64x2048x1,
    unary main_v138 main_v145 ((extractStridedSlice S64x2048x1x1 ![0, 0, 0, 2] · slices_S64x2048x1x3_S64x2048x1x1_0_0_0_2) : (⟨S64x2048x1x3, .f32⟩ : BufTy).Contents (Elt F) → (⟨S64x2048x1x1, .f32⟩ : BufTy).Contents (Elt F)),
    reshape main_v145 main_v146 rfl shapeCasts_S64x2048x1x1_S64x2048x1 ]

variable (W : Valuation τ sig (Elt Ideal))
theorem rs_v109 (F : Valuation τ sig (Elt Ideal)) :
    (reshape (τ := τ) (Val := Elt Ideal) main_arg6 main_v109 rfl shapeCasts_S64x2048x2x4_S64x16384).result F (no_index (Proc.devRef .tc main_v109))
      = shapeCast S64x16384 (F (Proc.devRef .tc main_arg6)) shapeCasts_S64x2048x2x4_S64x16384 := reshape_result' ..
theorem rs_v110 (F : Valuation τ sig (Elt Ideal)) :
    (reshape (τ := τ) (Val := Elt Ideal) main_arg0 main_v110 rfl shapeCasts_S64x1x256x256_S64x1x65536).result F (no_index (Proc.devRef .tc main_v110))
      = shapeCast S64x1x65536 (F (Proc.devRef .tc main_arg0)) shapeCasts_S64x1x256x256_S64x1x65536 := reshape_result' ..
theorem rs_v114 (F : Valuation τ sig (Elt Ideal)) :
    (reshape (τ := τ) (Val := Elt Ideal) main_v113 main_v114 rfl shapeCasts_S64x16384x1_S64x2048x2x4x1).result F (no_index (Proc.devRef .tc main_v114))
      = shapeCast S64x2048x2x4x1 (F (Proc.devRef .tc main_v113)) shapeCasts_S64x16384x1_S64x2048x2x4x1 := reshape_result' ..
theorem rs_v119 (F : Valuation τ sig (Elt Ideal)) :
    (reshape (τ := τ) (Val := Elt Ideal) main_arg6 main_v119 rfl shapeCasts_S64x2048x2x4_S64x16384).result F (no_index (Proc.devRef .tc main_v119))
      = shapeCast S64x16384 (F (Proc.devRef .tc main_arg6)) shapeCasts_S64x2048x2x4_S64x16384 := reshape_result' ..
theorem rs_v120 (F : Valuation τ sig (Elt Ideal)) :
    (reshape (τ := τ) (Val := Elt Ideal) main_arg1 main_v120 rfl shapeCasts_S64x2x256x256_S64x2x65536).result F (no_index (Proc.devRef .tc main_v120))
      = shapeCast S64x2x65536 (F (Proc.devRef .tc main_arg1)) shapeCasts_S64x2x256x256_S64x2x65536 := reshape_result' ..
theorem rs_v124 (F : Valuation τ sig (Elt Ideal)) :
    (reshape (τ := τ) (Val := Elt Ideal) main_v123 main_v124 rfl shapeCasts_S64x16384x2_S64x2048x2x4x2).result F (no_index (Proc.devRef .tc main_v124))
      = shapeCast S64x2048x2x4x2 (F (Proc.devRef .tc main_v123)) shapeCasts_S64x16384x2_S64x2048x2x4x2 := reshape_result' ..
theorem rs_v125 (F : Valuation τ sig (Elt Ideal)) :
    (reshape (τ := τ) (Val := Elt Ideal) main_cst main_v125 rfl shapeCasts_S4x2_S1x1x1x4x2).result F (no_index (Proc.devRef .tc main_v125))
      = shapeCast S1x1x1x4x2 (F (Proc.devRef .tc main_cst)) shapeCasts_S4x2_S1x1x1x4x2 := reshape_result' ..
theorem rs_v138 (F : Valuation τ sig (Elt Ideal)) :
    (reshape (τ := τ) (Val := Elt Ideal) main_v137 main_v138 rfl shapeCasts_S64x2048x1x1x3_S64x2048x1x3).result F (no_index (Proc.devRef .tc main_v138))
      = shapeCast S64x2048x1x3 (F (Proc.devRef .tc main_v137)) shapeCasts_S64x2048x1x1x3_S64x2048x1x3 := reshape_result' ..
theorem rs_v140 (F : Valuation τ sig (Elt Ideal)) :
    (reshape (τ := τ) (Val := Elt Ideal) main_v139 main_v140 rfl shapeCasts_S64x2048x1x1x3_S64x2048x1x3).result F (no_index (Proc.devRef .tc main_v140))
      = shapeCast S64x2048x1x3 (F (Proc.devRef .tc main_v139)) shapeCasts_S64x2048x1x1x3_S64x2048x1x3 := reshape_result' ..
theorem rs_v142 (F : Valuation τ sig (Elt Ideal)) :
    (reshape (τ := τ) (Val := Elt Ideal) main_v141 main_v142 rfl shapeCasts_S64x2048x1x1_S64x2048x1).result F (no_index (Proc.devRef .tc main_v142))
      = shapeCast S64x2048x1 (F (Proc.devRef .tc main_v141)) shapeCasts_S64x2048x1x1_S64x2048x1 := reshape_result' ..
theorem rs_v144 (F : Valuation τ sig (Elt Ideal)) :
    (reshape (τ := τ) (Val := Elt Ideal) main_v143 main_v144 rfl shapeCasts_S64x2048x1x1_S64x2048x1).result F (no_index (Proc.devRef .tc main_v144))
      = shapeCast S64x2048x1 (F (Proc.devRef .tc main_v143)) shapeCasts_S64x2048x1x1_S64x2048x1 := reshape_result' ..
theorem rs_v146 (F : Valuation τ sig (Elt Ideal)) :
    (reshape (τ := τ) (Val := Elt Ideal) main_v145 main_v146 rfl shapeCasts_S64x2048x1x1_S64x2048x1).result F (no_index (Proc.devRef .tc main_v146))
      = shapeCast S64x2048x1 (F (Proc.devRef .tc main_v145)) shapeCasts_S64x2048x1x1_S64x2048x1 := reshape_result' ..

/-! ## Each stretch's result as a function of what it reads -/

set_option maxHeartbeats 4000000 in
theorem segB_v108 : after (segB (F := Ideal)) W (main_v108 : DevRef τ sig) = cntR (W (main_arg8 : DevRef τ sig)) := by
  simp (disch := decide) only [after_cons, after_nil, segB, nullary_result', unary_result', binary_result', ternary_result',
    nullary_result_ne', unary_result_ne', binary_result_ne', ternary_result_ne', reshape_result_ne', TRef.ofBuf, TRef.toBuf, cast_eq]
  simp only [cntR]
set_option maxHeartbeats 4000000 in
theorem segC_v113 : after (segC (F := Ideal)) W (main_v113 : DevRef τ sig) = hTake (W (main_arg0 : DevRef τ sig)) (W (main_arg6 : DevRef τ sig)) := by
  simp (disch := decide) only [after_cons, after_nil, segC, rs_v109, rs_v110, nullary_result', unary_result', binary_result', ternary_result',
    nullary_result_ne', unary_result_ne', binary_result_ne', ternary_result_ne', reshape_result_ne', TRef.ofBuf, TRef.toBuf, cast_eq]
  simp only [hTake]
set_option maxHeartbeats 4000000 in
theorem segD_v118 : after (segD (F := Ideal)) W (main_v118 : DevRef τ sig) = meanH (W (main_v113 : DevRef τ sig)) := by
  simp (disch := decide) only [after_cons, after_nil, segD, rs_v114, nullary_result', unary_result', binary_result', ternary_result',
    nullary_result_ne', unary_result_ne', binary_result_ne', ternary_result_ne', reshape_result_ne', TRef.ofBuf, TRef.toBuf, cast_eq]
  simp only [meanH]
set_option maxHeartbeats 4000000 in
theorem segE_v123 : after (segE (F := Ideal)) W (main_v123 : DevRef τ sig) = oTake (W (main_arg1 : DevRef τ sig)) (W (main_arg6 : DevRef τ sig)) := by
  simp (disch := decide) only [after_cons, after_nil, segE, rs_v119, rs_v120, nullary_result', unary_result', binary_result', ternary_result',
    nullary_result_ne', unary_result_ne', binary_result_ne', ternary_result_ne', reshape_result_ne', TRef.ofBuf, TRef.toBuf, cast_eq]
  simp only [oTake]
set_option maxHeartbeats 4000000 in
theorem segF_v131 : after (segF (F := Ideal)) W (main_v131 : DevRef τ sig) = meanO (W (main_v123 : DevRef τ sig)) (W (main_cst : DevRef τ sig)) := by
  simp (disch := decide) only [after_cons, after_nil, segF, rs_v124, rs_v125, nullary_result', unary_result', binary_result', ternary_result',
    nullary_result_ne', unary_result_ne', binary_result_ne', ternary_result_ne', reshape_result_ne', TRef.ofBuf, TRef.toBuf, cast_eq]
  simp only [meanO]
set_option maxHeartbeats 4000000 in
theorem segG_v134 : after (segG (F := Ideal)) W (main_v134 : DevRef τ sig) = scat (W (main_v131 : DevRef τ sig)) (W (main_arg4 : DevRef τ sig)) := by
  simp (disch := decide) only [after_cons, after_nil, segG, nullary_result', unary_result', binary_result', ternary_result',
    nullary_result_ne', unary_result_ne', binary_result_ne', ternary_result_ne', reshape_result_ne', TRef.ofBuf, TRef.toBuf, cast_eq]
  simp only [scat]
set_option maxHeartbeats 4000000 in
theorem segH1_v136 : after (segH1 (F := Ideal)) W (main_v136 : DevRef τ sig) = cat (W (main_v118 : DevRef τ sig)) (W (main_v134 : DevRef τ sig)) := by
  unfold segH1
  after_results
  rfl
set_option maxHeartbeats 4000000 in
theorem segH2_v142 : after (segH2 (F := Ideal)) W (main_v142 : DevRef τ sig) = comp0 (box0 (W (main_v136 : DevRef τ sig))) := by
  simp (disch := decide) only [after_cons, after_nil, segH2, rs_v138, rs_v140, rs_v142, rs_v144, rs_v146, nullary_result', unary_result', binary_result', ternary_result',
    nullary_result_ne', unary_result_ne', binary_result_ne', ternary_result_ne', reshape_result_ne', TRef.ofBuf, TRef.toBuf, cast_eq]
  simp only [comp0, box0]
set_option maxHeartbeats 4000000 in
theorem segH2_v144 : after (segH2 (F := Ideal)) W (main_v144 : DevRef τ sig) = comp1 (box0 (W (main_v136 : DevRef τ sig))) := by
  simp (disch := decide) only [after_cons, after_nil, segH2, rs_v138, rs_v140, rs_v142, rs_v144, rs_v146, nullary_result', unary_result', binary_result', ternary_result',
    nullary_result_ne', unary_result_ne', binary_result_ne', ternary_result_ne', reshape_result_ne', TRef.ofBuf, TRef.toBuf, cast_eq]
  simp only [comp1, box0]
set_option maxHeartbeats 4000000 in
theorem segH2_v146 : after (segH2 (F := Ideal)) W (main_v146 : DevRef τ sig) = comp2 (box0 (W (main_v136 : DevRef τ sig))) := by
  simp (disch := decide) only [after_cons, after_nil, segH2, rs_v138, rs_v140, rs_v142, rs_v144, rs_v146, nullary_result', unary_result', binary_result', ternary_result',
    nullary_result_ne', unary_result_ne', binary_result_ne', ternary_result_ne', reshape_result_ne', TRef.ofBuf, TRef.toBuf, cast_eq]
  simp only [comp2, box0]
set_option maxHeartbeats 4000000 in
theorem segH2_v140 : after (segH2 (F := Ideal)) W (main_v140 : DevRef τ sig) = box1 (W (main_v136 : DevRef τ sig)) := by
  simp (disch := decide) only [after_cons, after_nil, segH2, rs_v138, rs_v140, rs_v142, rs_v144, rs_v146, nullary_result', unary_result', binary_result', ternary_result',
    nullary_result_ne', unary_result_ne', binary_result_ne', ternary_result_ne', reshape_result_ne', TRef.ofBuf, TRef.toBuf, cast_eq]
  simp only [box1]

/-! ## What each stretch leaves alone -/

theorem segA_keep_arg0 : after (segA (F := Ideal)) W (main_arg0 : DevRef τ sig) = W (main_arg0 : DevRef τ sig) := by
  simp (disch := decide) only [after_cons, after_nil, segA, nullary_result', unary_result', binary_result', ternary_result',
    nullary_result_ne', unary_result_ne', binary_result_ne', ternary_result_ne', reshape_result_ne', TRef.ofBuf, TRef.toBuf, cast_eq]
theorem segA_keep_arg1 : after (segA (F := Ideal)) W (main_arg1 : DevRef τ sig) = W (main_arg1 : DevRef τ sig) := by
  simp (disch := decide) only [after_cons, after_nil, segA, nullary_result', unary_result', binary_result', ternary_result',
    nullary_result_ne', unary_result_ne', binary_result_ne', ternary_result_ne', reshape_result_ne', TRef.ofBuf, TRef.toBuf, cast_eq]
theorem segA_keep_arg4 : after (segA (F := Ideal)) W (main_arg4 : DevRef τ sig) = W (main_arg4 : DevRef τ sig) := by
  simp (disch := decide) only [after_cons, after_nil, segA, nullary_result', unary_result', binary_result', ternary_result',
    nullary_result_ne', unary_result_ne', binary_result_ne', ternary_result_ne', reshape_result_ne', TRef.ofBuf, TRef.toBuf, cast_eq]
theorem segA_keep_arg6 : after (segA (F := Ideal)) W (main_arg6 : DevRef τ sig) = W (main_arg6 : DevRef τ sig) := by
  simp (disch := decide) only [after_cons, after_nil, segA, nullary_result', unary_result', binary_result', ternary_result',
    nullary_result_ne', unary_result_ne', binary_result_ne', ternary_result_ne', reshape_result_ne', TRef.ofBuf, TRef.toBuf, cast_eq]
theorem segA_keep_arg8 : after (segA (F := Ideal)) W (main_arg8 : DevRef τ sig) = W (main_arg8 : DevRef τ sig) := by
  simp (disch := decide) only [after_cons, after_nil, segA, nullary_result', unary_result', binary_result', ternary_result',
    nullary_result_ne', unary_result_ne', binary_result_ne', ternary_result_ne', reshape_result_ne', TRef.ofBuf, TRef.toBuf, cast_eq]
theorem segA_keep_cst : after (segA (F := Ideal)) W (main_cst : DevRef τ sig) = W (main_cst : DevRef τ sig) := by
  simp (disch := decide) only [after_cons, after_nil, segA, nullary_result', unary_result', binary_result', ternary_result',
    nullary_result_ne', unary_result_ne', binary_result_ne', ternary_result_ne', reshape_result_ne', TRef.ofBuf, TRef.toBuf, cast_eq]
theorem segB_keep_arg0 : after (segB (F := Ideal)) W (main_arg0 : DevRef τ sig) = W (main_arg0 : DevRef τ sig) := by
  simp (disch := decide) only [after_cons, after_nil, segB, nullary_result', unary_result', binary_result', ternary_result',
    nullary_result_ne', unary_result_ne', binary_result_ne', ternary_result_ne', reshape_result_ne', TRef.ofBuf, TRef.toBuf, cast_eq]
theorem segB_keep_arg1 : after (segB (F := Ideal)) W (main_arg1 : DevRef τ sig) = W (main_arg1 : DevRef τ sig) := by
  simp (disch := decide) only [after_cons, after_nil, segB, nullary_result', unary_result', binary_result', ternary_result',
    nullary_result_ne', unary_result_ne', binary_result_ne', ternary_result_ne', reshape_result_ne', TRef.ofBuf, TRef.toBuf, cast_eq]
theorem segB_keep_arg4 : after (segB (F := Ideal)) W (main_arg4 : DevRef τ sig) = W (main_arg4 : DevRef τ sig) := by
  simp (disch := decide) only [after_cons, after_nil, segB, nullary_result', unary_result', binary_result', ternary_result',
    nullary_result_ne', unary_result_ne', binary_result_ne', ternary_result_ne', reshape_result_ne', TRef.ofBuf, TRef.toBuf, cast_eq]
theorem segB_keep_arg6 : after (segB (F := Ideal)) W (main_arg6 : DevRef τ sig) = W (main_arg6 : DevRef τ sig) := by
  simp (disch := decide) only [after_cons, after_nil, segB, nullary_result', unary_result', binary_result', ternary_result',
    nullary_result_ne', unary_result_ne', binary_result_ne', ternary_result_ne', reshape_result_ne', TRef.ofBuf, TRef.toBuf, cast_eq]
theorem segB_keep_cst : after (segB (F := Ideal)) W (main_cst : DevRef τ sig) = W (main_cst : DevRef τ sig) := by
  simp (disch := decide) only [after_cons, after_nil, segB, nullary_result', unary_result', binary_result', ternary_result',
    nullary_result_ne', unary_result_ne', binary_result_ne', ternary_result_ne', reshape_result_ne', TRef.ofBuf, TRef.toBuf, cast_eq]
theorem segC_keep_arg1 : after (segC (F := Ideal)) W (main_arg1 : DevRef τ sig) = W (main_arg1 : DevRef τ sig) := by
  simp (disch := decide) only [after_cons, after_nil, segC, nullary_result', unary_result', binary_result', ternary_result',
    nullary_result_ne', unary_result_ne', binary_result_ne', ternary_result_ne', reshape_result_ne', TRef.ofBuf, TRef.toBuf, cast_eq]
theorem segC_keep_arg4 : after (segC (F := Ideal)) W (main_arg4 : DevRef τ sig) = W (main_arg4 : DevRef τ sig) := by
  simp (disch := decide) only [after_cons, after_nil, segC, nullary_result', unary_result', binary_result', ternary_result',
    nullary_result_ne', unary_result_ne', binary_result_ne', ternary_result_ne', reshape_result_ne', TRef.ofBuf, TRef.toBuf, cast_eq]
theorem segC_keep_arg6 : after (segC (F := Ideal)) W (main_arg6 : DevRef τ sig) = W (main_arg6 : DevRef τ sig) := by
  simp (disch := decide) only [after_cons, after_nil, segC, nullary_result', unary_result', binary_result', ternary_result',
    nullary_result_ne', unary_result_ne', binary_result_ne', ternary_result_ne', reshape_result_ne', TRef.ofBuf, TRef.toBuf, cast_eq]
theorem segC_keep_cst : after (segC (F := Ideal)) W (main_cst : DevRef τ sig) = W (main_cst : DevRef τ sig) := by
  simp (disch := decide) only [after_cons, after_nil, segC, nullary_result', unary_result', binary_result', ternary_result',
    nullary_result_ne', unary_result_ne', binary_result_ne', ternary_result_ne', reshape_result_ne', TRef.ofBuf, TRef.toBuf, cast_eq]
theorem segC_keep_v108 : after (segC (F := Ideal)) W (main_v108 : DevRef τ sig) = W (main_v108 : DevRef τ sig) := by
  simp (disch := decide) only [after_cons, after_nil, segC, nullary_result', unary_result', binary_result', ternary_result',
    nullary_result_ne', unary_result_ne', binary_result_ne', ternary_result_ne', reshape_result_ne', TRef.ofBuf, TRef.toBuf, cast_eq]
theorem segD_keep_arg1 : after (segD (F := Ideal)) W (main_arg1 : DevRef τ sig) = W (main_arg1 : DevRef τ sig) := by
  simp (disch := decide) only [after_cons, after_nil, segD, nullary_result', unary_result', binary_result', ternary_result',
    nullary_result_ne', unary_result_ne', binary_result_ne', ternary_result_ne', reshape_result_ne', TRef.ofBuf, TRef.toBuf, cast_eq]
theorem segD_keep_arg4 : after (segD (F := Ideal)) W (main_arg4 : DevRef τ sig) = W (main_arg4 : DevRef τ sig) := by
  simp (disch := decide) only [after_cons, after_nil, segD, nullary_result', unary_result', binary_result', ternary_result',
    nullary_result_ne', unary_result_ne', binary_result_ne', ternary_result_ne', reshape_result_ne', TRef.ofBuf, TRef.toBuf, cast_eq]
theorem segD_keep_arg6 : after (segD (F := Ideal)) W (main_arg6 : DevRef τ sig) = W (main_arg6 : DevRef τ sig) := by
  simp (disch := decide) only [after_cons, after_nil, segD, nullary_result', unary_result', binary_result', ternary_result',
    nullary_result_ne', unary_result_ne', binary_result_ne', ternary_result_ne', reshape_result_ne', TRef.ofBuf, TRef.toBuf, cast_eq]
theorem segD_keep_cst : after (segD (F := Ideal)) W (main_cst : DevRef τ sig) = W (main_cst : DevRef τ sig) := by
  simp (disch := decide) only [after_cons, after_nil, segD, nullary_result', unary_result', binary_result', ternary_result',
    nullary_result_ne', unary_result_ne', binary_result_ne', ternary_result_ne', reshape_result_ne', TRef.ofBuf, TRef.toBuf, cast_eq]
theorem segD_keep_v108 : after (segD (F := Ideal)) W (main_v108 : DevRef τ sig) = W (main_v108 : DevRef τ sig) := by
  simp (disch := decide) only [after_cons, after_nil, segD, nullary_result', unary_result', binary_result', ternary_result',
    nullary_result_ne', unary_result_ne', binary_result_ne', ternary_result_ne', reshape_result_ne', TRef.ofBuf, TRef.toBuf, cast_eq]
theorem segE_keep_arg4 : after (segE (F := Ideal)) W (main_arg4 : DevRef τ sig) = W (main_arg4 : DevRef τ sig) := by
  simp (disch := decide) only [after_cons, after_nil, segE, nullary_result', unary_result', binary_result', ternary_result',
    nullary_result_ne', unary_result_ne', binary_result_ne', ternary_result_ne', reshape_result_ne', TRef.ofBuf, TRef.toBuf, cast_eq]
theorem segE_keep_cst : after (segE (F := Ideal)) W (main_cst : DevRef τ sig) = W (main_cst : DevRef τ sig) := by
  simp (disch := decide) only [after_cons, after_nil, segE, nullary_result', unary_result', binary_result', ternary_result',
    nullary_result_ne', unary_result_ne', binary_result_ne', ternary_result_ne', reshape_result_ne', TRef.ofBuf, TRef.toBuf, cast_eq]
theorem segE_keep_v108 : after (segE (F := Ideal)) W (main_v108 : DevRef τ sig) = W (main_v108 : DevRef τ sig) := by
  simp (disch := decide) only [after_cons, after_nil, segE, nullary_result', unary_result', binary_result', ternary_result',
    nullary_result_ne', unary_result_ne', binary_result_ne', ternary_result_ne', reshape_result_ne', TRef.ofBuf, TRef.toBuf, cast_eq]
theorem segE_keep_v118 : after (segE (F := Ideal)) W (main_v118 : DevRef τ sig) = W (main_v118 : DevRef τ sig) := by
  simp (disch := decide) only [after_cons, after_nil, segE, nullary_result', unary_result', binary_result', ternary_result',
    nullary_result_ne', unary_result_ne', binary_result_ne', ternary_result_ne', reshape_result_ne', TRef.ofBuf, TRef.toBuf, cast_eq]
theorem segF_keep_arg4 : after (segF (F := Ideal)) W (main_arg4 : DevRef τ sig) = W (main_arg4 : DevRef τ sig) := by
  simp (disch := decide) only [after_cons, after_nil, segF, nullary_result', unary_result', binary_result', ternary_result',
    nullary_result_ne', unary_result_ne', binary_result_ne', ternary_result_ne', reshape_result_ne', TRef.ofBuf, TRef.toBuf, cast_eq]
theorem segF_keep_v108 : after (segF (F := Ideal)) W (main_v108 : DevRef τ sig) = W (main_v108 : DevRef τ sig) := by
  simp (disch := decide) only [after_cons, after_nil, segF, nullary_result', unary_result', binary_result', ternary_result',
    nullary_result_ne', unary_result_ne', binary_result_ne', ternary_result_ne', reshape_result_ne', TRef.ofBuf, TRef.toBuf, cast_eq]
theorem segF_keep_v118 : after (segF (F := Ideal)) W (main_v118 : DevRef τ sig) = W (main_v118 : DevRef τ sig) := by
  simp (disch := decide) only [after_cons, after_nil, segF, nullary_result', unary_result', binary_result', ternary_result',
    nullary_result_ne', unary_result_ne', binary_result_ne', ternary_result_ne', reshape_result_ne', TRef.ofBuf, TRef.toBuf, cast_eq]
theorem segG_keep_v108 : after (segG (F := Ideal)) W (main_v108 : DevRef τ sig) = W (main_v108 : DevRef τ sig) := by
  simp (disch := decide) only [after_cons, after_nil, segG, nullary_result', unary_result', binary_result', ternary_result',
    nullary_result_ne', unary_result_ne', binary_result_ne', ternary_result_ne', reshape_result_ne', TRef.ofBuf, TRef.toBuf, cast_eq]
theorem segG_keep_v118 : after (segG (F := Ideal)) W (main_v118 : DevRef τ sig) = W (main_v118 : DevRef τ sig) := by
  simp (disch := decide) only [after_cons, after_nil, segG, nullary_result', unary_result', binary_result', ternary_result',
    nullary_result_ne', unary_result_ne', binary_result_ne', ternary_result_ne', reshape_result_ne', TRef.ofBuf, TRef.toBuf, cast_eq]
theorem segH1_keep_v108 : after (segH1 (F := Ideal)) W (main_v108 : DevRef τ sig) = W (main_v108 : DevRef τ sig) := by
  simp (disch := decide) only [after_cons, after_nil, segH1, nullary_result', unary_result', binary_result', ternary_result',
    nullary_result_ne', unary_result_ne', binary_result_ne', ternary_result_ne', reshape_result_ne', TRef.ofBuf, TRef.toBuf, cast_eq]
theorem segH2_keep_v108 : after (segH2 (F := Ideal)) W (main_v108 : DevRef τ sig) = W (main_v108 : DevRef τ sig) := by
  simp (disch := decide) only [after_cons, after_nil, segH2, nullary_result', unary_result', binary_result', ternary_result',
    nullary_result_ne', unary_result_ne', binary_result_ne', ternary_result_ne', reshape_result_ne', TRef.ofBuf, TRef.toBuf, cast_eq]

/-! ## Window 2 as the stretches in a row -/

theorem opsW2_split : (opsW2 (F := Ideal)) = segA ++ (segB ++ (segC ++ (segD ++ (segE ++ (segF ++ (segG ++ (segH1 ++ segH2))))))) := rfl

/-- The corner table is in place after window 0. -/
theorem w0_cst (V : Valuation τ sig (Elt Ideal)) : after (opsW0 (F := Ideal)) V (main_cst : DevRef τ sig) = cornerTab := by
  simp (disch := decide) only [after_cons, after_nil, opsW0, nullary_result', unary_result', binary_result', ternary_result',
    nullary_result_ne', unary_result_ne', binary_result_ne', ternary_result_ne', reshape_result_ne', TRef.ofBuf, TRef.toBuf, cast_eq]
  rfl

/-- The count after window 2. -/
theorem w2_v108 : after (opsW2 (F := Ideal)) W (main_v108 : DevRef τ sig) = cntR (W (main_arg8 : DevRef τ sig)) := by
  simp only [opsW2_split, after_app]
  rw [segH2_keep_v108, segH1_keep_v108, segG_keep_v108, segF_keep_v108, segE_keep_v108, segD_keep_v108, segC_keep_v108, segB_v108,
    segA_keep_arg8]

/-- The boxes' components side by side, before they are cut out. -/
theorem w2_v136 :
    after (segH1 (F := Ideal)) (after (segG (F := Ideal)) (after (segF (F := Ideal)) (after (segE (F := Ideal)) (after (segD (F := Ideal))
      (after (segC (F := Ideal)) (after (segB (F := Ideal)) (after (segA (F := Ideal)) W))))))) (main_v136 : DevRef τ sig)
      = cat (meanH (hTake (W (main_arg0 : DevRef τ sig)) (W (main_arg6 : DevRef τ sig)))) (scat (meanO (oTake (W (main_arg1 : DevRef τ sig)) (W (main_arg6 : DevRef τ sig))) (W (main_cst : DevRef τ sig))) (W (main_arg4 : DevRef τ sig))) := by
  rw [segH1_v136, segG_v134, segG_keep_v118, segF_keep_v118, segE_keep_v118, segD_v118, segC_v113,
    segB_keep_arg0, segA_keep_arg0, segB_keep_arg6, segA_keep_arg6,
    segF_v131, segE_v123, segD_keep_arg1, segC_keep_arg1, segB_keep_arg1, segA_keep_arg1,
    segD_keep_arg6, segC_keep_arg6, segB_keep_arg6, segA_keep_arg6,
    segE_keep_cst, segD_keep_cst, segC_keep_cst, segB_keep_cst, segA_keep_cst,
    segF_keep_arg4, segE_keep_arg4, segD_keep_arg4, segC_keep_arg4, segB_keep_arg4, segA_keep_arg4]

/-- Box 0's components and box 1 after window 2. -/
theorem w2_v142 : after (opsW2 (F := Ideal)) W (main_v142 : DevRef τ sig)
    = comp0 (box0 (cat (meanH (hTake (W (main_arg0 : DevRef τ sig)) (W (main_arg6 : DevRef τ sig)))) (scat (meanO (oTake (W (main_arg1 : DevRef τ sig)) (W (main_arg6 : DevRef τ sig))) (W (main_cst : DevRef τ sig))) (W (main_arg4 : DevRef τ sig))))) := by
  simp only [opsW2_split, after_app]
  rw [segH2_v142, w2_v136]
theorem w2_v144 : after (opsW2 (F := Ideal)) W (main_v144 : DevRef τ sig)
    = comp1 (box0 (cat (meanH (hTake (W (main_arg0 : DevRef τ sig)) (W (main_arg6 : DevRef τ sig)))) (scat (meanO (oTake (W (main_arg1 : DevRef τ sig)) (W (main_arg6 : DevRef τ sig))) (W (main_cst : DevRef τ sig))) (W (main_arg4 : DevRef τ sig))))) := by
  simp only [opsW2_split, after_app]
  rw [segH2_v144, w2_v136]
theorem w2_v146 : after (opsW2 (F := Ideal)) W (main_v146 : DevRef τ sig)
    = comp2 (box0 (cat (meanH (hTake (W (main_arg0 : DevRef τ sig)) (W (main_arg6 : DevRef τ sig)))) (scat (meanO (oTake (W (main_arg1 : DevRef τ sig)) (W (main_arg6 : DevRef τ sig))) (W (main_cst : DevRef τ sig))) (W (main_arg4 : DevRef τ sig))))) := by
  simp only [opsW2_split, after_app]
  rw [segH2_v146, w2_v136]
theorem w2_v140 : after (opsW2 (F := Ideal)) W (main_v140 : DevRef τ sig)
    = box1 (cat (meanH (hTake (W (main_arg0 : DevRef τ sig)) (W (main_arg6 : DevRef τ sig)))) (scat (meanO (oTake (W (main_arg1 : DevRef τ sig)) (W (main_arg6 : DevRef τ sig))) (W (main_cst : DevRef τ sig))) (W (main_arg4 : DevRef τ sig)))) := by
  simp only [opsW2_split, after_app]
  rw [segH2_v140, w2_v136]

end Cert.ReferenceIdeal.RValR

end
-- ==== Proof.RValR2.lean ====
/-
  The repel branch's stretches read at an index. A gather at corner c of box bx of pair m is the batch's table read at
  that corner's index word; a mean is a quarter of the four corners' sum; the scatter adds the extra offsets into box 1
  and leaves box 0; a cut-out component of a box is that component of the side-by-side array. Put together, the
  reference's intersection over union of a pair's two boxes is the specification's term of the pair, and the total is
  the sum over the pairs of the kept quotients.
-/
import proofs.«169223_j2216203125376_1_alg».proof.Proof.RValR0

set_option maxRecDepth 16384

noncomputable section

namespace Cert.ReferenceIdeal.RValR

open Idealize.ShloMosaic Idealize.ShloMosaic.TcCoe Idealize.SL.Sem Idealize.ShloMosaic.ValueIdx Idealize.ShloMosaic.StableHlo Cert.ReferenceIdeal Cert.ReferenceIdeal.Gen Cert.ReferenceIdeal.RefRun Cert.ReferenceIdeal.RArgs Cert.IouSpec Cert.ReferenceIdeal.RIouScalar

/-- A conjunction with the set bit is the other operand. -/
theorem andi_one (y : BitVec 1) : IntOp.andi y 1#1 = y := by
  rcases BitVec.eq_zero_or_eq_one y with h | h <;> subst h <;> rfl

/-- A fold over a one-element range is one application. -/
theorem fold_andi_one (g : Fin 1 → BitVec 1) (e : BitVec 1) :
    (Finset.univ : Finset (Fin 1)).fold IntOp.andi e g = IntOp.andi (g default) e := by
  rw [Finset.univ_unique, Finset.fold_singleton]

/-- The repel words laid end to end, read at the position of corner `c` of box `bx` of pair `m`. -/
theorem idxV_apply (R : SR.Idx → BitVec 32) (b : Fin 64) (m : Fin 2048) (bx : Fin 2) (c : Fin 4) :
    idxV R (ix3 b (kR m bx c) 0) = R (ix4 b m bx c) := by
  refine (broadcastInDim_apply _ _ _ (ix3 b (kR m bx c) 0) (ix2 b (kR m bx c)) (fun a => ?_)).trans ?_
  · match a with
    | ⟨0, _⟩ => rfl
    | ⟨1, _⟩ => rfl
  · refine shapeCast_apply R _ (ix2 b (kR m bx c)) (ix4 b m bx c) ?_
    rw [Shape.rowMajor_val_four, Shape.rowMajor_val_two]
    show ((b.val * 2048 + m.val) * 2 + bx.val) * 4 + c.val = b.val * 16384 + (8 * m.val + 4 * bx.val + c.val)
    omega

/-- The in-range mask of an array of words at `(b, k)`: the conjunction over the unit axis is the one bit there. -/
theorem okV_at (y : IVec S64x16384x1 32) (b : Fin 64) (k : Fin 16384) : okV y (ix2 b k) = okW (y (ix3 b k 0)) := by
  have hR : Shape.Reduces S64x16384x1 [2] S64x16384 := by decide
  have hl : ∀ k' : Fin (S64x16384x1.size 2), hR.lift (ix2 b k) k' = ix3 b k 0 := by
    intro k'
    have h1 : k'.val < 1 := k'.isLt
    funext a
    match a with
    | ⟨0, _⟩ => exact Fin.ext rfl
    | ⟨1, _⟩ => exact Fin.ext rfl
    | ⟨2, _⟩ => exact Fin.ext (by show k'.val = 0; omega)
  refine (Host.reduce_eq_fold_single IntOp.andi _ _ reducesTo_S64x16384x1_S64x16384_d2 hR h_S_ (ix2 b k)).trans ?_
  refine (fold_andi_one _ _).trans ?_
  refine (andi_one _).trans ?_
  exact congrArg (fun q => IntOp.andi (IntOp.cmpi .sge (y q) 0#32) (IntOp.cmpi .sle (y q) 65535#32)) (hl _)

/-- The in-range mask of an array of words, read at `(b, k, 0)`. -/
theorem okV_apply (y : IVec S64x16384x1 32) (b : Fin 64) (k : Fin 16384) :
    broadcastInDim S64x16384x1 ![0, 1] bcast_S64x16384_S64x16384x1_0_1 (okV y) (ix3 b k 0) = okW (y (ix3 b k 0)) := by
  refine (broadcastInDim_apply _ _ _ (ix3 b k 0) (ix2 b k) (fun a => ?_)).trans ?_
  · match a with
    | ⟨0, _⟩ => rfl
    | ⟨1, _⟩ => rfl
  · exact okV_at y b k

/-- The heights gathered at the repel words, read at corner `c` of box `bx` of pair `m`: the height table of the
    batch read at that corner's word. -/
theorem hTake_apply (H : S64x1x256x256.Idx → EReal) (R : SR.Idx → BitVec 32) (b : Fin 64) (m : Fin 2048) (bx : Fin 2) (c : Fin 4) :
    hTake H R (ix3 b (kR m bx c) 0) = gh (shapeCast SHf H shapeCasts_S64x1x256x256_S64x1x65536) b (R (ix4 b m bx c)) := by
  have hw : wrapV (idxV R) (ix3 b (kR m bx c) 0) = wrapW (R (ix4 b m bx c)) := by
    rw [← idxV_apply R b m bx c]; rfl
  have hv : ∀ p : Fin 65536,
      transpose S64x65536x1 [0, 2, 1] (shapeCast S64x1x65536 H shapeCasts_S64x1x256x256_S64x1x65536) transposes_S64x1x65536_S64x65536x1_0_2_1
        (ix3 b p 0) = shapeCast SHf H shapeCasts_S64x1x256x256_S64x1x65536 (ix3 b 0 p) := by
    intro p
    refine transpose_apply _ _ _ _ (ix3 b 0 p) (fun a => ?_)
    match a with
    | ⟨0, _⟩ => rfl
    | ⟨1, _⟩ => rfl
    | ⟨2, _⟩ => rfl
  unfold hTake gh take
  rw [select_apply, okV_apply, RGather.gather_h, hw, hv]
  rfl
/-- The count read at its one index: the mask's count, converted. -/
theorem cntR_apply (M : SMR.Idx → BitVec 1) (j : S_.Idx) :
    cntR M j = (((countR M reducesTo_S64x2048x1_S_d0_1_2).toInt : ℝ) : EReal) := by
  obtain rfl := eq_ix0 j
  rfl

/-- The mean of the gathered heights at box `bx` of pair `m`: a quarter of the four corners' sum. -/
theorem meanH_apply (x : S64x16384x1.Idx → EReal) (b : Fin 64) (m : Fin 2048) (bx : Fin 2) :
    meanH x (ix5 b m bx 0 0) = mean4 fun c => x (ix3 b (kR m bx c) 0) := by
  unfold meanH mean4 fourF
  rw [hostDivf_apply]
  congr 1
  refine (broadcastInDim_apply _ _ _ (ix5 b m bx 0 0) (ix4 b m bx 0) (fun a => ?_)).trans ?_
  · match a with
    | ⟨0, _⟩ => rfl
    | ⟨1, _⟩ => rfl
    | ⟨2, _⟩ => rfl
    | ⟨3, _⟩ => rfl
  · rw [hostReduceAdd_apply, Ideal.hostReduceAdd_single _ (by decide)]
    show Ideal.ofBits .f32 0x00000000#32 + ∑ c : Fin 4, _ = _
    rw [Ideal.ofBits_zero_f32, zero_add]
    refine Finset.sum_congr rfl fun c _ => ?_
    refine shapeCast_apply x _ _ (ix3 b (kR m bx c) 0) ?_
    rw [Shape.rowMajor_val_three, Shape.rowMajor_val_five]
    show (b.val * 16384 + (8 * m.val + 4 * bx.val + c.val)) * 1 + 0 = (((b.val * 2048 + m.val) * 2 + bx.val) * 4 + c.val) * 1 + 0
    omega
/-- The in-range mask of an array of words, read at `(b, k, ch)` of the offsets' layout. -/
theorem okV_apply2 (y : IVec S64x16384x1 32) (b : Fin 64) (k : Fin 16384) (ch : Fin 2) :
    broadcastInDim S64x16384x2 ![0, 1] bcast_S64x16384_S64x16384x2_0_1 (okV y) (ix3 b k ch) = okW (y (ix3 b k 0)) := by
  refine (broadcastInDim_apply _ _ _ (ix3 b k ch) (ix2 b k) (fun a => ?_)).trans ?_
  · match a with
    | ⟨0, _⟩ => rfl
    | ⟨1, _⟩ => rfl
  · exact okV_at y b k

/-- The offsets gathered at the repel words, read at corner `c` of box `bx` of pair `m`: channel `ch` of the offset
    table of the batch read at that corner's word. -/
theorem oTake_apply (O : S64x2x256x256.Idx → EReal) (R : SR.Idx → BitVec 32) (b : Fin 64) (m : Fin 2048) (bx : Fin 2) (c : Fin 4)
    (ch : Fin 2) :
    oTake O R (ix3 b (kR m bx c) ch) = go (shapeCast SOf O shapeCasts_S64x2x256x256_S64x2x65536) b ch (R (ix4 b m bx c)) := by
  have hw : wrapV (idxV R) (ix3 b (kR m bx c) 0) = wrapW (R (ix4 b m bx c)) := by
    rw [← idxV_apply R b m bx c]; rfl
  have hv : ∀ p : Fin 65536,
      transpose S64x65536x2 [0, 2, 1] (shapeCast S64x2x65536 O shapeCasts_S64x2x256x256_S64x2x65536) transposes_S64x2x65536_S64x65536x2_0_2_1
        (ix3 b p ch) = shapeCast SOf O shapeCasts_S64x2x256x256_S64x2x65536 (ix3 b ch p) := by
    intro p
    refine transpose_apply _ _ _ _ (ix3 b ch p) (fun a => ?_)
    match a with
    | ⟨0, _⟩ => rfl
    | ⟨1, _⟩ => rfl
    | ⟨2, _⟩ => rfl
  unfold oTake go take
  rw [select_apply, okV_apply2, RGather.gather_off, hw, hv]
  rfl

/-- The constant table at corner `c`, channel `ch`. -/
theorem cornerTab_apply (c : Fin 4) (ch : Fin 2) : cornerTab (ix2 c ch) = offs c ch := by
  have hv : (S4x2.rowMajor (ix2 c ch)).val = 2 * c.val + ch.val := by
    rw [Shape.rowMajor_val_two]
    show c.val * 2 + ch.val = _
    omega
  have ht : ∀ i j : Fin 8, i.val = j.val → lit0 i = offTab j := by decide
  unfold cornerTab offs
  exact congrArg (Ideal.ofBits .f32) (ht _ _ hv)

/-- The mean of the gathered offsets at box `bx` of pair `m`, channel `ch`: a quarter of the four moved corners' sum. -/
theorem meanO_apply (x : S64x16384x2.Idx → EReal) (T : S4x2.Idx → EReal) (b : Fin 64) (m : Fin 2048) (bx : Fin 2) (ch : Fin 2) :
    meanO x T (ix5 b m bx 0 ch) = mean4 fun c => x (ix3 b (kR m bx c) ch) + T (ix2 c ch) := by
  unfold meanO mean4 fourF
  rw [hostDivf_apply]
  congr 1
  refine (broadcastInDim_apply _ _ _ (ix5 b m bx 0 ch) (ix4 b m bx ch) (fun a => ?_)).trans ?_
  · match a with
    | ⟨0, _⟩ => rfl
    | ⟨1, _⟩ => rfl
    | ⟨2, _⟩ => rfl
    | ⟨3, _⟩ => rfl
  · rw [hostReduceAdd_apply, Ideal.hostReduceAdd_single _ (by decide)]
    show Ideal.ofBits .f32 0x00000000#32 + ∑ c : Fin 4, _ = _
    rw [Ideal.ofBits_zero_f32, zero_add]
    refine Finset.sum_congr rfl fun c _ => ?_
    rw [addf_apply]
    congr 1
    · refine shapeCast_apply x _ _ (ix3 b (kR m bx c) ch) ?_
      rw [Shape.rowMajor_val_three, Shape.rowMajor_val_five]
      show (b.val * 16384 + (8 * m.val + 4 * bx.val + c.val)) * 2 + ch.val = (((b.val * 2048 + m.val) * 2 + bx.val) * 4 + c.val) * 2 + ch.val
      omega
    · refine (broadcastInDim_apply _ _ _ _ (ix5 0 0 0 c ch) (fun a => ?_)).trans ?_
      · match a with
        | ⟨0, _⟩ => rfl
        | ⟨1, _⟩ => rfl
        | ⟨2, _⟩ => rfl
        | ⟨3, _⟩ => rfl
        | ⟨4, _⟩ => rfl
      · refine shapeCast_apply T _ _ (ix2 c ch) ?_
        rw [Shape.rowMajor_val_two, Shape.rowMajor_val_five]
        show c.val * 2 + ch.val = ((((0 : Fin 1).val * 1 + (0 : Fin 1).val) * 1 + (0 : Fin 1).val) * 4 + c.val) * 2 + ch.val
        simp
/-- The scatter with the constant index word 1: box 1 gains the extra offsets, box 0 keeps its own. -/
theorem scat_apply (x : S64x2048x2x1x2.Idx → EReal) (P : SP.Idx → EReal) (b : Fin 64) (m : Fin 2048) (bx : Fin 2) (ch : Fin 2) :
    scat x P (ix5 b m bx 0 ch) = if bx = 1 then x (ix5 b m bx 0 ch) + P (ix3 b m ch) else x (ix5 b m bx 0 ch) := by
  have hu : broadcastInDim S64x2048x1x2 ![0, 1, 3] bcast_S64x2048x2_S64x2048x1x2_0_1_3 P (ix4 b m 0 ch) = P (ix3 b m ch) := by
    refine broadcastInDim_apply _ _ _ (ix4 b m 0 ch) (ix3 b m ch) (fun a => ?_)
    match a with
    | ⟨0, _⟩ => rfl
    | ⟨1, _⟩ => rfl
    | ⟨2, _⟩ => rfl
  unfold scat
  rw [RScatter.scatter_box _ _ rfl, hu]

/-- A component of a box, read at pair `m`. -/
theorem comp0_apply (y : S64x2048x1x3.Idx → EReal) (b : Fin 64) (m : Fin 2048) : comp0 y (ix3 b m 0) = y (ix4 b m 0 0) := by
  unfold comp0
  refine (shapeCast_apply _ _ (ix3 b m 0) (ix4 b m 0 0) ?_).trans ?_
  · rw [Shape.rowMajor_val_four, Shape.rowMajor_val_three]
    show ((b.val * 2048 + m.val) * 1 + 0) * 1 + 0 = (b.val * 2048 + m.val) * 1 + 0
    omega
  · refine extractStridedSlice_apply _ _ _ _ (ix4 b m 0 0) (fun a => ?_)
    match a with
    | ⟨0, _⟩ => exact (Nat.zero_add _).symm
    | ⟨1, _⟩ => exact (Nat.zero_add _).symm
    | ⟨2, _⟩ => rfl
    | ⟨3, _⟩ => rfl
theorem comp1_apply (y : S64x2048x1x3.Idx → EReal) (b : Fin 64) (m : Fin 2048) : comp1 y (ix3 b m 0) = y (ix4 b m 0 1) := by
  unfold comp1
  refine (shapeCast_apply _ _ (ix3 b m 0) (ix4 b m 0 0) ?_).trans ?_
  · rw [Shape.rowMajor_val_four, Shape.rowMajor_val_three]
    show ((b.val * 2048 + m.val) * 1 + 0) * 1 + 0 = (b.val * 2048 + m.val) * 1 + 0
    omega
  · refine extractStridedSlice_apply _ _ _ _ (ix4 b m 0 1) (fun a => ?_)
    match a with
    | ⟨0, _⟩ => exact (Nat.zero_add _).symm
    | ⟨1, _⟩ => exact (Nat.zero_add _).symm
    | ⟨2, _⟩ => rfl
    | ⟨3, _⟩ => rfl
theorem comp2_apply (y : S64x2048x1x3.Idx → EReal) (b : Fin 64) (m : Fin 2048) : comp2 y (ix3 b m 0) = y (ix4 b m 0 2) := by
  unfold comp2
  refine (shapeCast_apply _ _ (ix3 b m 0) (ix4 b m 0 0) ?_).trans ?_
  · rw [Shape.rowMajor_val_four, Shape.rowMajor_val_three]
    show ((b.val * 2048 + m.val) * 1 + 0) * 1 + 0 = (b.val * 2048 + m.val) * 1 + 0
    omega
  · refine extractStridedSlice_apply _ _ _ _ (ix4 b m 0 2) (fun a => ?_)
    match a with
    | ⟨0, _⟩ => exact (Nat.zero_add _).symm
    | ⟨1, _⟩ => exact (Nat.zero_add _).symm
    | ⟨2, _⟩ => rfl
    | ⟨3, _⟩ => rfl

/-- A box of every pair, read at pair `m`, component `j`. -/
theorem box0_apply (z : S64x2048x2x1x3.Idx → EReal) (b : Fin 64) (m : Fin 2048) (j : Fin 3) : box0 z (ix4 b m 0 j) = z (ix5 b m 0 0 j) := by
  unfold box0
  refine (shapeCast_apply _ _ (ix4 b m 0 j) (ix5 b m 0 0 j) ?_).trans ?_
  · rw [Shape.rowMajor_val_five, Shape.rowMajor_val_four]
    show (((b.val * 2048 + m.val) * 1 + 0) * 1 + 0) * 3 + j.val = ((b.val * 2048 + m.val) * 1 + 0) * 3 + j.val
    omega
  · refine extractStridedSlice_apply _ _ _ _ (ix5 b m 0 0 j) (fun a => ?_)
    match a with
    | ⟨0, _⟩ => exact (Nat.zero_add _).symm
    | ⟨1, _⟩ => exact (Nat.zero_add _).symm
    | ⟨2, _⟩ => rfl
    | ⟨3, _⟩ => rfl
    | ⟨4, _⟩ => exact (Nat.zero_add _).symm
theorem box1_apply (z : S64x2048x2x1x3.Idx → EReal) (b : Fin 64) (m : Fin 2048) (j : Fin 3) : box1 z (ix4 b m 0 j) = z (ix5 b m 1 0 j) := by
  unfold box1
  refine (shapeCast_apply _ _ (ix4 b m 0 j) (ix5 b m 0 0 j) ?_).trans ?_
  · rw [Shape.rowMajor_val_five, Shape.rowMajor_val_four]
    show (((b.val * 2048 + m.val) * 1 + 0) * 1 + 0) * 3 + j.val = ((b.val * 2048 + m.val) * 1 + 0) * 3 + j.val
    omega
  · refine extractStridedSlice_apply _ _ _ _ (ix5 b m 1 0 j) (fun a => ?_)
    match a with
    | ⟨0, _⟩ => exact (Nat.zero_add _).symm
    | ⟨1, _⟩ => exact (Nat.zero_add _).symm
    | ⟨2, _⟩ => rfl
    | ⟨3, _⟩ => rfl
    | ⟨4, _⟩ => exact (Nat.zero_add _).symm

/-- The three components of a box: the exponential of the mean height … -/
theorem cat_apply0 (h : S64x2048x2x1x1.Idx → EReal) (o : S64x2048x2x1x2.Idx → EReal) (b : Fin 64) (m : Fin 2048) (bx : Fin 2) :
    cat h o (ix5 b m bx 0 0) = Ideal.exp (h (ix5 b m bx 0 0)) := by
  unfold cat
  refine (concatenate_pair_apply_left (s₁ := S64x2048x2x1x1) (s₂ := S64x2048x2x1x2) (t := S64x2048x2x1x3) 4 _ _ _
    (ix5 b m bx (0 : Fin 1) (0 : Fin 3)) rfl (ix5 b m bx (0 : Fin 1) (0 : Fin 1)) (fun a => ?_)).trans rfl
  match a with
  | ⟨0, _⟩ => rfl
  | ⟨1, _⟩ => rfl
  | ⟨2, _⟩ => rfl
  | ⟨3, _⟩ => rfl
  | ⟨4, _⟩ => rfl
/-- … and the two mean offsets. -/
theorem cat_apply1 (h : S64x2048x2x1x1.Idx → EReal) (o : S64x2048x2x1x2.Idx → EReal) (b : Fin 64) (m : Fin 2048) (bx : Fin 2) :
    cat h o (ix5 b m bx 0 1) = o (ix5 b m bx 0 0) := by
  unfold cat
  refine concatenate_pair_apply_right (s₁ := S64x2048x2x1x1) (s₂ := S64x2048x2x1x2) (t := S64x2048x2x1x3) 4 _ _ _
    (ix5 b m bx (0 : Fin 1) (1 : Fin 3)) rfl rfl (ix5 b m bx (0 : Fin 1) (0 : Fin 2)) (fun a ha => ?_) rfl
  match a with
  | ⟨0, _⟩ => rfl
  | ⟨1, _⟩ => rfl
  | ⟨2, _⟩ => rfl
  | ⟨3, _⟩ => rfl
  | ⟨4, _⟩ => exact absurd rfl ha
theorem cat_apply2 (h : S64x2048x2x1x1.Idx → EReal) (o : S64x2048x2x1x2.Idx → EReal) (b : Fin 64) (m : Fin 2048) (bx : Fin 2) :
    cat h o (ix5 b m bx 0 2) = o (ix5 b m bx 0 1) := by
  unfold cat
  refine concatenate_pair_apply_right (s₁ := S64x2048x2x1x1) (s₂ := S64x2048x2x1x2) (t := S64x2048x2x1x3) 4 _ _ _
    (ix5 b m bx (0 : Fin 1) (2 : Fin 3)) rfl rfl (ix5 b m bx (0 : Fin 1) (1 : Fin 2)) (fun a ha => ?_) rfl
  match a with
  | ⟨0, _⟩ => rfl
  | ⟨1, _⟩ => rfl
  | ⟨2, _⟩ => rfl
  | ⟨3, _⟩ => rfl
  | ⟨4, _⟩ => exact absurd rfl ha
/-- The total read at its one index: the sum over every pair of the kept quotients. -/
theorem totalV_apply (M : SMR.Idx → BitVec 1) (cnt : S_.Idx → EReal) (iou : S64x2048x1.Idx → EReal) (j : S_.Idx) :
    totalV M cnt iou j = ∑ i : SMR.Idx, Scalar.select (M i) (Ideal.div (iou i) (cnt ix0 + eps4)) zeroF := by
  unfold totalV
  rw [hostReduceAdd_apply, Ideal.hostReduceAdd_total _ (fun b => b.elim0)]
  show Ideal.ofBits .f32 0x00000000#32 + _ = _
  rw [Ideal.ofBits_zero_f32, zero_add]
  refine Finset.sum_congr rfl fun i _ => ?_
  rw [select_apply, hostDivf_apply, broadcastInDim_scalar_apply, broadcastInDim_scalar_apply]
  rfl

/-! ## The pair's two boxes, read at an index -/

section Chain
variable (H : S64x1x256x256.Idx → EReal) (O : S64x2x256x256.Idx → EReal) (R : SR.Idx → BitVec 32) (P : SP.Idx → EReal)

/-- Every pair's two boxes: the exponential of the mean height and the two mean offsets, box 1's moved by the extra
    offsets. -/
def boxesV : S64x2048x2x1x3.Idx → EReal := cat (meanH (hTake H R)) (scat (meanO (oTake O R) cornerTab) P)

/-- A box's height component: the exponential of the mean of its corners' heights. -/
theorem boxes_h (b : Fin 64) (m : Fin 2048) (bx : Fin 2) :
    boxesV H O R P (ix5 b m bx 0 0)
      = Ideal.exp (mean4 fun c => rH (shapeCast SHf H shapeCasts_S64x1x256x256_S64x1x65536) R b m bx c) := by
  unfold boxesV
  rw [cat_apply0, meanH_apply]
  exact congrArg Ideal.exp (congrArg mean4 (funext fun c => hTake_apply H R b m bx c))

/-- The mean of a box's corners' offsets on channel `ch`, before the extra offsets. -/
theorem meanO_chain (b : Fin 64) (m : Fin 2048) (bx : Fin 2) (ch : Fin 2) :
    meanO (oTake O R) cornerTab (ix5 b m bx 0 ch)
      = mean4 fun c => rO (shapeCast SOf O shapeCasts_S64x2x256x256_S64x2x65536) R b m bx c ch := by
  rw [meanO_apply]
  refine congrArg mean4 (funext fun c => ?_)
  rw [oTake_apply, cornerTab_apply]
  rfl

/-- A box's first offset component. -/
theorem boxes_y (b : Fin 64) (m : Fin 2048) (bx : Fin 2) :
    boxesV H O R P (ix5 b m bx 0 1)
      = if bx = 1 then (mean4 fun c => rO (shapeCast SOf O shapeCasts_S64x2x256x256_S64x2x65536) R b m bx c 0) + P (ix3 b m 0)
        else mean4 fun c => rO (shapeCast SOf O shapeCasts_S64x2x256x256_S64x2x65536) R b m bx c 0 := by
  unfold boxesV
  rw [cat_apply1, scat_apply, meanO_chain]

/-- A box's second offset component. -/
theorem boxes_x (b : Fin 64) (m : Fin 2048) (bx : Fin 2) :
    boxesV H O R P (ix5 b m bx 0 2)
      = if bx = 1 then (mean4 fun c => rO (shapeCast SOf O shapeCasts_S64x2x256x256_S64x2x65536) R b m bx c 1) + P (ix3 b m 1)
        else mean4 fun c => rO (shapeCast SOf O shapeCasts_S64x2x256x256_S64x2x65536) R b m bx c 1 := by
  unfold boxesV
  rw [cat_apply2, scat_apply, meanO_chain]

/-- The reference's intersection over union of a pair's two boxes is the specification's term of the pair. -/
theorem pair_iou (b : Fin 64) (m : Fin 2048) :
    refIou (comp0 (box0 (boxesV H O R P)) (ix3 b m 0)) (comp1 (box0 (boxesV H O R P)) (ix3 b m 0)) (comp2 (box0 (boxesV H O R P)) (ix3 b m 0))
        (comp0 (box1 (boxesV H O R P)) (ix3 b m 0)) (comp1 (box1 (boxesV H O R P)) (ix3 b m 0)) (comp2 (box1 (boxesV H O R P)) (ix3 b m 0))
      = repelTerm (shapeCast SHf H shapeCasts_S64x1x256x256_S64x1x65536) (shapeCast SOf O shapeCasts_S64x2x256x256_S64x2x65536) P R b m := by
  rw [refIou_eq, comp0_apply, comp1_apply, comp2_apply, comp0_apply, comp1_apply, comp2_apply,
    box0_apply, box0_apply, box0_apply, box1_apply, box1_apply, box1_apply,
    boxes_h, boxes_h, boxes_y, boxes_y, boxes_x, boxes_x,
    if_neg (by decide : ¬ (0 : Fin 2) = 1), if_pos rfl, if_neg (by decide : ¬ (0 : Fin 2) = 1), if_pos rfl]
  rfl

end Chain

end Cert.ReferenceIdeal.RValR

end
-- ==== Proof.RValR3.lean ====
/-
  Windows 3 and 4 of the reference read as one line: from the boxes' components to the total. Every operation between
  is pointwise, so the total is the reduction, over all pairs, of the intersection over union of the components at the
  pair, divided by the count plus 1e-4 and kept where the mask is set.
-/
import proofs.«169223_j2216203125376_1_alg».proof.Proof.RValR0

set_option maxRecDepth 16384

noncomputable section

namespace Cert.ReferenceIdeal.RValR

open Idealize.ShloMosaic Idealize.ShloMosaic.TcCoe Idealize.SL.Sem Idealize.ShloMosaic.ValueIdx Idealize.ShloMosaic.StableHlo Cert.ReferenceIdeal Cert.ReferenceIdeal.Gen Cert.ReferenceIdeal.RefRun Cert.ReferenceIdeal.RArgs Cert.IouSpec Cert.ReferenceIdeal.RIouScalar

variable (W : Valuation τ sig (Elt Ideal))

theorem rs_v148 (F : Valuation τ sig (Elt Ideal)) :
    (reshape (τ := τ) (Val := Elt Ideal) main_v147 main_v148 rfl shapeCasts_S64x2048x1x1_S64x2048x1).result F (no_index (Proc.devRef .tc main_v148))
      = shapeCast S64x2048x1 (F (Proc.devRef .tc main_v147)) shapeCasts_S64x2048x1x1_S64x2048x1 := reshape_result' ..
theorem rs_v150 (F : Valuation τ sig (Elt Ideal)) :
    (reshape (τ := τ) (Val := Elt Ideal) main_v149 main_v150 rfl shapeCasts_S64x2048x1x1_S64x2048x1).result F (no_index (Proc.devRef .tc main_v150))
      = shapeCast S64x2048x1 (F (Proc.devRef .tc main_v149)) shapeCasts_S64x2048x1x1_S64x2048x1 := reshape_result' ..
theorem rs_v152 (F : Valuation τ sig (Elt Ideal)) :
    (reshape (τ := τ) (Val := Elt Ideal) main_v151 main_v152 rfl shapeCasts_S64x2048x1x1_S64x2048x1).result F (no_index (Proc.devRef .tc main_v152))
      = shapeCast S64x2048x1 (F (Proc.devRef .tc main_v151)) shapeCasts_S64x2048x1x1_S64x2048x1 := reshape_result' ..

set_option maxHeartbeats 16000000 in
theorem w34_v209 : after (opsW4 (F := Ideal)) (after (opsW3 (F := Ideal)) W) (main_v209 : DevRef τ sig)
    = totalV (W (main_arg8 : DevRef τ sig)) (W (main_v108 : DevRef τ sig))
        (fun i => refIou (W (main_v142 : DevRef τ sig) i) (W (main_v144 : DevRef τ sig) i) (W (main_v146 : DevRef τ sig) i)
          (comp0 (W (main_v140 : DevRef τ sig)) i) (comp1 (W (main_v140 : DevRef τ sig)) i) (comp2 (W (main_v140 : DevRef τ sig)) i)) := by
  simp (disch := decide) only [after_cons, after_nil, opsW3, opsW4, rs_v148, rs_v150, rs_v152, nullary_result', unary_result', binary_result', ternary_result',
    nullary_result_ne', unary_result_ne', binary_result_ne', ternary_result_ne', reshape_result_ne', TRef.ofBuf, TRef.toBuf, cast_eq]
  simp only [totalV]
  refine congrArg (fun z => Host.reduceAdd (select _ (Host.divf z _) _) _ reducesTo_S64x2048x1_S_d0_1_2 h_S_) ?_
  funext i
  rfl

end Cert.ReferenceIdeal.RValR

end
-- ==== Proof.RValR.lean ====
/-
  The reference's repel total. Windows 0 and 1 leave the arguments alone and window 0 puts the unit square's corners in
  place; after window 2 the count is the mask's count and the boxes' components are the gathers' means; windows 3 and 4
  turn them, pair by pair, into the intersection over union, divide by the count plus 1e-4, keep the quotient where the
  mask is set and add everything up.
-/
import proofs.«169223_j2216203125376_1_alg».proof.Proof.RValR1
import proofs.«169223_j2216203125376_1_alg».proof.Proof.RValR2
import proofs.«169223_j2216203125376_1_alg».proof.Proof.RValR3

set_option maxRecDepth 16384

noncomputable section

namespace Cert.ReferenceIdeal.RValR

open Idealize.ShloMosaic Idealize.ShloMosaic.TcCoe Idealize.SL.Sem Idealize.ShloMosaic.ValueIdx Idealize.ShloMosaic.StableHlo Cert.ReferenceIdeal Cert.ReferenceIdeal.Gen Cert.ReferenceIdeal.RefRun Cert.ReferenceIdeal.RArgs Cert.IouSpec Cert.ReferenceIdeal.RIouScalar

variable (V : Valuation τ sig (Elt Ideal))

/-- The reference's repel total: every pair's term divided by (count + 1e-4), kept where the mask is set, all added
    up. -/
theorem repel_val :
    (fin V (main_v209 : DevRef τ sig) : S_.Idx → EReal)
      = fun _ => repelSumR (hf V) (of_ V) (argP V) (argR V) (argMR V) (denom (countR (argMR V) reducesTo_S64x2048x1_S_d0_1_2)) := by
  have hW : ∀ r : Ref sig .tc, r ∉ opsW0_W → r ∉ opsW1_W →
      after (opsW1 (F := Ideal)) (after (opsW0 (F := Ideal)) V) (Proc.devRef .tc r) = V (Proc.devRef .tc r) :=
    fun r h0 h1 => by rw [opsW1_keep _ r h1, opsW0_keep _ r h0]
  have a0 := hW main_arg0 (by decide) (by decide)
  have a1 := hW main_arg1 (by decide) (by decide)
  have a4 := hW main_arg4 (by decide) (by decide)
  have a6 := hW main_arg6 (by decide) (by decide)
  have a8 := hW main_arg8 (by decide) (by decide)
  have ac : after (opsW1 (F := Ideal)) (after (opsW0 (F := Ideal)) V) (main_cst : DevRef τ sig) = cornerTab := by
    rw [opsW1_keep _ main_cst (by decide), w0_cst]
  show after (opsW4 (F := Ideal)) (after (opsW3 (F := Ideal)) (after (opsW2 (F := Ideal))
    (after (opsW1 (F := Ideal)) (after (opsW0 (F := Ideal)) V)))) (main_v209 : DevRef τ sig) = _
  generalize after (opsW1 (F := Ideal)) (after (opsW0 (F := Ideal)) V) = W₂ at a0 a1 a4 a6 a8 ac ⊢
  rw [w34_v209]
  funext j
  rw [totalV_apply]
  unfold repelSumR
  refine Finset.sum_congr rfl fun i _ => ?_
  have h2 : i 2 = (0 : Fin 1) := Fin.ext (by
    have h : (i 2).val < 1 := (i 2).isLt
    show (i 2).val = 0
    omega)
  have hi : i = ix3 (i 0) (i 1) (0 : Fin 1) := (eq_ix3 i).trans (congrArg (ix3 (i 0) (i 1)) h2)
  obtain ⟨b, m, rfl⟩ : ∃ (b : Fin 64) (m : Fin 2048), i = ix3 b m (0 : Fin 1) := ⟨i 0, i 1, hi⟩
  have hp := pair_iou (V (main_arg0 : DevRef τ sig)) (V (main_arg1 : DevRef τ sig)) (V (main_arg6 : DevRef τ sig))
    (V (main_arg4 : DevRef τ sig)) b m
  unfold boxesV at hp
  rw [opsW2_keep W₂ main_arg8 (by decide), a8, w2_v108, a8, cntR_apply, w2_v142, w2_v144, w2_v146, w2_v140, a0, a1, a4, a6, ac, hp]
  rfl

end Cert.ReferenceIdeal.RValR

end
-- ==== Proof.RVal.lean ====
/-
  The reference program's result as the specification's reference form: its last operation adds the attract and
  the repel totals.
-/
import proofs.«169223_j2216203125376_1_alg».proof.Proof.RArgs
import proofs.«169223_j2216203125376_1_alg».proof.Proof.RefRun
import proofs.«169223_j2216203125376_1_alg».proof.Proof.RValA
import proofs.«169223_j2216203125376_1_alg».proof.Proof.RValR

set_option maxRecDepth 16384

noncomputable section

namespace Cert.ReferenceIdeal.RVal

open Idealize.ShloMosaic Idealize.ShloMosaic.TcCoe Idealize.SL.Sem Idealize.ShloMosaic.ValueIdx Idealize.ShloMosaic.StableHlo Cert.ReferenceIdeal Cert.ReferenceIdeal.Gen Cert.ReferenceIdeal.RefRun Cert.ReferenceIdeal.RArgs Cert.IouSpec

variable (V : Valuation τ sig (Elt Ideal))

/-- The two totals as the program leaves them. -/
abbrev resA : S_.Idx → EReal := fin V (main_v105 : DevRef τ sig)
abbrev resR : S_.Idx → EReal := fin V (main_v209 : DevRef τ sig)

set_option maxHeartbeats 1000000 in
/-- The program's last operation adds the two totals. -/
theorem v210_eq :
    (fin V (main_v210 : DevRef τ sig) : S_.Idx → EReal) = fun i => resA V i + resR V i := by
  unfold resA resR fin
  generalize after opsW3 (after opsW2 (after opsW1 (after opsW0 V))) = W
  after_results_simp
  rfl

/-- The reference program's result, as the specification's reference form of the arguments. -/
theorem result_val :
    (fin V (main_v210 : DevRef τ sig) : S_.Idx → EReal)
      = fun _ => GR (hf V) (of_ V) (argP V) (argA V) (argR V) (argMA V) (argMR V)
          (countA (argMA V) reducesTo_S64x4096x4_S_d0_1_2) (countR (argMR V) reducesTo_S64x2048x1_S_d0_1_2) := by
  rw [v210_eq]
  funext i
  show resA V i + resR V i = _
  rw [show resA V = _ from RValA.attract_val V, show resR V = _ from RValR.repel_val V]
  rfl

/-- The same with the argument arrays named from outside. -/
theorem result_val' (H : S64x1x256x256.Idx → EReal) (O : S64x2x256x256.Idx → EReal) (P : SP.Idx → EReal) (A : SA.Idx → BitVec 32)
    (R : SR.Idx → BitVec 32) (MA : SA.Idx → BitVec 1) (MR : SMR.Idx → BitVec 1)
    (hH : argH V = H) (hO : argO V = O) (hP : argP V = P) (hA : argA V = A) (hR : argR V = R) (hMA : argMA V = MA) (hMR : argMR V = MR) :
    (fin V (main_v210 : DevRef τ sig) : S_.Idx → EReal)
      = fun _ => GR (shapeCast SHf H shapeCasts_S64x1x256x256_S64x1x65536) (shapeCast SOf O shapeCasts_S64x2x256x256_S64x2x65536) P A R MA MR
          (countA MA reducesTo_S64x4096x4_S_d0_1_2) (countR MR reducesTo_S64x2048x1_S_d0_1_2) := by
  subst hH hO hP hA hR hMA hMR
  exact result_val V

end Cert.ReferenceIdeal.RVal

end
-- ==== Proof.LibIdxSums.lean ====
/-
  Sums over the index set of an array, written coordinate by coordinate.

  An index of a rank-r array is the tuple of its r coordinates, so the index set is the product of the coordinate
  ranges and, over a commutative monoid, a sum over all indices is the r-fold nested sum over the coordinates
  (outermost axis first). Ranks 1, 3, 4 and 5 are here; rank 2 is the library's `ValueIdx.sum_idx2`.
-/
import Idealize.ShloMosaic.Lib.ValueIdx

noncomputable section

open scoped BigOperators

namespace Idealize.ShloMosaic.IdxSums

open Idealize.ShloMosaic Idealize.ShloMosaic.ValueIdx

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A rank-5 index set is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-5 index set is the fivefold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

end Idealize.ShloMosaic.IdxSums

end
-- ==== Proof.Algebra.lean ====
/-
  The algebra behind the two forms of the result.

  Both programs divide by (a mask's count + 1e-4). The count is a sum of at most 2^20 bits, so it is a non-negative
  word and the divisor is a positive real. Dividing by a positive real is multiplying by its (non-negative, finite)
  reciprocal, and such a factor distributes over every finite sum of extended reals, the infinite terms included.
  So the kernel's "sum the masked terms, then divide" and the reference's "divide every term, keep it where the mask
  is set, then sum" are one number; the two orders of summation agree because a finite sum over an array's index set
  is the nested sum over its coordinates in any order.
-/
import proofs.«169223_j2216203125376_1_alg».proof.Proof.Spec
import proofs.«169223_j2216203125376_1_alg».proof.Proof.LibIdxSums
import Idealize.ShloMosaic.PureOps.Ideal.Laws
import Idealize.ShloMosaic.PureOps.Reduce
import Idealize.ShloMosaic.Lib.StableHlo.Predicate
import Mathlib.Data.EReal.Operations
import Mathlib.Data.EReal.Inv
import Mathlib.Algebra.BigOperators.Fin

set_option maxRecDepth 16384

noncomputable section

namespace Cert.IouSpec

open Idealize.ShloMosaic Idealize.ShloMosaic.ValueIdx

/-! ## The counts are non-negative words -/

/-- Adding up the widened bits of a mask of fewer than 2^31 entries from the zero word, over the entries that
    reduce to any one result index, never reaches the sign bit: the total read signed is non-negative. -/
theorem count_toInt_nonneg {s t u : Shape} {axes : List (Fin s.rank)} (hs : s.numel < 2 ^ 31) (M : s.Idx → BitVec 1)
    (hw : 1 < 32) (h : s.ReducesTo axes t) (hu : 0 < u.numel) (j : t.Idx) :
    0 ≤ (Host.reduce IntOp.addi (extui 32 M hw) (constantI u 32 0#32) h hu j).toInt := by
  classical
  rw [Host.reduce_eq_fold]
  have hval : ∀ i, (extui 32 M hw i).toNat ≤ 1 := fun i => by
    rw [show extui 32 M hw i = (M i).setWidth 32 from rfl, StableHlo.Predicate.toNat_setWidth_bit]
    split <;> omega
  have hsum : ∑ i ∈ Finset.univ.filter (fun i : s.Idx => h.drop i = j), (extui 32 M hw i).toNat ≤ s.numel :=
    calc ∑ i ∈ Finset.univ.filter (fun i : s.Idx => h.drop i = j), (extui 32 M hw i).toNat
        ≤ ∑ _i ∈ Finset.univ.filter (fun i : s.Idx => h.drop i = j), 1 := Finset.sum_le_sum fun i _ => hval i
      _ = (Finset.univ.filter (fun i : s.Idx => h.drop i = j)).card := by simp
      _ ≤ Fintype.card s.Idx := Finset.card_le_univ _
      _ = s.numel := Shape.card_idx s
  show 0 ≤ (Finset.fold IntOp.addi 0#32 (extui 32 M hw) (Finset.univ.filter fun i : s.Idx => h.drop i = j)).toInt
  have hn := StableHlo.Predicate.toNat_fold_addi (Finset.univ.filter fun i : s.Idx => h.drop i = j) (extui 32 M hw) (by omega)
  rw [StableHlo.Predicate.toInt_eq_toNat_of_lt (by omega)]
  exact Int.natCast_nonneg _

theorem countA_nonneg (M : SA.Idx → BitVec 1) (h : SA.ReducesTo [0, 1, 2] ⟨0, ![]⟩) : 0 ≤ (countA M h).toInt :=
  count_toInt_nonneg (by decide) M _ h _ _

theorem countR_nonneg (M : SMR.Idx → BitVec 1) (h : SMR.ReducesTo [0, 1, 2] ⟨0, ![]⟩) : 0 ≤ (countR M h).toInt :=
  count_toInt_nonneg (by decide) M _ h _ _

/-! ## The divisor is a positive real -/

/-- The pattern of 1e-4 denotes the positive dyadic rational 13743895 · 2^(-37). -/
theorem eps4_eq : eps4 = (((13743895 : ℝ) * (2 : ℝ) ^ (-37 : ℤ) : ℝ) : EReal) := by
  simp [eps4, Ideal.ofBits, Ideal.ieee, -EReal.coe_mul]

/-- A non-negative count plus 1e-4 is a positive real. -/
theorem denom_pos_real (n : BitVec 32) (hn : 0 ≤ n.toInt) : ∃ d : ℝ, 0 < d ∧ denom n = ((d : ℝ) : EReal) := by
  refine ⟨(n.toInt : ℝ) + 13743895 * (2 : ℝ) ^ (-37 : ℤ), ?_, ?_⟩
  · have h0 : (0 : ℝ) ≤ (n.toInt : ℝ) := by exact_mod_cast hn
    positivity
  · rw [denom, eps4_eq, ← EReal.coe_add]

/-! ## A non-negative real factor distributes over a finite sum of extended reals -/

theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A mask bit as a factor is 0 or 1: selecting the scaled term or zero is scaling the masked term. -/
theorem select_mul_coe (m : BitVec 1) (x : EReal) (r : ℝ) :
    Scalar.select m (x * (r : EReal)) zeroF = (mf m * x) * (r : EReal) := by
  rcases BitVec.eq_zero_or_eq_one m with rfl | rfl
  · rw [select_zero, zeroF, Ideal.ofBits_zero_f32, mf]; simp
  · rw [select_one, mf]; simp

/-- Dividing a finite sum of masked terms by a positive real is summing, term by term, the divided term where the
    mask is set and zero elsewhere. -/
theorem sum_select_div {ι : Type*} [Fintype ι] (m : ι → BitVec 1) (x : ι → EReal) (D : EReal)
    (hD : ∃ d : ℝ, 0 < d ∧ D = ((d : ℝ) : EReal)) :
    Ideal.div (∑ i, mf (m i) * x i) D = ∑ i, Scalar.select (m i) (Ideal.div (x i) D) zeroF := by
  obtain ⟨d, hd, rfl⟩ := hD
  have hne : d ≠ 0 := ne_of_gt hd
  rw [Ideal.div_coe hne, sum_mul_coe _ _ _ (by positivity)]
  refine Finset.sum_congr rfl fun i _ => ?_
  rw [Ideal.div_coe hne, select_mul_coe]

/-! ## The two orders of summation -/

section
variable (Hf : SHf.Idx → EReal) (Of : SOf.Idx → EReal) (P : SP.Idx → EReal) (A : SA.Idx → BitVec 32) (R : SR.Idx → BitVec 32)
  (MA : SA.Idx → BitVec 1) (MR : SMR.Idx → BitVec 1)

/-- The kernel's attract total (batch, corner, box) is the sum of the masked terms over the mask's index set. -/
theorem attractSumK_eq :
    attractSumK Hf Of A MA = ∑ i : SA.Idx, mf (MA i) * attractTerm Hf Of A (i 0) (i 1) (i 2) := by
  rw [IdxSums.sum_idx3]
  unfold attractSumK
  refine Finset.sum_congr rfl fun b _ => ?_
  rw [Finset.sum_comm]

/-- The kernel's repel total (batch, pair) is the sum of the masked terms over the mask's index set, whose last axis
    has one position. -/
theorem repelSumK_eq :
    repelSumK Hf Of P R MR = ∑ i : SMR.Idx, mf (MR i) * repelTerm Hf Of P R (i 0) (i 1) := by
  rw [IdxSums.sum_idx3]
  unfold repelSumK
  refine Finset.sum_congr rfl fun b _ => Finset.sum_congr rfl fun m _ => ?_
  rw [Fin.sum_univ_one]

/-- The kernel's form and the reference's form of the result are one number, the two counts being non-negative. -/
theorem GK_eq_GR (nA nR : BitVec 32) (hA : 0 ≤ nA.toInt) (hR : 0 ≤ nR.toInt) :
    GK Hf Of P A R MA MR nA nR = GR Hf Of P A R MA MR nA nR := by
  unfold GK GR attractSumR repelSumR
  rw [attractSumK_eq, repelSumK_eq,
    sum_select_div MA (fun i => attractTerm Hf Of A (i 0) (i 1) (i 2)) _ (denom_pos_real nA hA),
    sum_select_div MR (fun i => repelTerm Hf Of P R (i 0) (i 1)) _ (denom_pos_real nR hR)]

end

end Cert.IouSpec

end
-- ==== Proof.lean ====
/-
  The certificate of the IoU-loss kernel against its jnp reference, over the extended reals.

  Both programs gather, for every batch, the heights and offsets of box corners out of two feature maps at integer
  index words (wrapped and filled the way `take_along_axis` does), form boxes of aspect 0.41, and add up masked
  intersection-over-union terms: `1 − IoU` of each corner's box against the box of the four corners' means (attract),
  and the IoU of the mean boxes of a pair, the second shifted by an extra offset (repel). The kernel adds the masked
  terms up batch by batch in two launches and divides each total by (the number of set mask bits + 1e-4); the reference
  divides every term first, keeps it where the mask is set, and sums everything. A count is a non-negative integer, so
  the divisor is a positive real, and division by a positive real distributes over any sum of extended reals: the two
  results are one number (Proof/Algebra.lean), stated once in Proof/Spec.lean.

  The kernel's side: the launch theorem over the generated segments with the result buffer named (Proof/KRun.lean), the
  nine host operations after the launches (Proof/KTail.lean), each launch's total as the sum over the 64 grid points of
  the point's masked terms (Proof/KRegion0.lean, Proof/KRegion1.lean), and the arrays the host prepares read entry by
  entry as the gathered corners (Proof/KHostA.lean, Proof/KHostR.lean), assembled in Proof/KVal.lean. The reference's
  side: its 360 host operations as a list and their run (Proof/RefOps.lean, Proof/RefRun.lean), the two totals read
  window by window (Proof/RValA0.lean, Proof/RValA.lean, Proof/RValR.lean, Proof/RScatter.lean), assembled in
  Proof/RVal.lean. The batched gathers read at an index are Proof/LibBatchedTake.lean with Proof/KGather.lean and
  Proof/RGather.lean.
-/
import proofs.«169223_j2216203125376_1_alg».proof.Defs
import proofs.«169223_j2216203125376_1_alg».proof.Proof.Gen.Kernel
import proofs.«169223_j2216203125376_1_alg».proof.Proof.Gen.Kernel.Skeleton
import proofs.«169223_j2216203125376_1_alg».proof.Proof.Gen.Kernel.Launch
import proofs.«169223_j2216203125376_1_alg».proof.Proof.Gen.Kernel.Points
import proofs.«169223_j2216203125376_1_alg».proof.Proof.Gen.Kernel.Frame
import proofs.«169223_j2216203125376_1_alg».proof.Proof.Gen.KernelIdeal
import proofs.«169223_j2216203125376_1_alg».proof.Proof.Gen.KernelIdeal.Skeleton
import proofs.«169223_j2216203125376_1_alg».proof.Proof.Gen.KernelIdeal.Launch
import proofs.«169223_j2216203125376_1_alg».proof.Proof.Gen.KernelIdeal.Points
import proofs.«169223_j2216203125376_1_alg».proof.Proof.Gen.KernelIdeal.Frame
import proofs.«169223_j2216203125376_1_alg».proof.Proof.Gen.ReferenceIdeal
import proofs.«169223_j2216203125376_1_alg».proof.Proof.Gen.Pre_finite_inputs
import proofs.«169223_j2216203125376_1_alg».proof.Proof.KRun
import proofs.«169223_j2216203125376_1_alg».proof.Proof.KVal
import proofs.«169223_j2216203125376_1_alg».proof.Proof.RefRun
import proofs.«169223_j2216203125376_1_alg».proof.Proof.RVal
import proofs.«169223_j2216203125376_1_alg».proof.Proof.Algebra
import proofs.«169223_j2216203125376_1_alg».proof.Proof.Spec
import Idealize.ShloMosaic.Adequacy
import Idealize.ShloMosaic.Init

noncomputable section

namespace Cert.Proof

open Idealize.ShloMosaic Idealize.SL.Sem Idealize.ShloMosaic.TcCoe Cert.IouSpec

/-- The two kernel programs' frames are the launch theorem over the generated segments. -/
theorem frame_k : Cert.frame_Kernel := fun m ρ _ => Cert.Kernel.Gen.frame m ρ
theorem frame_ki : Cert.frame_KernelIdeal := fun m ρ _ => Cert.KernelIdeal.Gen.frame m ρ

/-- The reference is a straight line of host operations none of which writes an argument. -/
theorem frame_ri : Cert.frame_ReferenceIdeal := fun m ρ _ =>
  (θ_run Cert.ReferenceIdeal.defs _ _).mono (fun r h c =>
      ⟨(h c Cert.ReferenceIdeal.main_arg0).trans (Cert.ReferenceIdeal.RefRun.arg0_eq _),
       (h c Cert.ReferenceIdeal.main_arg1).trans (Cert.ReferenceIdeal.RefRun.arg1_eq _),
       (h c Cert.ReferenceIdeal.main_arg2).trans (Cert.ReferenceIdeal.RefRun.arg2_eq _),
       (h c Cert.ReferenceIdeal.main_arg3).trans (Cert.ReferenceIdeal.RefRun.arg3_eq _),
       (h c Cert.ReferenceIdeal.main_arg4).trans (Cert.ReferenceIdeal.RefRun.arg4_eq _),
       (h c Cert.ReferenceIdeal.main_arg5).trans (Cert.ReferenceIdeal.RefRun.arg5_eq _),
       (h c Cert.ReferenceIdeal.main_arg6).trans (Cert.ReferenceIdeal.RefRun.arg6_eq _),
       (h c Cert.ReferenceIdeal.main_arg7).trans (Cert.ReferenceIdeal.RefRun.arg7_eq _),
       (h c Cert.ReferenceIdeal.main_arg8).trans (Cert.ReferenceIdeal.RefRun.arg8_eq _)⟩)
    (Cert.ReferenceIdeal.RefRun.run (F := Ideal) m ρ)

/-- The ideal pass rewrote nothing. -/
theorem preserves : Cert.preserves_Kernel_KernelIdeal := trivial

/-- Both programs end with the one number the specification names: the kernel in the form "each total over its
    count", the reference in the form "every term over its count, then summed"; the counts are non-negative, so the
    divisor is a positive real and the two forms agree on every extended real. -/
theorem algebraic : Cert.algebraic_KernelIdeal_ReferenceIdeal := by
  intro m ρ m' ρ' _ hagree
  refine ⟨fun c => (fun _ => GK (Cert.KernelIdeal.KHostA.hf m c) (Cert.KernelIdeal.KHostA.of_ m c) (Cert.KernelIdeal.KHostA.argP m c)
      (Cert.KernelIdeal.KHostA.argA m c) (Cert.KernelIdeal.KHostA.argR m c) (Cert.KernelIdeal.KHostA.argMA m c) (Cert.KernelIdeal.KHostA.argMR m c)
      (countA (Cert.KernelIdeal.KHostA.argMA m c) Cert.KernelIdeal.Facts₀.reducesTo_S64x4096x4_S_d0_1_2)
      (countR (Cert.KernelIdeal.KHostA.argMR m c) Cert.KernelIdeal.Facts₀.reducesTo_S64x2048x1_S_d0_1_2)), ?_, ?_⟩
  · exact (θ_run Cert.KernelIdeal.defs _ _).mono
      (fun r h c => ⟨(h c).1.trans (Cert.KernelIdeal.KVal.kernel_val m ρ c), (h c).2⟩)
      (Cert.KernelIdeal.GenP.run_result (F := Ideal) m ρ)
  · refine (θ_run Cert.ReferenceIdeal.defs _ _).mono (fun r h c =>
      ⟨?_,
       (h c Cert.ReferenceIdeal.main_arg0).trans (Cert.ReferenceIdeal.RefRun.arg0_eq _),
       (h c Cert.ReferenceIdeal.main_arg1).trans (Cert.ReferenceIdeal.RefRun.arg1_eq _),
       (h c Cert.ReferenceIdeal.main_arg2).trans (Cert.ReferenceIdeal.RefRun.arg2_eq _),
       (h c Cert.ReferenceIdeal.main_arg3).trans (Cert.ReferenceIdeal.RefRun.arg3_eq _),
       (h c Cert.ReferenceIdeal.main_arg4).trans (Cert.ReferenceIdeal.RefRun.arg4_eq _),
       (h c Cert.ReferenceIdeal.main_arg5).trans (Cert.ReferenceIdeal.RefRun.arg5_eq _),
       (h c Cert.ReferenceIdeal.main_arg6).trans (Cert.ReferenceIdeal.RefRun.arg6_eq _),
       (h c Cert.ReferenceIdeal.main_arg7).trans (Cert.ReferenceIdeal.RefRun.arg7_eq _),
       (h c Cert.ReferenceIdeal.main_arg8).trans (Cert.ReferenceIdeal.RefRun.arg8_eq _)⟩)
      (Cert.ReferenceIdeal.RefRun.run (F := Ideal) m' ρ')
    refine (h c Cert.ReferenceIdeal.main_v210).trans ?_
    rw [Cert.ReferenceIdeal.RefRun.after_ops]
    refine (Cert.ReferenceIdeal.RVal.result_val' (StableHlo.launchContents m' c) _ _ _ _ _ _ _
      (hagree c).1 (hagree c).2.1 (hagree c).2.2.2.2.1 (hagree c).2.2.2.2.2.1 (hagree c).2.2.2.2.2.2.1
      (hagree c).2.2.2.2.2.2.2.1 (hagree c).2.2.2.2.2.2.2.2).trans ?_
    exact funext fun _ => (GK_eq_GR _ _ _ _ _ _ _ _ _ (countA_nonneg _ _) (countR_nonneg _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
